-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20)) (m ((c.tc : Thread Cert.Kernel.nD Cert.Kernel.τ).loc Cert.Kernel.main_arg21)) (m ((c.tc : Thread Cert.Kernel.nD Cert.Kernel.τ).loc Cert.Kernel.main_arg22)) (m ((c.tc : Thread Cert.Kernel.nD Cert.Kernel.τ).loc Cert.Kernel.main_arg23)) (m ((c.tc : Thread Cert.Kernel.nD Cert.Kernel.τ).loc Cert.Kernel.main_arg24)) (m ((c.tc : Thread Cert.Kernel.nD Cert.Kernel.τ).loc Cert.Kernel.main_arg25)) (m ((c.tc : Thread Cert.Kernel.nD Cert.Kernel.τ).loc Cert.Kernel.main_arg26)) (m ((c.tc : Thread Cert.Kernel.nD Cert.Kernel.τ).loc Cert.Kernel.main_arg27)) (m ((c.tc : Thread Cert.Kernel.nD Cert.Kernel.τ).loc Cert.Kernel.main_arg28))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24)) (m ((c.tc : Thread Cert.KernelIdeal.nD Cert.KernelIdeal.τ).loc Cert.KernelIdeal.main_arg25)) (m ((c.tc : Thread Cert.KernelIdeal.nD Cert.KernelIdeal.τ).loc Cert.KernelIdeal.main_arg26)) (m ((c.tc : Thread Cert.KernelIdeal.nD Cert.KernelIdeal.τ).loc Cert.KernelIdeal.main_arg27)) (m ((c.tc : Thread Cert.KernelIdeal.nD Cert.KernelIdeal.τ).loc Cert.KernelIdeal.main_arg28))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23)) (m ((c.tc : Thread Cert.ReferenceIdeal.nD Cert.ReferenceIdeal.τ).loc Cert.ReferenceIdeal.main_arg24)) (m ((c.tc : Thread Cert.ReferenceIdeal.nD Cert.ReferenceIdeal.τ).loc Cert.ReferenceIdeal.main_arg25)) (m ((c.tc : Thread Cert.ReferenceIdeal.nD Cert.ReferenceIdeal.τ).loc Cert.ReferenceIdeal.main_arg26)) (m ((c.tc : Thread Cert.ReferenceIdeal.nD Cert.ReferenceIdeal.τ).loc Cert.ReferenceIdeal.main_arg27)) (m ((c.tc : Thread Cert.ReferenceIdeal.nD Cert.ReferenceIdeal.τ).loc Cert.ReferenceIdeal.main_arg28))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21)
      ∧ r.2.mem ((c.tc : Thread Cert.Kernel.nD Cert.Kernel.τ).loc Cert.Kernel.main_arg22) = m ((c.tc : Thread Cert.Kernel.nD Cert.Kernel.τ).loc Cert.Kernel.main_arg22)
      ∧ r.2.mem ((c.tc : Thread Cert.Kernel.nD Cert.Kernel.τ).loc Cert.Kernel.main_arg23) = m ((c.tc : Thread Cert.Kernel.nD Cert.Kernel.τ).loc Cert.Kernel.main_arg23)
      ∧ r.2.mem ((c.tc : Thread Cert.Kernel.nD Cert.Kernel.τ).loc Cert.Kernel.main_arg24) = m ((c.tc : Thread Cert.Kernel.nD Cert.Kernel.τ).loc Cert.Kernel.main_arg24)
      ∧ r.2.mem ((c.tc : Thread Cert.Kernel.nD Cert.Kernel.τ).loc Cert.Kernel.main_arg25) = m ((c.tc : Thread Cert.Kernel.nD Cert.Kernel.τ).loc Cert.Kernel.main_arg25)
      ∧ r.2.mem ((c.tc : Thread Cert.Kernel.nD Cert.Kernel.τ).loc Cert.Kernel.main_arg26) = m ((c.tc : Thread Cert.Kernel.nD Cert.Kernel.τ).loc Cert.Kernel.main_arg26)
      ∧ r.2.mem ((c.tc : Thread Cert.Kernel.nD Cert.Kernel.τ).loc Cert.Kernel.main_arg27) = m ((c.tc : Thread Cert.Kernel.nD Cert.Kernel.τ).loc Cert.Kernel.main_arg27)
      ∧ r.2.mem ((c.tc : Thread Cert.Kernel.nD Cert.Kernel.τ).loc Cert.Kernel.main_arg28) = m ((c.tc : Thread Cert.Kernel.nD Cert.Kernel.τ).loc Cert.Kernel.main_arg28))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
      ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
      ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
      ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25)
      ∧ r.2.mem ((c.tc : Thread Cert.KernelIdeal.nD Cert.KernelIdeal.τ).loc Cert.KernelIdeal.main_arg26) = m ((c.tc : Thread Cert.KernelIdeal.nD Cert.KernelIdeal.τ).loc Cert.KernelIdeal.main_arg26)
      ∧ r.2.mem ((c.tc : Thread Cert.KernelIdeal.nD Cert.KernelIdeal.τ).loc Cert.KernelIdeal.main_arg27) = m ((c.tc : Thread Cert.KernelIdeal.nD Cert.KernelIdeal.τ).loc Cert.KernelIdeal.main_arg27)
      ∧ r.2.mem ((c.tc : Thread Cert.KernelIdeal.nD Cert.KernelIdeal.τ).loc Cert.KernelIdeal.main_arg28) = m ((c.tc : Thread Cert.KernelIdeal.nD Cert.KernelIdeal.τ).loc Cert.KernelIdeal.main_arg28))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22)
      ∧ r.2.mem ((c.tc : Thread Cert.ReferenceIdeal.nD Cert.ReferenceIdeal.τ).loc Cert.ReferenceIdeal.main_arg23) = m ((c.tc : Thread Cert.ReferenceIdeal.nD Cert.ReferenceIdeal.τ).loc Cert.ReferenceIdeal.main_arg23)
      ∧ r.2.mem ((c.tc : Thread Cert.ReferenceIdeal.nD Cert.ReferenceIdeal.τ).loc Cert.ReferenceIdeal.main_arg24) = m ((c.tc : Thread Cert.ReferenceIdeal.nD Cert.ReferenceIdeal.τ).loc Cert.ReferenceIdeal.main_arg24)
      ∧ r.2.mem ((c.tc : Thread Cert.ReferenceIdeal.nD Cert.ReferenceIdeal.τ).loc Cert.ReferenceIdeal.main_arg25) = m ((c.tc : Thread Cert.ReferenceIdeal.nD Cert.ReferenceIdeal.τ).loc Cert.ReferenceIdeal.main_arg25)
      ∧ r.2.mem ((c.tc : Thread Cert.ReferenceIdeal.nD Cert.ReferenceIdeal.τ).loc Cert.ReferenceIdeal.main_arg26) = m ((c.tc : Thread Cert.ReferenceIdeal.nD Cert.ReferenceIdeal.τ).loc Cert.ReferenceIdeal.main_arg26)
      ∧ r.2.mem ((c.tc : Thread Cert.ReferenceIdeal.nD Cert.ReferenceIdeal.τ).loc Cert.ReferenceIdeal.main_arg27) = m ((c.tc : Thread Cert.ReferenceIdeal.nD Cert.ReferenceIdeal.τ).loc Cert.ReferenceIdeal.main_arg27)
      ∧ r.2.mem ((c.tc : Thread Cert.ReferenceIdeal.nD Cert.ReferenceIdeal.τ).loc Cert.ReferenceIdeal.main_arg28) = m ((c.tc : Thread Cert.ReferenceIdeal.nD Cert.ReferenceIdeal.τ).loc Cert.ReferenceIdeal.main_arg28))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
      ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)
      ∧ m' ((c.tc : Thread Cert.ReferenceIdeal.nD Cert.ReferenceIdeal.τ).loc Cert.ReferenceIdeal.main_arg23) = m ((c.tc : Thread Cert.KernelIdeal.nD Cert.KernelIdeal.τ).loc Cert.KernelIdeal.main_arg23)
      ∧ m' ((c.tc : Thread Cert.ReferenceIdeal.nD Cert.ReferenceIdeal.τ).loc Cert.ReferenceIdeal.main_arg24) = m ((c.tc : Thread Cert.KernelIdeal.nD Cert.KernelIdeal.τ).loc Cert.KernelIdeal.main_arg24)
      ∧ m' ((c.tc : Thread Cert.ReferenceIdeal.nD Cert.ReferenceIdeal.τ).loc Cert.ReferenceIdeal.main_arg25) = m ((c.tc : Thread Cert.KernelIdeal.nD Cert.KernelIdeal.τ).loc Cert.KernelIdeal.main_arg25)
      ∧ m' ((c.tc : Thread Cert.ReferenceIdeal.nD Cert.ReferenceIdeal.τ).loc Cert.ReferenceIdeal.main_arg26) = m ((c.tc : Thread Cert.KernelIdeal.nD Cert.KernelIdeal.τ).loc Cert.KernelIdeal.main_arg26)
      ∧ m' ((c.tc : Thread Cert.ReferenceIdeal.nD Cert.ReferenceIdeal.τ).loc Cert.ReferenceIdeal.main_arg27) = m ((c.tc : Thread Cert.KernelIdeal.nD Cert.KernelIdeal.τ).loc Cert.KernelIdeal.main_arg27)
      ∧ m' ((c.tc : Thread Cert.ReferenceIdeal.nD Cert.ReferenceIdeal.τ).loc Cert.ReferenceIdeal.main_arg28) = m ((c.tc : Thread Cert.KernelIdeal.nD Cert.KernelIdeal.τ).loc Cert.KernelIdeal.main_arg28)) →
    ∃ (v0 : (c : Dev Cert.KernelIdeal.nD) → Buf (Elt Ideal) ((c.tc : Thread Cert.KernelIdeal.nD Cert.KernelIdeal.τ).loc Cert.KernelIdeal.main_v80)) (v1 : (c : Dev Cert.KernelIdeal.nD) → Buf (Elt Ideal) ((c.tc : Thread Cert.KernelIdeal.nD Cert.KernelIdeal.τ).loc Cert.KernelIdeal.main_v49)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v80) = v0 c
          ∧ r.2.mem ((c.tc : Thread Cert.KernelIdeal.nD Cert.KernelIdeal.τ).loc Cert.KernelIdeal.main_v49) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
          ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
          ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
          ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
          ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25)
          ∧ r.2.mem ((c.tc : Thread Cert.KernelIdeal.nD Cert.KernelIdeal.τ).loc Cert.KernelIdeal.main_arg26) = m ((c.tc : Thread Cert.KernelIdeal.nD Cert.KernelIdeal.τ).loc Cert.KernelIdeal.main_arg26)
          ∧ r.2.mem ((c.tc : Thread Cert.KernelIdeal.nD Cert.KernelIdeal.τ).loc Cert.KernelIdeal.main_arg27) = m ((c.tc : Thread Cert.KernelIdeal.nD Cert.KernelIdeal.τ).loc Cert.KernelIdeal.main_arg27)
          ∧ r.2.mem ((c.tc : Thread Cert.KernelIdeal.nD Cert.KernelIdeal.τ).loc Cert.KernelIdeal.main_arg28) = m ((c.tc : Thread Cert.KernelIdeal.nD Cert.KernelIdeal.τ).loc Cert.KernelIdeal.main_arg28))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v207) = v0 c
          ∧ r.2.mem ((c.tc : Thread Cert.ReferenceIdeal.nD Cert.ReferenceIdeal.τ).loc Cert.ReferenceIdeal.main_v54) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21)
          ∧ r.2.mem ((c.tc : Thread Cert.ReferenceIdeal.nD Cert.ReferenceIdeal.τ).loc Cert.ReferenceIdeal.main_arg22) = m' ((c.tc : Thread Cert.ReferenceIdeal.nD Cert.ReferenceIdeal.τ).loc Cert.ReferenceIdeal.main_arg22)
          ∧ r.2.mem ((c.tc : Thread Cert.ReferenceIdeal.nD Cert.ReferenceIdeal.τ).loc Cert.ReferenceIdeal.main_arg23) = m' ((c.tc : Thread Cert.ReferenceIdeal.nD Cert.ReferenceIdeal.τ).loc Cert.ReferenceIdeal.main_arg23)
          ∧ r.2.mem ((c.tc : Thread Cert.ReferenceIdeal.nD Cert.ReferenceIdeal.τ).loc Cert.ReferenceIdeal.main_arg24) = m' ((c.tc : Thread Cert.ReferenceIdeal.nD Cert.ReferenceIdeal.τ).loc Cert.ReferenceIdeal.main_arg24)
          ∧ r.2.mem ((c.tc : Thread Cert.ReferenceIdeal.nD Cert.ReferenceIdeal.τ).loc Cert.ReferenceIdeal.main_arg25) = m' ((c.tc : Thread Cert.ReferenceIdeal.nD Cert.ReferenceIdeal.τ).loc Cert.ReferenceIdeal.main_arg25)
          ∧ r.2.mem ((c.tc : Thread Cert.ReferenceIdeal.nD Cert.ReferenceIdeal.τ).loc Cert.ReferenceIdeal.main_arg26) = m' ((c.tc : Thread Cert.ReferenceIdeal.nD Cert.ReferenceIdeal.τ).loc Cert.ReferenceIdeal.main_arg26)
          ∧ r.2.mem ((c.tc : Thread Cert.ReferenceIdeal.nD Cert.ReferenceIdeal.τ).loc Cert.ReferenceIdeal.main_arg27) = m' ((c.tc : Thread Cert.ReferenceIdeal.nD Cert.ReferenceIdeal.τ).loc Cert.ReferenceIdeal.main_arg27)
          ∧ r.2.mem ((c.tc : Thread Cert.ReferenceIdeal.nD Cert.ReferenceIdeal.τ).loc Cert.ReferenceIdeal.main_arg28) = m' ((c.tc : Thread Cert.ReferenceIdeal.nD Cert.ReferenceIdeal.τ).loc Cert.ReferenceIdeal.main_arg28))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S256x512 : Shape := ⟨2, ![256, 512]⟩
abbrev S700x512 : Shape := ⟨2, ![700, 512]⟩
abbrev S2x50000 : Shape := ⟨2, ![2, 50000]⟩
abbrev S512x2048 : Shape := ⟨2, ![512, 2048]⟩
abbrev S2048 : Shape := ⟨1, ![2048]⟩
abbrev S2048x512 : Shape := ⟨2, ![2048, 512]⟩
abbrev S512 : Shape := ⟨1, ![512]⟩
abbrev S512x800 : Shape := ⟨2, ![512, 800]⟩
abbrev S800 : Shape := ⟨1, ![800]⟩
abbrev S800x1000 : Shape := ⟨2, ![800, 1000]⟩
abbrev S1000 : Shape := ⟨1, ![1000]⟩
abbrev S1000x800 : Shape := ⟨2, ![1000, 800]⟩
abbrev S1024x1000 : Shape := ⟨2, ![1024, 1000]⟩
abbrev S_ : Shape := ⟨0, ![]⟩

class Facts : Prop where
  bcast_S_S256x512 : S_.BroadcastsInDim S256x512 (![] : Fin 0 → Fin S256x512.rank)
  reducesTo_S256x512_S_d0_1 : S256x512.ReducesTo [0, 1] S_
  h_S_ : 0 < S_.numel
  bcast_S_S700x512 : S_.BroadcastsInDim S700x512 (![] : Fin 0 → Fin S700x512.rank)
  reducesTo_S700x512_S_d0_1 : S700x512.ReducesTo [0, 1] S_
  bcast_S_S512x2048 : S_.BroadcastsInDim S512x2048 (![] : Fin 0 → Fin S512x2048.rank)
  reducesTo_S512x2048_S_d0_1 : S512x2048.ReducesTo [0, 1] S_
  bcast_S_S2048 : S_.BroadcastsInDim S2048 (![] : Fin 0 → Fin S2048.rank)
  reducesTo_S2048_S_d0 : S2048.ReducesTo [0] S_
  bcast_S_S2048x512 : S_.BroadcastsInDim S2048x512 (![] : Fin 0 → Fin S2048x512.rank)
  reducesTo_S2048x512_S_d0_1 : S2048x512.ReducesTo [0, 1] S_
  bcast_S_S512 : S_.BroadcastsInDim S512 (![] : Fin 0 → Fin S512.rank)
  reducesTo_S512_S_d0 : S512.ReducesTo [0] S_
  bcast_S_S512x800 : S_.BroadcastsInDim S512x800 (![] : Fin 0 → Fin S512x800.rank)
  reducesTo_S512x800_S_d0_1 : S512x800.ReducesTo [0, 1] S_
  bcast_S_S800 : S_.BroadcastsInDim S800 (![] : Fin 0 → Fin S800.rank)
  reducesTo_S800_S_d0 : S800.ReducesTo [0] S_
  bcast_S_S800x1000 : S_.BroadcastsInDim S800x1000 (![] : Fin 0 → Fin S800x1000.rank)
  reducesTo_S800x1000_S_d0_1 : S800x1000.ReducesTo [0, 1] S_
  bcast_S_S1000 : S_.BroadcastsInDim S1000 (![] : Fin 0 → Fin S1000.rank)
  reducesTo_S1000_S_d0 : S1000.ReducesTo [0] S_
  bcast_S_S1000x800 : S_.BroadcastsInDim S1000x800 (![] : Fin 0 → Fin S1000x800.rank)
  reducesTo_S1000x800_S_d0_1 : S1000x800.ReducesTo [0, 1] S_
  bcast_S_S1024x1000 : S_.BroadcastsInDim S1024x1000 (![] : Fin 0 → Fin S1024x1000.rank)
  reducesTo_S1024x1000_S_d0_1 : S1024x1000.ReducesTo [0, 1] S_

variable [Facts]

def fn_part8 {F : FTy → Type} [FloatOps F] (main_v133 : IVec S_ 1) (main_v136 : IVec S800 1) : IVec S_ 1 :=
  let main_c_53 : IVec S_ 1 := constantI S_ 1 1#1
  let main_v137 : IVec S_ 1 := (fun x v => Host.reduce IntOp.andi x v reducesTo_S800_S_d0 h_S_) main_v136 main_c_53
  let main_v138 : IVec S_ 1 := andi main_v133 main_v137
  main_v138

def fn_part7 {F : FTy → Type} [FloatOps F] (main_arg26 : FVec F S800 .f32) (main_arg27 : FVec F S800 .f32) (main_arg28 : FVec F S800 .f32) (main_v118 : IVec S_ 1) (main_v119 : FVec F S1000x800 .f32) : IVec S_ 1 :=
  let main_cst_46 : FVec F S_ .f32 := constant S_ .f32 0x7F800000#32
  let main_v120 : FVec F S1000x800 .f32 := broadcastInDim S1000x800 ![] bcast_S_S1000x800 main_cst_46
  let main_v121 : IVec S1000x800 1 := cmpf .olt main_v119 main_v120
  let main_c_47 : IVec S_ 1 := constantI S_ 1 1#1
  let main_v122 : IVec S_ 1 := (fun x v => Host.reduce IntOp.andi x v reducesTo_S1000x800_S_d0_1 h_S_) main_v121 main_c_47
  let main_v123 : IVec S_ 1 := andi main_v118 main_v122
  let main_v124 : FVec F S800 .f32 := Host.absf main_arg26
  let main_cst_48 : FVec F S_ .f32 := constant S_ .f32 0x7F800000#32
  let main_v125 : FVec F S800 .f32 := broadcastInDim S800 ![] bcast_S_S800 main_cst_48
  let main_v126 : IVec S800 1 := cmpf .olt main_v124 main_v125
  let main_c_49 : IVec S_ 1 := constantI S_ 1 1#1
  let main_v127 : IVec S_ 1 := (fun x v => Host.reduce IntOp.andi x v reducesTo_S800_S_d0 h_S_) main_v126 main_c_49
  let main_v128 : IVec S_ 1 := andi main_v123 main_v127
  let main_v129 : FVec F S800 .f32 := Host.absf main_arg27
  let main_cst_50 : FVec F S_ .f32 := constant S_ .f32 0x7F800000#32
  let main_v130 : FVec F S800 .f32 := broadcastInDim S800 ![] bcast_S_S800 main_cst_50
  let main_v131 : IVec S800 1 := cmpf .olt main_v129 main_v130
  let main_c_51 : IVec S_ 1 := constantI S_ 1 1#1
  let main_v132 : IVec S_ 1 := (fun x v => Host.reduce IntOp.andi x v reducesTo_S800_S_d0 h_S_) main_v131 main_c_51
  let main_v133 : IVec S_ 1 := andi main_v128 main_v132
  let main_v134 : FVec F S800 .f32 := Host.absf main_arg28
  let main_cst_52 : FVec F S_ .f32 := constant S_ .f32 0x7F800000#32
  let main_v135 : FVec F S800 .f32 := broadcastInDim S800 ![] bcast_S_S800 main_cst_52
  let main_v136 : IVec S800 1 := cmpf .olt main_v134 main_v135
  fn_part8 (F := F) main_v133 main_v136

def fn_part6 {F : FTy → Type} [FloatOps F] (main_arg22 : FVec F S1000 .f32) (main_arg23 : FVec F S1000 .f32) (main_arg24 : FVec F S1000 .f32) (main_arg25 : FVec F S1000x800 .f32) (main_arg26 : FVec F S800 .f32) (main_arg27 : FVec F S800 .f32) (main_arg28 : FVec F S800 .f32) (main_v98 : IVec S_ 1) (main_v101 : IVec S1024x1000 1) (main_c_39 : IVec S_ 1) : IVec S_ 1 :=
  let main_v102 : IVec S_ 1 := (fun x v => Host.reduce IntOp.andi x v reducesTo_S1024x1000_S_d0_1 h_S_) main_v101 main_c_39
  let main_v103 : IVec S_ 1 := andi main_v98 main_v102
  let main_v104 : FVec F S1000 .f32 := Host.absf main_arg22
  let main_cst_40 : FVec F S_ .f32 := constant S_ .f32 0x7F800000#32
  let main_v105 : FVec F S1000 .f32 := broadcastInDim S1000 ![] bcast_S_S1000 main_cst_40
  let main_v106 : IVec S1000 1 := cmpf .olt main_v104 main_v105
  let main_c_41 : IVec S_ 1 := constantI S_ 1 1#1
  let main_v107 : IVec S_ 1 := (fun x v => Host.reduce IntOp.andi x v reducesTo_S1000_S_d0 h_S_) main_v106 main_c_41
  let main_v108 : IVec S_ 1 := andi main_v103 main_v107
  let main_v109 : FVec F S1000 .f32 := Host.absf main_arg23
  let main_cst_42 : FVec F S_ .f32 := constant S_ .f32 0x7F800000#32
  let main_v110 : FVec F S1000 .f32 := broadcastInDim S1000 ![] bcast_S_S1000 main_cst_42
  let main_v111 : IVec S1000 1 := cmpf .olt main_v109 main_v110
  let main_c_43 : IVec S_ 1 := constantI S_ 1 1#1
  let main_v112 : IVec S_ 1 := (fun x v => Host.reduce IntOp.andi x v reducesTo_S1000_S_d0 h_S_) main_v111 main_c_43
  let main_v113 : IVec S_ 1 := andi main_v108 main_v112
  let main_v114 : FVec F S1000 .f32 := Host.absf main_arg24
  let main_cst_44 : FVec F S_ .f32 := constant S_ .f32 0x7F800000#32
  let main_v115 : FVec F S1000 .f32 := broadcastInDim S1000 ![] bcast_S_S1000 main_cst_44
  let main_v116 : IVec S1000 1 := cmpf .olt main_v114 main_v115
  let main_c_45 : IVec S_ 1 := constantI S_ 1 1#1
  let main_v117 : IVec S_ 1 := (fun x v => Host.reduce IntOp.andi x v reducesTo_S1000_S_d0 h_S_) main_v116 main_c_45
  let main_v118 : IVec S_ 1 := andi main_v113 main_v117
  let main_v119 : FVec F S1000x800 .f32 := Host.absf main_arg25
  fn_part7 (F := F) main_arg26 main_arg27 main_arg28 main_v118 main_v119

def fn_part5 {F : FTy → Type} [FloatOps F] (main_arg19 : FVec F S800 .f32) (main_arg20 : FVec F S800 .f32) (main_arg21 : FVec F S1024x1000 .f32) (main_arg22 : FVec F S1000 .f32) (main_arg23 : FVec F S1000 .f32) (main_arg24 : FVec F S1000 .f32) (main_arg25 : FVec F S1000x800 .f32) (main_arg26 : FVec F S800 .f32) (main_arg27 : FVec F S800 .f32) (main_arg28 : FVec F S800 .f32) (main_v83 : IVec S_ 1) (main_v84 : FVec F S800 .f32) (main_cst_32 : FVec F S_ .f32) : IVec S_ 1 :=
  let main_v85 : FVec F S800 .f32 := broadcastInDim S800 ![] bcast_S_S800 main_cst_32
  let main_v86 : IVec S800 1 := cmpf .olt main_v84 main_v85
  let main_c_33 : IVec S_ 1 := constantI S_ 1 1#1
  let main_v87 : IVec S_ 1 := (fun x v => Host.reduce IntOp.andi x v reducesTo_S800_S_d0 h_S_) main_v86 main_c_33
  let main_v88 : IVec S_ 1 := andi main_v83 main_v87
  let main_v89 : FVec F S800 .f32 := Host.absf main_arg19
  let main_cst_34 : FVec F S_ .f32 := constant S_ .f32 0x7F800000#32
  let main_v90 : FVec F S800 .f32 := broadcastInDim S800 ![] bcast_S_S800 main_cst_34
  let main_v91 : IVec S800 1 := cmpf .olt main_v89 main_v90
  let main_c_35 : IVec S_ 1 := constantI S_ 1 1#1
  let main_v92 : IVec S_ 1 := (fun x v => Host.reduce IntOp.andi x v reducesTo_S800_S_d0 h_S_) main_v91 main_c_35
  let main_v93 : IVec S_ 1 := andi main_v88 main_v92
  let main_v94 : FVec F S800 .f32 := Host.absf main_arg20
  let main_cst_36 : FVec F S_ .f32 := constant S_ .f32 0x7F800000#32
  let main_v95 : FVec F S800 .f32 := broadcastInDim S800 ![] bcast_S_S800 main_cst_36
  let main_v96 : IVec S800 1 := cmpf .olt main_v94 main_v95
  let main_c_37 : IVec S_ 1 := constantI S_ 1 1#1
  let main_v97 : IVec S_ 1 := (fun x v => Host.reduce IntOp.andi x v reducesTo_S800_S_d0 h_S_) main_v96 main_c_37
  let main_v98 : IVec S_ 1 := andi main_v93 main_v97
  let main_v99 : FVec F S1024x1000 .f32 := Host.absf main_arg21
  let main_cst_38 : FVec F S_ .f32 := constant S_ .f32 0x7F800000#32
  let main_v100 : FVec F S1024x1000 .f32 := broadcastInDim S1024x1000 ![] bcast_S_S1024x1000 main_cst_38
  let main_v101 : IVec S1024x1000 1 := cmpf .olt main_v99 main_v100
  let main_c_39 : IVec S_ 1 := constantI S_ 1 1#1
  fn_part6 (F := F) main_arg22 main_arg23 main_arg24 main_arg25 main_arg26 main_arg27 main_arg28 main_v98 main_v101 main_c_39

def fn_part4 {F : FTy → Type} [FloatOps F] (main_arg15 : FVec F S1000 .f32) (main_arg16 : FVec F S1000 .f32) (main_arg17 : FVec F S1000x800 .f32) (main_arg18 : FVec F S800 .f32) (main_arg19 : FVec F S800 .f32) (main_arg20 : FVec F S800 .f32) (main_arg21 : FVec F S1024x1000 .f32) (main_arg22 : FVec F S1000 .f32) (main_arg23 : FVec F S1000 .f32) (main_arg24 : FVec F S1000 .f32) (main_arg25 : FVec F S1000x800 .f32) (main_arg26 : FVec F S800 .f32) (main_arg27 : FVec F S800 .f32) (main_arg28 : FVec F S800 .f32) (main_v63 : IVec S_ 1) (main_v67 : IVec S_ 1) : IVec S_ 1 :=
  let main_v68 : IVec S_ 1 := andi main_v63 main_v67
  let main_v69 : FVec F S1000 .f32 := Host.absf main_arg15
  let main_cst_26 : FVec F S_ .f32 := constant S_ .f32 0x7F800000#32
  let main_v70 : FVec F S1000 .f32 := broadcastInDim S1000 ![] bcast_S_S1000 main_cst_26
  let main_v71 : IVec S1000 1 := cmpf .olt main_v69 main_v70
  let main_c_27 : IVec S_ 1 := constantI S_ 1 1#1
  let main_v72 : IVec S_ 1 := (fun x v => Host.reduce IntOp.andi x v reducesTo_S1000_S_d0 h_S_) main_v71 main_c_27
  let main_v73 : IVec S_ 1 := andi main_v68 main_v72
  let main_v74 : FVec F S1000 .f32 := Host.absf main_arg16
  let main_cst_28 : FVec F S_ .f32 := constant S_ .f32 0x7F800000#32
  let main_v75 : FVec F S1000 .f32 := broadcastInDim S1000 ![] bcast_S_S1000 main_cst_28
  let main_v76 : IVec S1000 1 := cmpf .olt main_v74 main_v75
  let main_c_29 : IVec S_ 1 := constantI S_ 1 1#1
  let main_v77 : IVec S_ 1 := (fun x v => Host.reduce IntOp.andi x v reducesTo_S1000_S_d0 h_S_) main_v76 main_c_29
  let main_v78 : IVec S_ 1 := andi main_v73 main_v77
  let main_v79 : FVec F S1000x800 .f32 := Host.absf main_arg17
  let main_cst_30 : FVec F S_ .f32 := constant S_ .f32 0x7F800000#32
  let main_v80 : FVec F S1000x800 .f32 := broadcastInDim S1000x800 ![] bcast_S_S1000x800 main_cst_30
  let main_v81 : IVec S1000x800 1 := cmpf .olt main_v79 main_v80
  let main_c_31 : IVec S_ 1 := constantI S_ 1 1#1
  let main_v82 : IVec S_ 1 := (fun x v => Host.reduce IntOp.andi x v reducesTo_S1000x800_S_d0_1 h_S_) main_v81 main_c_31
  let main_v83 : IVec S_ 1 := andi main_v78 main_v82
  let main_v84 : FVec F S800 .f32 := Host.absf main_arg18
  let main_cst_32 : FVec F S_ .f32 := constant S_ .f32 0x7F800000#32
  fn_part5 (F := F) main_arg19 main_arg20 main_arg21 main_arg22 main_arg23 main_arg24 main_arg25 main_arg26 main_arg27 main_arg28 main_v83 main_v84 main_cst_32

def fn_part3 {F : FTy → Type} [FloatOps F] (main_arg12 : FVec F S800 .f32) (main_arg13 : FVec F S800x1000 .f32) (main_arg14 : FVec F S1000 .f32) (main_arg15 : FVec F S1000 .f32) (main_arg16 : FVec F S1000 .f32) (main_arg17 : FVec F S1000x800 .f32) (main_arg18 : FVec F S800 .f32) (main_arg19 : FVec F S800 .f32) (main_arg20 : FVec F S800 .f32) (main_arg21 : FVec F S1024x1000 .f32) (main_arg22 : FVec F S1000 .f32) (main_arg23 : FVec F S1000 .f32) (main_arg24 : FVec F S1000 .f32) (main_arg25 : FVec F S1000x800 .f32) (main_arg26 : FVec F S800 .f32) (main_arg27 : FVec F S800 .f32) (main_arg28 : FVec F S800 .f32) (main_v48 : IVec S_ 1) (main_v49 : FVec F S800 .f32) (main_v50 : FVec F S800 .f32) : IVec S_ 1 :=
  let main_v51 : IVec S800 1 := cmpf .olt main_v49 main_v50
  let main_c_19 : IVec S_ 1 := constantI S_ 1 1#1
  let main_v52 : IVec S_ 1 := (fun x v => Host.reduce IntOp.andi x v reducesTo_S800_S_d0 h_S_) main_v51 main_c_19
  let main_v53 : IVec S_ 1 := andi main_v48 main_v52
  let main_v54 : FVec F S800 .f32 := Host.absf main_arg12
  let main_cst_20 : FVec F S_ .f32 := constant S_ .f32 0x7F800000#32
  let main_v55 : FVec F S800 .f32 := broadcastInDim S800 ![] bcast_S_S800 main_cst_20
  let main_v56 : IVec S800 1 := cmpf .olt main_v54 main_v55
  let main_c_21 : IVec S_ 1 := constantI S_ 1 1#1
  let main_v57 : IVec S_ 1 := (fun x v => Host.reduce IntOp.andi x v reducesTo_S800_S_d0 h_S_) main_v56 main_c_21
  let main_v58 : IVec S_ 1 := andi main_v53 main_v57
  let main_v59 : FVec F S800x1000 .f32 := Host.absf main_arg13
  let main_cst_22 : FVec F S_ .f32 := constant S_ .f32 0x7F800000#32
  let main_v60 : FVec F S800x1000 .f32 := broadcastInDim S800x1000 ![] bcast_S_S800x1000 main_cst_22
  let main_v61 : IVec S800x1000 1 := cmpf .olt main_v59 main_v60
  let main_c_23 : IVec S_ 1 := constantI S_ 1 1#1
  let main_v62 : IVec S_ 1 := (fun x v => Host.reduce IntOp.andi x v reducesTo_S800x1000_S_d0_1 h_S_) main_v61 main_c_23
  let main_v63 : IVec S_ 1 := andi main_v58 main_v62
  let main_v64 : FVec F S1000 .f32 := Host.absf main_arg14
  let main_cst_24 : FVec F S_ .f32 := constant S_ .f32 0x7F800000#32
  let main_v65 : FVec F S1000 .f32 := broadcastInDim S1000 ![] bcast_S_S1000 main_cst_24
  let main_v66 : IVec S1000 1 := cmpf .olt main_v64 main_v65
  let main_c_25 : IVec S_ 1 := constantI S_ 1 1#1
  let main_v67 : IVec S_ 1 := (fun x v => Host.reduce IntOp.andi x v reducesTo_S1000_S_d0 h_S_) main_v66 main_c_25
  fn_part4 (F := F) main_arg15 main_arg16 main_arg17 main_arg18 main_arg19 main_arg20 main_arg21 main_arg22 main_arg23 main_arg24 main_arg25 main_arg26 main_arg27 main_arg28 main_v63 main_v67

def fn_part2 {F : FTy → Type} [FloatOps F] (main_arg8 : FVec F S2048x512 .f32) (main_arg9 : FVec F S512x800 .f32) (main_arg10 : FVec F S800 .f32) (main_arg11 : FVec F S800 .f32) (main_arg12 : FVec F S800 .f32) (main_arg13 : FVec F S800x1000 .f32) (main_arg14 : FVec F S1000 .f32) (main_arg15 : FVec F S1000 .f32) (main_arg16 : FVec F S1000 .f32) (main_arg17 : FVec F S1000x800 .f32) (main_arg18 : FVec F S800 .f32) (main_arg19 : FVec F S800 .f32) (main_arg20 : FVec F S800 .f32) (main_arg21 : FVec F S1024x1000 .f32) (main_arg22 : FVec F S1000 .f32) (main_arg23 : FVec F S1000 .f32) (main_arg24 : FVec F S1000 .f32) (main_arg25 : FVec F S1000x800 .f32) (main_arg26 : FVec F S800 .f32) (main_arg27 : FVec F S800 .f32) (main_arg28 : FVec F S800 .f32) (main_v33 : IVec S_ 1) : IVec S_ 1 :=
  let main_v34 : FVec F S2048x512 .f32 := Host.absf main_arg8
  let main_cst_12 : FVec F S_ .f32 := constant S_ .f32 0x7F800000#32
  let main_v35 : FVec F S2048x512 .f32 := broadcastInDim S2048x512 ![] bcast_S_S2048x512 main_cst_12
  let main_v36 : IVec S2048x512 1 := cmpf .olt main_v34 main_v35
  let main_c_13 : IVec S_ 1 := constantI S_ 1 1#1
  let main_v37 : IVec S_ 1 := (fun x v => Host.reduce IntOp.andi x v reducesTo_S2048x512_S_d0_1 h_S_) main_v36 main_c_13
  let main_v38 : IVec S_ 1 := andi main_v33 main_v37
  let main_v39 : FVec F S512x800 .f32 := Host.absf main_arg9
  let main_cst_14 : FVec F S_ .f32 := constant S_ .f32 0x7F800000#32
  let main_v40 : FVec F S512x800 .f32 := broadcastInDim S512x800 ![] bcast_S_S512x800 main_cst_14
  let main_v41 : IVec S512x800 1 := cmpf .olt main_v39 main_v40
  let main_c_15 : IVec S_ 1 := constantI S_ 1 1#1
  let main_v42 : IVec S_ 1 := (fun x v => Host.reduce IntOp.andi x v reducesTo_S512x800_S_d0_1 h_S_) main_v41 main_c_15
  let main_v43 : IVec S_ 1 := andi main_v38 main_v42
  let main_v44 : FVec F S800 .f32 := Host.absf main_arg10
  let main_cst_16 : FVec F S_ .f32 := constant S_ .f32 0x7F800000#32
  let main_v45 : FVec F S800 .f32 := broadcastInDim S800 ![] bcast_S_S800 main_cst_16
  let main_v46 : IVec S800 1 := cmpf .olt main_v44 main_v45
  let main_c_17 : IVec S_ 1 := constantI S_ 1 1#1
  let main_v47 : IVec S_ 1 := (fun x v => Host.reduce IntOp.andi x v reducesTo_S800_S_d0 h_S_) main_v46 main_c_17
  let main_v48 : IVec S_ 1 := andi main_v43 main_v47
  let main_v49 : FVec F S800 .f32 := Host.absf main_arg11
  let main_cst_18 : FVec F S_ .f32 := constant S_ .f32 0x7F800000#32
  let main_v50 : FVec F S800 .f32 := broadcastInDim S800 ![] bcast_S_S800 main_cst_18
  fn_part3 (F := F) main_arg12 main_arg13 main_arg14 main_arg15 main_arg16 main_arg17 main_arg18 main_arg19 main_arg20 main_arg21 main_arg22 main_arg23 main_arg24 main_arg25 main_arg26 main_arg27 main_arg28 main_v48 main_v49 main_v50

def fn_part1 {F : FTy → Type} [FloatOps F] (main_arg5 : FVec F S512x2048 .f32) (main_arg6 : FVec F S2048x512 .f32) (main_arg7 : FVec F S512 .f32) (main_arg8 : FVec F S2048x512 .f32) (main_arg9 : FVec F S512x800 .f32) (main_arg10 : FVec F S800 .f32) (main_arg11 : FVec F S800 .f32) (main_arg12 : FVec F S800 .f32) (main_arg13 : FVec F S800x1000 .f32) (main_arg14 : FVec F S1000 .f32) (main_arg15 : FVec F S1000 .f32) (main_arg16 : FVec F S1000 .f32) (main_arg17 : FVec F S1000x800 .f32) (main_arg18 : FVec F S800 .f32) (main_arg19 : FVec F S800 .f32) (main_arg20 : FVec F S800 .f32) (main_arg21 : FVec F S1024x1000 .f32) (main_arg22 : FVec F S1000 .f32) (main_arg23 : FVec F S1000 .f32) (main_arg24 : FVec F S1000 .f32) (main_arg25 : FVec F S1000x800 .f32) (main_arg26 : FVec F S800 .f32) (main_arg27 : FVec F S800 .f32) (main_arg28 : FVec F S800 .f32) (main_v13 : IVec S_ 1) (main_v16 : IVec S2048 1) : IVec S_ 1 :=
  let main_c_5 : IVec S_ 1 := constantI S_ 1 1#1
  let main_v17 : IVec S_ 1 := (fun x v => Host.reduce IntOp.andi x v reducesTo_S2048_S_d0 h_S_) main_v16 main_c_5
  let main_v18 : IVec S_ 1 := andi main_v13 main_v17
  let main_v19 : FVec F S512x2048 .f32 := Host.absf main_arg5
  let main_cst_6 : FVec F S_ .f32 := constant S_ .f32 0x7F800000#32
  let main_v20 : FVec F S512x2048 .f32 := broadcastInDim S512x2048 ![] bcast_S_S512x2048 main_cst_6
  let main_v21 : IVec S512x2048 1 := cmpf .olt main_v19 main_v20
  let main_c_7 : IVec S_ 1 := constantI S_ 1 1#1
  let main_v22 : IVec S_ 1 := (fun x v => Host.reduce IntOp.andi x v reducesTo_S512x2048_S_d0_1 h_S_) main_v21 main_c_7
  let main_v23 : IVec S_ 1 := andi main_v18 main_v22
  let main_v24 : FVec F S2048x512 .f32 := Host.absf main_arg6
  let main_cst_8 : FVec F S_ .f32 := constant S_ .f32 0x7F800000#32
  let main_v25 : FVec F S2048x512 .f32 := broadcastInDim S2048x512 ![] bcast_S_S2048x512 main_cst_8
  let main_v26 : IVec S2048x512 1 := cmpf .olt main_v24 main_v25
  let main_c_9 : IVec S_ 1 := constantI S_ 1 1#1
  let main_v27 : IVec S_ 1 := (fun x v => Host.reduce IntOp.andi x v reducesTo_S2048x512_S_d0_1 h_S_) main_v26 main_c_9
  let main_v28 : IVec S_ 1 := andi main_v23 main_v27
  let main_v29 : FVec F S512 .f32 := Host.absf main_arg7
  let main_cst_10 : FVec F S_ .f32 := constant S_ .f32 0x7F800000#32
  let main_v30 : FVec F S512 .f32 := broadcastInDim S512 ![] bcast_S_S512 main_cst_10
  let main_v31 : IVec S512 1 := cmpf .olt main_v29 main_v30
  let main_c_11 : IVec S_ 1 := constantI S_ 1 1#1
  let main_v32 : IVec S_ 1 := (fun x v => Host.reduce IntOp.andi x v reducesTo_S512_S_d0 h_S_) main_v31 main_c_11
  let main_v33 : IVec S_ 1 := andi main_v28 main_v32
  fn_part2 (F := F) main_arg8 main_arg9 main_arg10 main_arg11 main_arg12 main_arg13 main_arg14 main_arg15 main_arg16 main_arg17 main_arg18 main_arg19 main_arg20 main_arg21 main_arg22 main_arg23 main_arg24 main_arg25 main_arg26 main_arg27 main_arg28 main_v33

def fn {F : FTy → Type} [FloatOps F] (main_arg0 : FVec F S256x512 .f32) (main_arg1 : FVec F S700x512 .f32) (main_arg2 : IVec S2x50000 32) (main_arg3 : FVec F S512x2048 .f32) (main_arg4 : FVec F S2048 .f32) (main_arg5 : FVec F S512x2048 .f32) (main_arg6 : FVec F S2048x512 .f32) (main_arg7 : FVec F S512 .f32) (main_arg8 : FVec F S2048x512 .f32) (main_arg9 : FVec F S512x800 .f32) (main_arg10 : FVec F S800 .f32) (main_arg11 : FVec F S800 .f32) (main_arg12 : FVec F S800 .f32) (main_arg13 : FVec F S800x1000 .f32) (main_arg14 : FVec F S1000 .f32) (main_arg15 : FVec F S1000 .f32) (main_arg16 : FVec F S1000 .f32) (main_arg17 : FVec F S1000x800 .f32) (main_arg18 : FVec F S800 .f32) (main_arg19 : FVec F S800 .f32) (main_arg20 : FVec F S800 .f32) (main_arg21 : FVec F S1024x1000 .f32) (main_arg22 : FVec F S1000 .f32) (main_arg23 : FVec F S1000 .f32) (main_arg24 : FVec F S1000 .f32) (main_arg25 : FVec F S1000x800 .f32) (main_arg26 : FVec F S800 .f32) (main_arg27 : FVec F S800 .f32) (main_arg28 : FVec F S800 .f32) : IVec S_ 1 :=
  let main_v0 : FVec F S256x512 .f32 := Host.absf main_arg0
  let main_cst : FVec F S_ .f32 := constant S_ .f32 0x7F800000#32
  let main_v1 : FVec F S256x512 .f32 := broadcastInDim S256x512 ![] bcast_S_S256x512 main_cst
  let main_v2 : IVec S256x512 1 := cmpf .olt main_v0 main_v1
  let main_c : IVec S_ 1 := constantI S_ 1 1#1
  let main_v3 : IVec S_ 1 := (fun x v => Host.reduce IntOp.andi x v reducesTo_S256x512_S_d0_1 h_S_) main_v2 main_c
  let main_v4 : FVec F S700x512 .f32 := Host.absf main_arg1
  let main_cst_0 : FVec F S_ .f32 := constant S_ .f32 0x7F800000#32
  let main_v5 : FVec F S700x512 .f32 := broadcastInDim S700x512 ![] bcast_S_S700x512 main_cst_0
  let main_v6 : IVec S700x512 1 := cmpf .olt main_v4 main_v5
  let main_c_1 : IVec S_ 1 := constantI S_ 1 1#1
  let main_v7 : IVec S_ 1 := (fun x v => Host.reduce IntOp.andi x v reducesTo_S700x512_S_d0_1 h_S_) main_v6 main_c_1
  let main_v8 : IVec S_ 1 := andi main_v3 main_v7
  let main_v9 : FVec F S512x2048 .f32 := Host.absf main_arg3
  let main_cst_2 : FVec F S_ .f32 := constant S_ .f32 0x7F800000#32
  let main_v10 : FVec F S512x2048 .f32 := broadcastInDim S512x2048 ![] bcast_S_S512x2048 main_cst_2
  let main_v11 : IVec S512x2048 1 := cmpf .olt main_v9 main_v10
  let main_c_3 : IVec S_ 1 := constantI S_ 1 1#1
  let main_v12 : IVec S_ 1 := (fun x v => Host.reduce IntOp.andi x v reducesTo_S512x2048_S_d0_1 h_S_) main_v11 main_c_3
  let main_v13 : IVec S_ 1 := andi main_v8 main_v12
  let main_v14 : FVec F S2048 .f32 := Host.absf main_arg4
  let main_cst_4 : FVec F S_ .f32 := constant S_ .f32 0x7F800000#32
  let main_v15 : FVec F S2048 .f32 := broadcastInDim S2048 ![] bcast_S_S2048 main_cst_4
  let main_v16 : IVec S2048 1 := cmpf .olt main_v14 main_v15
  fn_part1 (F := F) main_arg5 main_arg6 main_arg7 main_arg8 main_arg9 main_arg10 main_arg11 main_arg12 main_arg13 main_arg14 main_arg15 main_arg16 main_arg17 main_arg18 main_arg19 main_arg20 main_arg21 main_arg22 main_arg23 main_arg24 main_arg25 main_arg26 main_arg27 main_arg28 main_v13 main_v16
-- ==== Kernel.lean ====
abbrev S256x512 : Shape := ⟨2, ![256, 512]⟩
abbrev S700x512 : Shape := ⟨2, ![700, 512]⟩
abbrev S2x50000 : Shape := ⟨2, ![2, 50000]⟩
abbrev S512x2048 : Shape := ⟨2, ![512, 2048]⟩
abbrev S2048 : Shape := ⟨1, ![2048]⟩
abbrev S2048x512 : Shape := ⟨2, ![2048, 512]⟩
abbrev S512 : Shape := ⟨1, ![512]⟩
abbrev S512x800 : Shape := ⟨2, ![512, 800]⟩
abbrev S800 : Shape := ⟨1, ![800]⟩
abbrev S800x1000 : Shape := ⟨2, ![800, 1000]⟩
abbrev S1000 : Shape := ⟨1, ![1000]⟩
abbrev S1000x800 : Shape := ⟨2, ![1000, 800]⟩
abbrev S1024x1000 : Shape := ⟨2, ![1024, 1000]⟩
abbrev S1x50000 : Shape := ⟨2, ![1, 50000]⟩
abbrev S50000 : Shape := ⟨1, ![50000]⟩
abbrev S_ : Shape := ⟨0, ![]⟩
abbrev S50000x1 : Shape := ⟨2, ![50000, 1]⟩
abbrev S50000x512 : Shape := ⟨2, ![50000, 512]⟩
abbrev S700 : Shape := ⟨1, ![700]⟩
abbrev S700x1 : Shape := ⟨2, ![700, 1]⟩
abbrev S1x2048 : Shape := ⟨2, ![1, 2048]⟩
abbrev S700x2048 : Shape := ⟨2, ![700, 2048]⟩
abbrev S50000x2048 : Shape := ⟨2, ![50000, 2048]⟩
abbrev S1x512 : Shape := ⟨2, ![1, 512]⟩
abbrev S1x800 : Shape := ⟨2, ![1, 800]⟩
abbrev S1x1000 : Shape := ⟨2, ![1, 1000]⟩
abbrev S256x800 : Shape := ⟨2, ![256, 800]⟩
abbrev S256 : Shape := ⟨1, ![256]⟩
abbrev S256x1 : Shape := ⟨2, ![256, 1]⟩
abbrev S256x1000 : Shape := ⟨2, ![256, 1000]⟩
abbrev S200x512 : Shape := ⟨2, ![200, 512]⟩
abbrev S500x512 : Shape := ⟨2, ![500, 512]⟩
abbrev S512x512 : Shape := ⟨2, ![512, 512]⟩
abbrev S200x512x256 : Shape := ⟨3, ![200, 512, 256]⟩
abbrev S8x512 : Shape := ⟨2, ![8, 512]⟩
abbrev S8x512x256 : Shape := ⟨3, ![8, 512, 256]⟩
abbrev S512x1000 : Shape := ⟨2, ![512, 1000]⟩
abbrev S8x1000 : Shape := ⟨2, ![8, 1000]⟩
abbrev S128x512 : Shape := ⟨2, ![128, 512]⟩
abbrev S128x1000 : Shape := ⟨2, ![128, 1000]⟩
abbrev S8x1x1000 : Shape := ⟨3, ![8, 1, 1000]⟩
abbrev S1x128x1000 : Shape := ⟨3, ![1, 128, 1000]⟩
abbrev S8x128x1000 : Shape := ⟨3, ![8, 128, 1000]⟩
abbrev S1x1x1000 : Shape := ⟨3, ![1, 1, 1000]⟩
abbrev S8x128 : Shape := ⟨2, ![8, 128]⟩
abbrev S8x128x1 : Shape := ⟨3, ![8, 128, 1]⟩
abbrev S1024x800 : Shape := ⟨2, ![1024, 800]⟩
abbrev S1024 : Shape := ⟨1, ![1024]⟩
abbrev S1024x1 : Shape := ⟨2, ![1024, 1]⟩
abbrev S1024x256 : Shape := ⟨2, ![1024, 256]⟩
abbrev S8x128x256 : Shape := ⟨3, ![8, 128, 256]⟩
abbrev S200x500x256 : Shape := ⟨3, ![200, 500, 256]⟩
abbrev S256x200x500 : Shape := ⟨3, ![256, 200, 500]⟩
abbrev S256x100000 : Shape := ⟨2, ![256, 100000]⟩

abbrev nBuf : Space → Nat
  | .hbm => 124
  | .vmem => 40
  | .smem => 0
  | _ => 0

abbrev bufTy : (tb : Table) → Fin (tcTables nBuf tb) → BufTy
  | .hbm, ⟨0, _⟩ => ⟨S256x512, .f32⟩
  | .hbm, ⟨1, _⟩ => ⟨S700x512, .f32⟩
  | .hbm, ⟨2, _⟩ => ⟨S2x50000, .i32⟩
  | .hbm, ⟨3, _⟩ => ⟨S512x2048, .f32⟩
  | .hbm, ⟨4, _⟩ => ⟨S2048, .f32⟩
  | .hbm, ⟨5, _⟩ => ⟨S512x2048, .f32⟩
  | .hbm, ⟨6, _⟩ => ⟨S2048x512, .f32⟩
  | .hbm, ⟨7, _⟩ => ⟨S512, .f32⟩
  | .hbm, ⟨8, _⟩ => ⟨S2048x512, .f32⟩
  | .hbm, ⟨9, _⟩ => ⟨S512x800, .f32⟩
  | .hbm, ⟨10, _⟩ => ⟨S800, .f32⟩
  | .hbm, ⟨11, _⟩ => ⟨S800, .f32⟩
  | .hbm, ⟨12, _⟩ => ⟨S800, .f32⟩
  | .hbm, ⟨13, _⟩ => ⟨S800x1000, .f32⟩
  | .hbm, ⟨14, _⟩ => ⟨S1000, .f32⟩
  | .hbm, ⟨15, _⟩ => ⟨S1000, .f32⟩
  | .hbm, ⟨16, _⟩ => ⟨S1000, .f32⟩
  | .hbm, ⟨17, _⟩ => ⟨S1000x800, .f32⟩
  | .hbm, ⟨18, _⟩ => ⟨S800, .f32⟩
  | .hbm, ⟨19, _⟩ => ⟨S800, .f32⟩
  | .hbm, ⟨20, _⟩ => ⟨S800, .f32⟩
  | .hbm, ⟨21, _⟩ => ⟨S1024x1000, .f32⟩
  | .hbm, ⟨22, _⟩ => ⟨S1000, .f32⟩
  | .hbm, ⟨23, _⟩ => ⟨S1000, .f32⟩
  | .hbm, ⟨24, _⟩ => ⟨S1000, .f32⟩
  | .hbm, ⟨25, _⟩ => ⟨S1000x800, .f32⟩
  | .hbm, ⟨26, _⟩ => ⟨S800, .f32⟩
  | .hbm, ⟨27, _⟩ => ⟨S800, .f32⟩
  | .hbm, ⟨28, _⟩ => ⟨S800, .f32⟩
  | .hbm, ⟨29, _⟩ => ⟨S1x50000, .i32⟩
  | .hbm, ⟨30, _⟩ => ⟨S50000, .i32⟩
  | .hbm, ⟨31, _⟩ => ⟨S1x50000, .i32⟩
  | .hbm, ⟨32, _⟩ => ⟨S50000, .i32⟩
  | .hbm, ⟨33, _⟩ => ⟨S_, .i32⟩
  | .hbm, ⟨34, _⟩ => ⟨S50000, .i32⟩
  | .hbm, ⟨35, _⟩ => ⟨S50000, .i1⟩
  | .hbm, ⟨36, _⟩ => ⟨S_, .i32⟩
  | .hbm, ⟨37, _⟩ => ⟨S50000, .i32⟩
  | .hbm, ⟨38, _⟩ => ⟨S50000, .i32⟩
  | .hbm, ⟨39, _⟩ => ⟨S50000, .i32⟩
  | .hbm, ⟨40, _⟩ => ⟨S50000x1, .i32⟩
  | .hbm, ⟨41, _⟩ => ⟨S50000x512, .f32⟩
  | .hbm, ⟨42, _⟩ => ⟨S_, .f32⟩
  | .hbm, ⟨43, _⟩ => ⟨S700x512, .f32⟩
  | .hbm, ⟨44, _⟩ => ⟨S50000x1, .i32⟩
  | .hbm, ⟨45, _⟩ => ⟨S700x512, .f32⟩
  | .hbm, ⟨46, _⟩ => ⟨S_, .f32⟩
  | .hbm, ⟨47, _⟩ => ⟨S50000, .f32⟩
  | .hbm, ⟨48, _⟩ => ⟨S_, .f32⟩
  | .hbm, ⟨49, _⟩ => ⟨S700, .f32⟩
  | .hbm, ⟨50, _⟩ => ⟨S50000x1, .i32⟩
  | .hbm, ⟨51, _⟩ => ⟨S700, .f32⟩
  | .hbm, ⟨52, _⟩ => ⟨S_, .f32⟩
  | .hbm, ⟨53, _⟩ => ⟨S700, .f32⟩
  | .hbm, ⟨54, _⟩ => ⟨S700, .f32⟩
  | .hbm, ⟨55, _⟩ => ⟨S700x1, .f32⟩
  | .hbm, ⟨56, _⟩ => ⟨S700x512, .f32⟩
  | .hbm, ⟨57, _⟩ => ⟨S700x512, .f32⟩
  | .hbm, ⟨58, _⟩ => ⟨S512x2048, .bf16⟩
  | .hbm, ⟨59, _⟩ => ⟨S512x2048, .bf16⟩
  | .hbm, ⟨60, _⟩ => ⟨S1x2048, .f32⟩
  | .hbm, ⟨61, _⟩ => ⟨S700x2048, .f32⟩
  | .hbm, ⟨62, _⟩ => ⟨S_, .i32⟩
  | .hbm, ⟨63, _⟩ => ⟨S50000, .i32⟩
  | .hbm, ⟨64, _⟩ => ⟨S50000, .i1⟩
  | .hbm, ⟨65, _⟩ => ⟨S_, .i32⟩
  | .hbm, ⟨66, _⟩ => ⟨S50000, .i32⟩
  | .hbm, ⟨67, _⟩ => ⟨S50000, .i32⟩
  | .hbm, ⟨68, _⟩ => ⟨S50000, .i32⟩
  | .hbm, ⟨69, _⟩ => ⟨S50000x1, .i32⟩
  | .hbm, ⟨70, _⟩ => ⟨S50000x2048, .f32⟩
  | .hbm, ⟨71, _⟩ => ⟨S_, .f32⟩
  | .hbm, ⟨72, _⟩ => ⟨S700x2048, .f32⟩
  | .hbm, ⟨73, _⟩ => ⟨S50000x1, .i32⟩
  | .hbm, ⟨74, _⟩ => ⟨S700x2048, .f32⟩
  | .hbm, ⟨75, _⟩ => ⟨S_, .f32⟩
  | .hbm, ⟨76, _⟩ => ⟨S50000, .f32⟩
  | .hbm, ⟨77, _⟩ => ⟨S_, .f32⟩
  | .hbm, ⟨78, _⟩ => ⟨S700, .f32⟩
  | .hbm, ⟨79, _⟩ => ⟨S50000x1, .i32⟩
  | .hbm, ⟨80, _⟩ => ⟨S700, .f32⟩
  | .hbm, ⟨81, _⟩ => ⟨S_, .f32⟩
  | .hbm, ⟨82, _⟩ => ⟨S700, .f32⟩
  | .hbm, ⟨83, _⟩ => ⟨S700, .f32⟩
  | .hbm, ⟨84, _⟩ => ⟨S700x1, .f32⟩
  | .hbm, ⟨85, _⟩ => ⟨S700x2048, .f32⟩
  | .hbm, ⟨86, _⟩ => ⟨S700x2048, .f32⟩
  | .hbm, ⟨87, _⟩ => ⟨S2048x512, .bf16⟩
  | .hbm, ⟨88, _⟩ => ⟨S2048x512, .bf16⟩
  | .hbm, ⟨89, _⟩ => ⟨S1x512, .f32⟩
  | .hbm, ⟨90, _⟩ => ⟨S700x512, .f32⟩
  | .hbm, ⟨91, _⟩ => ⟨S512x800, .bf16⟩
  | .hbm, ⟨92, _⟩ => ⟨S800x1000, .bf16⟩
  | .hbm, ⟨93, _⟩ => ⟨S1000x800, .bf16⟩
  | .hbm, ⟨94, _⟩ => ⟨S1x800, .f32⟩
  | .hbm, ⟨95, _⟩ => ⟨S1x800, .f32⟩
  | .hbm, ⟨96, _⟩ => ⟨S1x800, .f32⟩
  | .hbm, ⟨97, _⟩ => ⟨S1x1000, .f32⟩
  | .hbm, ⟨98, _⟩ => ⟨S1x1000, .f32⟩
  | .hbm, ⟨99, _⟩ => ⟨S1x1000, .f32⟩
  | .hbm, ⟨100, _⟩ => ⟨S1x800, .f32⟩
  | .hbm, ⟨101, _⟩ => ⟨S1x800, .f32⟩
  | .hbm, ⟨102, _⟩ => ⟨S1x800, .f32⟩
  | .hbm, ⟨103, _⟩ => ⟨S256x800, .f32⟩
  | .hbm, ⟨104, _⟩ => ⟨S200x512, .f32⟩
  | .hbm, ⟨105, _⟩ => ⟨S500x512, .f32⟩
  | .hbm, ⟨106, _⟩ => ⟨S200x512, .bf16⟩
  | .hbm, ⟨107, _⟩ => ⟨S_, .i32⟩
  | .hbm, ⟨108, _⟩ => ⟨S_, .f32⟩
  | .hbm, ⟨109, _⟩ => ⟨S512x512, .f32⟩
  | .hbm, ⟨110, _⟩ => ⟨S512x512, .bf16⟩
  | .hbm, ⟨111, _⟩ => ⟨S1024x1000, .bf16⟩
  | .hbm, ⟨112, _⟩ => ⟨S1000x800, .bf16⟩
  | .hbm, ⟨113, _⟩ => ⟨S256x800, .bf16⟩
  | .hbm, ⟨114, _⟩ => ⟨S1x1000, .f32⟩
  | .hbm, ⟨115, _⟩ => ⟨S1x1000, .f32⟩
  | .hbm, ⟨116, _⟩ => ⟨S1x1000, .f32⟩
  | .hbm, ⟨117, _⟩ => ⟨S1x800, .f32⟩
  | .hbm, ⟨118, _⟩ => ⟨S1x800, .f32⟩
  | .hbm, ⟨119, _⟩ => ⟨S1x800, .f32⟩
  | .hbm, ⟨120, _⟩ => ⟨S200x512x256, .f32⟩
  | .hbm, ⟨121, _⟩ => ⟨S200x500x256, .f32⟩
  | .hbm, ⟨122, _⟩ => ⟨S256x200x500, .f32⟩
  | .hbm, ⟨123, _⟩ => ⟨S256x100000, .f32⟩
  | .local _ .vmem, ⟨0, _⟩ => ⟨S700x512, .f32⟩
  | .local _ .vmem, ⟨1, _⟩ => ⟨S700x512, .f32⟩
  | .local _ .vmem, ⟨2, _⟩ => ⟨S512x2048, .bf16⟩
  | .local _ .vmem, ⟨3, _⟩ => ⟨S1x2048, .f32⟩
  | .local _ .vmem, ⟨4, _⟩ => ⟨S512x2048, .bf16⟩
  | .local _ .vmem, ⟨5, _⟩ => ⟨S700x2048, .f32⟩
  | .local _ .vmem, ⟨6, _⟩ => ⟨S700x2048, .f32⟩
  | .local _ .vmem, ⟨7, _⟩ => ⟨S700x2048, .f32⟩
  | .local _ .vmem, ⟨8, _⟩ => ⟨S2048x512, .bf16⟩
  | .local _ .vmem, ⟨9, _⟩ => ⟨S1x512, .f32⟩
  | .local _ .vmem, ⟨10, _⟩ => ⟨S2048x512, .bf16⟩
  | .local _ .vmem, ⟨11, _⟩ => ⟨S700x512, .f32⟩
  | .local _ .vmem, ⟨12, _⟩ => ⟨S256x512, .f32⟩
  | .local _ .vmem, ⟨13, _⟩ => ⟨S512x800, .bf16⟩
  | .local _ .vmem, ⟨14, _⟩ => ⟨S1x800, .f32⟩
  | .local _ .vmem, ⟨15, _⟩ => ⟨S1x800, .f32⟩
  | .local _ .vmem, ⟨16, _⟩ => ⟨S1x800, .f32⟩
  | .local _ .vmem, ⟨17, _⟩ => ⟨S800x1000, .bf16⟩
  | .local _ .vmem, ⟨18, _⟩ => ⟨S1x1000, .f32⟩
  | .local _ .vmem, ⟨19, _⟩ => ⟨S1x1000, .f32⟩
  | .local _ .vmem, ⟨20, _⟩ => ⟨S1x1000, .f32⟩
  | .local _ .vmem, ⟨21, _⟩ => ⟨S1000x800, .bf16⟩
  | .local _ .vmem, ⟨22, _⟩ => ⟨S1x800, .f32⟩
  | .local _ .vmem, ⟨23, _⟩ => ⟨S1x800, .f32⟩
  | .local _ .vmem, ⟨24, _⟩ => ⟨S1x800, .f32⟩
  | .local _ .vmem, ⟨25, _⟩ => ⟨S256x800, .f32⟩
  | .local _ .vmem, ⟨26, _⟩ => ⟨S8x512, .bf16⟩
  | .local _ .vmem, ⟨27, _⟩ => ⟨S8x512, .bf16⟩
  | .local _ .vmem, ⟨28, _⟩ => ⟨S512x512, .bf16⟩
  | .local _ .vmem, ⟨29, _⟩ => ⟨S1024x1000, .bf16⟩
  | .local _ .vmem, ⟨30, _⟩ => ⟨S1x1000, .f32⟩
  | .local _ .vmem, ⟨31, _⟩ => ⟨S1x1000, .f32⟩
  | .local _ .vmem, ⟨32, _⟩ => ⟨S1x1000, .f32⟩
  | .local _ .vmem, ⟨33, _⟩ => ⟨S1000x800, .bf16⟩
  | .local _ .vmem, ⟨34, _⟩ => ⟨S1x800, .f32⟩
  | .local _ .vmem, ⟨35, _⟩ => ⟨S1x800, .f32⟩
  | .local _ .vmem, ⟨36, _⟩ => ⟨S1x800, .f32⟩
  | .local _ .vmem, ⟨37, _⟩ => ⟨S256x800, .bf16⟩
  | .local _ .vmem, ⟨38, _⟩ => ⟨S8x512x256, .f32⟩
  | .local _ .vmem, ⟨39, _⟩ => ⟨S8x512x256, .f32⟩
  | _, _ => ⟨S256x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | _, _ => false

abbrev semScoped : Fin 0 → Bool
  | ⟨_, h⟩ => absurd h (Nat.not_lt_zero _)

abbrev dmaSemScoped : Fin 40 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | _ => false

abbrev sig : RefSig :=
  ofTc nBuf bufTy 0 40 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_arg28 : Ref sig .tc := ⟨.hbm, 28, rfl⟩
abbrev main_v0 : Ref sig .tc := ⟨.hbm, 29, rfl⟩
abbrev main_v1 : Ref sig .tc := ⟨.hbm, 30, rfl⟩
abbrev main_v2 : Ref sig .tc := ⟨.hbm, 31, rfl⟩
abbrev main_v3 : Ref sig .tc := ⟨.hbm, 32, rfl⟩
abbrev main_c : Ref sig .tc := ⟨.hbm, 33, rfl⟩
abbrev main_v4 : Ref sig .tc := ⟨.hbm, 34, rfl⟩
abbrev main_v5 : Ref sig .tc := ⟨.hbm, 35, rfl⟩
abbrev main_c_0 : Ref sig .tc := ⟨.hbm, 36, rfl⟩
abbrev main_v6 : Ref sig .tc := ⟨.hbm, 37, rfl⟩
abbrev main_v7 : Ref sig .tc := ⟨.hbm, 38, rfl⟩
abbrev main_v8 : Ref sig .tc := ⟨.hbm, 39, rfl⟩
abbrev main_v9 : Ref sig .tc := ⟨.hbm, 40, rfl⟩
abbrev main_v10 : Ref sig .tc := ⟨.hbm, 41, rfl⟩
abbrev main_cst : Ref sig .tc := ⟨.hbm, 42, rfl⟩
abbrev main_v11 : Ref sig .tc := ⟨.hbm, 43, rfl⟩
abbrev main_v12 : Ref sig .tc := ⟨.hbm, 44, rfl⟩
abbrev main_v13 : Ref sig .tc := ⟨.hbm, 45, rfl⟩
abbrev main_cst_1 : Ref sig .tc := ⟨.hbm, 46, rfl⟩
abbrev main_v14 : Ref sig .tc := ⟨.hbm, 47, rfl⟩
abbrev main_cst_2 : Ref sig .tc := ⟨.hbm, 48, rfl⟩
abbrev main_v15 : Ref sig .tc := ⟨.hbm, 49, rfl⟩
abbrev main_v16 : Ref sig .tc := ⟨.hbm, 50, rfl⟩
abbrev main_v17 : Ref sig .tc := ⟨.hbm, 51, rfl⟩
abbrev main_cst_3 : Ref sig .tc := ⟨.hbm, 52, rfl⟩
abbrev main_v18 : Ref sig .tc := ⟨.hbm, 53, rfl⟩
abbrev main_v19 : Ref sig .tc := ⟨.hbm, 54, rfl⟩
abbrev main_v20 : Ref sig .tc := ⟨.hbm, 55, rfl⟩
abbrev main_v21 : Ref sig .tc := ⟨.hbm, 56, rfl⟩
abbrev main_v22 : Ref sig .tc := ⟨.hbm, 57, rfl⟩
abbrev main_v23 : Ref sig .tc := ⟨.hbm, 58, rfl⟩
abbrev main_v24 : Ref sig .tc := ⟨.hbm, 59, rfl⟩
abbrev main_v25 : Ref sig .tc := ⟨.hbm, 60, rfl⟩
abbrev main_v26 : Ref sig .tc := ⟨.hbm, 61, rfl⟩
abbrev main_c_4 : Ref sig .tc := ⟨.hbm, 62, rfl⟩
abbrev main_v27 : Ref sig .tc := ⟨.hbm, 63, rfl⟩
abbrev main_v28 : Ref sig .tc := ⟨.hbm, 64, rfl⟩
abbrev main_c_5 : Ref sig .tc := ⟨.hbm, 65, rfl⟩
abbrev main_v29 : Ref sig .tc := ⟨.hbm, 66, rfl⟩
abbrev main_v30 : Ref sig .tc := ⟨.hbm, 67, rfl⟩
abbrev main_v31 : Ref sig .tc := ⟨.hbm, 68, rfl⟩
abbrev main_v32 : Ref sig .tc := ⟨.hbm, 69, rfl⟩
abbrev main_v33 : Ref sig .tc := ⟨.hbm, 70, rfl⟩
abbrev main_cst_6 : Ref sig .tc := ⟨.hbm, 71, rfl⟩
abbrev main_v34 : Ref sig .tc := ⟨.hbm, 72, rfl⟩
abbrev main_v35 : Ref sig .tc := ⟨.hbm, 73, rfl⟩
abbrev main_v36 : Ref sig .tc := ⟨.hbm, 74, rfl⟩
abbrev main_cst_7 : Ref sig .tc := ⟨.hbm, 75, rfl⟩
abbrev main_v37 : Ref sig .tc := ⟨.hbm, 76, rfl⟩
abbrev main_cst_8 : Ref sig .tc := ⟨.hbm, 77, rfl⟩
abbrev main_v38 : Ref sig .tc := ⟨.hbm, 78, rfl⟩
abbrev main_v39 : Ref sig .tc := ⟨.hbm, 79, rfl⟩
abbrev main_v40 : Ref sig .tc := ⟨.hbm, 80, rfl⟩
abbrev main_cst_9 : Ref sig .tc := ⟨.hbm, 81, rfl⟩
abbrev main_v41 : Ref sig .tc := ⟨.hbm, 82, rfl⟩
abbrev main_v42 : Ref sig .tc := ⟨.hbm, 83, rfl⟩
abbrev main_v43 : Ref sig .tc := ⟨.hbm, 84, rfl⟩
abbrev main_v44 : Ref sig .tc := ⟨.hbm, 85, rfl⟩
abbrev main_v45 : Ref sig .tc := ⟨.hbm, 86, rfl⟩
abbrev main_v46 : Ref sig .tc := ⟨.hbm, 87, rfl⟩
abbrev main_v47 : Ref sig .tc := ⟨.hbm, 88, rfl⟩
abbrev main_v48 : Ref sig .tc := ⟨.hbm, 89, rfl⟩
abbrev main_v49 : Ref sig .tc := ⟨.hbm, 90, rfl⟩
abbrev main_v50 : Ref sig .tc := ⟨.hbm, 91, rfl⟩
abbrev main_v51 : Ref sig .tc := ⟨.hbm, 92, rfl⟩
abbrev main_v52 : Ref sig .tc := ⟨.hbm, 93, rfl⟩
abbrev main_v53 : Ref sig .tc := ⟨.hbm, 94, rfl⟩
abbrev main_v54 : Ref sig .tc := ⟨.hbm, 95, rfl⟩
abbrev main_v55 : Ref sig .tc := ⟨.hbm, 96, rfl⟩
abbrev main_v56 : Ref sig .tc := ⟨.hbm, 97, rfl⟩
abbrev main_v57 : Ref sig .tc := ⟨.hbm, 98, rfl⟩
abbrev main_v58 : Ref sig .tc := ⟨.hbm, 99, rfl⟩
abbrev main_v59 : Ref sig .tc := ⟨.hbm, 100, rfl⟩
abbrev main_v60 : Ref sig .tc := ⟨.hbm, 101, rfl⟩
abbrev main_v61 : Ref sig .tc := ⟨.hbm, 102, rfl⟩
abbrev main_v62 : Ref sig .tc := ⟨.hbm, 103, rfl⟩
abbrev main_v63 : Ref sig .tc := ⟨.hbm, 104, rfl⟩
abbrev main_v64 : Ref sig .tc := ⟨.hbm, 105, rfl⟩
abbrev main_v65 : Ref sig .tc := ⟨.hbm, 106, rfl⟩
abbrev main_c_10 : Ref sig .tc := ⟨.hbm, 107, rfl⟩
abbrev main_call0_v0 : Ref sig .tc := ⟨.hbm, 108, rfl⟩
abbrev main_v66 : Ref sig .tc := ⟨.hbm, 109, rfl⟩
abbrev main_v67 : Ref sig .tc := ⟨.hbm, 110, rfl⟩
abbrev main_v68 : Ref sig .tc := ⟨.hbm, 111, rfl⟩
abbrev main_v69 : Ref sig .tc := ⟨.hbm, 112, rfl⟩
abbrev main_v70 : Ref sig .tc := ⟨.hbm, 113, rfl⟩
abbrev main_v71 : Ref sig .tc := ⟨.hbm, 114, rfl⟩
abbrev main_v72 : Ref sig .tc := ⟨.hbm, 115, rfl⟩
abbrev main_v73 : Ref sig .tc := ⟨.hbm, 116, rfl⟩
abbrev main_v74 : Ref sig .tc := ⟨.hbm, 117, rfl⟩
abbrev main_v75 : Ref sig .tc := ⟨.hbm, 118, rfl⟩
abbrev main_v76 : Ref sig .tc := ⟨.hbm, 119, rfl⟩
abbrev main_v77 : Ref sig .tc := ⟨.hbm, 120, rfl⟩
abbrev main_v78 : Ref sig .tc := ⟨.hbm, 121, rfl⟩
abbrev main_v79 : Ref sig .tc := ⟨.hbm, 122, rfl⟩
abbrev main_v80 : Ref sig .tc := ⟨.hbm, 123, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc1_stg0_0 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg3_0 : Ref sig .tc := ⟨.vmem, 9, rfl⟩
abbrev cc1_stg4_0 : Ref sig .tc := ⟨.vmem, 10, rfl⟩
abbrev cc1_stg5_0 : Ref sig .tc := ⟨.vmem, 11, rfl⟩
abbrev cc2_stg0_0 : Ref sig .tc := ⟨.vmem, 12, rfl⟩
abbrev cc2_stg1_0 : Ref sig .tc := ⟨.vmem, 13, rfl⟩
abbrev cc2_stg2_0 : Ref sig .tc := ⟨.vmem, 14, rfl⟩
abbrev cc2_stg3_0 : Ref sig .tc := ⟨.vmem, 15, rfl⟩
abbrev cc2_stg4_0 : Ref sig .tc := ⟨.vmem, 16, rfl⟩
abbrev cc2_stg5_0 : Ref sig .tc := ⟨.vmem, 17, rfl⟩
abbrev cc2_stg6_0 : Ref sig .tc := ⟨.vmem, 18, rfl⟩
abbrev cc2_stg7_0 : Ref sig .tc := ⟨.vmem, 19, rfl⟩
abbrev cc2_stg8_0 : Ref sig .tc := ⟨.vmem, 20, rfl⟩
abbrev cc2_stg9_0 : Ref sig .tc := ⟨.vmem, 21, rfl⟩
abbrev cc2_stg10_0 : Ref sig .tc := ⟨.vmem, 22, rfl⟩
abbrev cc2_stg11_0 : Ref sig .tc := ⟨.vmem, 23, rfl⟩
abbrev cc2_stg12_0 : Ref sig .tc := ⟨.vmem, 24, rfl⟩
abbrev cc2_stg13_0 : Ref sig .tc := ⟨.vmem, 25, rfl⟩
abbrev cc3_stg0_0 : Ref sig .tc := ⟨.vmem, 26, rfl⟩
abbrev cc3_stg0_1 : Ref sig .tc := ⟨.vmem, 27, rfl⟩
abbrev cc3_stg1_0 : Ref sig .tc := ⟨.vmem, 28, rfl⟩
abbrev cc3_stg2_0 : Ref sig .tc := ⟨.vmem, 29, rfl⟩
abbrev cc3_stg3_0 : Ref sig .tc := ⟨.vmem, 30, rfl⟩
abbrev cc3_stg4_0 : Ref sig .tc := ⟨.vmem, 31, rfl⟩
abbrev cc3_stg5_0 : Ref sig .tc := ⟨.vmem, 32, rfl⟩
abbrev cc3_stg6_0 : Ref sig .tc := ⟨.vmem, 33, rfl⟩
abbrev cc3_stg7_0 : Ref sig .tc := ⟨.vmem, 34, rfl⟩
abbrev cc3_stg8_0 : Ref sig .tc := ⟨.vmem, 35, rfl⟩
abbrev cc3_stg9_0 : Ref sig .tc := ⟨.vmem, 36, rfl⟩
abbrev cc3_stg10_0 : Ref sig .tc := ⟨.vmem, 37, rfl⟩
abbrev cc3_stg11_0 : Ref sig .tc := ⟨.vmem, 38, rfl⟩
abbrev cc3_stg11_1 : Ref sig .tc := ⟨.vmem, 39, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc1_sem0_0 : DmaSem sig := 6
abbrev cc1_sem1_0 : DmaSem sig := 7
abbrev cc1_sem2_0 : DmaSem sig := 8
abbrev cc1_sem3_0 : DmaSem sig := 9
abbrev cc1_sem4_0 : DmaSem sig := 10
abbrev cc1_sem5_0 : DmaSem sig := 11
abbrev cc2_sem0_0 : DmaSem sig := 12
abbrev cc2_sem1_0 : DmaSem sig := 13
abbrev cc2_sem2_0 : DmaSem sig := 14
abbrev cc2_sem3_0 : DmaSem sig := 15
abbrev cc2_sem4_0 : DmaSem sig := 16
abbrev cc2_sem5_0 : DmaSem sig := 17
abbrev cc2_sem6_0 : DmaSem sig := 18
abbrev cc2_sem7_0 : DmaSem sig := 19
abbrev cc2_sem8_0 : DmaSem sig := 20
abbrev cc2_sem9_0 : DmaSem sig := 21
abbrev cc2_sem10_0 : DmaSem sig := 22
abbrev cc2_sem11_0 : DmaSem sig := 23
abbrev cc2_sem12_0 : DmaSem sig := 24
abbrev cc2_sem13_0 : DmaSem sig := 25
abbrev cc3_sem0_0 : DmaSem sig := 26
abbrev cc3_sem0_1 : DmaSem sig := 27
abbrev cc3_sem1_0 : DmaSem sig := 28
abbrev cc3_sem2_0 : DmaSem sig := 29
abbrev cc3_sem3_0 : DmaSem sig := 30
abbrev cc3_sem4_0 : DmaSem sig := 31
abbrev cc3_sem5_0 : DmaSem sig := 32
abbrev cc3_sem6_0 : DmaSem sig := 33
abbrev cc3_sem7_0 : DmaSem sig := 34
abbrev cc3_sem8_0 : DmaSem sig := 35
abbrev cc3_sem9_0 : DmaSem sig := 36
abbrev cc3_sem10_0 : DmaSem sig := 37
abbrev cc3_sem11_0 : DmaSem sig := 38
abbrev cc3_sem11_1 : DmaSem sig := 39

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S700x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S700x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S512x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S512x2048 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S700x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev grid1 : Pipeline.Grid := ⟨1, ![1], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 1 → Memref sig .tc .vmem S700x2048 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false]

abbrev stage1_1 : Fin 1 → Memref sig .tc .vmem S700x2048 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S2048x512 .bf16 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x512 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S2048x512 .bf16 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S700x512 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev grid2 : Pipeline.Grid := ⟨1, ![1], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_8 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_9 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_10 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_11 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_12 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_13 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage2_0 : Fin 1 → Memref sig .tc .vmem S256x512 .f32 := fun | 0 => Memref.whole cc2_stg0_0 | ⟨_ + 1, h⟩ => absurd h (Nat.not_lt.2 (Nat.le_add_left _ _))
abbrev sem2_0 : Fin 1 → DmaSem sig := fun | 0 => cc2_sem0_0 | ⟨_ + 1, h⟩ => absurd h (Nat.not_lt.2 (Nat.le_add_left _ _))
abbrev reads2_0 : Fin grid2.rank → Bool := ![false]

abbrev stage2_1 : Fin 1 → Memref sig .tc .vmem S512x800 .bf16 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x800 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x800 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x800 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S800x1000 .bf16 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S1x1000 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 1 → Memref sig .tc .vmem S1x1000 .f32 := fun | 0 => Memref.whole cc2_stg7_0 | ⟨_ + 1, h⟩ => absurd h (Nat.not_lt.2 (Nat.le_add_left _ _))
abbrev sem2_7 : Fin 1 → DmaSem sig := fun | 0 => cc2_sem7_0 | ⟨_ + 1, h⟩ => absurd h (Nat.not_lt.2 (Nat.le_add_left _ _))
abbrev reads2_7 : Fin grid2.rank → Bool := ![false]

abbrev stage2_8 : Fin 1 → Memref sig .tc .vmem S1x1000 .f32 := fun | 0 => Memref.whole cc2_stg8_0 | ⟨_ + 1, h⟩ => absurd h (Nat.not_lt.2 (Nat.le_add_left _ _))
abbrev sem2_8 : Fin 1 → DmaSem sig := fun | 0 => cc2_sem8_0 | ⟨_ + 1, h⟩ => absurd h (Nat.not_lt.2 (Nat.le_add_left _ _))
abbrev reads2_8 : Fin grid2.rank → Bool := ![false]

abbrev stage2_9 : Fin 1 → Memref sig .tc .vmem S1000x800 .bf16 := fun | 0 => Memref.whole cc2_stg9_0 | ⟨_ + 1, h⟩ => absurd h (Nat.not_lt.2 (Nat.le_add_left _ _))
abbrev sem2_9 : Fin 1 → DmaSem sig := fun | 0 => cc2_sem9_0 | ⟨_ + 1, h⟩ => absurd h (Nat.not_lt.2 (Nat.le_add_left _ _))
abbrev reads2_9 : Fin grid2.rank → Bool := ![false]

abbrev stage2_10 : Fin 1 → Memref sig .tc .vmem S1x800 .f32 := fun | 0 => Memref.whole cc2_stg10_0 | ⟨_ + 1, h⟩ => absurd h (Nat.not_lt.2 (Nat.le_add_left _ _))
abbrev sem2_10 : Fin 1 → DmaSem sig := fun | 0 => cc2_sem10_0 | ⟨_ + 1, h⟩ => absurd h (Nat.not_lt.2 (Nat.le_add_left _ _))
abbrev reads2_10 : Fin grid2.rank → Bool := ![false]

abbrev stage2_11 : Fin 1 → Memref sig .tc .vmem S1x800 .f32 := fun | 0 => Memref.whole cc2_stg11_0 | ⟨_ + 1, h⟩ => absurd h (Nat.not_lt.2 (Nat.le_add_left _ _))
abbrev sem2_11 : Fin 1 → DmaSem sig := fun | 0 => cc2_sem11_0 | ⟨_ + 1, h⟩ => absurd h (Nat.not_lt.2 (Nat.le_add_left _ _))
abbrev reads2_11 : Fin grid2.rank → Bool := ![false]

abbrev stage2_12 : Fin 1 → Memref sig .tc .vmem S1x800 .f32 := fun | 0 => Memref.whole cc2_stg12_0 | ⟨_ + 1, h⟩ => absurd h (Nat.not_lt.2 (Nat.le_add_left _ _))
abbrev sem2_12 : Fin 1 → DmaSem sig := fun | 0 => cc2_sem12_0 | ⟨_ + 1, h⟩ => absurd h (Nat.not_lt.2 (Nat.le_add_left _ _))
abbrev reads2_12 : Fin grid2.rank → Bool := ![false]

abbrev stage2_13 : Fin 1 → Memref sig .tc .vmem S256x800 .f32 := fun | 0 => Memref.whole cc2_stg13_0 | ⟨_ + 1, h⟩ => absurd h (Nat.not_lt.2 (Nat.le_add_left _ _))
abbrev sem2_13 : Fin 1 → DmaSem sig := fun | 0 => cc2_sem13_0 | ⟨_ + 1, h⟩ => absurd h (Nat.not_lt.2 (Nat.le_add_left _ _))
abbrev reads2_13 : Fin grid2.rank → Bool := ![false]

abbrev grid3 : Pipeline.Grid := ⟨1, ![25], ![false]⟩

@[reducible] def k3_t1_loop : Scf.Loop 32 :=
  let c0_i32 : BitVec 32 := 0#32
  let c4_i32 : BitVec 32 := 4#32
  let v23 : BitVec 32 := Scalar.addi c0_i32 c4_i32
  let c1_i32 : BitVec 32 := 1#32
  ⟨c0_i32, v23, c1_i32⟩
def k3_mult1 (k3_t1 : Fin k3_t1_loop.trips) : BitVec 32 :=
  let c0_i32_21 : BitVec 32 := 0#32
  let c0_i32 : BitVec 32 := 0#32
  let c1_i32 : BitVec 32 := 1#32
  let arg13 : BitVec 32 := Scf.iv c0_i32 c1_i32 k3_t1
  let c1_i32_20 : BitVec 32 := 1#32
  let v24 : BitVec 32 := Scalar.muli arg13 c1_i32_20
  let v25 : BitVec 32 := Scalar.addi c0_i32_21 v24
  let c128_i32 : BitVec 32 := 128#32
  let v26 : BitVec 32 := Scalar.muli v25 c128_i32
  v26
def k3_off1 (k3_t1 : Fin k3_t1_loop.trips) : Fin 2 → Nat :=
  let c0_i32_21 : BitVec 32 := 0#32
  let c0_i32 : BitVec 32 := 0#32
  let c1_i32 : BitVec 32 := 1#32
  let arg13 : BitVec 32 := Scf.iv c0_i32 c1_i32 k3_t1
  let c1_i32_20 : BitVec 32 := 1#32
  let v24 : BitVec 32 := Scalar.muli arg13 c1_i32_20
  let v25 : BitVec 32 := Scalar.addi c0_i32_21 v24
  let c128_i32 : BitVec 32 := 128#32
  let v26 : BitVec 32 := Scalar.muli v25 c128_i32
  let v27 : BitVec 32 := v26
  let v28 : Index := Scalar.indexCast v27
  let c0_22 : Index := 0#32
  ![v28.toNat, 0]
def k3_off2 (k3_t1 : Fin k3_t1_loop.trips) : Fin 3 → Nat :=
  let c0_37 : Index := 0#32
  let c0_i32_21 : BitVec 32 := 0#32
  let c0_i32 : BitVec 32 := 0#32
  let c1_i32 : BitVec 32 := 1#32
  let arg13 : BitVec 32 := Scf.iv c0_i32 c1_i32 k3_t1
  let c1_i32_20 : BitVec 32 := 1#32
  let v24 : BitVec 32 := Scalar.muli arg13 c1_i32_20
  let v25 : BitVec 32 := Scalar.addi c0_i32_21 v24
  let c128_i32 : BitVec 32 := 128#32
  let v26 : BitVec 32 := Scalar.muli v25 c128_i32
  let v27 : BitVec 32 := v26
  let v96 : Index := Scalar.indexCast v27
  let c0_38 : Index := 0#32
  ![0, v96.toNat, 0]
def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_6 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_7 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_8 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_9 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_10 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_11 (i : grid3.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage3_0 : Fin 2 → Memref sig .tc .vmem S8x512 .bf16 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S512x512 .bf16 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1024x1000 .bf16 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S1x1000 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S1x1000 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 1 → Memref sig .tc .vmem S1x1000 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev stage3_6 : Fin 1 → Memref sig .tc .vmem S1000x800 .bf16 := fun | 0 => Memref.whole cc3_stg6_0 | ⟨_ + 1, h⟩ => absurd h (Nat.not_lt.2 (Nat.le_add_left _ _))
abbrev sem3_6 : Fin 1 → DmaSem sig := fun | 0 => cc3_sem6_0 | ⟨_ + 1, h⟩ => absurd h (Nat.not_lt.2 (Nat.le_add_left _ _))
abbrev reads3_6 : Fin grid3.rank → Bool := ![false]

abbrev stage3_7 : Fin 1 → Memref sig .tc .vmem S1x800 .f32 := fun | 0 => Memref.whole cc3_stg7_0 | ⟨_ + 1, h⟩ => absurd h (Nat.not_lt.2 (Nat.le_add_left _ _))
abbrev sem3_7 : Fin 1 → DmaSem sig := fun | 0 => cc3_sem7_0 | ⟨_ + 1, h⟩ => absurd h (Nat.not_lt.2 (Nat.le_add_left _ _))
abbrev reads3_7 : Fin grid3.rank → Bool := ![false]

abbrev stage3_8 : Fin 1 → Memref sig .tc .vmem S1x800 .f32 := fun | 0 => Memref.whole cc3_stg8_0 | ⟨_ + 1, h⟩ => absurd h (Nat.not_lt.2 (Nat.le_add_left _ _))
abbrev sem3_8 : Fin 1 → DmaSem sig := fun | 0 => cc3_sem8_0 | ⟨_ + 1, h⟩ => absurd h (Nat.not_lt.2 (Nat.le_add_left _ _))
abbrev reads3_8 : Fin grid3.rank → Bool := ![false]

abbrev stage3_9 : Fin 1 → Memref sig .tc .vmem S1x800 .f32 := fun | 0 => Memref.whole cc3_stg9_0 | ⟨_ + 1, h⟩ => absurd h (Nat.not_lt.2 (Nat.le_add_left _ _))
abbrev sem3_9 : Fin 1 → DmaSem sig := fun | 0 => cc3_sem9_0 | ⟨_ + 1, h⟩ => absurd h (Nat.not_lt.2 (Nat.le_add_left _ _))
abbrev reads3_9 : Fin grid3.rank → Bool := ![false]

abbrev stage3_10 : Fin 1 → Memref sig .tc .vmem S256x800 .bf16 := fun | 0 => Memref.whole cc3_stg10_0 | ⟨_ + 1, h⟩ => absurd h (Nat.not_lt.2 (Nat.le_add_left _ _))
abbrev sem3_10 : Fin 1 → DmaSem sig := fun | 0 => cc3_sem10_0 | ⟨_ + 1, h⟩ => absurd h (Nat.not_lt.2 (Nat.le_add_left _ _))
abbrev reads3_10 : Fin grid3.rank → Bool := ![false]

abbrev stage3_11 : Fin 2 → Memref sig .tc .vmem S8x512x256 .f32 := fun | 0 => Memref.whole cc3_stg11_0 | 1 => Memref.whole cc3_stg11_1 | ⟨_ + 2, h⟩ => absurd h (Nat.not_lt.2 (Nat.le_add_left _ _))
abbrev sem3_11 : Fin 2 → DmaSem sig := fun | 0 => cc3_sem11_0 | 1 => cc3_sem11_1 | ⟨_ + 2, h⟩ => absurd h (Nat.not_lt.2 (Nat.le_add_left _ _))
abbrev reads3_11 : Fin grid3.rank → Bool := ![true]

class Facts₀ : Prop where
  slices_S2x50000_S1x50000_0_0 : S2x50000.Slices ![0, 0] S1x50000
  shapeCasts_S1x50000_S50000 : S1x50000.ShapeCasts S50000
  slices_S2x50000_S1x50000_1_0 : S2x50000.Slices ![1, 0] S1x50000
  bcast_S_S50000 : S_.BroadcastsInDim S50000 (![] : Fin 0 → Fin S50000.rank)
  bcast_S50000_S50000x1_0 : S50000.BroadcastsInDim S50000x1 (![0] : Fin 1 → Fin S50000x1.rank)
  bcast_S_S700x512 : S_.BroadcastsInDim S700x512 (![] : Fin 0 → Fin S700x512.rank)
  bcast_S_S700 : S_.BroadcastsInDim S700 (![] : Fin 0 → Fin S700.rank)
  bcast_S700_S700x1_0 : S700.BroadcastsInDim S700x1 (![0] : Fin 1 → Fin S700x1.rank)
  bcast_S700x1_S700x512_0_1 : S700x1.BroadcastsInDim S700x512 (![0, 1] : Fin 2 → Fin S700x512.rank)
  bitsLt_bf16_f32 : FTy.bits .bf16 < FTy.bits .f32
  shapeCasts_S2048_S1x2048 : S2048.ShapeCasts S1x2048
  inb_S700x512_S700x512_0_0 : ∀ a, (![0, 0] : Fin 2 → Nat) a + S700x512.size a ≤ S700x512.size a
  h_S700x512 : 0 < S700x512.numel
  shapeCasts_S700x512_S700x512 : S700x512.ShapeCasts S700x512
  inb_S512x2048_S512x2048_0_0 : ∀ a, (![0, 0] : Fin 2 → Nat) a + S512x2048.size a ≤ S512x2048.size a
  h_S512x2048 : 0 < S512x2048.numel
  shapeCasts_S512x2048_S512x2048 : S512x2048.ShapeCasts S512x2048
  inb_S1x2048_S1x2048_0_0 : ∀ a, (![0, 0] : Fin 2 → Nat) a + S1x2048.size a ≤ S1x2048.size a
  h_S1x2048 : 0 < S1x2048.numel
  shapeCasts_S1x2048_S1x2048 : S1x2048.ShapeCasts S1x2048
  broadcasts_S1x2048_S700x2048 : S1x2048.Broadcasts S700x2048
  inb_S700x2048_S700x2048_0_0 : ∀ a, (![0, 0] : Fin 2 → Nat) a + S700x2048.size a ≤ S700x2048.size a
  h_S700x2048 : 0 < S700x2048.numel
  bcast_S_S700x2048 : S_.BroadcastsInDim S700x2048 (![] : Fin 0 → Fin S700x2048.rank)
  bcast_S700x1_S700x2048_0_1 : S700x1.BroadcastsInDim S700x2048 (![0, 1] : Fin 2 → Fin S700x2048.rank)
  shapeCasts_S512_S1x512 : S512.ShapeCasts S1x512
  shapeCasts_S700x2048_S700x2048 : S700x2048.ShapeCasts S700x2048
  inb_S2048x512_S2048x512_0_0 : ∀ a, (![0, 0] : Fin 2 → Nat) a + S2048x512.size a ≤ S2048x512.size a
  h_S2048x512 : 0 < S2048x512.numel
  shapeCasts_S2048x512_S2048x512 : S2048x512.ShapeCasts S2048x512
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S700x512 : S1x512.Broadcasts S700x512
  shapeCasts_S800_S1x800 : S800.ShapeCasts S1x800
  shapeCasts_S1000_S1x1000 : S1000.ShapeCasts S1x1000
  inb_S256x512_S256x512_0_0 : ∀ a, (![0, 0] : Fin 2 → Nat) a + S256x512.size a ≤ S256x512.size a
  h_S256x512 : 0 < S256x512.numel
  inb_S512x800_S512x800_0_0 : ∀ a, (![0, 0] : Fin 2 → Nat) a + S512x800.size a ≤ S512x800.size a
  h_S512x800 : 0 < S512x800.numel
  shapeCasts_S512x800_S512x800 : S512x800.ShapeCasts S512x800
  inb_S1x800_S1x800_0_0 : ∀ a, (![0, 0] : Fin 2 → Nat) a + S1x800.size a ≤ S1x800.size a
  h_S1x800 : 0 < S1x800.numel
  shapeCasts_S1x800_S1x800 : S1x800.ShapeCasts S1x800
  broadcasts_S1x800_S256x800 : S1x800.Broadcasts S256x800
  reduces_S256x800_S256 : S256x800.Reduces [1] S256
  shapeCasts_S256_S256x1 : S256.ShapeCasts S256x1
  broadcasts_S256x1_S256x800 : S256x1.Broadcasts S256x800
  inb_S800x1000_S800x1000_0_0 : ∀ a, (![0, 0] : Fin 2 → Nat) a + S800x1000.size a ≤ S800x1000.size a
  h_S800x1000 : 0 < S800x1000.numel
  shapeCasts_S800x1000_S800x1000 : S800x1000.ShapeCasts S800x1000
  inb_S1x1000_S1x1000_0_0 : ∀ a, (![0, 0] : Fin 2 → Nat) a + S1x1000.size a ≤ S1x1000.size a
  h_S1x1000 : 0 < S1x1000.numel
  shapeCasts_S1x1000_S1x1000 : S1x1000.ShapeCasts S1x1000
  broadcasts_S1x1000_S256x1000 : S1x1000.Broadcasts S256x1000
  reduces_S256x1000_S256 : S256x1000.Reduces [1] S256
  broadcasts_S256x1_S256x1000 : S256x1.Broadcasts S256x1000
  inb_S1000x800_S1000x800_0_0 : ∀ a, (![0, 0] : Fin 2 → Nat) a + S1000x800.size a ≤ S1000x800.size a
  h_S1000x800 : 0 < S1000x800.numel
  shapeCasts_S1000x800_S1000x800 : S1000x800.ShapeCasts S1000x800
  inb_S256x800_S256x800_0_0 : ∀ a, (![0, 0] : Fin 2 → Nat) a + S256x800.size a ≤ S256x800.size a
  h_S256x800 : 0 < S256x800.numel
  slices_S700x512_S200x512_0_0 : S700x512.Slices ![0, 0] S200x512
  slices_S700x512_S500x512_200_0 : S700x512.Slices ![200, 0] S500x512
  pads_S500x512_S512x512_0120_000 : S500x512.Pads (![0, 0] : Fin 2 → Nat) ![12, 0] ![0, 0] S512x512
  h_S_ : 0 < S_.numel
  inb_S8x512_S8x512_0_0 : ∀ a, (![0, 0] : Fin 2 → Nat) a + S8x512.size a ≤ S8x512.size a
  h_S8x512 : 0 < S8x512.numel
  shapeCasts_S8x512_S8x512 : S8x512.ShapeCasts S8x512
  inb_S1024x1000_S1024x1000_0_0 : ∀ a, (![0, 0] : Fin 2 → Nat) a + S1024x1000.size a ≤ S1024x1000.size a
  h_S1024x1000 : 0 < S1024x1000.numel
  shapeCasts_S1024x1000_S1024x1000 : S1024x1000.ShapeCasts S1024x1000
  slices_S1024x1000_o0_0_S512x1000 : S1024x1000.Slices ![0, 0] S512x1000
  slices_S1024x1000_o512_0_S512x1000 : S1024x1000.Slices ![512, 0] S512x1000
  shapeCasts_S256x800_S256x800 : S256x800.ShapeCasts S256x800
  h_S128x512 : 0 < S128x512.numel
  shapeCasts_S128x512_S128x512 : S128x512.ShapeCasts S128x512
  shapeCasts_S8x1000_S8x1x1000 : S8x1000.ShapeCasts S8x1x1000
  shapeCasts_S128x1000_S1x128x1000 : S128x1000.ShapeCasts S1x128x1000
  broadcasts_S8x1x1000_S8x128x1000 : S8x1x1000.Broadcasts S8x128x1000
  broadcasts_S1x128x1000_S8x128x1000 : S1x128x1000.Broadcasts S8x128x1000
  shapeCasts_S1x1000_S1x1x1000 : S1x1000.ShapeCasts S1x1x1000
  broadcasts_S1x1x1000_S8x128x1000 : S1x1x1000.Broadcasts S8x128x1000
  reduces_S8x128x1000_S8x128 : S8x128x1000.Reduces [2] S8x128
  shapeCasts_S8x128_S8x128x1 : S8x128.ShapeCasts S8x128x1
  broadcasts_S8x128x1_S8x128x1000 : S8x128x1.Broadcasts S8x128x1000
  shapeCasts_S8x128x1000_S1024x1000 : S8x128x1000.ShapeCasts S1024x1000
  broadcasts_S1x800_S1024x800 : S1x800.Broadcasts S1024x800
  reduces_S1024x800_S1024 : S1024x800.Reduces [1] S1024
  shapeCasts_S1024_S1024x1 : S1024.ShapeCasts S1024x1
  broadcasts_S1024x1_S1024x800 : S1024x1.Broadcasts S1024x800
  shapeCasts_S1024x256_S8x128x256 : S1024x256.ShapeCasts S8x128x256
  h_S8x128x256 : 0 < S8x128x256.numel
  slices_S200x512x256_S200x500x256_0_0_0 : S200x512x256.Slices ![0, 0, 0] S200x500x256
  transposes_S200x500x256_S256x200x500_2_0_1 : S200x500x256.Transposes [2, 0, 1] S256x200x500
  shapeCasts_S256x200x500_S256x100000 : S256x200x500.ShapeCasts S256x100000
  gather_S700x512_S50000x1_S50000x512_1_0_n_n_0_1_1512_wf : GatherDims.WF S700x512 S50000x1 S50000x512 [1] [0] [] [0] [] 1 ![1, 512]
  scatter_S700x512_S50000x1_S50000x512_1_0_0_1_wf : ScatterDims.WF S700x512 S50000x1 S50000x512 [1] [0] [0] 1
  scatter_S700_S50000x1_S50000_n_0_0_1_wf : ScatterDims.WF S700 S50000x1 S50000 [] [0] [0] 1
  dot_S700x512_S512x2048_S700x2048_1_0_0_1_n_n_wf : DotDims.WF S700x512 S512x2048 S700x2048 [1] [0] [0] [1] [] []
  gather_S700x2048_S50000x1_S50000x2048_1_0_n_n_0_1_12048_wf : GatherDims.WF S700x2048 S50000x1 S50000x2048 [1] [0] [] [0] [] 1 ![1, 2048]
  scatter_S700x2048_S50000x1_S50000x2048_1_0_0_1_wf : ScatterDims.WF S700x2048 S50000x1 S50000x2048 [1] [0] [0] 1
  dot_S700x2048_S2048x512_S700x512_1_0_0_1_n_n_wf : DotDims.WF S700x2048 S2048x512 S700x512 [1] [0] [0] [1] [] []
  dot_S256x512_S512x800_S256x800_1_0_0_1_n_n_wf : DotDims.WF S256x512 S512x800 S256x800 [1] [0] [0] [1] [] []
  dot_S256x800_S800x1000_S256x1000_1_0_0_1_n_n_wf : DotDims.WF S256x800 S800x1000 S256x1000 [1] [0] [0] [1] [] []
  dot_S256x1000_S1000x800_S256x800_1_0_0_1_n_n_wf : DotDims.WF S256x1000 S1000x800 S256x800 [1] [0] [0] [1] [] []
  dot_S8x512_S512x1000_S8x1000_1_0_0_1_n_n_wf : DotDims.WF S8x512 S512x1000 S8x1000 [1] [0] [0] [1] [] []
  dot_S128x512_S512x1000_S128x1000_1_0_0_1_n_n_wf : DotDims.WF S128x512 S512x1000 S128x1000 [1] [0] [0] [1] [] []
  dot_S1024x1000_S1000x800_S1024x800_1_0_0_1_n_n_wf : DotDims.WF S1024x1000 S1000x800 S1024x800 [1] [0] [0] [1] [] []
  dot_S1024x800_S256x800_S1024x256_1_1_0_0_n_n_wf : DotDims.WF S1024x800 S256x800 S1024x256 [1] [1] [0] [0] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S700x512.size a ≤ S700x512.size a
  hwx0_0 : ∀ i : grid0.Coords, EltTy.bits .f32 = 32 ∨ (Rect.block (s := S700x512) S700x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S700x512.size a ≤ S700x512.size a
  hwx0_1 : ∀ i : grid0.Coords, EltTy.bits .f32 = 32 ∨ (Rect.block (s := S700x512) S700x512.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S512x2048.size a ≤ S512x2048.size a
  hwx0_2 : ∀ i : grid0.Coords, EltTy.bits .bf16 = 32 ∨ (Rect.block (s := S512x2048) S512x2048.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x2048.size a ≤ S1x2048.size a
  hwx0_3 : ∀ i : grid0.Coords, EltTy.bits .f32 = 32 ∨ (Rect.block (s := S1x2048) S1x2048.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S512x2048.size a ≤ S512x2048.size a
  hwx0_4 : ∀ i : grid0.Coords, EltTy.bits .bf16 = 32 ∨ (Rect.block (s := S512x2048) S512x2048.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S700x2048.size a ≤ S700x2048.size a
  hwx0_5 : ∀ i : grid0.Coords, EltTy.bits .f32 = 32 ∨ (Rect.block (s := S700x2048) S700x2048.size (cc0_transform_5 i) (hinb0_5 i)).WholeWords (EltTy.packing .f32)
  hrank1 : 0 < grid1.rank
  hstage1_0 : ∀ j, (stage1_0 j).IsWhole
  nbuf1_0 : grid1.bufCount reads1_0 true = 1
  hreads1_0 : ∀ i i' : grid1.Coords, (∀ a, reads1_0 a = true → i a = i' a) → cc1_transform_0 i = cc1_transform_0 i'
  hinb1_0 : ∀ (i : grid1.Coords) a, (cc1_transform_0 i a + 1) * S700x2048.size a ≤ S700x2048.size a
  hwx1_0 : ∀ i : grid1.Coords, EltTy.bits .f32 = 32 ∨ (Rect.block (s := S700x2048) S700x2048.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S700x2048.size a ≤ S700x2048.size a
  hwx1_1 : ∀ i : grid1.Coords, EltTy.bits .f32 = 32 ∨ (Rect.block (s := S700x2048) S700x2048.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S2048x512.size a ≤ S2048x512.size a
  hwx1_2 : ∀ i : grid1.Coords, EltTy.bits .bf16 = 32 ∨ (Rect.block (s := S2048x512) S2048x512.size (cc1_transform_2 i) (hinb1_2 i)).WholeWords (EltTy.packing .bf16)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x512.size a ≤ S1x512.size a
  hwx1_3 : ∀ i : grid1.Coords, EltTy.bits .f32 = 32 ∨ (Rect.block (s := S1x512) S1x512.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S2048x512.size a ≤ S2048x512.size a
  hwx1_4 : ∀ i : grid1.Coords, EltTy.bits .bf16 = 32 ∨ (Rect.block (s := S2048x512) S2048x512.size (cc1_transform_4 i) (hinb1_4 i)).WholeWords (EltTy.packing .bf16)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S700x512.size a ≤ S700x512.size a
  hwx1_5 : ∀ i : grid1.Coords, EltTy.bits .f32 = 32 ∨ (Rect.block (s := S700x512) S700x512.size (cc1_transform_5 i) (hinb1_5 i)).WholeWords (EltTy.packing .f32)
  hrank2 : 0 < grid2.rank
  hstage2_0 : ∀ j, (stage2_0 j).IsWhole
  nbuf2_0 : grid2.bufCount reads2_0 true = 1
  hreads2_0 : ∀ i i' : grid2.Coords, (∀ a, reads2_0 a = true → i a = i' a) → cc2_transform_0 i = cc2_transform_0 i'
  hinb2_0 : ∀ (i : grid2.Coords) a, (cc2_transform_0 i a + 1) * S256x512.size a ≤ S256x512.size a
  hwx2_0 : ∀ i : grid2.Coords, EltTy.bits .f32 = 32 ∨ (Rect.block (s := S256x512) S256x512.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S512x800.size a ≤ S512x800.size a
  hwx2_1 : ∀ i : grid2.Coords, EltTy.bits .bf16 = 32 ∨ (Rect.block (s := S512x800) S512x800.size (cc2_transform_1 i) (hinb2_1 i)).WholeWords (EltTy.packing .bf16)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x800.size a ≤ S1x800.size a
  hwx2_2 : ∀ i : grid2.Coords, EltTy.bits .f32 = 32 ∨ (Rect.block (s := S1x800) S1x800.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x800.size a ≤ S1x800.size a
  hwx2_3 : ∀ i : grid2.Coords, EltTy.bits .f32 = 32 ∨ (Rect.block (s := S1x800) S1x800.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x800.size a ≤ S1x800.size a
  hwx2_4 : ∀ i : grid2.Coords, EltTy.bits .f32 = 32 ∨ (Rect.block (s := S1x800) S1x800.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S800x1000.size a ≤ S800x1000.size a
  hwx2_5 : ∀ i : grid2.Coords, EltTy.bits .bf16 = 32 ∨ (Rect.block (s := S800x1000) S800x1000.size (cc2_transform_5 i) (hinb2_5 i)).WholeWords (EltTy.packing .bf16)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S1x1000.size a ≤ S1x1000.size a
  hwx2_6 : ∀ i : grid2.Coords, EltTy.bits .f32 = 32 ∨ (Rect.block (s := S1x1000) S1x1000.size (cc2_transform_6 i) (hinb2_6 i)).WholeWords (EltTy.packing .f32)
  hstage2_7 : ∀ j, (stage2_7 j).IsWhole
  nbuf2_7 : grid2.bufCount reads2_7 true = 1
  hreads2_7 : ∀ i i' : grid2.Coords, (∀ a, reads2_7 a = true → i a = i' a) → cc2_transform_7 i = cc2_transform_7 i'
  hinb2_7 : ∀ (i : grid2.Coords) a, (cc2_transform_7 i a + 1) * S1x1000.size a ≤ S1x1000.size a
  hwx2_7 : ∀ i : grid2.Coords, EltTy.bits .f32 = 32 ∨ (Rect.block (s := S1x1000) S1x1000.size (cc2_transform_7 i) (hinb2_7 i)).WholeWords (EltTy.packing .f32)
  hstage2_8 : ∀ j, (stage2_8 j).IsWhole
  nbuf2_8 : grid2.bufCount reads2_8 true = 1
  hreads2_8 : ∀ i i' : grid2.Coords, (∀ a, reads2_8 a = true → i a = i' a) → cc2_transform_8 i = cc2_transform_8 i'
  hinb2_8 : ∀ (i : grid2.Coords) a, (cc2_transform_8 i a + 1) * S1x1000.size a ≤ S1x1000.size a
  hwx2_8 : ∀ i : grid2.Coords, EltTy.bits .f32 = 32 ∨ (Rect.block (s := S1x1000) S1x1000.size (cc2_transform_8 i) (hinb2_8 i)).WholeWords (EltTy.packing .f32)
  hstage2_9 : ∀ j, (stage2_9 j).IsWhole
  nbuf2_9 : grid2.bufCount reads2_9 true = 1
  hreads2_9 : ∀ i i' : grid2.Coords, (∀ a, reads2_9 a = true → i a = i' a) → cc2_transform_9 i = cc2_transform_9 i'
  hinb2_9 : ∀ (i : grid2.Coords) a, (cc2_transform_9 i a + 1) * S1000x800.size a ≤ S1000x800.size a
  hwx2_9 : ∀ i : grid2.Coords, EltTy.bits .bf16 = 32 ∨ (Rect.block (s := S1000x800) S1000x800.size (cc2_transform_9 i) (hinb2_9 i)).WholeWords (EltTy.packing .bf16)
  hstage2_10 : ∀ j, (stage2_10 j).IsWhole
  nbuf2_10 : grid2.bufCount reads2_10 true = 1
  hreads2_10 : ∀ i i' : grid2.Coords, (∀ a, reads2_10 a = true → i a = i' a) → cc2_transform_10 i = cc2_transform_10 i'
  hinb2_10 : ∀ (i : grid2.Coords) a, (cc2_transform_10 i a + 1) * S1x800.size a ≤ S1x800.size a
  hwx2_10 : ∀ i : grid2.Coords, EltTy.bits .f32 = 32 ∨ (Rect.block (s := S1x800) S1x800.size (cc2_transform_10 i) (hinb2_10 i)).WholeWords (EltTy.packing .f32)
  hstage2_11 : ∀ j, (stage2_11 j).IsWhole
  nbuf2_11 : grid2.bufCount reads2_11 true = 1
  hreads2_11 : ∀ i i' : grid2.Coords, (∀ a, reads2_11 a = true → i a = i' a) → cc2_transform_11 i = cc2_transform_11 i'
  hinb2_11 : ∀ (i : grid2.Coords) a, (cc2_transform_11 i a + 1) * S1x800.size a ≤ S1x800.size a
  hwx2_11 : ∀ i : grid2.Coords, EltTy.bits .f32 = 32 ∨ (Rect.block (s := S1x800) S1x800.size (cc2_transform_11 i) (hinb2_11 i)).WholeWords (EltTy.packing .f32)
  hstage2_12 : ∀ j, (stage2_12 j).IsWhole
  nbuf2_12 : grid2.bufCount reads2_12 true = 1
  hreads2_12 : ∀ i i' : grid2.Coords, (∀ a, reads2_12 a = true → i a = i' a) → cc2_transform_12 i = cc2_transform_12 i'
  hinb2_12 : ∀ (i : grid2.Coords) a, (cc2_transform_12 i a + 1) * S1x800.size a ≤ S1x800.size a
  hwx2_12 : ∀ i : grid2.Coords, EltTy.bits .f32 = 32 ∨ (Rect.block (s := S1x800) S1x800.size (cc2_transform_12 i) (hinb2_12 i)).WholeWords (EltTy.packing .f32)
  hstage2_13 : ∀ j, (stage2_13 j).IsWhole
  nbuf2_13 : grid2.bufCount reads2_13 true = 1
  hreads2_13 : ∀ i i' : grid2.Coords, (∀ a, reads2_13 a = true → i a = i' a) → cc2_transform_13 i = cc2_transform_13 i'
  hinb2_13 : ∀ (i : grid2.Coords) a, (cc2_transform_13 i a + 1) * S256x800.size a ≤ S256x800.size a
  hwx2_13 : ∀ i : grid2.Coords, EltTy.bits .f32 = 32 ∨ (Rect.block (s := S256x800) S256x800.size (cc2_transform_13 i) (hinb2_13 i)).WholeWords (EltTy.packing .f32)
  hrank3 : 0 < grid3.rank
  k3_t1_ok : k3_t1_loop.OK
  k3_mult1_dvd : ∀ k3_t1 : Fin k3_t1_loop.trips, 128 ∣ (k3_mult1 k3_t1).toNat
  k3_off1_inb : ∀ k3_t1 : Fin k3_t1_loop.trips, ∀ a, (k3_off1 k3_t1) a + S128x512.size a ≤ S512x512.size a
  k3_off2_inb : ∀ k3_t1 : Fin k3_t1_loop.trips, ∀ a, (k3_off2 k3_t1) a + S8x128x256.size a ≤ S8x512x256.size a
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S8x512.size a ≤ S200x512.size a
  hwx3_0 : ∀ i : grid3.Coords, EltTy.bits .bf16 = 32 ∨ (Rect.block (s := S200x512) S8x512.size (cc3_transform_0 i) (hinb3_0 i)).WholeWords (EltTy.packing .bf16)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S512x512.size a ≤ S512x512.size a
  hwx3_1 : ∀ i : grid3.Coords, EltTy.bits .bf16 = 32 ∨ (Rect.block (s := S512x512) S512x512.size (cc3_transform_1 i) (hinb3_1 i)).WholeWords (EltTy.packing .bf16)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1024x1000.size a ≤ S1024x1000.size a
  hwx3_2 : ∀ i : grid3.Coords, EltTy.bits .bf16 = 32 ∨ (Rect.block (s := S1024x1000) S1024x1000.size (cc3_transform_2 i) (hinb3_2 i)).WholeWords (EltTy.packing .bf16)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x1000.size a ≤ S1x1000.size a
  hwx3_3 : ∀ i : grid3.Coords, EltTy.bits .f32 = 32 ∨ (Rect.block (s := S1x1000) S1x1000.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S1x1000.size a ≤ S1x1000.size a
  hwx3_4 : ∀ i : grid3.Coords, EltTy.bits .f32 = 32 ∨ (Rect.block (s := S1x1000) S1x1000.size (cc3_transform_4 i) (hinb3_4 i)).WholeWords (EltTy.packing .f32)
  hstage3_5 : ∀ j, (stage3_5 j).IsWhole
  nbuf3_5 : grid3.bufCount reads3_5 true = 1
  hreads3_5 : ∀ i i' : grid3.Coords, (∀ a, reads3_5 a = true → i a = i' a) → cc3_transform_5 i = cc3_transform_5 i'
  hinb3_5 : ∀ (i : grid3.Coords) a, (cc3_transform_5 i a + 1) * S1x1000.size a ≤ S1x1000.size a
  hwx3_5 : ∀ i : grid3.Coords, EltTy.bits .f32 = 32 ∨ (Rect.block (s := S1x1000) S1x1000.size (cc3_transform_5 i) (hinb3_5 i)).WholeWords (EltTy.packing .f32)
  hstage3_6 : ∀ j, (stage3_6 j).IsWhole
  nbuf3_6 : grid3.bufCount reads3_6 true = 1
  hreads3_6 : ∀ i i' : grid3.Coords, (∀ a, reads3_6 a = true → i a = i' a) → cc3_transform_6 i = cc3_transform_6 i'
  hinb3_6 : ∀ (i : grid3.Coords) a, (cc3_transform_6 i a + 1) * S1000x800.size a ≤ S1000x800.size a
  hwx3_6 : ∀ i : grid3.Coords, EltTy.bits .bf16 = 32 ∨ (Rect.block (s := S1000x800) S1000x800.size (cc3_transform_6 i) (hinb3_6 i)).WholeWords (EltTy.packing .bf16)
  hstage3_7 : ∀ j, (stage3_7 j).IsWhole
  nbuf3_7 : grid3.bufCount reads3_7 true = 1
  hreads3_7 : ∀ i i' : grid3.Coords, (∀ a, reads3_7 a = true → i a = i' a) → cc3_transform_7 i = cc3_transform_7 i'
  hinb3_7 : ∀ (i : grid3.Coords) a, (cc3_transform_7 i a + 1) * S1x800.size a ≤ S1x800.size a
  hwx3_7 : ∀ i : grid3.Coords, EltTy.bits .f32 = 32 ∨ (Rect.block (s := S1x800) S1x800.size (cc3_transform_7 i) (hinb3_7 i)).WholeWords (EltTy.packing .f32)
  hstage3_8 : ∀ j, (stage3_8 j).IsWhole
  nbuf3_8 : grid3.bufCount reads3_8 true = 1
  hreads3_8 : ∀ i i' : grid3.Coords, (∀ a, reads3_8 a = true → i a = i' a) → cc3_transform_8 i = cc3_transform_8 i'
  hinb3_8 : ∀ (i : grid3.Coords) a, (cc3_transform_8 i a + 1) * S1x800.size a ≤ S1x800.size a
  hwx3_8 : ∀ i : grid3.Coords, EltTy.bits .f32 = 32 ∨ (Rect.block (s := S1x800) S1x800.size (cc3_transform_8 i) (hinb3_8 i)).WholeWords (EltTy.packing .f32)
  hstage3_9 : ∀ j, (stage3_9 j).IsWhole
  nbuf3_9 : grid3.bufCount reads3_9 true = 1
  hreads3_9 : ∀ i i' : grid3.Coords, (∀ a, reads3_9 a = true → i a = i' a) → cc3_transform_9 i = cc3_transform_9 i'
  hinb3_9 : ∀ (i : grid3.Coords) a, (cc3_transform_9 i a + 1) * S1x800.size a ≤ S1x800.size a
  hwx3_9 : ∀ i : grid3.Coords, EltTy.bits .f32 = 32 ∨ (Rect.block (s := S1x800) S1x800.size (cc3_transform_9 i) (hinb3_9 i)).WholeWords (EltTy.packing .f32)
  hstage3_10 : ∀ j, (stage3_10 j).IsWhole
  nbuf3_10 : grid3.bufCount reads3_10 true = 1
  hreads3_10 : ∀ i i' : grid3.Coords, (∀ a, reads3_10 a = true → i a = i' a) → cc3_transform_10 i = cc3_transform_10 i'
  hinb3_10 : ∀ (i : grid3.Coords) a, (cc3_transform_10 i a + 1) * S256x800.size a ≤ S256x800.size a
  hwx3_10 : ∀ i : grid3.Coords, EltTy.bits .bf16 = 32 ∨ (Rect.block (s := S256x800) S256x800.size (cc3_transform_10 i) (hinb3_10 i)).WholeWords (EltTy.packing .bf16)
  hstage3_11 : ∀ j, (stage3_11 j).IsWhole
  nbuf3_11 : grid3.bufCount reads3_11 false = 2
  hreads3_11 : ∀ i i' : grid3.Coords, (∀ a, reads3_11 a = true → i a = i' a) → cc3_transform_11 i = cc3_transform_11 i'
  hinb3_11 : ∀ (i : grid3.Coords) a, (cc3_transform_11 i a + 1) * S8x512x256.size a ≤ S200x512x256.size a
  hwx3_11 : ∀ i : grid3.Coords, EltTy.bits .f32 = 32 ∨ (Rect.block (s := S200x512x256) S8x512x256.size (cc3_transform_11 i) (hinb3_11 i)).WholeWords (EltTy.packing .f32)

variable [Facts₀]

def gather_S700x512_S50000x1_S50000x512_1_0_n_n_0_1_1512 : GatherDims S700x512 S50000x1 S50000x512 where
  offsetDims := [1]
  collapsedSliceDims := [0]
  operandBatchingDims := []
  startIndicesBatchingDims := []
  startIndexMap := [0]
  indexVectorDim := 1
  sliceSizes := ![1, 512]
  wf := gather_S700x512_S50000x1_S50000x512_1_0_n_n_0_1_1512_wf
def scatter_S700x512_S50000x1_S50000x512_1_0_0_1 : ScatterDims S700x512 S50000x1 S50000x512 where
  updateWindowDims := [1]
  insertedWindowDims := [0]
  scatterDimsToOperandDims := [0]
  indexVectorDim := 1
  wf := scatter_S700x512_S50000x1_S50000x512_1_0_0_1_wf
def scatter_S700_S50000x1_S50000_n_0_0_1 : ScatterDims S700 S50000x1 S50000 where
  updateWindowDims := []
  insertedWindowDims := [0]
  scatterDimsToOperandDims := [0]
  indexVectorDim := 1
  wf := scatter_S700_S50000x1_S50000_n_0_0_1_wf
def dot_S700x512_S512x2048_S700x2048_1_0_0_1_n_n : DotDims S700x512 S512x2048 S700x2048 where
  lhsContracting := [1]
  rhsContracting := [0]
  lhsNonContracting := [0]
  rhsNonContracting := [1]
  lhsBatch := []
  rhsBatch := []
  wf := dot_S700x512_S512x2048_S700x2048_1_0_0_1_n_n_wf
def gather_S700x2048_S50000x1_S50000x2048_1_0_n_n_0_1_12048 : GatherDims S700x2048 S50000x1 S50000x2048 where
  offsetDims := [1]
  collapsedSliceDims := [0]
  operandBatchingDims := []
  startIndicesBatchingDims := []
  startIndexMap := [0]
  indexVectorDim := 1
  sliceSizes := ![1, 2048]
  wf := gather_S700x2048_S50000x1_S50000x2048_1_0_n_n_0_1_12048_wf
def scatter_S700x2048_S50000x1_S50000x2048_1_0_0_1 : ScatterDims S700x2048 S50000x1 S50000x2048 where
  updateWindowDims := [1]
  insertedWindowDims := [0]
  scatterDimsToOperandDims := [0]
  indexVectorDim := 1
  wf := scatter_S700x2048_S50000x1_S50000x2048_1_0_0_1_wf
def dot_S700x2048_S2048x512_S700x512_1_0_0_1_n_n : DotDims S700x2048 S2048x512 S700x512 where
  lhsContracting := [1]
  rhsContracting := [0]
  lhsNonContracting := [0]
  rhsNonContracting := [1]
  lhsBatch := []
  rhsBatch := []
  wf := dot_S700x2048_S2048x512_S700x512_1_0_0_1_n_n_wf
def dot_S256x512_S512x800_S256x800_1_0_0_1_n_n : DotDims S256x512 S512x800 S256x800 where
  lhsContracting := [1]
  rhsContracting := [0]
  lhsNonContracting := [0]
  rhsNonContracting := [1]
  lhsBatch := []
  rhsBatch := []
  wf := dot_S256x512_S512x800_S256x800_1_0_0_1_n_n_wf
def dot_S256x800_S800x1000_S256x1000_1_0_0_1_n_n : DotDims S256x800 S800x1000 S256x1000 where
  lhsContracting := [1]
  rhsContracting := [0]
  lhsNonContracting := [0]
  rhsNonContracting := [1]
  lhsBatch := []
  rhsBatch := []
  wf := dot_S256x800_S800x1000_S256x1000_1_0_0_1_n_n_wf
def dot_S256x1000_S1000x800_S256x800_1_0_0_1_n_n : DotDims S256x1000 S1000x800 S256x800 where
  lhsContracting := [1]
  rhsContracting := [0]
  lhsNonContracting := [0]
  rhsNonContracting := [1]
  lhsBatch := []
  rhsBatch := []
  wf := dot_S256x1000_S1000x800_S256x800_1_0_0_1_n_n_wf
def dot_S8x512_S512x1000_S8x1000_1_0_0_1_n_n : DotDims S8x512 S512x1000 S8x1000 where
  lhsContracting := [1]
  rhsContracting := [0]
  lhsNonContracting := [0]
  rhsNonContracting := [1]
  lhsBatch := []
  rhsBatch := []
  wf := dot_S8x512_S512x1000_S8x1000_1_0_0_1_n_n_wf
def dot_S128x512_S512x1000_S128x1000_1_0_0_1_n_n : DotDims S128x512 S512x1000 S128x1000 where
  lhsContracting := [1]
  rhsContracting := [0]
  lhsNonContracting := [0]
  rhsNonContracting := [1]
  lhsBatch := []
  rhsBatch := []
  wf := dot_S128x512_S512x1000_S128x1000_1_0_0_1_n_n_wf
def dot_S1024x1000_S1000x800_S1024x800_1_0_0_1_n_n : DotDims S1024x1000 S1000x800 S1024x800 where
  lhsContracting := [1]
  rhsContracting := [0]
  lhsNonContracting := [0]
  rhsNonContracting := [1]
  lhsBatch := []
  rhsBatch := []
  wf := dot_S1024x1000_S1000x800_S1024x800_1_0_0_1_n_n_wf
def dot_S1024x800_S256x800_S1024x256_1_1_0_0_n_n : DotDims S1024x800 S256x800 S1024x256 where
  lhsContracting := [1]
  rhsContracting := [1]
  lhsNonContracting := [0]
  rhsNonContracting := [0]
  lhsBatch := []
  rhsBatch := []
  wf := dot_S1024x800_S256x800_S1024x256_1_1_0_0_n_n_wf

abbrev win0_0 : Pipeline.Window sig grid0 :=
  Pipeline.Window.ofSpec (Memref.whole main_v22) S700x512.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S700x512.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v23) S512x2048.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v25) S1x2048.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v24) S512x2048.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v26) S700x2048.size cc0_transform_5 reads0_5 true true 1 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v45) S700x2048.size cc1_transform_0 reads1_0 false true 1 stage1_0 sem1_0
    hrank1 hreads1_0 hinb1_0 nbuf1_0 (Memref.isWhole_whole _) hwx1_0 hstage1_0

abbrev win1_1 : Pipeline.Window sig grid1 :=
  Pipeline.Window.ofSpec (Memref.whole main_v26) S700x2048.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v46) S2048x512.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v48) S1x512.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v47) S2048x512.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v49) S700x512.size cc1_transform_5 reads1_5 true true 1 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_arg0) S256x512.size cc2_transform_0 reads2_0 false true 1 stage2_0 sem2_0
    hrank2 hreads2_0 hinb2_0 nbuf2_0 (Memref.isWhole_whole _) hwx2_0 hstage2_0

abbrev win2_1 : Pipeline.Window sig grid2 :=
  Pipeline.Window.ofSpec (Memref.whole main_v50) S512x800.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v53) S1x800.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v54) S1x800.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v55) S1x800.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v51) S800x1000.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v56) S1x1000.size cc2_transform_6 reads2_6 false true 1 stage2_6 sem2_6
    hrank2 hreads2_6 hinb2_6 nbuf2_6 (Memref.isWhole_whole _) hwx2_6 hstage2_6

abbrev win2_7 : Pipeline.Window sig grid2 :=
  Pipeline.Window.ofSpec (Memref.whole main_v57) S1x1000.size cc2_transform_7 reads2_7 false true 1 stage2_7 sem2_7
    hrank2 hreads2_7 hinb2_7 nbuf2_7 (Memref.isWhole_whole _) hwx2_7 hstage2_7

abbrev win2_8 : Pipeline.Window sig grid2 :=
  Pipeline.Window.ofSpec (Memref.whole main_v58) S1x1000.size cc2_transform_8 reads2_8 false true 1 stage2_8 sem2_8
    hrank2 hreads2_8 hinb2_8 nbuf2_8 (Memref.isWhole_whole _) hwx2_8 hstage2_8

abbrev win2_9 : Pipeline.Window sig grid2 :=
  Pipeline.Window.ofSpec (Memref.whole main_v52) S1000x800.size cc2_transform_9 reads2_9 false true 1 stage2_9 sem2_9
    hrank2 hreads2_9 hinb2_9 nbuf2_9 (Memref.isWhole_whole _) hwx2_9 hstage2_9

abbrev win2_10 : Pipeline.Window sig grid2 :=
  Pipeline.Window.ofSpec (Memref.whole main_v59) S1x800.size cc2_transform_10 reads2_10 false true 1 stage2_10 sem2_10
    hrank2 hreads2_10 hinb2_10 nbuf2_10 (Memref.isWhole_whole _) hwx2_10 hstage2_10

abbrev win2_11 : Pipeline.Window sig grid2 :=
  Pipeline.Window.ofSpec (Memref.whole main_v60) S1x800.size cc2_transform_11 reads2_11 false true 1 stage2_11 sem2_11
    hrank2 hreads2_11 hinb2_11 nbuf2_11 (Memref.isWhole_whole _) hwx2_11 hstage2_11

abbrev win2_12 : Pipeline.Window sig grid2 :=
  Pipeline.Window.ofSpec (Memref.whole main_v61) S1x800.size cc2_transform_12 reads2_12 false true 1 stage2_12 sem2_12
    hrank2 hreads2_12 hinb2_12 nbuf2_12 (Memref.isWhole_whole _) hwx2_12 hstage2_12

abbrev win2_13 : Pipeline.Window sig grid2 :=
  Pipeline.Window.ofSpec (Memref.whole main_v62) S256x800.size cc2_transform_13 reads2_13 true true 1 stage2_13 sem2_13
    hrank2 hreads2_13 hinb2_13 nbuf2_13 (Memref.isWhole_whole _) hwx2_13 hstage2_13

abbrev win2 : Fin 14 → Pipeline.Window sig grid2 := fun | 0 => win2_0 | 1 => win2_1 | 2 => win2_2 | 3 => win2_3 | 4 => win2_4 | 5 => win2_5 | 6 => win2_6 | 7 => win2_7 | 8 => win2_8 | 9 => win2_9 | 10 => win2_10 | 11 => win2_11 | 12 => win2_12 | 13 => win2_13 | ⟨_ + 14, h⟩ => absurd h (Nat.not_lt.2 (Nat.le_add_left _ _))
abbrev spec2 : Fin 14 → Pipeline.WinSpec sig grid2.rank := fun w => (win2 w).toWinSpec

abbrev win3_0 : Pipeline.Window sig grid3 :=
  Pipeline.Window.ofSpec (Memref.whole main_v65) S8x512.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v67) S512x512.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v68) S1024x1000.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v71) S1x1000.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v72) S1x1000.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v73) S1x1000.size cc3_transform_5 reads3_5 false true 1 stage3_5 sem3_5
    hrank3 hreads3_5 hinb3_5 nbuf3_5 (Memref.isWhole_whole _) hwx3_5 hstage3_5

abbrev win3_6 : Pipeline.Window sig grid3 :=
  Pipeline.Window.ofSpec (Memref.whole main_v69) S1000x800.size cc3_transform_6 reads3_6 false true 1 stage3_6 sem3_6
    hrank3 hreads3_6 hinb3_6 nbuf3_6 (Memref.isWhole_whole _) hwx3_6 hstage3_6

abbrev win3_7 : Pipeline.Window sig grid3 :=
  Pipeline.Window.ofSpec (Memref.whole main_v74) S1x800.size cc3_transform_7 reads3_7 false true 1 stage3_7 sem3_7
    hrank3 hreads3_7 hinb3_7 nbuf3_7 (Memref.isWhole_whole _) hwx3_7 hstage3_7

abbrev win3_8 : Pipeline.Window sig grid3 :=
  Pipeline.Window.ofSpec (Memref.whole main_v75) S1x800.size cc3_transform_8 reads3_8 false true 1 stage3_8 sem3_8
    hrank3 hreads3_8 hinb3_8 nbuf3_8 (Memref.isWhole_whole _) hwx3_8 hstage3_8

abbrev win3_9 : Pipeline.Window sig grid3 :=
  Pipeline.Window.ofSpec (Memref.whole main_v76) S1x800.size cc3_transform_9 reads3_9 false true 1 stage3_9 sem3_9
    hrank3 hreads3_9 hinb3_9 nbuf3_9 (Memref.isWhole_whole _) hwx3_9 hstage3_9

abbrev win3_10 : Pipeline.Window sig grid3 :=
  Pipeline.Window.ofSpec (Memref.whole main_v70) S256x800.size cc3_transform_10 reads3_10 false true 1 stage3_10 sem3_10
    hrank3 hreads3_10 hinb3_10 nbuf3_10 (Memref.isWhole_whole _) hwx3_10 hstage3_10

abbrev win3_11 : Pipeline.Window sig grid3 :=
  Pipeline.Window.ofSpec (Memref.whole main_v77) S8x512x256.size cc3_transform_11 reads3_11 true false 2 stage3_11 sem3_11
    hrank3 hreads3_11 hinb3_11 nbuf3_11 (Memref.isWhole_whole _) hwx3_11 hstage3_11

abbrev win3 : Fin 12 → Pipeline.Window sig grid3 := fun | 0 => win3_0 | 1 => win3_1 | 2 => win3_2 | 3 => win3_3 | 4 => win3_4 | 5 => win3_5 | 6 => win3_6 | 7 => win3_7 | 8 => win3_8 | 9 => win3_9 | 10 => win3_10 | 11 => win3_11 | ⟨_ + 12, h⟩ => absurd h (Nat.not_lt.2 (Nat.le_add_left _ _))
abbrev spec3 : Fin 12 → Pipeline.WinSpec sig grid3.rank := fun w => (win3 w).toWinSpec

class Facts : Prop extends Facts₀ where

variable [Facts]
-- ==== ReferenceIdeal.lean ====
abbrev S256x512 : Shape := ⟨2, ![256, 512]⟩
abbrev S700x512 : Shape := ⟨2, ![700, 512]⟩
abbrev S2x50000 : Shape := ⟨2, ![2, 50000]⟩
abbrev S512x2048 : Shape := ⟨2, ![512, 2048]⟩
abbrev S2048 : Shape := ⟨1, ![2048]⟩
abbrev S2048x512 : Shape := ⟨2, ![2048, 512]⟩
abbrev S512 : Shape := ⟨1, ![512]⟩
abbrev S512x800 : Shape := ⟨2, ![512, 800]⟩
abbrev S800 : Shape := ⟨1, ![800]⟩
abbrev S800x1000 : Shape := ⟨2, ![800, 1000]⟩
abbrev S1000 : Shape := ⟨1, ![1000]⟩
abbrev S1000x800 : Shape := ⟨2, ![1000, 800]⟩
abbrev S1024x1000 : Shape := ⟨2, ![1024, 1000]⟩
abbrev S1x50000 : Shape := ⟨2, ![1, 50000]⟩
abbrev S50000 : Shape := ⟨1, ![50000]⟩
abbrev S_ : Shape := ⟨0, ![]⟩
abbrev S50000x1 : Shape := ⟨2, ![50000, 1]⟩
abbrev S50000x512 : Shape := ⟨2, ![50000, 512]⟩
abbrev S700 : Shape := ⟨1, ![700]⟩
abbrev S700x1 : Shape := ⟨2, ![700, 1]⟩
abbrev S700x2048 : Shape := ⟨2, ![700, 2048]⟩
abbrev S1x2048 : Shape := ⟨2, ![1, 2048]⟩
abbrev S50000x2048 : Shape := ⟨2, ![50000, 2048]⟩
abbrev S1x512 : Shape := ⟨2, ![1, 512]⟩
abbrev S256x800 : Shape := ⟨2, ![256, 800]⟩
abbrev S1x800 : Shape := ⟨2, ![1, 800]⟩
abbrev S256 : Shape := ⟨1, ![256]⟩
abbrev S256x1 : Shape := ⟨2, ![256, 1]⟩
abbrev S256x1000 : Shape := ⟨2, ![256, 1000]⟩
abbrev S1x1000 : Shape := ⟨2, ![1, 1000]⟩
abbrev S200x512 : Shape := ⟨2, ![200, 512]⟩
abbrev S500x512 : Shape := ⟨2, ![500, 512]⟩
abbrev S200x500x512 : Shape := ⟨3, ![200, 500, 512]⟩
abbrev S100000x512 : Shape := ⟨2, ![100000, 512]⟩
abbrev S1x500x1x512 : Shape := ⟨4, ![1, 500, 1, 512]⟩
abbrev S200x500x1x512 : Shape := ⟨4, ![200, 500, 1, 512]⟩
abbrev S100000x1024 : Shape := ⟨2, ![100000, 1024]⟩
abbrev S100000x1000 : Shape := ⟨2, ![100000, 1000]⟩
abbrev S100000 : Shape := ⟨1, ![100000]⟩
abbrev S100000x1 : Shape := ⟨2, ![100000, 1]⟩
abbrev S100000x800 : Shape := ⟨2, ![100000, 800]⟩
abbrev S800x100000 : Shape := ⟨2, ![800, 100000]⟩
abbrev S256x100000 : Shape := ⟨2, ![256, 100000]⟩

abbrev nBuf : Space → Nat
  | .hbm => 282
  | .vmem => 0
  | .smem => 0
  | _ => 0

abbrev hbmTy0_0 (i : Nat) : BufTy := match i % 128 with
  | 0 => ⟨S256x512, .f32⟩
  | 1 => ⟨S700x512, .f32⟩
  | 2 => ⟨S2x50000, .i32⟩
  | 3 => ⟨S512x2048, .f32⟩
  | 4 => ⟨S2048, .f32⟩
  | 5 => ⟨S512x2048, .f32⟩
  | 6 => ⟨S2048x512, .f32⟩
  | 7 => ⟨S512, .f32⟩
  | 8 => ⟨S2048x512, .f32⟩
  | 9 => ⟨S512x800, .f32⟩
  | 10 => ⟨S800, .f32⟩
  | 11 => ⟨S800, .f32⟩
  | 12 => ⟨S800, .f32⟩
  | 13 => ⟨S800x1000, .f32⟩
  | 14 => ⟨S1000, .f32⟩
  | 15 => ⟨S1000, .f32⟩
  | 16 => ⟨S1000, .f32⟩
  | 17 => ⟨S1000x800, .f32⟩
  | 18 => ⟨S800, .f32⟩
  | 19 => ⟨S800, .f32⟩
  | 20 => ⟨S800, .f32⟩
  | 21 => ⟨S1024x1000, .f32⟩
  | 22 => ⟨S1000, .f32⟩
  | 23 => ⟨S1000, .f32⟩
  | 24 => ⟨S1000, .f32⟩
  | 25 => ⟨S1000x800, .f32⟩
  | 26 => ⟨S800, .f32⟩
  | 27 => ⟨S800, .f32⟩
  | 28 => ⟨S800, .f32⟩
  | 29 => ⟨S1x50000, .i32⟩
  | 30 => ⟨S50000, .i32⟩
  | 31 => ⟨S1x50000, .i32⟩
  | 32 => ⟨S50000, .i32⟩
  | 33 => ⟨S_, .i32⟩
  | 34 => ⟨S50000, .i32⟩
  | 35 => ⟨S50000, .i1⟩
  | 36 => ⟨S_, .i32⟩
  | 37 => ⟨S50000, .i32⟩
  | 38 => ⟨S50000, .i32⟩
  | 39 => ⟨S50000, .i32⟩
  | 40 => ⟨S50000x1, .i32⟩
  | 41 => ⟨S50000x512, .f32⟩
  | 42 => ⟨S_, .f32⟩
  | 43 => ⟨S700x512, .f32⟩
  | 44 => ⟨S50000x1, .i32⟩
  | 45 => ⟨S700x512, .f32⟩
  | 46 => ⟨S_, .f32⟩
  | 47 => ⟨S50000, .f32⟩
  | 48 => ⟨S_, .f32⟩
  | 49 => ⟨S700, .f32⟩
  | 50 => ⟨S50000x1, .i32⟩
  | 51 => ⟨S700, .f32⟩
  | 52 => ⟨S_, .f32⟩
  | 53 => ⟨S700, .f32⟩
  | 54 => ⟨S700, .f32⟩
  | 55 => ⟨S700x1, .f32⟩
  | 56 => ⟨S700x512, .f32⟩
  | 57 => ⟨S700x512, .f32⟩
  | 58 => ⟨S700x2048, .f32⟩
  | 59 => ⟨S1x2048, .f32⟩
  | 60 => ⟨S700x2048, .f32⟩
  | 61 => ⟨S700x2048, .f32⟩
  | 62 => ⟨S700x2048, .f32⟩
  | 63 => ⟨S700x2048, .f32⟩
  | 64 => ⟨S_, .f32⟩
  | 65 => ⟨S700x2048, .f32⟩
  | 66 => ⟨S700x2048, .f32⟩
  | 67 => ⟨S_, .i32⟩
  | 68 => ⟨S50000, .i32⟩
  | 69 => ⟨S50000, .i1⟩
  | 70 => ⟨S_, .i32⟩
  | 71 => ⟨S50000, .i32⟩
  | 72 => ⟨S50000, .i32⟩
  | 73 => ⟨S50000, .i32⟩
  | 74 => ⟨S50000x1, .i32⟩
  | 75 => ⟨S50000x2048, .f32⟩
  | 76 => ⟨S_, .f32⟩
  | 77 => ⟨S700x2048, .f32⟩
  | 78 => ⟨S50000x1, .i32⟩
  | 79 => ⟨S700x2048, .f32⟩
  | 80 => ⟨S_, .f32⟩
  | 81 => ⟨S50000, .f32⟩
  | 82 => ⟨S_, .f32⟩
  | 83 => ⟨S700, .f32⟩
  | 84 => ⟨S50000x1, .i32⟩
  | 85 => ⟨S700, .f32⟩
  | 86 => ⟨S_, .f32⟩
  | 87 => ⟨S700, .f32⟩
  | 88 => ⟨S700, .f32⟩
  | 89 => ⟨S700x1, .f32⟩
  | 90 => ⟨S700x2048, .f32⟩
  | 91 => ⟨S700x2048, .f32⟩
  | 92 => ⟨S700x512, .f32⟩
  | 93 => ⟨S1x512, .f32⟩
  | 94 => ⟨S700x512, .f32⟩
  | 95 => ⟨S700x512, .f32⟩
  | 96 => ⟨S700x512, .f32⟩
  | 97 => ⟨S700x512, .f32⟩
  | 98 => ⟨S256x800, .f32⟩
  | 99 => ⟨S1x800, .f32⟩
  | 100 => ⟨S256x800, .f32⟩
  | 101 => ⟨S256x800, .f32⟩
  | 102 => ⟨S_, .f32⟩
  | 103 => ⟨S256, .f32⟩
  | 104 => ⟨S256x1, .f32⟩
  | 105 => ⟨S_, .f32⟩
  | 106 => ⟨S256x1, .f32⟩
  | 107 => ⟨S256x1, .f32⟩
  | 108 => ⟨S256x800, .f32⟩
  | 109 => ⟨S256x800, .f32⟩
  | 110 => ⟨S256x800, .f32⟩
  | 111 => ⟨S_, .f32⟩
  | 112 => ⟨S256, .f32⟩
  | 113 => ⟨S256x1, .f32⟩
  | 114 => ⟨S_, .f32⟩
  | 115 => ⟨S256x1, .f32⟩
  | 116 => ⟨S256x1, .f32⟩
  | 117 => ⟨S256x800, .f32⟩
  | 118 => ⟨S256x800, .f32⟩
  | 119 => ⟨S_, .f32⟩
  | 120 => ⟨S256x1, .f32⟩
  | 121 => ⟨S256x1, .f32⟩
  | 122 => ⟨S256x1, .f32⟩
  | 123 => ⟨S256x800, .f32⟩
  | 124 => ⟨S256x800, .f32⟩
  | 125 => ⟨S1x800, .f32⟩
  | 126 => ⟨S256x800, .f32⟩
  | 127 => ⟨S256x800, .f32⟩
  | _ => ⟨S256x512, .f32⟩

abbrev hbmTy0_1 (i : Nat) : BufTy := match i % 128 with
  | 0 => ⟨S1x800, .f32⟩
  | 1 => ⟨S256x800, .f32⟩
  | 2 => ⟨S256x800, .f32⟩
  | 3 => ⟨S_, .f32⟩
  | 4 => ⟨S256x800, .f32⟩
  | 5 => ⟨S256x800, .f32⟩
  | 6 => ⟨S256x1000, .f32⟩
  | 7 => ⟨S1x1000, .f32⟩
  | 8 => ⟨S256x1000, .f32⟩
  | 9 => ⟨S256x1000, .f32⟩
  | 10 => ⟨S_, .f32⟩
  | 11 => ⟨S256, .f32⟩
  | 12 => ⟨S256x1, .f32⟩
  | 13 => ⟨S_, .f32⟩
  | 14 => ⟨S256x1, .f32⟩
  | 15 => ⟨S256x1, .f32⟩
  | 16 => ⟨S256x1000, .f32⟩
  | 17 => ⟨S256x1000, .f32⟩
  | 18 => ⟨S256x1000, .f32⟩
  | 19 => ⟨S_, .f32⟩
  | 20 => ⟨S256, .f32⟩
  | 21 => ⟨S256x1, .f32⟩
  | 22 => ⟨S_, .f32⟩
  | 23 => ⟨S256x1, .f32⟩
  | 24 => ⟨S256x1, .f32⟩
  | 25 => ⟨S256x1000, .f32⟩
  | 26 => ⟨S256x1000, .f32⟩
  | 27 => ⟨S_, .f32⟩
  | 28 => ⟨S256x1, .f32⟩
  | 29 => ⟨S256x1, .f32⟩
  | 30 => ⟨S256x1, .f32⟩
  | 31 => ⟨S256x1000, .f32⟩
  | 32 => ⟨S256x1000, .f32⟩
  | 33 => ⟨S1x1000, .f32⟩
  | 34 => ⟨S256x1000, .f32⟩
  | 35 => ⟨S256x1000, .f32⟩
  | 36 => ⟨S1x1000, .f32⟩
  | 37 => ⟨S256x1000, .f32⟩
  | 38 => ⟨S256x1000, .f32⟩
  | 39 => ⟨S_, .f32⟩
  | 40 => ⟨S256x1000, .f32⟩
  | 41 => ⟨S256x1000, .f32⟩
  | 42 => ⟨S256x800, .f32⟩
  | 43 => ⟨S1x800, .f32⟩
  | 44 => ⟨S256x800, .f32⟩
  | 45 => ⟨S256x800, .f32⟩
  | 46 => ⟨S_, .f32⟩
  | 47 => ⟨S256, .f32⟩
  | 48 => ⟨S256x1, .f32⟩
  | 49 => ⟨S_, .f32⟩
  | 50 => ⟨S256x1, .f32⟩
  | 51 => ⟨S256x1, .f32⟩
  | 52 => ⟨S256x800, .f32⟩
  | 53 => ⟨S256x800, .f32⟩
  | 54 => ⟨S256x800, .f32⟩
  | 55 => ⟨S_, .f32⟩
  | 56 => ⟨S256, .f32⟩
  | 57 => ⟨S256x1, .f32⟩
  | 58 => ⟨S_, .f32⟩
  | 59 => ⟨S256x1, .f32⟩
  | 60 => ⟨S256x1, .f32⟩
  | 61 => ⟨S256x800, .f32⟩
  | 62 => ⟨S256x800, .f32⟩
  | 63 => ⟨S_, .f32⟩
  | 64 => ⟨S256x1, .f32⟩
  | 65 => ⟨S256x1, .f32⟩
  | 66 => ⟨S256x1, .f32⟩
  | 67 => ⟨S256x800, .f32⟩
  | 68 => ⟨S256x800, .f32⟩
  | 69 => ⟨S1x800, .f32⟩
  | 70 => ⟨S256x800, .f32⟩
  | 71 => ⟨S256x800, .f32⟩
  | 72 => ⟨S1x800, .f32⟩
  | 73 => ⟨S256x800, .f32⟩
  | 74 => ⟨S256x800, .f32⟩
  | 75 => ⟨S200x512, .f32⟩
  | 76 => ⟨S500x512, .f32⟩
  | 77 => ⟨S200x500x512, .f32⟩
  | 78 => ⟨S100000x512, .f32⟩
  | 79 => ⟨S1x500x1x512, .f32⟩
  | 80 => ⟨S200x500x1x512, .f32⟩
  | 81 => ⟨S100000x512, .f32⟩
  | 82 => ⟨S100000x1024, .f32⟩
  | 83 => ⟨S100000x1000, .f32⟩
  | 84 => ⟨S1x1000, .f32⟩
  | 85 => ⟨S100000x1000, .f32⟩
  | 86 => ⟨S100000x1000, .f32⟩
  | 87 => ⟨S_, .f32⟩
  | 88 => ⟨S100000, .f32⟩
  | 89 => ⟨S100000x1, .f32⟩
  | 90 => ⟨S_, .f32⟩
  | 91 => ⟨S100000x1, .f32⟩
  | 92 => ⟨S100000x1, .f32⟩
  | 93 => ⟨S100000x1000, .f32⟩
  | 94 => ⟨S100000x1000, .f32⟩
  | 95 => ⟨S100000x1000, .f32⟩
  | 96 => ⟨S_, .f32⟩
  | 97 => ⟨S100000, .f32⟩
  | 98 => ⟨S100000x1, .f32⟩
  | 99 => ⟨S_, .f32⟩
  | 100 => ⟨S100000x1, .f32⟩
  | 101 => ⟨S100000x1, .f32⟩
  | 102 => ⟨S100000x1000, .f32⟩
  | 103 => ⟨S100000x1000, .f32⟩
  | 104 => ⟨S_, .f32⟩
  | 105 => ⟨S100000x1, .f32⟩
  | 106 => ⟨S100000x1, .f32⟩
  | 107 => ⟨S100000x1, .f32⟩
  | 108 => ⟨S100000x1000, .f32⟩
  | 109 => ⟨S100000x1000, .f32⟩
  | 110 => ⟨S1x1000, .f32⟩
  | 111 => ⟨S100000x1000, .f32⟩
  | 112 => ⟨S100000x1000, .f32⟩
  | 113 => ⟨S1x1000, .f32⟩
  | 114 => ⟨S100000x1000, .f32⟩
  | 115 => ⟨S100000x1000, .f32⟩
  | 116 => ⟨S_, .f32⟩
  | 117 => ⟨S100000x1000, .f32⟩
  | 118 => ⟨S100000x1000, .f32⟩
  | 119 => ⟨S100000x800, .f32⟩
  | 120 => ⟨S1x800, .f32⟩
  | 121 => ⟨S100000x800, .f32⟩
  | 122 => ⟨S100000x800, .f32⟩
  | 123 => ⟨S_, .f32⟩
  | 124 => ⟨S100000, .f32⟩
  | 125 => ⟨S100000x1, .f32⟩
  | 126 => ⟨S_, .f32⟩
  | 127 => ⟨S100000x1, .f32⟩
  | _ => ⟨S256x512, .f32⟩

abbrev hbmTy0_2 (i : Nat) : BufTy := match i % 128 with
  | 0 => ⟨S100000x1, .f32⟩
  | 1 => ⟨S100000x800, .f32⟩
  | 2 => ⟨S100000x800, .f32⟩
  | 3 => ⟨S100000x800, .f32⟩
  | 4 => ⟨S_, .f32⟩
  | 5 => ⟨S100000, .f32⟩
  | 6 => ⟨S100000x1, .f32⟩
  | 7 => ⟨S_, .f32⟩
  | 8 => ⟨S100000x1, .f32⟩
  | 9 => ⟨S100000x1, .f32⟩
  | 10 => ⟨S100000x800, .f32⟩
  | 11 => ⟨S100000x800, .f32⟩
  | 12 => ⟨S_, .f32⟩
  | 13 => ⟨S100000x1, .f32⟩
  | 14 => ⟨S100000x1, .f32⟩
  | 15 => ⟨S100000x1, .f32⟩
  | 16 => ⟨S100000x800, .f32⟩
  | 17 => ⟨S100000x800, .f32⟩
  | 18 => ⟨S1x800, .f32⟩
  | 19 => ⟨S100000x800, .f32⟩
  | 20 => ⟨S100000x800, .f32⟩
  | 21 => ⟨S1x800, .f32⟩
  | 22 => ⟨S100000x800, .f32⟩
  | 23 => ⟨S100000x800, .f32⟩
  | 24 => ⟨S800x100000, .f32⟩
  | 25 => ⟨S256x100000, .f32⟩
  | _ => ⟨S256x512, .f32⟩

abbrev hbmTy (i : Nat) : BufTy := match i / 128 with
  | 0 => hbmTy0_0 i
  | 1 => hbmTy0_1 i
  | 2 => hbmTy0_2 i
  | _ => ⟨S256x512, .f32⟩

abbrev bufTy : (tb : Table) → Fin (tcTables nBuf tb) → BufTy
  | .hbm, ⟨i, _⟩ => hbmTy i
  | _, _ => ⟨S256x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_arg28 : Ref sig .tc := ⟨.hbm, 28, rfl⟩
abbrev main_v0 : Ref sig .tc := ⟨.hbm, 29, rfl⟩
abbrev main_v1 : Ref sig .tc := ⟨.hbm, 30, rfl⟩
abbrev main_v2 : Ref sig .tc := ⟨.hbm, 31, rfl⟩
abbrev main_v3 : Ref sig .tc := ⟨.hbm, 32, rfl⟩
abbrev main_c : Ref sig .tc := ⟨.hbm, 33, rfl⟩
abbrev main_v4 : Ref sig .tc := ⟨.hbm, 34, rfl⟩
abbrev main_v5 : Ref sig .tc := ⟨.hbm, 35, rfl⟩
abbrev main_c_0 : Ref sig .tc := ⟨.hbm, 36, rfl⟩
abbrev main_v6 : Ref sig .tc := ⟨.hbm, 37, rfl⟩
abbrev main_v7 : Ref sig .tc := ⟨.hbm, 38, rfl⟩
abbrev main_v8 : Ref sig .tc := ⟨.hbm, 39, rfl⟩
abbrev main_v9 : Ref sig .tc := ⟨.hbm, 40, rfl⟩
abbrev main_v10 : Ref sig .tc := ⟨.hbm, 41, rfl⟩
abbrev main_cst : Ref sig .tc := ⟨.hbm, 42, rfl⟩
abbrev main_v11 : Ref sig .tc := ⟨.hbm, 43, rfl⟩
abbrev main_v12 : Ref sig .tc := ⟨.hbm, 44, rfl⟩
abbrev main_v13 : Ref sig .tc := ⟨.hbm, 45, rfl⟩
abbrev main_cst_1 : Ref sig .tc := ⟨.hbm, 46, rfl⟩
abbrev main_v14 : Ref sig .tc := ⟨.hbm, 47, rfl⟩
abbrev main_cst_2 : Ref sig .tc := ⟨.hbm, 48, rfl⟩
abbrev main_v15 : Ref sig .tc := ⟨.hbm, 49, rfl⟩
abbrev main_v16 : Ref sig .tc := ⟨.hbm, 50, rfl⟩
abbrev main_v17 : Ref sig .tc := ⟨.hbm, 51, rfl⟩
abbrev main_cst_3 : Ref sig .tc := ⟨.hbm, 52, rfl⟩
abbrev main_v18 : Ref sig .tc := ⟨.hbm, 53, rfl⟩
abbrev main_v19 : Ref sig .tc := ⟨.hbm, 54, rfl⟩
abbrev main_v20 : Ref sig .tc := ⟨.hbm, 55, rfl⟩
abbrev main_v21 : Ref sig .tc := ⟨.hbm, 56, rfl⟩
abbrev main_v22 : Ref sig .tc := ⟨.hbm, 57, rfl⟩
abbrev main_v23 : Ref sig .tc := ⟨.hbm, 58, rfl⟩
abbrev main_v24 : Ref sig .tc := ⟨.hbm, 59, rfl⟩
abbrev main_v25 : Ref sig .tc := ⟨.hbm, 60, rfl⟩
abbrev main_v26 : Ref sig .tc := ⟨.hbm, 61, rfl⟩
abbrev main_v27 : Ref sig .tc := ⟨.hbm, 62, rfl⟩
abbrev main_v28 : Ref sig .tc := ⟨.hbm, 63, rfl⟩
abbrev main_call0_cst : Ref sig .tc := ⟨.hbm, 64, rfl⟩
abbrev main_call0_v0 : Ref sig .tc := ⟨.hbm, 65, rfl⟩
abbrev main_v29 : Ref sig .tc := ⟨.hbm, 66, rfl⟩
abbrev main_c_4 : Ref sig .tc := ⟨.hbm, 67, rfl⟩
abbrev main_v30 : Ref sig .tc := ⟨.hbm, 68, rfl⟩
abbrev main_v31 : Ref sig .tc := ⟨.hbm, 69, rfl⟩
abbrev main_c_5 : Ref sig .tc := ⟨.hbm, 70, rfl⟩
abbrev main_v32 : Ref sig .tc := ⟨.hbm, 71, rfl⟩
abbrev main_v33 : Ref sig .tc := ⟨.hbm, 72, rfl⟩
abbrev main_v34 : Ref sig .tc := ⟨.hbm, 73, rfl⟩
abbrev main_v35 : Ref sig .tc := ⟨.hbm, 74, rfl⟩
abbrev main_v36 : Ref sig .tc := ⟨.hbm, 75, rfl⟩
abbrev main_cst_6 : Ref sig .tc := ⟨.hbm, 76, rfl⟩
abbrev main_v37 : Ref sig .tc := ⟨.hbm, 77, rfl⟩
abbrev main_v38 : Ref sig .tc := ⟨.hbm, 78, rfl⟩
abbrev main_v39 : Ref sig .tc := ⟨.hbm, 79, rfl⟩
abbrev main_cst_7 : Ref sig .tc := ⟨.hbm, 80, rfl⟩
abbrev main_v40 : Ref sig .tc := ⟨.hbm, 81, rfl⟩
abbrev main_cst_8 : Ref sig .tc := ⟨.hbm, 82, rfl⟩
abbrev main_v41 : Ref sig .tc := ⟨.hbm, 83, rfl⟩
abbrev main_v42 : Ref sig .tc := ⟨.hbm, 84, rfl⟩
abbrev main_v43 : Ref sig .tc := ⟨.hbm, 85, rfl⟩
abbrev main_cst_9 : Ref sig .tc := ⟨.hbm, 86, rfl⟩
abbrev main_v44 : Ref sig .tc := ⟨.hbm, 87, rfl⟩
abbrev main_v45 : Ref sig .tc := ⟨.hbm, 88, rfl⟩
abbrev main_v46 : Ref sig .tc := ⟨.hbm, 89, rfl⟩
abbrev main_v47 : Ref sig .tc := ⟨.hbm, 90, rfl⟩
abbrev main_v48 : Ref sig .tc := ⟨.hbm, 91, rfl⟩
abbrev main_v49 : Ref sig .tc := ⟨.hbm, 92, rfl⟩
abbrev main_v50 : Ref sig .tc := ⟨.hbm, 93, rfl⟩
abbrev main_v51 : Ref sig .tc := ⟨.hbm, 94, rfl⟩
abbrev main_v52 : Ref sig .tc := ⟨.hbm, 95, rfl⟩
abbrev main_v53 : Ref sig .tc := ⟨.hbm, 96, rfl⟩
abbrev main_v54 : Ref sig .tc := ⟨.hbm, 97, rfl⟩
abbrev main_v55 : Ref sig .tc := ⟨.hbm, 98, rfl⟩
abbrev main_v56 : Ref sig .tc := ⟨.hbm, 99, rfl⟩
abbrev main_v57 : Ref sig .tc := ⟨.hbm, 100, rfl⟩
abbrev main_v58 : Ref sig .tc := ⟨.hbm, 101, rfl⟩
abbrev main_cst_10 : Ref sig .tc := ⟨.hbm, 102, rfl⟩
abbrev main_v59 : Ref sig .tc := ⟨.hbm, 103, rfl⟩
abbrev main_v60 : Ref sig .tc := ⟨.hbm, 104, rfl⟩
abbrev main_cst_11 : Ref sig .tc := ⟨.hbm, 105, rfl⟩
abbrev main_v61 : Ref sig .tc := ⟨.hbm, 106, rfl⟩
abbrev main_v62 : Ref sig .tc := ⟨.hbm, 107, rfl⟩
abbrev main_v63 : Ref sig .tc := ⟨.hbm, 108, rfl⟩
abbrev main_v64 : Ref sig .tc := ⟨.hbm, 109, rfl⟩
abbrev main_v65 : Ref sig .tc := ⟨.hbm, 110, rfl⟩
abbrev main_cst_12 : Ref sig .tc := ⟨.hbm, 111, rfl⟩
abbrev main_v66 : Ref sig .tc := ⟨.hbm, 112, rfl⟩
abbrev main_v67 : Ref sig .tc := ⟨.hbm, 113, rfl⟩
abbrev main_cst_13 : Ref sig .tc := ⟨.hbm, 114, rfl⟩
abbrev main_v68 : Ref sig .tc := ⟨.hbm, 115, rfl⟩
abbrev main_v69 : Ref sig .tc := ⟨.hbm, 116, rfl⟩
abbrev main_v70 : Ref sig .tc := ⟨.hbm, 117, rfl⟩
abbrev main_v71 : Ref sig .tc := ⟨.hbm, 118, rfl⟩
abbrev main_cst_14 : Ref sig .tc := ⟨.hbm, 119, rfl⟩
abbrev main_v72 : Ref sig .tc := ⟨.hbm, 120, rfl⟩
abbrev main_v73 : Ref sig .tc := ⟨.hbm, 121, rfl⟩
abbrev main_v74 : Ref sig .tc := ⟨.hbm, 122, rfl⟩
abbrev main_v75 : Ref sig .tc := ⟨.hbm, 123, rfl⟩
abbrev main_v76 : Ref sig .tc := ⟨.hbm, 124, rfl⟩
abbrev main_v77 : Ref sig .tc := ⟨.hbm, 125, rfl⟩
abbrev main_v78 : Ref sig .tc := ⟨.hbm, 126, rfl⟩
abbrev main_v79 : Ref sig .tc := ⟨.hbm, 127, rfl⟩
abbrev main_v80 : Ref sig .tc := ⟨.hbm, 128, rfl⟩
abbrev main_v81 : Ref sig .tc := ⟨.hbm, 129, rfl⟩
abbrev main_v82 : Ref sig .tc := ⟨.hbm, 130, rfl⟩
abbrev main_call1_cst : Ref sig .tc := ⟨.hbm, 131, rfl⟩
abbrev main_call1_v0 : Ref sig .tc := ⟨.hbm, 132, rfl⟩
abbrev main_v83 : Ref sig .tc := ⟨.hbm, 133, rfl⟩
abbrev main_v84 : Ref sig .tc := ⟨.hbm, 134, rfl⟩
abbrev main_v85 : Ref sig .tc := ⟨.hbm, 135, rfl⟩
abbrev main_v86 : Ref sig .tc := ⟨.hbm, 136, rfl⟩
abbrev main_v87 : Ref sig .tc := ⟨.hbm, 137, rfl⟩
abbrev main_cst_15 : Ref sig .tc := ⟨.hbm, 138, rfl⟩
abbrev main_v88 : Ref sig .tc := ⟨.hbm, 139, rfl⟩
abbrev main_v89 : Ref sig .tc := ⟨.hbm, 140, rfl⟩
abbrev main_cst_16 : Ref sig .tc := ⟨.hbm, 141, rfl⟩
abbrev main_v90 : Ref sig .tc := ⟨.hbm, 142, rfl⟩
abbrev main_v91 : Ref sig .tc := ⟨.hbm, 143, rfl⟩
abbrev main_v92 : Ref sig .tc := ⟨.hbm, 144, rfl⟩
abbrev main_v93 : Ref sig .tc := ⟨.hbm, 145, rfl⟩
abbrev main_v94 : Ref sig .tc := ⟨.hbm, 146, rfl⟩
abbrev main_cst_17 : Ref sig .tc := ⟨.hbm, 147, rfl⟩
abbrev main_v95 : Ref sig .tc := ⟨.hbm, 148, rfl⟩
abbrev main_v96 : Ref sig .tc := ⟨.hbm, 149, rfl⟩
abbrev main_cst_18 : Ref sig .tc := ⟨.hbm, 150, rfl⟩
abbrev main_v97 : Ref sig .tc := ⟨.hbm, 151, rfl⟩
abbrev main_v98 : Ref sig .tc := ⟨.hbm, 152, rfl⟩
abbrev main_v99 : Ref sig .tc := ⟨.hbm, 153, rfl⟩
abbrev main_v100 : Ref sig .tc := ⟨.hbm, 154, rfl⟩
abbrev main_cst_19 : Ref sig .tc := ⟨.hbm, 155, rfl⟩
abbrev main_v101 : Ref sig .tc := ⟨.hbm, 156, rfl⟩
abbrev main_v102 : Ref sig .tc := ⟨.hbm, 157, rfl⟩
abbrev main_v103 : Ref sig .tc := ⟨.hbm, 158, rfl⟩
abbrev main_v104 : Ref sig .tc := ⟨.hbm, 159, rfl⟩
abbrev main_v105 : Ref sig .tc := ⟨.hbm, 160, rfl⟩
abbrev main_v106 : Ref sig .tc := ⟨.hbm, 161, rfl⟩
abbrev main_v107 : Ref sig .tc := ⟨.hbm, 162, rfl⟩
abbrev main_v108 : Ref sig .tc := ⟨.hbm, 163, rfl⟩
abbrev main_v109 : Ref sig .tc := ⟨.hbm, 164, rfl⟩
abbrev main_v110 : Ref sig .tc := ⟨.hbm, 165, rfl⟩
abbrev main_v111 : Ref sig .tc := ⟨.hbm, 166, rfl⟩
abbrev main_call2_cst : Ref sig .tc := ⟨.hbm, 167, rfl⟩
abbrev main_call2_v0 : Ref sig .tc := ⟨.hbm, 168, rfl⟩
abbrev main_v112 : Ref sig .tc := ⟨.hbm, 169, rfl⟩
abbrev main_v113 : Ref sig .tc := ⟨.hbm, 170, rfl⟩
abbrev main_v114 : Ref sig .tc := ⟨.hbm, 171, rfl⟩
abbrev main_v115 : Ref sig .tc := ⟨.hbm, 172, rfl⟩
abbrev main_v116 : Ref sig .tc := ⟨.hbm, 173, rfl⟩
abbrev main_cst_20 : Ref sig .tc := ⟨.hbm, 174, rfl⟩
abbrev main_v117 : Ref sig .tc := ⟨.hbm, 175, rfl⟩
abbrev main_v118 : Ref sig .tc := ⟨.hbm, 176, rfl⟩
abbrev main_cst_21 : Ref sig .tc := ⟨.hbm, 177, rfl⟩
abbrev main_v119 : Ref sig .tc := ⟨.hbm, 178, rfl⟩
abbrev main_v120 : Ref sig .tc := ⟨.hbm, 179, rfl⟩
abbrev main_v121 : Ref sig .tc := ⟨.hbm, 180, rfl⟩
abbrev main_v122 : Ref sig .tc := ⟨.hbm, 181, rfl⟩
abbrev main_v123 : Ref sig .tc := ⟨.hbm, 182, rfl⟩
abbrev main_cst_22 : Ref sig .tc := ⟨.hbm, 183, rfl⟩
abbrev main_v124 : Ref sig .tc := ⟨.hbm, 184, rfl⟩
abbrev main_v125 : Ref sig .tc := ⟨.hbm, 185, rfl⟩
abbrev main_cst_23 : Ref sig .tc := ⟨.hbm, 186, rfl⟩
abbrev main_v126 : Ref sig .tc := ⟨.hbm, 187, rfl⟩
abbrev main_v127 : Ref sig .tc := ⟨.hbm, 188, rfl⟩
abbrev main_v128 : Ref sig .tc := ⟨.hbm, 189, rfl⟩
abbrev main_v129 : Ref sig .tc := ⟨.hbm, 190, rfl⟩
abbrev main_cst_24 : Ref sig .tc := ⟨.hbm, 191, rfl⟩
abbrev main_v130 : Ref sig .tc := ⟨.hbm, 192, rfl⟩
abbrev main_v131 : Ref sig .tc := ⟨.hbm, 193, rfl⟩
abbrev main_v132 : Ref sig .tc := ⟨.hbm, 194, rfl⟩
abbrev main_v133 : Ref sig .tc := ⟨.hbm, 195, rfl⟩
abbrev main_v134 : Ref sig .tc := ⟨.hbm, 196, rfl⟩
abbrev main_v135 : Ref sig .tc := ⟨.hbm, 197, rfl⟩
abbrev main_v136 : Ref sig .tc := ⟨.hbm, 198, rfl⟩
abbrev main_v137 : Ref sig .tc := ⟨.hbm, 199, rfl⟩
abbrev main_v138 : Ref sig .tc := ⟨.hbm, 200, rfl⟩
abbrev main_v139 : Ref sig .tc := ⟨.hbm, 201, rfl⟩
abbrev main_v140 : Ref sig .tc := ⟨.hbm, 202, rfl⟩
abbrev main_v141 : Ref sig .tc := ⟨.hbm, 203, rfl⟩
abbrev main_v142 : Ref sig .tc := ⟨.hbm, 204, rfl⟩
abbrev main_v143 : Ref sig .tc := ⟨.hbm, 205, rfl⟩
abbrev main_v144 : Ref sig .tc := ⟨.hbm, 206, rfl⟩
abbrev main_v145 : Ref sig .tc := ⟨.hbm, 207, rfl⟩
abbrev main_v146 : Ref sig .tc := ⟨.hbm, 208, rfl⟩
abbrev main_v147 : Ref sig .tc := ⟨.hbm, 209, rfl⟩
abbrev main_v148 : Ref sig .tc := ⟨.hbm, 210, rfl⟩
abbrev main_v149 : Ref sig .tc := ⟨.hbm, 211, rfl⟩
abbrev main_v150 : Ref sig .tc := ⟨.hbm, 212, rfl⟩
abbrev main_v151 : Ref sig .tc := ⟨.hbm, 213, rfl⟩
abbrev main_v152 : Ref sig .tc := ⟨.hbm, 214, rfl⟩
abbrev main_cst_25 : Ref sig .tc := ⟨.hbm, 215, rfl⟩
abbrev main_v153 : Ref sig .tc := ⟨.hbm, 216, rfl⟩
abbrev main_v154 : Ref sig .tc := ⟨.hbm, 217, rfl⟩
abbrev main_cst_26 : Ref sig .tc := ⟨.hbm, 218, rfl⟩
abbrev main_v155 : Ref sig .tc := ⟨.hbm, 219, rfl⟩
abbrev main_v156 : Ref sig .tc := ⟨.hbm, 220, rfl⟩
abbrev main_v157 : Ref sig .tc := ⟨.hbm, 221, rfl⟩
abbrev main_v158 : Ref sig .tc := ⟨.hbm, 222, rfl⟩
abbrev main_v159 : Ref sig .tc := ⟨.hbm, 223, rfl⟩
abbrev main_cst_27 : Ref sig .tc := ⟨.hbm, 224, rfl⟩
abbrev main_v160 : Ref sig .tc := ⟨.hbm, 225, rfl⟩
abbrev main_v161 : Ref sig .tc := ⟨.hbm, 226, rfl⟩
abbrev main_cst_28 : Ref sig .tc := ⟨.hbm, 227, rfl⟩
abbrev main_v162 : Ref sig .tc := ⟨.hbm, 228, rfl⟩
abbrev main_v163 : Ref sig .tc := ⟨.hbm, 229, rfl⟩
abbrev main_v164 : Ref sig .tc := ⟨.hbm, 230, rfl⟩
abbrev main_v165 : Ref sig .tc := ⟨.hbm, 231, rfl⟩
abbrev main_cst_29 : Ref sig .tc := ⟨.hbm, 232, rfl⟩
abbrev main_v166 : Ref sig .tc := ⟨.hbm, 233, rfl⟩
abbrev main_v167 : Ref sig .tc := ⟨.hbm, 234, rfl⟩
abbrev main_v168 : Ref sig .tc := ⟨.hbm, 235, rfl⟩
abbrev main_v169 : Ref sig .tc := ⟨.hbm, 236, rfl⟩
abbrev main_v170 : Ref sig .tc := ⟨.hbm, 237, rfl⟩
abbrev main_v171 : Ref sig .tc := ⟨.hbm, 238, rfl⟩
abbrev main_v172 : Ref sig .tc := ⟨.hbm, 239, rfl⟩
abbrev main_v173 : Ref sig .tc := ⟨.hbm, 240, rfl⟩
abbrev main_v174 : Ref sig .tc := ⟨.hbm, 241, rfl⟩
abbrev main_v175 : Ref sig .tc := ⟨.hbm, 242, rfl⟩
abbrev main_v176 : Ref sig .tc := ⟨.hbm, 243, rfl⟩
abbrev main_call3_cst : Ref sig .tc := ⟨.hbm, 244, rfl⟩
abbrev main_call3_v0 : Ref sig .tc := ⟨.hbm, 245, rfl⟩
abbrev main_v177 : Ref sig .tc := ⟨.hbm, 246, rfl⟩
abbrev main_v178 : Ref sig .tc := ⟨.hbm, 247, rfl⟩
abbrev main_v179 : Ref sig .tc := ⟨.hbm, 248, rfl⟩
abbrev main_v180 : Ref sig .tc := ⟨.hbm, 249, rfl⟩
abbrev main_v181 : Ref sig .tc := ⟨.hbm, 250, rfl⟩
abbrev main_cst_30 : Ref sig .tc := ⟨.hbm, 251, rfl⟩
abbrev main_v182 : Ref sig .tc := ⟨.hbm, 252, rfl⟩
abbrev main_v183 : Ref sig .tc := ⟨.hbm, 253, rfl⟩
abbrev main_cst_31 : Ref sig .tc := ⟨.hbm, 254, rfl⟩
abbrev main_v184 : Ref sig .tc := ⟨.hbm, 255, rfl⟩
abbrev main_v185 : Ref sig .tc := ⟨.hbm, 256, rfl⟩
abbrev main_v186 : Ref sig .tc := ⟨.hbm, 257, rfl⟩
abbrev main_v187 : Ref sig .tc := ⟨.hbm, 258, rfl⟩
abbrev main_v188 : Ref sig .tc := ⟨.hbm, 259, rfl⟩
abbrev main_cst_32 : Ref sig .tc := ⟨.hbm, 260, rfl⟩
abbrev main_v189 : Ref sig .tc := ⟨.hbm, 261, rfl⟩
abbrev main_v190 : Ref sig .tc := ⟨.hbm, 262, rfl⟩
abbrev main_cst_33 : Ref sig .tc := ⟨.hbm, 263, rfl⟩
abbrev main_v191 : Ref sig .tc := ⟨.hbm, 264, rfl⟩
abbrev main_v192 : Ref sig .tc := ⟨.hbm, 265, rfl⟩
abbrev main_v193 : Ref sig .tc := ⟨.hbm, 266, rfl⟩
abbrev main_v194 : Ref sig .tc := ⟨.hbm, 267, rfl⟩
abbrev main_cst_34 : Ref sig .tc := ⟨.hbm, 268, rfl⟩
abbrev main_v195 : Ref sig .tc := ⟨.hbm, 269, rfl⟩
abbrev main_v196 : Ref sig .tc := ⟨.hbm, 270, rfl⟩
abbrev main_v197 : Ref sig .tc := ⟨.hbm, 271, rfl⟩
abbrev main_v198 : Ref sig .tc := ⟨.hbm, 272, rfl⟩
abbrev main_v199 : Ref sig .tc := ⟨.hbm, 273, rfl⟩
abbrev main_v200 : Ref sig .tc := ⟨.hbm, 274, rfl⟩
abbrev main_v201 : Ref sig .tc := ⟨.hbm, 275, rfl⟩
abbrev main_v202 : Ref sig .tc := ⟨.hbm, 276, rfl⟩
abbrev main_v203 : Ref sig .tc := ⟨.hbm, 277, rfl⟩
abbrev main_v204 : Ref sig .tc := ⟨.hbm, 278, rfl⟩
abbrev main_v205 : Ref sig .tc := ⟨.hbm, 279, rfl⟩
abbrev main_v206 : Ref sig .tc := ⟨.hbm, 280, rfl⟩
abbrev main_v207 : Ref sig .tc := ⟨.hbm, 281, rfl⟩

abbrev nD : Nat := 1
abbrev τ : Topo := Topo.v7x

variable {F : FTy → Type} [FloatOps F]

class Facts₀ : Prop where
  slices_S2x50000_S1x50000_0_0 : S2x50000.Slices ![0, 0] S1x50000
  shapeCasts_S1x50000_S50000 : S1x50000.ShapeCasts S50000
  slices_S2x50000_S1x50000_1_0 : S2x50000.Slices ![1, 0] S1x50000
  bcast_S_S50000 : S_.BroadcastsInDim S50000 (![] : Fin 0 → Fin S50000.rank)
  bcast_S50000_S50000x1_0 : S50000.BroadcastsInDim S50000x1 (![0] : Fin 1 → Fin S50000x1.rank)
  bcast_S_S700x512 : S_.BroadcastsInDim S700x512 (![] : Fin 0 → Fin S700x512.rank)
  bcast_S_S700 : S_.BroadcastsInDim S700 (![] : Fin 0 → Fin S700.rank)
  bcast_S700_S700x1_0 : S700.BroadcastsInDim S700x1 (![0] : Fin 1 → Fin S700x1.rank)
  bcast_S700x1_S700x512_0_1 : S700x1.BroadcastsInDim S700x512 (![0, 1] : Fin 2 → Fin S700x512.rank)
  bcast_S2048_S1x2048_1 : S2048.BroadcastsInDim S1x2048 (![1] : Fin 1 → Fin S1x2048.rank)
  bcast_S1x2048_S700x2048_0_1 : S1x2048.BroadcastsInDim S700x2048 (![0, 1] : Fin 2 → Fin S700x2048.rank)
  bcast_S_S700x2048 : S_.BroadcastsInDim S700x2048 (![] : Fin 0 → Fin S700x2048.rank)
  bcast_S700x1_S700x2048_0_1 : S700x1.BroadcastsInDim S700x2048 (![0, 1] : Fin 2 → Fin S700x2048.rank)
  bcast_S512_S1x512_1 : S512.BroadcastsInDim S1x512 (![1] : Fin 1 → Fin S1x512.rank)
  bcast_S1x512_S700x512_0_1 : S1x512.BroadcastsInDim S700x512 (![0, 1] : Fin 2 → Fin S700x512.rank)
  bcast_S800_S1x800_1 : S800.BroadcastsInDim S1x800 (![1] : Fin 1 → Fin S1x800.rank)
  bcast_S1x800_S256x800_0_1 : S1x800.BroadcastsInDim S256x800 (![0, 1] : Fin 2 → Fin S256x800.rank)
  reducesTo_S256x800_S256_d1 : S256x800.ReducesTo [1] S256
  h_S_ : 0 < S_.numel
  bcast_S256_S256x1_0 : S256.BroadcastsInDim S256x1 (![0] : Fin 1 → Fin S256x1.rank)
  bcast_S_S256x1 : S_.BroadcastsInDim S256x1 (![] : Fin 0 → Fin S256x1.rank)
  bcast_S256x1_S256x800_0_1 : S256x1.BroadcastsInDim S256x800 (![0, 1] : Fin 2 → Fin S256x800.rank)
  bcast_S_S256x800 : S_.BroadcastsInDim S256x800 (![] : Fin 0 → Fin S256x800.rank)
  bcast_S1000_S1x1000_1 : S1000.BroadcastsInDim S1x1000 (![1] : Fin 1 → Fin S1x1000.rank)
  bcast_S1x1000_S256x1000_0_1 : S1x1000.BroadcastsInDim S256x1000 (![0, 1] : Fin 2 → Fin S256x1000.rank)
  reducesTo_S256x1000_S256_d1 : S256x1000.ReducesTo [1] S256
  bcast_S256x1_S256x1000_0_1 : S256x1.BroadcastsInDim S256x1000 (![0, 1] : Fin 2 → Fin S256x1000.rank)
  bcast_S_S256x1000 : S_.BroadcastsInDim S256x1000 (![] : Fin 0 → Fin S256x1000.rank)
  slices_S700x512_S200x512_0_0 : S700x512.Slices ![0, 0] S200x512
  slices_S700x512_S500x512_200_0 : S700x512.Slices ![200, 0] S500x512
  bcast_S200x512_S200x500x512_0_2 : S200x512.BroadcastsInDim S200x500x512 (![0, 2] : Fin 2 → Fin S200x500x512.rank)
  shapeCasts_S200x500x512_S100000x512 : S200x500x512.ShapeCasts S100000x512
  shapeCasts_S500x512_S1x500x1x512 : S500x512.ShapeCasts S1x500x1x512
  bcast_S1x500x1x512_S200x500x1x512_0_1_2_3 : S1x500x1x512.BroadcastsInDim S200x500x1x512 (![0, 1, 2, 3] : Fin 4 → Fin S200x500x1x512.rank)
  shapeCasts_S200x500x1x512_S100000x512 : S200x500x1x512.ShapeCasts S100000x512
  concatenates_S100000x512_S100000x512_S100000x1024_d1 : Shape.Concatenates [S100000x512, S100000x512] S100000x1024 1
  bcast_S1x1000_S100000x1000_0_1 : S1x1000.BroadcastsInDim S100000x1000 (![0, 1] : Fin 2 → Fin S100000x1000.rank)
  reducesTo_S100000x1000_S100000_d1 : S100000x1000.ReducesTo [1] S100000
  bcast_S100000_S100000x1_0 : S100000.BroadcastsInDim S100000x1 (![0] : Fin 1 → Fin S100000x1.rank)
  bcast_S_S100000x1 : S_.BroadcastsInDim S100000x1 (![] : Fin 0 → Fin S100000x1.rank)
  bcast_S100000x1_S100000x1000_0_1 : S100000x1.BroadcastsInDim S100000x1000 (![0, 1] : Fin 2 → Fin S100000x1000.rank)
  bcast_S_S100000x1000 : S_.BroadcastsInDim S100000x1000 (![] : Fin 0 → Fin S100000x1000.rank)
  bcast_S1x800_S100000x800_0_1 : S1x800.BroadcastsInDim S100000x800 (![0, 1] : Fin 2 → Fin S100000x800.rank)
  reducesTo_S100000x800_S100000_d1 : S100000x800.ReducesTo [1] S100000
  bcast_S100000x1_S100000x800_0_1 : S100000x1.BroadcastsInDim S100000x800 (![0, 1] : Fin 2 → Fin S100000x800.rank)
  transposes_S100000x800_S800x100000_1_0 : S100000x800.Transposes [1, 0] S800x100000
  gather_S700x512_S50000x1_S50000x512_1_0_n_n_0_1_1512_wf : GatherDims.WF S700x512 S50000x1 S50000x512 [1] [0] [] [0] [] 1 ![1, 512]
  scatter_S700x512_S50000x1_S50000x512_1_0_0_1_wf : ScatterDims.WF S700x512 S50000x1 S50000x512 [1] [0] [0] 1
  scatter_S700_S50000x1_S50000_n_0_0_1_wf : ScatterDims.WF S700 S50000x1 S50000 [] [0] [0] 1
  dot_S700x512_S512x2048_S700x2048_1_0_0_1_n_n_wf : DotDims.WF S700x512 S512x2048 S700x2048 [1] [0] [0] [1] [] []
  gather_S700x2048_S50000x1_S50000x2048_1_0_n_n_0_1_12048_wf : GatherDims.WF S700x2048 S50000x1 S50000x2048 [1] [0] [] [0] [] 1 ![1, 2048]
  scatter_S700x2048_S50000x1_S50000x2048_1_0_0_1_wf : ScatterDims.WF S700x2048 S50000x1 S50000x2048 [1] [0] [0] 1
  dot_S700x2048_S2048x512_S700x512_1_0_0_1_n_n_wf : DotDims.WF S700x2048 S2048x512 S700x512 [1] [0] [0] [1] [] []
  dot_S256x512_S512x800_S256x800_1_0_0_1_n_n_wf : DotDims.WF S256x512 S512x800 S256x800 [1] [0] [0] [1] [] []
  dot_S256x800_S800x1000_S256x1000_1_0_0_1_n_n_wf : DotDims.WF S256x800 S800x1000 S256x1000 [1] [0] [0] [1] [] []
  dot_S256x1000_S1000x800_S256x800_1_0_0_1_n_n_wf : DotDims.WF S256x1000 S1000x800 S256x800 [1] [0] [0] [1] [] []
  dot_S100000x1024_S1024x1000_S100000x1000_1_0_0_1_n_n_wf : DotDims.WF S100000x1024 S1024x1000 S100000x1000 [1] [0] [0] [1] [] []
  dot_S100000x1000_S1000x800_S100000x800_1_0_0_1_n_n_wf : DotDims.WF S100000x1000 S1000x800 S100000x800 [1] [0] [0] [1] [] []
  dot_S256x800_S800x100000_S256x100000_1_0_0_1_n_n_wf : DotDims.WF S256x800 S800x100000 S256x100000 [1] [0] [0] [1] [] []

variable [Facts₀]

def gather_S700x512_S50000x1_S50000x512_1_0_n_n_0_1_1512 : GatherDims S700x512 S50000x1 S50000x512 where
  offsetDims := [1]
  collapsedSliceDims := [0]
  operandBatchingDims := []
  startIndicesBatchingDims := []
  startIndexMap := [0]
  indexVectorDim := 1
  sliceSizes := ![1, 512]
  wf := gather_S700x512_S50000x1_S50000x512_1_0_n_n_0_1_1512_wf
def scatter_S700x512_S50000x1_S50000x512_1_0_0_1 : ScatterDims S700x512 S50000x1 S50000x512 where
  updateWindowDims := [1]
  insertedWindowDims := [0]
  scatterDimsToOperandDims := [0]
  indexVectorDim := 1
  wf := scatter_S700x512_S50000x1_S50000x512_1_0_0_1_wf
def scatter_S700_S50000x1_S50000_n_0_0_1 : ScatterDims S700 S50000x1 S50000 where
  updateWindowDims := []
  insertedWindowDims := [0]
  scatterDimsToOperandDims := [0]
  indexVectorDim := 1
  wf := scatter_S700_S50000x1_S50000_n_0_0_1_wf
def dot_S700x512_S512x2048_S700x2048_1_0_0_1_n_n : DotDims S700x512 S512x2048 S700x2048 where
  lhsContracting := [1]
  rhsContracting := [0]
  lhsNonContracting := [0]
  rhsNonContracting := [1]
  lhsBatch := []
  rhsBatch := []
  wf := dot_S700x512_S512x2048_S700x2048_1_0_0_1_n_n_wf
def gather_S700x2048_S50000x1_S50000x2048_1_0_n_n_0_1_12048 : GatherDims S700x2048 S50000x1 S50000x2048 where
  offsetDims := [1]
  collapsedSliceDims := [0]
  operandBatchingDims := []
  startIndicesBatchingDims := []
  startIndexMap := [0]
  indexVectorDim := 1
  sliceSizes := ![1, 2048]
  wf := gather_S700x2048_S50000x1_S50000x2048_1_0_n_n_0_1_12048_wf
def scatter_S700x2048_S50000x1_S50000x2048_1_0_0_1 : ScatterDims S700x2048 S50000x1 S50000x2048 where
  updateWindowDims := [1]
  insertedWindowDims := [0]
  scatterDimsToOperandDims := [0]
  indexVectorDim := 1
  wf := scatter_S700x2048_S50000x1_S50000x2048_1_0_0_1_wf
def dot_S700x2048_S2048x512_S700x512_1_0_0_1_n_n : DotDims S700x2048 S2048x512 S700x512 where
  lhsContracting := [1]
  rhsContracting := [0]
  lhsNonContracting := [0]
  rhsNonContracting := [1]
  lhsBatch := []
  rhsBatch := []
  wf := dot_S700x2048_S2048x512_S700x512_1_0_0_1_n_n_wf
def dot_S256x512_S512x800_S256x800_1_0_0_1_n_n : DotDims S256x512 S512x800 S256x800 where
  lhsContracting := [1]
  rhsContracting := [0]
  lhsNonContracting := [0]
  rhsNonContracting := [1]
  lhsBatch := []
  rhsBatch := []
  wf := dot_S256x512_S512x800_S256x800_1_0_0_1_n_n_wf
def dot_S256x800_S800x1000_S256x1000_1_0_0_1_n_n : DotDims S256x800 S800x1000 S256x1000 where
  lhsContracting := [1]
  rhsContracting := [0]
  lhsNonContracting := [0]
  rhsNonContracting := [1]
  lhsBatch := []
  rhsBatch := []
  wf := dot_S256x800_S800x1000_S256x1000_1_0_0_1_n_n_wf
def dot_S256x1000_S1000x800_S256x800_1_0_0_1_n_n : DotDims S256x1000 S1000x800 S256x800 where
  lhsContracting := [1]
  rhsContracting := [0]
  lhsNonContracting := [0]
  rhsNonContracting := [1]
  lhsBatch := []
  rhsBatch := []
  wf := dot_S256x1000_S1000x800_S256x800_1_0_0_1_n_n_wf
def dot_S100000x1024_S1024x1000_S100000x1000_1_0_0_1_n_n : DotDims S100000x1024 S1024x1000 S100000x1000 where
  lhsContracting := [1]
  rhsContracting := [0]
  lhsNonContracting := [0]
  rhsNonContracting := [1]
  lhsBatch := []
  rhsBatch := []
  wf := dot_S100000x1024_S1024x1000_S100000x1000_1_0_0_1_n_n_wf
def dot_S100000x1000_S1000x800_S100000x800_1_0_0_1_n_n : DotDims S100000x1000 S1000x800 S100000x800 where
  lhsContracting := [1]
  rhsContracting := [0]
  lhsNonContracting := [0]
  rhsNonContracting := [1]
  lhsBatch := []
  rhsBatch := []
  wf := dot_S100000x1000_S1000x800_S100000x800_1_0_0_1_n_n_wf
def dot_S256x800_S800x100000_S256x100000_1_0_0_1_n_n : DotDims S256x800 S800x100000 S256x100000 where
  lhsContracting := [1]
  rhsContracting := [0]
  lhsNonContracting := [0]
  rhsNonContracting := [1]
  lhsBatch := []
  rhsBatch := []
  wf := dot_S256x800_S800x100000_S256x100000_1_0_0_1_n_n_wf

class Facts : Prop extends Facts₀ where

variable [Facts]
-- ==== Proof.RunChunks.lean ====
/-
  The reference's run, chunk by chunk.  The program is a straight line of host operations; cut into nine
  stretches, each stretch is read from ANY contents of the buffers before it: given what the buffers it reads hold
  — arguments of the program, or stages already read — the buffer it ends in holds the next stage.  The stages are
  the reference's operations one at a time (the graph layers, the image tower's three normalised layers, the pair
  stage, the scores), each a function of the program's arguments.
-/
import proofs.«135290_j1108101562624_1_alg».proof.Proof.RunQ
import proofs.«135290_j1108101562624_1_alg».proof.Proof.ReadQ
import Idealize.ShloMosaic.PureOps.Ideal

set_option maxRecDepth 16384

noncomputable section

namespace Cert.ReferenceIdeal.RunChunks

open Cert.ReferenceIdeal Cert.ReferenceIdeal.Gen Cert.ReferenceIdeal.Value Cert.ReferenceIdeal.Read
open Idealize.ShloMosaic Idealize.ShloMosaic.TcCoe Idealize.SL.Sem Idealize.ShloMosaic.StableHlo

variable (W : Valuation τ sig (Elt Ideal))

/-! ## The first graph layer -/

theorem c1_v1 (x2 : (⟨S2x50000, .i32⟩ : BufTy).Contents (Elt Ideal)) (h2 : W (Proc.devRef .tc main_arg2) = x2) :
    after ops1 W (Proc.devRef .tc main_v1) = val_main_v1 (F := Ideal) x2 := by
  after_results_simp
  rw [h2]
  rfl
theorem c1_v3 (x2 : (⟨S2x50000, .i32⟩ : BufTy).Contents (Elt Ideal)) (h2 : W (Proc.devRef .tc main_arg2) = x2) :
    after ops1 W (Proc.devRef .tc main_v3) = val_main_v3 (F := Ideal) x2 := by
  after_results_simp
  rw [h2]
  rfl
theorem c1_v29 (x1 : (⟨S700x512, .f32⟩ : BufTy).Contents (Elt Ideal)) (x2 : (⟨S2x50000, .i32⟩ : BufTy).Contents (Elt Ideal)) (x3 : (⟨S512x2048, .f32⟩ : BufTy).Contents (Elt Ideal)) (x4 : (⟨S2048, .f32⟩ : BufTy).Contents (Elt Ideal)) (x5 : (⟨S512x2048, .f32⟩ : BufTy).Contents (Elt Ideal)) (h1 : W (Proc.devRef .tc main_arg1) = x1) (h2 : W (Proc.devRef .tc main_arg2) = x2) (h3 : W (Proc.devRef .tc main_arg3) = x3) (h4 : W (Proc.devRef .tc main_arg4) = x4) (h5 : W (Proc.devRef .tc main_arg5) = x5) :
    after ops1 W (Proc.devRef .tc main_v29) = val_main_v29 (F := Ideal) x1 x2 x3 x4 x5 := by
  after_results_simp
  rw [h1, h2, h3, h4, h5]
  rfl

/-! ## The second graph layer -/

theorem c2_v54 (x1 : (⟨S700x512, .f32⟩ : BufTy).Contents (Elt Ideal)) (x2 : (⟨S2x50000, .i32⟩ : BufTy).Contents (Elt Ideal)) (x3 : (⟨S512x2048, .f32⟩ : BufTy).Contents (Elt Ideal)) (x4 : (⟨S2048, .f32⟩ : BufTy).Contents (Elt Ideal)) (x5 : (⟨S512x2048, .f32⟩ : BufTy).Contents (Elt Ideal)) (x6 : (⟨S2048x512, .f32⟩ : BufTy).Contents (Elt Ideal)) (x7 : (⟨S512, .f32⟩ : BufTy).Contents (Elt Ideal)) (x8 : (⟨S2048x512, .f32⟩ : BufTy).Contents (Elt Ideal))
    (hv1 : W (Proc.devRef .tc main_v1) = val_main_v1 (F := Ideal) x2) (hv3 : W (Proc.devRef .tc main_v3) = val_main_v3 (F := Ideal) x2)
    (hv29 : W (Proc.devRef .tc main_v29) = val_main_v29 (F := Ideal) x1 x2 x3 x4 x5) (h6 : W (Proc.devRef .tc main_arg6) = x6) (h7 : W (Proc.devRef .tc main_arg7) = x7) (h8 : W (Proc.devRef .tc main_arg8) = x8) :
    after ops2 W (Proc.devRef .tc main_v54) = val_main_v54 (F := Ideal) x1 x2 x3 x4 x5 x6 x7 x8 := by
  after_results_simp
  rw [hv1, hv3, hv29, h6, h7, h8]
  rfl

/-! ## The image tower -/

theorem c3_v83 (x0 : (⟨S256x512, .f32⟩ : BufTy).Contents (Elt Ideal)) (x9 : (⟨S512x800, .f32⟩ : BufTy).Contents (Elt Ideal)) (x10 : (⟨S800, .f32⟩ : BufTy).Contents (Elt Ideal)) (x11 : (⟨S800, .f32⟩ : BufTy).Contents (Elt Ideal)) (x12 : (⟨S800, .f32⟩ : BufTy).Contents (Elt Ideal)) (h0 : W (Proc.devRef .tc main_arg0) = x0) (h9 : W (Proc.devRef .tc main_arg9) = x9) (h10 : W (Proc.devRef .tc main_arg10) = x10) (h11 : W (Proc.devRef .tc main_arg11) = x11) (h12 : W (Proc.devRef .tc main_arg12) = x12) :
    after ops3 W (Proc.devRef .tc main_v83) = val_main_v83 (F := Ideal) x0 x9 x10 x11 x12 := by
  after_results_simp
  rw [h0, h9, h10, h11, h12]
  rfl
theorem c4_v112 (x0 : (⟨S256x512, .f32⟩ : BufTy).Contents (Elt Ideal)) (x9 : (⟨S512x800, .f32⟩ : BufTy).Contents (Elt Ideal)) (x10 : (⟨S800, .f32⟩ : BufTy).Contents (Elt Ideal)) (x11 : (⟨S800, .f32⟩ : BufTy).Contents (Elt Ideal)) (x12 : (⟨S800, .f32⟩ : BufTy).Contents (Elt Ideal)) (x13 : (⟨S800x1000, .f32⟩ : BufTy).Contents (Elt Ideal)) (x14 : (⟨S1000, .f32⟩ : BufTy).Contents (Elt Ideal)) (x15 : (⟨S1000, .f32⟩ : BufTy).Contents (Elt Ideal)) (x16 : (⟨S1000, .f32⟩ : BufTy).Contents (Elt Ideal))
    (hv83 : W (Proc.devRef .tc main_v83) = val_main_v83 (F := Ideal) x0 x9 x10 x11 x12) (h13 : W (Proc.devRef .tc main_arg13) = x13) (h14 : W (Proc.devRef .tc main_arg14) = x14) (h15 : W (Proc.devRef .tc main_arg15) = x15) (h16 : W (Proc.devRef .tc main_arg16) = x16) :
    after ops4 W (Proc.devRef .tc main_v112) = val_main_v112 (F := Ideal) x0 x9 x10 x11 x12 x13 x14 x15 x16 := by
  after_results_simp
  rw [hv83, h13, h14, h15, h16]
  rfl
theorem c5_v140 (x0 : (⟨S256x512, .f32⟩ : BufTy).Contents (Elt Ideal)) (x9 : (⟨S512x800, .f32⟩ : BufTy).Contents (Elt Ideal)) (x10 : (⟨S800, .f32⟩ : BufTy).Contents (Elt Ideal)) (x11 : (⟨S800, .f32⟩ : BufTy).Contents (Elt Ideal)) (x12 : (⟨S800, .f32⟩ : BufTy).Contents (Elt Ideal)) (x13 : (⟨S800x1000, .f32⟩ : BufTy).Contents (Elt Ideal)) (x14 : (⟨S1000, .f32⟩ : BufTy).Contents (Elt Ideal)) (x15 : (⟨S1000, .f32⟩ : BufTy).Contents (Elt Ideal)) (x16 : (⟨S1000, .f32⟩ : BufTy).Contents (Elt Ideal)) (x17 : (⟨S1000x800, .f32⟩ : BufTy).Contents (Elt Ideal)) (x18 : (⟨S800, .f32⟩ : BufTy).Contents (Elt Ideal)) (x19 : (⟨S800, .f32⟩ : BufTy).Contents (Elt Ideal)) (x20 : (⟨S800, .f32⟩ : BufTy).Contents (Elt Ideal))
    (hv112 : W (Proc.devRef .tc main_v112) = val_main_v112 (F := Ideal) x0 x9 x10 x11 x12 x13 x14 x15 x16) (h17 : W (Proc.devRef .tc main_arg17) = x17) (h18 : W (Proc.devRef .tc main_arg18) = x18) (h19 : W (Proc.devRef .tc main_arg19) = x19) (h20 : W (Proc.devRef .tc main_arg20) = x20) :
    after ops5 W (Proc.devRef .tc main_v140) = val_main_v140 (F := Ideal) x0 x9 x10 x11 x12 x13 x14 x15 x16 x17 x18 x19 x20 := by
  after_results_simp
  rw [hv112, h17, h18, h19, h20]
  rfl

/-! ## The pair stage and the scores -/

theorem c6_v152 (x1 : (⟨S700x512, .f32⟩ : BufTy).Contents (Elt Ideal)) (x2 : (⟨S2x50000, .i32⟩ : BufTy).Contents (Elt Ideal)) (x3 : (⟨S512x2048, .f32⟩ : BufTy).Contents (Elt Ideal)) (x4 : (⟨S2048, .f32⟩ : BufTy).Contents (Elt Ideal)) (x5 : (⟨S512x2048, .f32⟩ : BufTy).Contents (Elt Ideal)) (x6 : (⟨S2048x512, .f32⟩ : BufTy).Contents (Elt Ideal)) (x7 : (⟨S512, .f32⟩ : BufTy).Contents (Elt Ideal)) (x8 : (⟨S2048x512, .f32⟩ : BufTy).Contents (Elt Ideal)) (x21 : (⟨S1024x1000, .f32⟩ : BufTy).Contents (Elt Ideal)) (x22 : (⟨S1000, .f32⟩ : BufTy).Contents (Elt Ideal))
    (hv54 : W (Proc.devRef .tc main_v54) = val_main_v54 (F := Ideal) x1 x2 x3 x4 x5 x6 x7 x8) (h21 : W (Proc.devRef .tc main_arg21) = x21) (h22 : W (Proc.devRef .tc main_arg22) = x22) :
    after ops6 W (Proc.devRef .tc main_v152) = val_main_v152 (F := Ideal) x1 x2 x3 x4 x5 x6 x7 x8 x21 x22 := by
  after_results
  rw [hv54, h21, h22]
  rfl
theorem c7_v177 (x1 : (⟨S700x512, .f32⟩ : BufTy).Contents (Elt Ideal)) (x2 : (⟨S2x50000, .i32⟩ : BufTy).Contents (Elt Ideal)) (x3 : (⟨S512x2048, .f32⟩ : BufTy).Contents (Elt Ideal)) (x4 : (⟨S2048, .f32⟩ : BufTy).Contents (Elt Ideal)) (x5 : (⟨S512x2048, .f32⟩ : BufTy).Contents (Elt Ideal)) (x6 : (⟨S2048x512, .f32⟩ : BufTy).Contents (Elt Ideal)) (x7 : (⟨S512, .f32⟩ : BufTy).Contents (Elt Ideal)) (x8 : (⟨S2048x512, .f32⟩ : BufTy).Contents (Elt Ideal)) (x21 : (⟨S1024x1000, .f32⟩ : BufTy).Contents (Elt Ideal)) (x22 : (⟨S1000, .f32⟩ : BufTy).Contents (Elt Ideal)) (x23 : (⟨S1000, .f32⟩ : BufTy).Contents (Elt Ideal)) (x24 : (⟨S1000, .f32⟩ : BufTy).Contents (Elt Ideal))
    (hv152 : W (Proc.devRef .tc main_v152) = val_main_v152 (F := Ideal) x1 x2 x3 x4 x5 x6 x7 x8 x21 x22) (h23 : W (Proc.devRef .tc main_arg23) = x23) (h24 : W (Proc.devRef .tc main_arg24) = x24) :
    after ops7 W (Proc.devRef .tc main_v177) = val_main_v177 (F := Ideal) x1 x2 x3 x4 x5 x6 x7 x8 x21 x22 x23 x24 := by
  after_results_simp
  rw [hv152, h23, h24]
  rfl
theorem c8_v181 (x1 : (⟨S700x512, .f32⟩ : BufTy).Contents (Elt Ideal)) (x2 : (⟨S2x50000, .i32⟩ : BufTy).Contents (Elt Ideal)) (x3 : (⟨S512x2048, .f32⟩ : BufTy).Contents (Elt Ideal)) (x4 : (⟨S2048, .f32⟩ : BufTy).Contents (Elt Ideal)) (x5 : (⟨S512x2048, .f32⟩ : BufTy).Contents (Elt Ideal)) (x6 : (⟨S2048x512, .f32⟩ : BufTy).Contents (Elt Ideal)) (x7 : (⟨S512, .f32⟩ : BufTy).Contents (Elt Ideal)) (x8 : (⟨S2048x512, .f32⟩ : BufTy).Contents (Elt Ideal)) (x21 : (⟨S1024x1000, .f32⟩ : BufTy).Contents (Elt Ideal)) (x22 : (⟨S1000, .f32⟩ : BufTy).Contents (Elt Ideal)) (x23 : (⟨S1000, .f32⟩ : BufTy).Contents (Elt Ideal)) (x24 : (⟨S1000, .f32⟩ : BufTy).Contents (Elt Ideal)) (x25 : (⟨S1000x800, .f32⟩ : BufTy).Contents (Elt Ideal)) (x26 : (⟨S800, .f32⟩ : BufTy).Contents (Elt Ideal))
    (hv177 : W (Proc.devRef .tc main_v177) = val_main_v177 (F := Ideal) x1 x2 x3 x4 x5 x6 x7 x8 x21 x22 x23 x24) (h25 : W (Proc.devRef .tc main_arg25) = x25) (h26 : W (Proc.devRef .tc main_arg26) = x26) :
    after ops8 W (Proc.devRef .tc main_v181) = val_main_v181 (F := Ideal) x1 x2 x3 x4 x5 x6 x7 x8 x21 x22 x23 x24 x25 x26 := by
  after_results_simp
  rw [hv177, h25, h26]
  rfl
theorem c9_v207 (x0 : (⟨S256x512, .f32⟩ : BufTy).Contents (Elt Ideal)) (x1 : (⟨S700x512, .f32⟩ : BufTy).Contents (Elt Ideal)) (x2 : (⟨S2x50000, .i32⟩ : BufTy).Contents (Elt Ideal)) (x3 : (⟨S512x2048, .f32⟩ : BufTy).Contents (Elt Ideal)) (x4 : (⟨S2048, .f32⟩ : BufTy).Contents (Elt Ideal)) (x5 : (⟨S512x2048, .f32⟩ : BufTy).Contents (Elt Ideal)) (x6 : (⟨S2048x512, .f32⟩ : BufTy).Contents (Elt Ideal)) (x7 : (⟨S512, .f32⟩ : BufTy).Contents (Elt Ideal)) (x8 : (⟨S2048x512, .f32⟩ : BufTy).Contents (Elt Ideal)) (x9 : (⟨S512x800, .f32⟩ : BufTy).Contents (Elt Ideal)) (x10 : (⟨S800, .f32⟩ : BufTy).Contents (Elt Ideal)) (x11 : (⟨S800, .f32⟩ : BufTy).Contents (Elt Ideal)) (x12 : (⟨S800, .f32⟩ : BufTy).Contents (Elt Ideal)) (x13 : (⟨S800x1000, .f32⟩ : BufTy).Contents (Elt Ideal)) (x14 : (⟨S1000, .f32⟩ : BufTy).Contents (Elt Ideal)) (x15 : (⟨S1000, .f32⟩ : BufTy).Contents (Elt Ideal)) (x16 : (⟨S1000, .f32⟩ : BufTy).Contents (Elt Ideal)) (x17 : (⟨S1000x800, .f32⟩ : BufTy).Contents (Elt Ideal)) (x18 : (⟨S800, .f32⟩ : BufTy).Contents (Elt Ideal)) (x19 : (⟨S800, .f32⟩ : BufTy).Contents (Elt Ideal)) (x20 : (⟨S800, .f32⟩ : BufTy).Contents (Elt Ideal)) (x21 : (⟨S1024x1000, .f32⟩ : BufTy).Contents (Elt Ideal)) (x22 : (⟨S1000, .f32⟩ : BufTy).Contents (Elt Ideal)) (x23 : (⟨S1000, .f32⟩ : BufTy).Contents (Elt Ideal)) (x24 : (⟨S1000, .f32⟩ : BufTy).Contents (Elt Ideal)) (x25 : (⟨S1000x800, .f32⟩ : BufTy).Contents (Elt Ideal)) (x26 : (⟨S800, .f32⟩ : BufTy).Contents (Elt Ideal)) (x27 : (⟨S800, .f32⟩ : BufTy).Contents (Elt Ideal)) (x28 : (⟨S800, .f32⟩ : BufTy).Contents (Elt Ideal))
    (hv181 : W (Proc.devRef .tc main_v181) = val_main_v181 (F := Ideal) x1 x2 x3 x4 x5 x6 x7 x8 x21 x22 x23 x24 x25 x26)
    (hv140 : W (Proc.devRef .tc main_v140) = val_main_v140 (F := Ideal) x0 x9 x10 x11 x12 x13 x14 x15 x16 x17 x18 x19 x20) (h27 : W (Proc.devRef .tc main_arg27) = x27) (h28 : W (Proc.devRef .tc main_arg28) = x28) :
    after ops9 W (Proc.devRef .tc main_v207) = val_main_v207 (F := Ideal) x0 x1 x2 x3 x4 x5 x6 x7 x8 x9 x10 x11 x12 x13 x14 x15 x16 x17 x18 x19 x20 x21 x22 x23 x24 x25 x26 x27 x28 := by
  after_results_simp
  rw [hv181, hv140, h27, h28]
  rfl

end Cert.ReferenceIdeal.RunChunks

end
-- ==== Proof.RunStages.lean ====
/-
  The reference's run, assembled.  From the launch memory the nine stretches are run in order; after each the
  buffer it ends in holds its stage of the arguments, and a buffer that a later stretch reads but no stretch in
  between writes still holds what it held.  So every weakly fair execution of the reference ends with the score
  array at the last stage, the node array at the second graph layer's stage, and the arguments as launched.
-/
import proofs.«135290_j1108101562624_1_alg».proof.Proof.RunChunks
import Idealize.ShloMosaic.Lib.Pipeline.Frame

set_option maxRecDepth 16384

noncomputable section

namespace Cert.ReferenceIdeal.RunStages

open Cert.ReferenceIdeal Cert.ReferenceIdeal.Gen Cert.ReferenceIdeal.Value Cert.ReferenceIdeal.Read Cert.ReferenceIdeal.RunChunks
open Idealize.ShloMosaic Idealize.ShloMosaic.TcCoe Idealize.SL.Sem Idealize.ShloMosaic.StableHlo

/-- No operation of the named stretch writes the buffer at hand. -/
macro "unwritten" ops:ident : tactic =>
  `(tactic| (refine List.forall_iff_forall_mem.mp ?_
             simp only [$ops:ident, List.Forall, StableHlo.nullary_writes, StableHlo.unary_writes, StableHlo.binary_writes,
               StableHlo.ternary_writes, StableHlo.quaternary_writes, StableHlo.reshape_writes, StableHlo.binaryIndexed_writes,
               Finset.mem_singleton]
             repeat' apply And.intro
             all_goals exact StableHlo.devRef_ne_of_ne (by decide)))

/-- A buffer that no operation of a stretch writes holds after the stretch what it held before. -/
theorem keep (l : List (HloOp τ sig (Elt Ideal))) (W : Valuation τ sig (Elt Ideal)) (b : Ref sig .tc)
    (x : (Proc.devRef .tc b : DevRef τ sig).ty.Contents (Elt Ideal))
    (hnw : ∀ op ∈ l, Proc.devRef .tc b ∉ op.writes) (h : W (Proc.devRef .tc b) = x) :
    after l W (Proc.devRef .tc b) = x :=
  (StableHlo.after_of_forall_not_mem l W hnw).trans h

variable (m : (ℓ : Loc nD τ sig) → Buf (Elt Ideal) ℓ)

/-! ## The buffer contents after each stretch -/

abbrev W1 (c : Dev nD) : Valuation τ sig (Elt Ideal) := after ops1 (launchContents m c)
abbrev W2 (c : Dev nD) : Valuation τ sig (Elt Ideal) := after ops2 (W1 m c)
abbrev W3 (c : Dev nD) : Valuation τ sig (Elt Ideal) := after ops3 (W2 m c)
abbrev W4 (c : Dev nD) : Valuation τ sig (Elt Ideal) := after ops4 (W3 m c)
abbrev W5 (c : Dev nD) : Valuation τ sig (Elt Ideal) := after ops5 (W4 m c)
abbrev W6 (c : Dev nD) : Valuation τ sig (Elt Ideal) := after ops6 (W5 m c)
abbrev W7 (c : Dev nD) : Valuation τ sig (Elt Ideal) := after ops7 (W6 m c)
abbrev W8 (c : Dev nD) : Valuation τ sig (Elt Ideal) := after ops8 (W7 m c)
abbrev W9 (c : Dev nD) : Valuation τ sig (Elt Ideal) := after ops9 (W8 m c)

theorem after_ops (c : Dev nD) : after (ops : List (HloOp τ sig (Elt Ideal))) (launchContents m c) = W9 m c := by
  rw [ops_split]
  simp only [StableHlo.after_append]

/-! ## The arguments where a stretch reads them -/

theorem a1_6 (c : Dev nD) : W1 m c (Proc.devRef .tc main_arg6) = (m ((c.tc : Thread nD τ).loc main_arg6)) :=
  (keep ops1 _ main_arg6 _ (by unwritten ops1) rfl)
theorem a1_7 (c : Dev nD) : W1 m c (Proc.devRef .tc main_arg7) = (m ((c.tc : Thread nD τ).loc main_arg7)) :=
  (keep ops1 _ main_arg7 _ (by unwritten ops1) rfl)
theorem a1_8 (c : Dev nD) : W1 m c (Proc.devRef .tc main_arg8) = (m ((c.tc : Thread nD τ).loc main_arg8)) :=
  (keep ops1 _ main_arg8 _ (by unwritten ops1) rfl)
theorem a2_0 (c : Dev nD) : W2 m c (Proc.devRef .tc main_arg0) = (m ((c.tc : Thread nD τ).loc main_arg0)) :=
  (keep ops2 _ main_arg0 _ (by unwritten ops2) (keep ops1 _ main_arg0 _ (by unwritten ops1) rfl))
theorem a2_9 (c : Dev nD) : W2 m c (Proc.devRef .tc main_arg9) = (m ((c.tc : Thread nD τ).loc main_arg9)) :=
  (keep ops2 _ main_arg9 _ (by unwritten ops2) (keep ops1 _ main_arg9 _ (by unwritten ops1) rfl))
theorem a2_10 (c : Dev nD) : W2 m c (Proc.devRef .tc main_arg10) = (m ((c.tc : Thread nD τ).loc main_arg10)) :=
  (keep ops2 _ main_arg10 _ (by unwritten ops2) (keep ops1 _ main_arg10 _ (by unwritten ops1) rfl))
theorem a2_11 (c : Dev nD) : W2 m c (Proc.devRef .tc main_arg11) = (m ((c.tc : Thread nD τ).loc main_arg11)) :=
  (keep ops2 _ main_arg11 _ (by unwritten ops2) (keep ops1 _ main_arg11 _ (by unwritten ops1) rfl))
theorem a2_12 (c : Dev nD) : W2 m c (Proc.devRef .tc main_arg12) = (m ((c.tc : Thread nD τ).loc main_arg12)) :=
  (keep ops2 _ main_arg12 _ (by unwritten ops2) (keep ops1 _ main_arg12 _ (by unwritten ops1) rfl))
theorem a3_13 (c : Dev nD) : W3 m c (Proc.devRef .tc main_arg13) = (m ((c.tc : Thread nD τ).loc main_arg13)) :=
  (keep ops3 _ main_arg13 _ (by unwritten ops3) (keep ops2 _ main_arg13 _ (by unwritten ops2) (keep ops1 _ main_arg13 _ (by unwritten ops1) rfl)))
theorem a3_14 (c : Dev nD) : W3 m c (Proc.devRef .tc main_arg14) = (m ((c.tc : Thread nD τ).loc main_arg14)) :=
  (keep ops3 _ main_arg14 _ (by unwritten ops3) (keep ops2 _ main_arg14 _ (by unwritten ops2) (keep ops1 _ main_arg14 _ (by unwritten ops1) rfl)))
theorem a3_15 (c : Dev nD) : W3 m c (Proc.devRef .tc main_arg15) = (m ((c.tc : Thread nD τ).loc main_arg15)) :=
  (keep ops3 _ main_arg15 _ (by unwritten ops3) (keep ops2 _ main_arg15 _ (by unwritten ops2) (keep ops1 _ main_arg15 _ (by unwritten ops1) rfl)))
theorem a3_16 (c : Dev nD) : W3 m c (Proc.devRef .tc main_arg16) = (m ((c.tc : Thread nD τ).loc main_arg16)) :=
  (keep ops3 _ main_arg16 _ (by unwritten ops3) (keep ops2 _ main_arg16 _ (by unwritten ops2) (keep ops1 _ main_arg16 _ (by unwritten ops1) rfl)))
theorem a4_17 (c : Dev nD) : W4 m c (Proc.devRef .tc main_arg17) = (m ((c.tc : Thread nD τ).loc main_arg17)) :=
  (keep ops4 _ main_arg17 _ (by unwritten ops4) (keep ops3 _ main_arg17 _ (by unwritten ops3) (keep ops2 _ main_arg17 _ (by unwritten ops2) (keep ops1 _ main_arg17 _ (by unwritten ops1) rfl))))
theorem a4_18 (c : Dev nD) : W4 m c (Proc.devRef .tc main_arg18) = (m ((c.tc : Thread nD τ).loc main_arg18)) :=
  (keep ops4 _ main_arg18 _ (by unwritten ops4) (keep ops3 _ main_arg18 _ (by unwritten ops3) (keep ops2 _ main_arg18 _ (by unwritten ops2) (keep ops1 _ main_arg18 _ (by unwritten ops1) rfl))))
theorem a4_19 (c : Dev nD) : W4 m c (Proc.devRef .tc main_arg19) = (m ((c.tc : Thread nD τ).loc main_arg19)) :=
  (keep ops4 _ main_arg19 _ (by unwritten ops4) (keep ops3 _ main_arg19 _ (by unwritten ops3) (keep ops2 _ main_arg19 _ (by unwritten ops2) (keep ops1 _ main_arg19 _ (by unwritten ops1) rfl))))
theorem a4_20 (c : Dev nD) : W4 m c (Proc.devRef .tc main_arg20) = (m ((c.tc : Thread nD τ).loc main_arg20)) :=
  (keep ops4 _ main_arg20 _ (by unwritten ops4) (keep ops3 _ main_arg20 _ (by unwritten ops3) (keep ops2 _ main_arg20 _ (by unwritten ops2) (keep ops1 _ main_arg20 _ (by unwritten ops1) rfl))))
theorem a5_21 (c : Dev nD) : W5 m c (Proc.devRef .tc main_arg21) = (m ((c.tc : Thread nD τ).loc main_arg21)) :=
  (keep ops5 _ main_arg21 _ (by unwritten ops5) (keep ops4 _ main_arg21 _ (by unwritten ops4) (keep ops3 _ main_arg21 _ (by unwritten ops3) (keep ops2 _ main_arg21 _ (by unwritten ops2) (keep ops1 _ main_arg21 _ (by unwritten ops1) rfl)))))
theorem a5_22 (c : Dev nD) : W5 m c (Proc.devRef .tc main_arg22) = (m ((c.tc : Thread nD τ).loc main_arg22)) :=
  (keep ops5 _ main_arg22 _ (by unwritten ops5) (keep ops4 _ main_arg22 _ (by unwritten ops4) (keep ops3 _ main_arg22 _ (by unwritten ops3) (keep ops2 _ main_arg22 _ (by unwritten ops2) (keep ops1 _ main_arg22 _ (by unwritten ops1) rfl)))))
theorem a6_23 (c : Dev nD) : W6 m c (Proc.devRef .tc main_arg23) = (m ((c.tc : Thread nD τ).loc main_arg23)) :=
  (keep ops6 _ main_arg23 _ (by unwritten ops6) (keep ops5 _ main_arg23 _ (by unwritten ops5) (keep ops4 _ main_arg23 _ (by unwritten ops4) (keep ops3 _ main_arg23 _ (by unwritten ops3) (keep ops2 _ main_arg23 _ (by unwritten ops2) (keep ops1 _ main_arg23 _ (by unwritten ops1) rfl))))))
theorem a6_24 (c : Dev nD) : W6 m c (Proc.devRef .tc main_arg24) = (m ((c.tc : Thread nD τ).loc main_arg24)) :=
  (keep ops6 _ main_arg24 _ (by unwritten ops6) (keep ops5 _ main_arg24 _ (by unwritten ops5) (keep ops4 _ main_arg24 _ (by unwritten ops4) (keep ops3 _ main_arg24 _ (by unwritten ops3) (keep ops2 _ main_arg24 _ (by unwritten ops2) (keep ops1 _ main_arg24 _ (by unwritten ops1) rfl))))))
theorem a7_25 (c : Dev nD) : W7 m c (Proc.devRef .tc main_arg25) = (m ((c.tc : Thread nD τ).loc main_arg25)) :=
  (keep ops7 _ main_arg25 _ (by unwritten ops7) (keep ops6 _ main_arg25 _ (by unwritten ops6) (keep ops5 _ main_arg25 _ (by unwritten ops5) (keep ops4 _ main_arg25 _ (by unwritten ops4) (keep ops3 _ main_arg25 _ (by unwritten ops3) (keep ops2 _ main_arg25 _ (by unwritten ops2) (keep ops1 _ main_arg25 _ (by unwritten ops1) rfl)))))))
theorem a7_26 (c : Dev nD) : W7 m c (Proc.devRef .tc main_arg26) = (m ((c.tc : Thread nD τ).loc main_arg26)) :=
  (keep ops7 _ main_arg26 _ (by unwritten ops7) (keep ops6 _ main_arg26 _ (by unwritten ops6) (keep ops5 _ main_arg26 _ (by unwritten ops5) (keep ops4 _ main_arg26 _ (by unwritten ops4) (keep ops3 _ main_arg26 _ (by unwritten ops3) (keep ops2 _ main_arg26 _ (by unwritten ops2) (keep ops1 _ main_arg26 _ (by unwritten ops1) rfl)))))))
theorem a8_27 (c : Dev nD) : W8 m c (Proc.devRef .tc main_arg27) = (m ((c.tc : Thread nD τ).loc main_arg27)) :=
  (keep ops8 _ main_arg27 _ (by unwritten ops8) (keep ops7 _ main_arg27 _ (by unwritten ops7) (keep ops6 _ main_arg27 _ (by unwritten ops6) (keep ops5 _ main_arg27 _ (by unwritten ops5) (keep ops4 _ main_arg27 _ (by unwritten ops4) (keep ops3 _ main_arg27 _ (by unwritten ops3) (keep ops2 _ main_arg27 _ (by unwritten ops2) (keep ops1 _ main_arg27 _ (by unwritten ops1) rfl))))))))
theorem a8_28 (c : Dev nD) : W8 m c (Proc.devRef .tc main_arg28) = (m ((c.tc : Thread nD τ).loc main_arg28)) :=
  (keep ops8 _ main_arg28 _ (by unwritten ops8) (keep ops7 _ main_arg28 _ (by unwritten ops7) (keep ops6 _ main_arg28 _ (by unwritten ops6) (keep ops5 _ main_arg28 _ (by unwritten ops5) (keep ops4 _ main_arg28 _ (by unwritten ops4) (keep ops3 _ main_arg28 _ (by unwritten ops3) (keep ops2 _ main_arg28 _ (by unwritten ops2) (keep ops1 _ main_arg28 _ (by unwritten ops1) rfl))))))))

/-! ## The stages -/

theorem s1_v1 (c : Dev nD) : W1 m c (Proc.devRef .tc main_v1) = val_main_v1 (F := Ideal) (m ((c.tc : Thread nD τ).loc main_arg2)) :=
  c1_v1 _ _ rfl
theorem s1_v3 (c : Dev nD) : W1 m c (Proc.devRef .tc main_v3) = val_main_v3 (F := Ideal) (m ((c.tc : Thread nD τ).loc main_arg2)) :=
  c1_v3 _ _ rfl
theorem s1_v29 (c : Dev nD) : W1 m c (Proc.devRef .tc main_v29) = val_main_v29 (F := Ideal) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) :=
  c1_v29 _ _ _ _ _ _ rfl rfl rfl rfl rfl
theorem s2_v54 (c : Dev nD) : W2 m c (Proc.devRef .tc main_v54) = val_main_v54 (F := Ideal) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) :=
  c2_v54 _ _ _ _ _ _ _ _ _ (s1_v1 m c) (s1_v3 m c) (s1_v29 m c) (a1_6 m c) (a1_7 m c) (a1_8 m c)
theorem s3_v83 (c : Dev nD) : W3 m c (Proc.devRef .tc main_v83) = val_main_v83 (F := Ideal) (m ((c.tc : Thread nD τ).loc main_arg0)) (m ((c.tc : Thread nD τ).loc main_arg9)) (m ((c.tc : Thread nD τ).loc main_arg10)) (m ((c.tc : Thread nD τ).loc main_arg11)) (m ((c.tc : Thread nD τ).loc main_arg12)) :=
  c3_v83 _ _ _ _ _ _ (a2_0 m c) (a2_9 m c) (a2_10 m c) (a2_11 m c) (a2_12 m c)
theorem s4_v112 (c : Dev nD) : W4 m c (Proc.devRef .tc main_v112) = val_main_v112 (F := Ideal) (m ((c.tc : Thread nD τ).loc main_arg0)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) :=
  c4_v112 _ _ _ _ _ _ _ _ _ _ (s3_v83 m c) (a3_13 m c) (a3_14 m c) (a3_15 m c) (a3_16 m c)
theorem s5_v140 (c : Dev nD) : W5 m c (Proc.devRef .tc main_v140) = val_main_v140 (F := Ideal) (m ((c.tc : Thread nD τ).loc main_arg0)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)) (m ((c.tc : Thread nD τ).loc main_arg20)) :=
  c5_v140 _ _ _ _ _ _ _ _ _ _ _ _ _ _ (s4_v112 m c) (a4_17 m c) (a4_18 m c) (a4_19 m c) (a4_20 m c)
theorem k5_v54 (c : Dev nD) : W5 m c (Proc.devRef .tc main_v54) = val_main_v54 (F := Ideal) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) :=
  (keep ops5 _ main_v54 _ (by unwritten ops5) (keep ops4 _ main_v54 _ (by unwritten ops4) (keep ops3 _ main_v54 _ (by unwritten ops3) (s2_v54 m c))))
theorem s6_v152 (c : Dev nD) : W6 m c (Proc.devRef .tc main_v152) = val_main_v152 (F := Ideal) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg21)) (m ((c.tc : Thread nD τ).loc main_arg22)) :=
  c6_v152 _ _ _ _ _ _ _ _ _ _ _ (k5_v54 m c) (a5_21 m c) (a5_22 m c)
theorem s7_v177 (c : Dev nD) : W7 m c (Proc.devRef .tc main_v177) = val_main_v177 (F := Ideal) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg21)) (m ((c.tc : Thread nD τ).loc main_arg22)) (m ((c.tc : Thread nD τ).loc main_arg23)) (m ((c.tc : Thread nD τ).loc main_arg24)) :=
  c7_v177 _ _ _ _ _ _ _ _ _ _ _ _ _ (s6_v152 m c) (a6_23 m c) (a6_24 m c)
theorem s8_v181 (c : Dev nD) : W8 m c (Proc.devRef .tc main_v181) = val_main_v181 (F := Ideal) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg21)) (m ((c.tc : Thread nD τ).loc main_arg22)) (m ((c.tc : Thread nD τ).loc main_arg23)) (m ((c.tc : Thread nD τ).loc main_arg24)) (m ((c.tc : Thread nD τ).loc main_arg25)) (m ((c.tc : Thread nD τ).loc main_arg26)) :=
  c8_v181 _ _ _ _ _ _ _ _ _ _ _ _ _ _ _ (s7_v177 m c) (a7_25 m c) (a7_26 m c)
theorem k8_v140 (c : Dev nD) : W8 m c (Proc.devRef .tc main_v140) = val_main_v140 (F := Ideal) (m ((c.tc : Thread nD τ).loc main_arg0)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)) (m ((c.tc : Thread nD τ).loc main_arg20)) :=
  (keep ops8 _ main_v140 _ (by unwritten ops8) (keep ops7 _ main_v140 _ (by unwritten ops7) (keep ops6 _ main_v140 _ (by unwritten ops6) (s5_v140 m c))))
theorem s9_v207 (c : Dev nD) : W9 m c (Proc.devRef .tc main_v207) = val_main_v207 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)) (m ((c.tc : Thread nD τ).loc main_arg20)) (m ((c.tc : Thread nD τ).loc main_arg21)) (m ((c.tc : Thread nD τ).loc main_arg22)) (m ((c.tc : Thread nD τ).loc main_arg23)) (m ((c.tc : Thread nD τ).loc main_arg24)) (m ((c.tc : Thread nD τ).loc main_arg25)) (m ((c.tc : Thread nD τ).loc main_arg26)) (m ((c.tc : Thread nD τ).loc main_arg27)) (m ((c.tc : Thread nD τ).loc main_arg28)) :=
  c9_v207 _ _ _ _ _ _ _ _ _ _ _ _ _ _ _ _ _ _ _ _ _ _ _ _ _ _ _ _ _ _ (s8_v181 m c) (k8_v140 m c) (a8_27 m c) (a8_28 m c)
theorem k9_v54 (c : Dev nD) : W9 m c (Proc.devRef .tc main_v54) = val_main_v54 (F := Ideal) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) :=
  (keep ops9 _ main_v54 _ (by unwritten ops9) (keep ops8 _ main_v54 _ (by unwritten ops8) (keep ops7 _ main_v54 _ (by unwritten ops7) (keep ops6 _ main_v54 _ (by unwritten ops6) (k5_v54 m c)))))

/-! ## The run -/

/-- No operation of the reference allocates a buffer. -/
theorem ops_fresh : ∀ op ∈ (ops : List (HloOp τ sig (Elt Ideal))), op.fresh = ∅ :=
  List.forall_iff_forall_mem.mp (by simp only [ops, List.Forall]; repeat' constructor)

set_option maxHeartbeats 4000000 in
/-- Every weakly fair execution of the reference terminates, nothing faulting, with the score array and the node
    array at their stages of the arguments and the arguments as launched. -/
theorem run (ρ : Dev nD → PrngReg) :
    θ_run defs (onTc (τ := τ) (main (F := Ideal))) ⟨m, fun _ => 0, ρ⟩ fun r => ∀ c : Dev nD,
      r.2.mem ((c.tc : Thread nD τ).loc main_v207) = val_main_v207 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)) (m ((c.tc : Thread nD τ).loc main_arg20)) (m ((c.tc : Thread nD τ).loc main_arg21)) (m ((c.tc : Thread nD τ).loc main_arg22)) (m ((c.tc : Thread nD τ).loc main_arg23)) (m ((c.tc : Thread nD τ).loc main_arg24)) (m ((c.tc : Thread nD τ).loc main_arg25)) (m ((c.tc : Thread nD τ).loc main_arg26)) (m ((c.tc : Thread nD τ).loc main_arg27)) (m ((c.tc : Thread nD τ).loc main_arg28))
      ∧ r.2.mem ((c.tc : Thread nD τ).loc main_v54) = val_main_v54 (F := Ideal) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)
      ∧ r.2.mem ((c.tc : Thread nD τ).loc main_arg25) = m ((c.tc : Thread nD τ).loc main_arg25)
      ∧ r.2.mem ((c.tc : Thread nD τ).loc main_arg26) = m ((c.tc : Thread nD τ).loc main_arg26)
      ∧ r.2.mem ((c.tc : Thread nD τ).loc main_arg27) = m ((c.tc : Thread nD τ).loc main_arg27)
      ∧ r.2.mem ((c.tc : Thread nD τ).loc main_arg28) = m ((c.tc : Thread nD τ).loc main_arg28) :=
  (θ_run defs _ _).mono (fun _ h c => ⟨(h c main_v207).trans ((congrFun (after_ops m c) _).trans (s9_v207 m c)),
      (h c main_v54).trans ((congrFun (after_ops m c) _).trans (k9_v54 m c)),
      (h c main_arg0).trans (StableHlo.after_of_forall_not_mem ops _ (by unwritten ops)),
      (h c main_arg1).trans (StableHlo.after_of_forall_not_mem ops _ (by unwritten ops)),
      (h c main_arg2).trans (StableHlo.after_of_forall_not_mem ops _ (by unwritten ops)),
      (h c main_arg3).trans (StableHlo.after_of_forall_not_mem ops _ (by unwritten ops)),
      (h c main_arg4).trans (StableHlo.after_of_forall_not_mem ops _ (by unwritten ops)),
      (h c main_arg5).trans (StableHlo.after_of_forall_not_mem ops _ (by unwritten ops)),
      (h c main_arg6).trans (StableHlo.after_of_forall_not_mem ops _ (by unwritten ops)),
      (h c main_arg7).trans (StableHlo.after_of_forall_not_mem ops _ (by unwritten ops)),
      (h c main_arg8).trans (StableHlo.after_of_forall_not_mem ops _ (by unwritten ops)),
      (h c main_arg9).trans (StableHlo.after_of_forall_not_mem ops _ (by unwritten ops)),
      (h c main_arg10).trans (StableHlo.after_of_forall_not_mem ops _ (by unwritten ops)),
      (h c main_arg11).trans (StableHlo.after_of_forall_not_mem ops _ (by unwritten ops)),
      (h c main_arg12).trans (StableHlo.after_of_forall_not_mem ops _ (by unwritten ops)),
      (h c main_arg13).trans (StableHlo.after_of_forall_not_mem ops _ (by unwritten ops)),
      (h c main_arg14).trans (StableHlo.after_of_forall_not_mem ops _ (by unwritten ops)),
      (h c main_arg15).trans (StableHlo.after_of_forall_not_mem ops _ (by unwritten ops)),
      (h c main_arg16).trans (StableHlo.after_of_forall_not_mem ops _ (by unwritten ops)),
      (h c main_arg17).trans (StableHlo.after_of_forall_not_mem ops _ (by unwritten ops)),
      (h c main_arg18).trans (StableHlo.after_of_forall_not_mem ops _ (by unwritten ops)),
      (h c main_arg19).trans (StableHlo.after_of_forall_not_mem ops _ (by unwritten ops)),
      (h c main_arg20).trans (StableHlo.after_of_forall_not_mem ops _ (by unwritten ops)),
      (h c main_arg21).trans (StableHlo.after_of_forall_not_mem ops _ (by unwritten ops)),
      (h c main_arg22).trans (StableHlo.after_of_forall_not_mem ops _ (by unwritten ops)),
      (h c main_arg23).trans (StableHlo.after_of_forall_not_mem ops _ (by unwritten ops)),
      (h c main_arg24).trans (StableHlo.after_of_forall_not_mem ops _ (by unwritten ops)),
      (h c main_arg25).trans (StableHlo.after_of_forall_not_mem ops _ (by unwritten ops)),
      (h c main_arg26).trans (StableHlo.after_of_forall_not_mem ops _ (by unwritten ops)),
      (h c main_arg27).trans (StableHlo.after_of_forall_not_mem ops _ (by unwritten ops)),
      (h c main_arg28).trans (StableHlo.after_of_forall_not_mem ops _ (by unwritten ops))⟩)
    (run_seq scopedRefs_eq scopedSems_eq defs main (fun _ => ops) main_eq (fun _ => ops_sub) m ρ (fun _ => ops_fresh))

end Cert.ReferenceIdeal.RunStages

end
-- ==== Proof.Spec.lean ====
/-
  The mathematics both programs compute, over the extended reals, with arrays read as functions of plain
  finite indices.  A graph layer is two matrix products and a bias; a layer norm of a row subtracts the row's
  mean, scales by the inverse square root of the row's variance plus a small constant, then applies a gain
  and a shift; the pair stage projects an attribute row and an object row separately through the two halves
  of one weight matrix, adds them, and sends the sum through two normalised layers; the score is the inner
  product of a pair's embedding with an image's embedding.  Nothing here names a program.
-/
import Idealize.ShloMosaic.PureOps.Ideal.Laws
import Idealize.ShloMosaic.Lib.ValueIdx

noncomputable section

namespace Cert.GaeSpec

open Idealize.ShloMosaic Idealize.ShloMosaic.ValueIdx

/-- A rank-2 array as a function of its row and its column. -/
abbrev m2 {n m : ℕ} (X : (⟨2, ![n, m]⟩ : Shape).Idx → EReal) : Fin n → Fin m → EReal := fun i j => X (ix2 i j)

/-- A rank-1 array as a function of its position. -/
abbrev m1 {n : ℕ} (X : (⟨1, ![n]⟩ : Shape).Idx → EReal) : Fin n → EReal := fun j => X (ix1 j)

/-- The one row of a [1, n] array as a function of its column. -/
abbrev r1 {n : ℕ} (X : (⟨2, ![1, n]⟩ : Shape).Idx → EReal) : Fin n → EReal := fun j => X (ix2 0 j)

/-- The small constant under the square root, and the two row lengths the means divide by, as the words the
    two programs share denote them. -/
abbrev eps : EReal := Ideal.ofBits .f32 0x3727C5AC#32
abbrev c800 : EReal := Ideal.ofBits .f32 0x44480000#32
abbrev c1000 : EReal := Ideal.ofBits .f32 0x447A0000#32

/-- Row `i` of `A` times column `j` of `W`. -/
def dot {n K J : ℕ} (A : Fin n → Fin K → EReal) (W : Fin K → Fin J → EReal) (i : Fin n) (j : Fin J) : EReal :=
  ∑ k, A i k * W k j

/-- A linear layer: the product plus the bias. -/
def lin {n K J : ℕ} (A : Fin n → Fin K → EReal) (W : Fin K → Fin J → EReal) (b : Fin J → EReal) (i : Fin n) (j : Fin J) : EReal :=
  dot A W i j + b j

/-- A graph layer: the neighbours' mean through one matrix, plus a bias, plus the node's own row through another. -/
def sage {n K J : ℕ} (M X : Fin n → Fin K → EReal) (Wl Wr : Fin K → Fin J → EReal) (bl : Fin J → EReal) (i : Fin n) (j : Fin J) : EReal :=
  lin M Wl bl i j + dot X Wr i j

/-- The positive part. -/
def relu (x : EReal) : EReal := max x 0

/-- The mean of a row, its length given as the constant the programs divide by. -/
def mean {J : ℕ} (cnt : EReal) (t : Fin J → EReal) : EReal := Ideal.div (∑ k, t k) cnt

/-- The layer norm of one row `t` with gain `g` and shift `b`, at position `j`. -/
def lnorm {J : ℕ} (cnt : EReal) (g b t : Fin J → EReal) (j : Fin J) : EReal :=
  (t j - mean cnt t) * Ideal.rsqrt (mean cnt (fun k => (t k - mean cnt t) * (t k - mean cnt t)) + eps) * g j + b j

/-- The first graph layer with its positive part. -/
def hidden (M X : Fin 700 → Fin 512 → EReal) (Wl Wr : Fin 512 → Fin 2048 → EReal) (bl : Fin 2048 → EReal) : Fin 700 → Fin 2048 → EReal :=
  fun i j => relu (sage M X Wl Wr bl i j)

/-- The image tower: two normalised layers with positive parts, then a normalised layer. -/
def imgTower (img : Fin 256 → Fin 512 → EReal)
    (W1 : Fin 512 → Fin 800 → EReal) (b1 g1 be1 : Fin 800 → EReal)
    (W2 : Fin 800 → Fin 1000 → EReal) (b2 g2 be2 : Fin 1000 → EReal)
    (W3 : Fin 1000 → Fin 800 → EReal) (b3 gn bn : Fin 800 → EReal) : Fin 256 → Fin 800 → EReal :=
  let t1 : Fin 256 → Fin 800 → EReal := fun i j => relu (lnorm c800 g1 be1 (lin img W1 b1 i) j)
  let t2 : Fin 256 → Fin 1000 → EReal := fun i j => relu (lnorm c1000 g2 be2 (lin t1 W2 b2 i) j)
  fun i j => lnorm c800 gn bn (lin t2 W3 b3 i) j

/-- The pair stage before its first norm: the attribute row through the upper half of `W1`, the object row
    through the lower half, their sum, the bias. -/
def pairPre {na no : ℕ} (attr : Fin na → Fin 512 → EReal) (obj : Fin no → Fin 512 → EReal)
    (W1 : Fin 1024 → Fin 1000 → EReal) (b1 : Fin 1000 → EReal) (a : Fin na) (o : Fin no) (j : Fin 1000) : EReal :=
  ((∑ k : Fin 512, attr a k * W1 (Fin.castAdd 512 k) j) + (∑ k : Fin 512, obj o k * W1 (Fin.natAdd 512 k) j)) + b1 j

/-- The pair's embedding: norm, positive part, linear layer, norm. -/
def pairEmb {na no : ℕ} (attr : Fin na → Fin 512 → EReal) (obj : Fin no → Fin 512 → EReal)
    (W1 : Fin 1024 → Fin 1000 → EReal) (b1 g1 be1 : Fin 1000 → EReal)
    (W2 : Fin 1000 → Fin 800 → EReal) (b2 gn bn : Fin 800 → EReal) (a : Fin na) (o : Fin no) : Fin 800 → EReal :=
  lnorm c800 gn bn (fun e => (∑ j : Fin 1000, relu (lnorm c1000 g1 be1 (pairPre attr obj W1 b1 a o) j) * W2 j e) + b2 e)

/-- The score of image `b` against pair `(a, o)`. -/
def score {na no : ℕ} (pn : Fin na → Fin no → Fin 800 → EReal) (imgf : Fin 256 → Fin 800 → EReal)
    (a : Fin na) (o : Fin no) (b : Fin 256) : EReal :=
  ∑ e : Fin 800, pn a o e * imgf b e

end Cert.GaeSpec

end
-- ==== Proof.GlueCore.lean ====
/-
  The kernel program's host stretches, read: what each kernel call's operand arrays hold when the call is
  entered, in terms of the launch memory and of the earlier calls' results.  A format change is the identity on
  the extended reals, a reshape of a vector to a one-row matrix keeps its entries, and a buffer that no operation
  and no call writes keeps its contents from one boundary of the program to the next.
-/
import proofs.«135290_j1108101562624_1_alg».proof.Proof.Gen.KernelIdeal.Frame
import proofs.«135290_j1108101562624_1_alg».proof.Proof.Spec
import Idealize.ShloMosaic.Lib.StableHlo.Run
import Idealize.ShloMosaic.Lib.ValueLayout
import Idealize.ShloMosaic.PureOps.Ideal

set_option maxRecDepth 16384

noncomputable section

namespace Cert.KernelIdeal.Glue

open Cert.KernelIdeal Cert.KernelIdeal.Gen Cert.GaeSpec
open Idealize.ShloMosaic Idealize.ShloMosaic.TcCoe Idealize.ShloMosaic.Tactic Idealize.ShloMosaic.StableHlo Idealize.ShloMosaic.ValueIdx
open Idealize.SL Idealize.SL.Sem

variable (m : (ℓ : Loc nD τ sig) → Buf (Elt Ideal) ℓ) (ρ : Dev nD → PrngReg)

/-- No operation of the named stretch writes the buffer at hand. -/
macro "not_written" ops:ident : tactic =>
  `(tactic| (refine List.forall_iff_forall_mem.mp ?_
             simp only [$ops:ident, List.flatten_cons, List.flatten_nil, List.append_nil, List.cons_append,
               List.nil_append, List.Forall, StableHlo.nullary_writes, StableHlo.unary_writes, StableHlo.binary_writes,
               StableHlo.ternary_writes, StableHlo.quaternary_writes, StableHlo.reshape_writes, StableHlo.binaryIndexed_writes,
               Finset.mem_singleton]
             repeat' apply And.intro
             all_goals exact StableHlo.devRef_ne_of_ne (by decide)))

/-! ## Walking a buffer that nothing writes back to the launch memory -/

theorem back_W2 (b : Ref sig .tc) (c : Dev nD) (h2 : ∀ w, Pipeline.arrRef spec0 w ≠ b)
    (h0 : ∀ op ∈ (hostOps0 : List (HloOp τ sig (Elt Ideal))), Proc.devRef .tc b ∉ op.writes) :
    W2 m ρ c (Proc.devRef .tc b) = m ((c : Thread nD τ).loc b) :=
  (W2_of_ne m ρ c b h2).trans (StableHlo.after_of_forall_not_mem hostOps0 _ h0)
theorem back_W4 (b : Ref sig .tc) (c : Dev nD) (h4 : ∀ w, Pipeline.arrRef spec1 w ≠ b)
    (h1 : ∀ op ∈ (hostOps1 : List (HloOp τ sig (Elt Ideal))), Proc.devRef .tc b ∉ op.writes)
    (h2 : ∀ w, Pipeline.arrRef spec0 w ≠ b)
    (h0 : ∀ op ∈ (hostOps0 : List (HloOp τ sig (Elt Ideal))), Proc.devRef .tc b ∉ op.writes) :
    W4 m ρ c (Proc.devRef .tc b) = m ((c : Thread nD τ).loc b) :=
  (W4_of_ne m ρ c b h4).trans ((StableHlo.after_of_forall_not_mem hostOps1 _ h1).trans (back_W2 m ρ b c h2 h0))
theorem back_W6 (b : Ref sig .tc) (c : Dev nD)
    (h6 : ∀ w, Pipeline.arrRef spec2 w ≠ b)
    (h2' : ∀ op ∈ (hostOps2 : List (HloOp τ sig (Elt Ideal))), Proc.devRef .tc b ∉ op.writes)
    (h4 : ∀ w, Pipeline.arrRef spec1 w ≠ b)
    (h1 : ∀ op ∈ (hostOps1 : List (HloOp τ sig (Elt Ideal))), Proc.devRef .tc b ∉ op.writes)
    (h2 : ∀ w, Pipeline.arrRef spec0 w ≠ b)
    (h0 : ∀ op ∈ (hostOps0 : List (HloOp τ sig (Elt Ideal))), Proc.devRef .tc b ∉ op.writes) :
    W6 m ρ c (Proc.devRef .tc b) = m ((c : Thread nD τ).loc b) :=
  (W6_of_ne m ρ c b h6).trans
    ((StableHlo.after_of_forall_not_mem hostOps2 _ h2').trans (back_W4 m ρ b c h4 h1 h2 h0))

end Cert.KernelIdeal.Glue
end
-- ==== Proof.GlueGraph.lean ====
/-
  What the two graph calls read: the segment mean and the node features as the host stretches leave them, the weight matrices unchanged by their change of format, each bias as the one row of its reshape.
-/
import proofs.«135290_j1108101562624_1_alg».proof.Proof.GlueCore

set_option maxRecDepth 16384

noncomputable section

namespace Cert.KernelIdeal.Glue

open Cert.KernelIdeal Cert.KernelIdeal.Gen Cert.GaeSpec
open Idealize.ShloMosaic Idealize.ShloMosaic.TcCoe Idealize.ShloMosaic.Tactic Idealize.ShloMosaic.StableHlo Idealize.ShloMosaic.ValueIdx
open Idealize.SL Idealize.SL.Sem

variable (m : (ℓ : Loc nD τ sig) → Buf (Elt Ideal) ℓ) (ρ : Dev nD → PrngReg)

/-! ## The first graph call's operands -/

theorem g0_arg1 (c : Dev nD) : V1 m ρ c main_arg1 = m ((c : Thread nD τ).loc main_arg1) :=
  StableHlo.after_of_forall_not_mem hostOps0 _ (by not_written hostOps0)
theorem g0_v23 (c : Dev nD) : m2 (V1 m ρ c main_v23) = m2 (m ((c : Thread nD τ).loc main_arg3)) := by
  funext i k
  show StableHlo.after hostOps0 (W0 m ρ c) (Proc.devRef .tc main_v23) (ix2 i k) = _
  after_results_simp
  rfl
theorem g0_v24 (c : Dev nD) : m2 (V1 m ρ c main_v24) = m2 (m ((c : Thread nD τ).loc main_arg5)) := by
  funext i k
  show StableHlo.after hostOps0 (W0 m ρ c) (Proc.devRef .tc main_v24) (ix2 i k) = _
  after_results_simp
  rfl
theorem g0_v25 (c : Dev nD) : r1 (V1 m ρ c main_v25) = m1 (m ((c : Thread nD τ).loc main_arg4)) := by
  funext j
  show StableHlo.after hostOps0 (W0 m ρ c) (Proc.devRef .tc main_v25) (ix2 0 j) = _
  after_results_simp
  exact shapeCast_a_1a_apply _ _ 0 j
theorem W2_v26 (c : Dev nD) : W2 m ρ c (Proc.devRef .tc main_v26) = (dat0 (V1 m ρ) c).arrAt 5 cfg0.N := W2_arr m ρ c 5

/-! ## The second graph call's operands -/

theorem W2_v1 (c : Dev nD) : W2 m ρ c (Proc.devRef .tc main_v1) = W1 m ρ c (Proc.devRef .tc main_v1) := W2_of_ne m ρ c main_v1 (by decide)
theorem W2_v3 (c : Dev nD) : W2 m ρ c (Proc.devRef .tc main_v3) = W1 m ρ c (Proc.devRef .tc main_v3) := W2_of_ne m ρ c main_v3 (by decide)
theorem g1_v26 (c : Dev nD) : V3 m ρ c main_v26 = W2 m ρ c (Proc.devRef .tc main_v26) := by
  show StableHlo.after hostOps1 (W2 m ρ c) (Proc.devRef .tc main_v26) = _
  exact StableHlo.after_of_forall_not_mem _ _ (by not_written hostOps1)
theorem W2_arg6 (c : Dev nD) : W2 m ρ c (Proc.devRef .tc main_arg6) = m ((c : Thread nD τ).loc main_arg6) :=
  back_W2 m ρ main_arg6 c (by decide) (by not_written hostOps0)
theorem W2_arg7 (c : Dev nD) : W2 m ρ c (Proc.devRef .tc main_arg7) = m ((c : Thread nD τ).loc main_arg7) :=
  back_W2 m ρ main_arg7 c (by decide) (by not_written hostOps0)
theorem W2_arg8 (c : Dev nD) : W2 m ρ c (Proc.devRef .tc main_arg8) = m ((c : Thread nD τ).loc main_arg8) :=
  back_W2 m ρ main_arg8 c (by decide) (by not_written hostOps0)
theorem g1_v46 (c : Dev nD) : m2 (V3 m ρ c main_v46) = m2 (m ((c : Thread nD τ).loc main_arg6)) := by
  funext i k
  show StableHlo.after hostOps1 (W2 m ρ c) (Proc.devRef .tc main_v46) (ix2 i k) = _
  after_results_simp
  rw [W2_arg6]; rfl
theorem g1_v47 (c : Dev nD) : m2 (V3 m ρ c main_v47) = m2 (m ((c : Thread nD τ).loc main_arg8)) := by
  funext i k
  show StableHlo.after hostOps1 (W2 m ρ c) (Proc.devRef .tc main_v47) (ix2 i k) = _
  after_results_simp
  rw [W2_arg8]; rfl
theorem g1_v48 (c : Dev nD) : r1 (V3 m ρ c main_v48) = m1 (m ((c : Thread nD τ).loc main_arg7)) := by
  funext j
  show StableHlo.after hostOps1 (W2 m ρ c) (Proc.devRef .tc main_v48) (ix2 0 j) = _
  after_results_simp
  rw [W2_arg7]
  exact shapeCast_a_1a_apply _ _ 0 j
theorem W4_v49 (c : Dev nD) : W4 m ρ c (Proc.devRef .tc main_v49) = (dat1 (V3 m ρ) c).arrAt 5 cfg1.N := W4_arr m ρ c 5

end Cert.KernelIdeal.Glue

end
-- ==== Proof.GlueImage.lean ====
/-
  What the image call reads: the images and the three layers' weights, biases, gains and shifts, each as launched (a format change or a reshape to one row apart).
-/
import proofs.«135290_j1108101562624_1_alg».proof.Proof.GlueCore

set_option maxRecDepth 16384

noncomputable section

namespace Cert.KernelIdeal.Glue

open Cert.KernelIdeal Cert.KernelIdeal.Gen Cert.GaeSpec
open Idealize.ShloMosaic Idealize.ShloMosaic.TcCoe Idealize.ShloMosaic.Tactic Idealize.ShloMosaic.StableHlo Idealize.ShloMosaic.ValueIdx
open Idealize.SL Idealize.SL.Sem

variable (m : (ℓ : Loc nD τ sig) → Buf (Elt Ideal) ℓ) (ρ : Dev nD → PrngReg)

/-! ## The image call's operands -/

theorem W4_arg0 (c : Dev nD) : W4 m ρ c (Proc.devRef .tc main_arg0) = m ((c : Thread nD τ).loc main_arg0) :=
  back_W4 m ρ main_arg0 c (by decide) (by not_written hostOps1) (by decide) (by not_written hostOps0)
theorem W4_arg9 (c : Dev nD) : W4 m ρ c (Proc.devRef .tc main_arg9) = m ((c : Thread nD τ).loc main_arg9) :=
  back_W4 m ρ main_arg9 c (by decide) (by not_written hostOps1) (by decide) (by not_written hostOps0)
theorem W4_arg10 (c : Dev nD) : W4 m ρ c (Proc.devRef .tc main_arg10) = m ((c : Thread nD τ).loc main_arg10) :=
  back_W4 m ρ main_arg10 c (by decide) (by not_written hostOps1) (by decide) (by not_written hostOps0)
theorem W4_arg11 (c : Dev nD) : W4 m ρ c (Proc.devRef .tc main_arg11) = m ((c : Thread nD τ).loc main_arg11) :=
  back_W4 m ρ main_arg11 c (by decide) (by not_written hostOps1) (by decide) (by not_written hostOps0)
theorem W4_arg12 (c : Dev nD) : W4 m ρ c (Proc.devRef .tc main_arg12) = m ((c : Thread nD τ).loc main_arg12) :=
  back_W4 m ρ main_arg12 c (by decide) (by not_written hostOps1) (by decide) (by not_written hostOps0)
theorem W4_arg13 (c : Dev nD) : W4 m ρ c (Proc.devRef .tc main_arg13) = m ((c : Thread nD τ).loc main_arg13) :=
  back_W4 m ρ main_arg13 c (by decide) (by not_written hostOps1) (by decide) (by not_written hostOps0)
theorem W4_arg14 (c : Dev nD) : W4 m ρ c (Proc.devRef .tc main_arg14) = m ((c : Thread nD τ).loc main_arg14) :=
  back_W4 m ρ main_arg14 c (by decide) (by not_written hostOps1) (by decide) (by not_written hostOps0)
theorem W4_arg15 (c : Dev nD) : W4 m ρ c (Proc.devRef .tc main_arg15) = m ((c : Thread nD τ).loc main_arg15) :=
  back_W4 m ρ main_arg15 c (by decide) (by not_written hostOps1) (by decide) (by not_written hostOps0)
theorem W4_arg16 (c : Dev nD) : W4 m ρ c (Proc.devRef .tc main_arg16) = m ((c : Thread nD τ).loc main_arg16) :=
  back_W4 m ρ main_arg16 c (by decide) (by not_written hostOps1) (by decide) (by not_written hostOps0)
theorem W4_arg17 (c : Dev nD) : W4 m ρ c (Proc.devRef .tc main_arg17) = m ((c : Thread nD τ).loc main_arg17) :=
  back_W4 m ρ main_arg17 c (by decide) (by not_written hostOps1) (by decide) (by not_written hostOps0)
theorem W4_arg18 (c : Dev nD) : W4 m ρ c (Proc.devRef .tc main_arg18) = m ((c : Thread nD τ).loc main_arg18) :=
  back_W4 m ρ main_arg18 c (by decide) (by not_written hostOps1) (by decide) (by not_written hostOps0)
theorem W4_arg19 (c : Dev nD) : W4 m ρ c (Proc.devRef .tc main_arg19) = m ((c : Thread nD τ).loc main_arg19) :=
  back_W4 m ρ main_arg19 c (by decide) (by not_written hostOps1) (by decide) (by not_written hostOps0)
theorem W4_arg20 (c : Dev nD) : W4 m ρ c (Proc.devRef .tc main_arg20) = m ((c : Thread nD τ).loc main_arg20) :=
  back_W4 m ρ main_arg20 c (by decide) (by not_written hostOps1) (by decide) (by not_written hostOps0)
theorem g2_arg0 (c : Dev nD) : V5 m ρ c main_arg0 = m ((c : Thread nD τ).loc main_arg0) :=
  (StableHlo.after_of_forall_not_mem hostOps2 _ (by not_written hostOps2)).trans (W4_arg0 m ρ c)
theorem g2_v50 (c : Dev nD) : m2 (V5 m ρ c main_v50) = m2 (m ((c : Thread nD τ).loc main_arg9)) := by
  funext i k
  show StableHlo.after hostOps2 (W4 m ρ c) (Proc.devRef .tc main_v50) (ix2 i k) = _
  after_results_simp
  rw [W4_arg9]; rfl
theorem g2_v51 (c : Dev nD) : m2 (V5 m ρ c main_v51) = m2 (m ((c : Thread nD τ).loc main_arg13)) := by
  funext i k
  show StableHlo.after hostOps2 (W4 m ρ c) (Proc.devRef .tc main_v51) (ix2 i k) = _
  after_results_simp
  rw [W4_arg13]; rfl
theorem g2_v52 (c : Dev nD) : m2 (V5 m ρ c main_v52) = m2 (m ((c : Thread nD τ).loc main_arg17)) := by
  funext i k
  show StableHlo.after hostOps2 (W4 m ρ c) (Proc.devRef .tc main_v52) (ix2 i k) = _
  after_results_simp
  rw [W4_arg17]; rfl
theorem g2_v53 (c : Dev nD) : r1 (V5 m ρ c main_v53) = m1 (m ((c : Thread nD τ).loc main_arg10)) := by
  funext j
  show StableHlo.after hostOps2 (W4 m ρ c) (Proc.devRef .tc main_v53) (ix2 0 j) = _
  after_results_simp
  rw [W4_arg10]
  exact shapeCast_a_1a_apply _ _ 0 j
theorem g2_v54 (c : Dev nD) : r1 (V5 m ρ c main_v54) = m1 (m ((c : Thread nD τ).loc main_arg11)) := by
  funext j
  show StableHlo.after hostOps2 (W4 m ρ c) (Proc.devRef .tc main_v54) (ix2 0 j) = _
  after_results_simp
  rw [W4_arg11]
  exact shapeCast_a_1a_apply _ _ 0 j
theorem g2_v55 (c : Dev nD) : r1 (V5 m ρ c main_v55) = m1 (m ((c : Thread nD τ).loc main_arg12)) := by
  funext j
  show StableHlo.after hostOps2 (W4 m ρ c) (Proc.devRef .tc main_v55) (ix2 0 j) = _
  after_results_simp
  rw [W4_arg12]
  exact shapeCast_a_1a_apply _ _ 0 j
theorem g2_v56 (c : Dev nD) : r1 (V5 m ρ c main_v56) = m1 (m ((c : Thread nD τ).loc main_arg14)) := by
  funext j
  show StableHlo.after hostOps2 (W4 m ρ c) (Proc.devRef .tc main_v56) (ix2 0 j) = _
  after_results_simp
  rw [W4_arg14]
  exact shapeCast_a_1a_apply _ _ 0 j
theorem g2_v57 (c : Dev nD) : r1 (V5 m ρ c main_v57) = m1 (m ((c : Thread nD τ).loc main_arg15)) := by
  funext j
  show StableHlo.after hostOps2 (W4 m ρ c) (Proc.devRef .tc main_v57) (ix2 0 j) = _
  after_results_simp
  rw [W4_arg15]
  exact shapeCast_a_1a_apply _ _ 0 j
theorem g2_v58 (c : Dev nD) : r1 (V5 m ρ c main_v58) = m1 (m ((c : Thread nD τ).loc main_arg16)) := by
  funext j
  show StableHlo.after hostOps2 (W4 m ρ c) (Proc.devRef .tc main_v58) (ix2 0 j) = _
  after_results_simp
  rw [W4_arg16]
  exact shapeCast_a_1a_apply _ _ 0 j
theorem g2_v59 (c : Dev nD) : r1 (V5 m ρ c main_v59) = m1 (m ((c : Thread nD τ).loc main_arg18)) := by
  funext j
  show StableHlo.after hostOps2 (W4 m ρ c) (Proc.devRef .tc main_v59) (ix2 0 j) = _
  after_results_simp
  rw [W4_arg18]
  exact shapeCast_a_1a_apply _ _ 0 j
theorem g2_v60 (c : Dev nD) : r1 (V5 m ρ c main_v60) = m1 (m ((c : Thread nD τ).loc main_arg19)) := by
  funext j
  show StableHlo.after hostOps2 (W4 m ρ c) (Proc.devRef .tc main_v60) (ix2 0 j) = _
  after_results_simp
  rw [W4_arg19]
  exact shapeCast_a_1a_apply _ _ 0 j
theorem g2_v61 (c : Dev nD) : r1 (V5 m ρ c main_v61) = m1 (m ((c : Thread nD τ).loc main_arg20)) := by
  funext j
  show StableHlo.after hostOps2 (W4 m ρ c) (Proc.devRef .tc main_v61) (ix2 0 j) = _
  after_results_simp
  rw [W4_arg20]
  exact shapeCast_a_1a_apply _ _ 0 j
theorem W6_v62 (c : Dev nD) : W6 m ρ c (Proc.devRef .tc main_v62) = (dat2 (V5 m ρ) c).arrAt 13 cfg2.N := W6_arr m ρ c 13

end Cert.KernelIdeal.Glue

end
-- ==== Proof.GluePair.lean ====
/-
  What the pair call reads — the attribute rows and the zero-padded object rows of the node array, the image embeddings, the pair stage's parameters — and what the two results of the program are in terms of the calls' output arrays.
-/
import proofs.«135290_j1108101562624_1_alg».proof.Proof.GlueCore

set_option maxRecDepth 16384

noncomputable section

namespace Cert.KernelIdeal.Glue

open Cert.KernelIdeal Cert.KernelIdeal.Gen Cert.GaeSpec
open Idealize.ShloMosaic Idealize.ShloMosaic.TcCoe Idealize.ShloMosaic.Tactic Idealize.ShloMosaic.StableHlo Idealize.ShloMosaic.ValueIdx
open Idealize.SL Idealize.SL.Sem

variable (m : (ℓ : Loc nD τ sig) → Buf (Elt Ideal) ℓ) (ρ : Dev nD → PrngReg)

/-! ## The pair call's operands -/

theorem W6_arg21 (c : Dev nD) : W6 m ρ c (Proc.devRef .tc main_arg21) = m ((c : Thread nD τ).loc main_arg21) :=
  back_W6 m ρ main_arg21 c (by decide) (by not_written hostOps2) (by decide) (by not_written hostOps1) (by decide) (by not_written hostOps0)
theorem W6_arg22 (c : Dev nD) : W6 m ρ c (Proc.devRef .tc main_arg22) = m ((c : Thread nD τ).loc main_arg22) :=
  back_W6 m ρ main_arg22 c (by decide) (by not_written hostOps2) (by decide) (by not_written hostOps1) (by decide) (by not_written hostOps0)
theorem W6_arg23 (c : Dev nD) : W6 m ρ c (Proc.devRef .tc main_arg23) = m ((c : Thread nD τ).loc main_arg23) :=
  back_W6 m ρ main_arg23 c (by decide) (by not_written hostOps2) (by decide) (by not_written hostOps1) (by decide) (by not_written hostOps0)
theorem W6_arg24 (c : Dev nD) : W6 m ρ c (Proc.devRef .tc main_arg24) = m ((c : Thread nD τ).loc main_arg24) :=
  back_W6 m ρ main_arg24 c (by decide) (by not_written hostOps2) (by decide) (by not_written hostOps1) (by decide) (by not_written hostOps0)
theorem W6_arg25 (c : Dev nD) : W6 m ρ c (Proc.devRef .tc main_arg25) = m ((c : Thread nD τ).loc main_arg25) :=
  back_W6 m ρ main_arg25 c (by decide) (by not_written hostOps2) (by decide) (by not_written hostOps1) (by decide) (by not_written hostOps0)
theorem W6_arg26 (c : Dev nD) : W6 m ρ c (Proc.devRef .tc main_arg26) = m ((c : Thread nD τ).loc main_arg26) :=
  back_W6 m ρ main_arg26 c (by decide) (by not_written hostOps2) (by decide) (by not_written hostOps1) (by decide) (by not_written hostOps0)
theorem W6_arg27 (c : Dev nD) : W6 m ρ c (Proc.devRef .tc main_arg27) = m ((c : Thread nD τ).loc main_arg27) :=
  back_W6 m ρ main_arg27 c (by decide) (by not_written hostOps2) (by decide) (by not_written hostOps1) (by decide) (by not_written hostOps0)
theorem W6_arg28 (c : Dev nD) : W6 m ρ c (Proc.devRef .tc main_arg28) = m ((c : Thread nD τ).loc main_arg28) :=
  back_W6 m ρ main_arg28 c (by decide) (by not_written hostOps2) (by decide) (by not_written hostOps1) (by decide) (by not_written hostOps0)
theorem W6_v49 (c : Dev nD) : W6 m ρ c (Proc.devRef .tc main_v49) = W4 m ρ c (Proc.devRef .tc main_v49) :=
  (W6_of_ne m ρ c main_v49 (by decide)).trans (StableHlo.after_of_forall_not_mem hostOps2 _ (by not_written hostOps2))
/-- The attribute operand: the first 200 rows of the node array. -/
theorem g3_v65 (c : Dev nD) (y : S200x512.Idx) : V9 m ρ c main_v65 y
    = extractStridedSlice S200x512 ![0, 0] (W6 m ρ c (Proc.devRef .tc main_v49)) slices_S700x512_S200x512_0_0 y := by
  show StableHlo.after hostOps3_2 (W8 m ρ c) (Proc.devRef .tc main_v65) y = _
  after_results_simp
  rfl
/-- The object operand: rows 200 … 699 of the node array, twelve zero rows appended. -/
theorem g3_v67 (c : Dev nD) (y : S512x512.Idx) : V9 m ρ c main_v67 y
    = pad S512x512 ![0, 0] ![12, 0] ![0, 0] (extractStridedSlice S500x512 ![200, 0] (W6 m ρ c (Proc.devRef .tc main_v49)) slices_S700x512_S500x512_200_0)
        (sitofp (F := Ideal) .f32 (constantI S_ 32 0#32)) pads_S500x512_S512x512_0120_000 h_S_ y := by
  show StableHlo.after hostOps3_2 (W8 m ρ c) (Proc.devRef .tc main_v67) y = _
  after_results_simp
  rfl
theorem g3_v68 (c : Dev nD) : m2 (V9 m ρ c main_v68) = m2 (m ((c : Thread nD τ).loc main_arg21)) := by
  funext i k
  show StableHlo.after hostOps3_2 (W8 m ρ c) (Proc.devRef .tc main_v68) (ix2 i k) = _
  after_results_simp
  rw [W6_arg21]; rfl
theorem g3_v69 (c : Dev nD) : m2 (V9 m ρ c main_v69) = m2 (m ((c : Thread nD τ).loc main_arg25)) := by
  funext i k
  show StableHlo.after hostOps3_2 (W8 m ρ c) (Proc.devRef .tc main_v69) (ix2 i k) = _
  after_results_simp
  rw [W6_arg25]; rfl
theorem g3_v71 (c : Dev nD) : r1 (V9 m ρ c main_v71) = m1 (m ((c : Thread nD τ).loc main_arg22)) := by
  funext j
  show StableHlo.after hostOps3_2 (W8 m ρ c) (Proc.devRef .tc main_v71) (ix2 0 j) = _
  after_results_simp
  rw [W6_arg22]
  exact shapeCast_a_1a_apply _ _ 0 j
theorem g3_v72 (c : Dev nD) : r1 (V9 m ρ c main_v72) = m1 (m ((c : Thread nD τ).loc main_arg23)) := by
  funext j
  show StableHlo.after hostOps3_2 (W8 m ρ c) (Proc.devRef .tc main_v72) (ix2 0 j) = _
  after_results_simp
  rw [W6_arg23]
  exact shapeCast_a_1a_apply _ _ 0 j
theorem g3_v73 (c : Dev nD) : r1 (V9 m ρ c main_v73) = m1 (m ((c : Thread nD τ).loc main_arg24)) := by
  funext j
  show StableHlo.after hostOps3_2 (W8 m ρ c) (Proc.devRef .tc main_v73) (ix2 0 j) = _
  after_results_simp
  rw [W6_arg24]
  exact shapeCast_a_1a_apply _ _ 0 j
theorem g3_v74 (c : Dev nD) : r1 (V9 m ρ c main_v74) = m1 (m ((c : Thread nD τ).loc main_arg26)) := by
  funext j
  show StableHlo.after hostOps3_2 (W8 m ρ c) (Proc.devRef .tc main_v74) (ix2 0 j) = _
  after_results_simp
  rw [W6_arg26]
  exact shapeCast_a_1a_apply _ _ 0 j
theorem g3_v75 (c : Dev nD) : r1 (V9 m ρ c main_v75) = m1 (m ((c : Thread nD τ).loc main_arg27)) := by
  funext j
  show StableHlo.after hostOps3_2 (W8 m ρ c) (Proc.devRef .tc main_v75) (ix2 0 j) = _
  after_results_simp
  rw [W6_arg27]
  exact shapeCast_a_1a_apply _ _ 0 j
theorem g3_v76 (c : Dev nD) : r1 (V9 m ρ c main_v76) = m1 (m ((c : Thread nD τ).loc main_arg28)) := by
  funext j
  show StableHlo.after hostOps3_2 (W8 m ρ c) (Proc.devRef .tc main_v76) (ix2 0 j) = _
  after_results_simp
  rw [W6_arg28]
  exact shapeCast_a_1a_apply _ _ 0 j
theorem g3_v70 (c : Dev nD) : m2 (V9 m ρ c main_v70) = m2 (W6 m ρ c (Proc.devRef .tc main_v62)) := by
  funext i k
  show StableHlo.after hostOps3_2 (W8 m ρ c) (Proc.devRef .tc main_v70) (ix2 i k) = _
  after_results_simp
  rfl
theorem W10_v77 (c : Dev nD) : W10 m ρ c (Proc.devRef .tc main_v77) = (dat3 (V9 m ρ) c).arrAt 11 cfg3.N := W10_arr m ρ c 11

/-! ## The two results -/

theorem W11_v49 (c : Dev nD) : W11 m ρ c (Proc.devRef .tc main_v49) = W4 m ρ c (Proc.devRef .tc main_v49) :=
  (StableHlo.after_of_forall_not_mem hostOps4 _ (by not_written hostOps4)).trans
    ((W10_of_ne m ρ c main_v49 (by decide)).trans
      ((StableHlo.after_of_forall_not_mem hostOps3_2 _ (by not_written hostOps3_2)).trans
        ((StableHlo.after_of_forall_not_mem hostOps3_1 _ (by not_written hostOps3_1)).trans
          ((StableHlo.after_of_forall_not_mem hostOps3 _ (by not_written hostOps3)).trans (W6_v49 m ρ c)))))
theorem W11_v80 (c : Dev nD) (y : S256x100000.Idx) : W11 m ρ c (Proc.devRef .tc main_v80) y
    = shapeCast S256x100000 (transpose S256x200x500 [2, 0, 1] (extractStridedSlice S200x500x256 ![0, 0, 0] (W10 m ρ c (Proc.devRef .tc main_v77)) slices_S200x512x256_S200x500x256_0_0_0) transposes_S200x500x256_S256x200x500_2_0_1) shapeCasts_S256x200x500_S256x100000 y := by
  show StableHlo.after hostOps4 (W10 m ρ c) (Proc.devRef .tc main_v80) y = _
  after_results_simp
  rfl

end Cert.KernelIdeal.Glue

end
-- ==== Proof.BlocksOne.lean ====
/-
  What the three one-point regions leave in their output arrays.  Each of the two graph calls and the image call
  runs at a single grid point, every operand's block is its whole array, and the body stores the whole output block
  once; so the output array after the call is the body's value of the arrays the call found on entry.
-/
import proofs.«135290_j1108101562624_1_alg».proof.Proof.Gen.KernelIdeal.Frame
import Idealize.ShloMosaic.Lib.Pipeline.Value
import Idealize.ShloMosaic.PureOps.Ideal

set_option maxRecDepth 16384

noncomputable section

namespace Cert.KernelIdeal.BlocksOne

open Cert.KernelIdeal Cert.KernelIdeal.Gen
open Idealize.ShloMosaic Idealize.ShloMosaic.TcCoe Idealize.SL.Sem
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-- Every window of region 0 has block index zero on both axes at the one grid point. -/
theorem idx_facts0 : ∀ t : Fin cfg0.N,
    win0_0.index t (0 : Fin 2) = 0 ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0 :=
  (by decide +kernel : ∀ t : Fin grid0.N, _)

theorem iblk0_0 (c : Dev nD) (t : Fin cfg0.N) : iblk0 (F := Ideal) V c 0 t = V c main_v22 := by
  obtain ⟨e0, e1, -⟩ := idx_facts0 t
  funext y
  show V c main_v22 (((cfg0.win 0).blk t).view.emb y) = V c main_v22 y
  congr 1
  funext a; apply Fin.ext
  match a with
  | ⟨0, _⟩ => show win0_0.index t (0 : Fin 2) * 700 + 1 * (y 0).val = (y 0).val; omega
  | ⟨1, _⟩ => show win0_0.index t (1 : Fin 2) * 512 + 1 * (y 1).val = (y 1).val; omega

theorem iblk0_1 (c : Dev nD) (t : Fin cfg0.N) : iblk0 (F := Ideal) V c 1 t = V c main_arg1 := by
  obtain ⟨-, -, e0, e1, -⟩ := idx_facts0 t
  funext y
  show V c main_arg1 (((cfg0.win 1).blk t).view.emb y) = V c main_arg1 y
  congr 1
  funext a; apply Fin.ext
  match a with
  | ⟨0, _⟩ => show win0_1.index t (0 : Fin 2) * 700 + 1 * (y 0).val = (y 0).val; omega
  | ⟨1, _⟩ => show win0_1.index t (1 : Fin 2) * 512 + 1 * (y 1).val = (y 1).val; omega

theorem iblk0_2 (c : Dev nD) (t : Fin cfg0.N) : iblk0 (F := Ideal) V c 2 t = V c main_v23 := by
  obtain ⟨-, -, -, -, e0, e1, -⟩ := idx_facts0 t
  funext y
  show V c main_v23 (((cfg0.win 2).blk t).view.emb y) = V c main_v23 y
  congr 1
  funext a; apply Fin.ext
  match a with
  | ⟨0, _⟩ => show win0_2.index t (0 : Fin 2) * 512 + 1 * (y 0).val = (y 0).val; omega
  | ⟨1, _⟩ => show win0_2.index t (1 : Fin 2) * 2048 + 1 * (y 1).val = (y 1).val; omega

theorem iblk0_3 (c : Dev nD) (t : Fin cfg0.N) : iblk0 (F := Ideal) V c 3 t = V c main_v25 := by
  obtain ⟨-, -, -, -, -, -, e0, e1, -⟩ := idx_facts0 t
  funext y
  show V c main_v25 (((cfg0.win 3).blk t).view.emb y) = V c main_v25 y
  congr 1
  funext a; apply Fin.ext
  match a with
  | ⟨0, _⟩ => show win0_3.index t (0 : Fin 2) * 1 + 1 * (y 0).val = (y 0).val; omega
  | ⟨1, _⟩ => show win0_3.index t (1 : Fin 2) * 2048 + 1 * (y 1).val = (y 1).val; omega

theorem iblk0_4 (c : Dev nD) (t : Fin cfg0.N) : iblk0 (F := Ideal) V c 4 t = V c main_v24 := by
  obtain ⟨-, -, -, -, -, -, -, -, e0, e1, -⟩ := idx_facts0 t
  funext y
  show V c main_v24 (((cfg0.win 4).blk t).view.emb y) = V c main_v24 y
  congr 1
  funext a; apply Fin.ext
  match a with
  | ⟨0, _⟩ => show win0_4.index t (0 : Fin 2) * 512 + 1 * (y 0).val = (y 0).val; omega
  | ⟨1, _⟩ => show win0_4.index t (1 : Fin 2) * 2048 + 1 * (y 1).val = (y 1).val; omega

/-- What the one point writes back is the whole-array payload read through the output's block. -/
theorem flushed0_eq (c : Dev nD) (t : Fin cfg0.N) :
    (dat0 (F := Ideal) V c).flushed 5 t = ((cfg0.win 5).blk t).view.read (Elt Ideal)
      (k0_pay1 (F := Ideal) (V c main_v22) (V c main_arg1) (V c main_v23) (V c main_v25) (V c main_v24)) := by
  show (cfg0.win 5).cut (grid0.coords t) ((dat0 (F := Ideal) V c).after 5 t) = _
  rw [after0_5]
  unfold out0_5
  rw [View.canon_unit_zero hz]
  simp only [View.ld_unit_zero (S := S700x512) hz, View.ld_unit_zero (S := S512x2048) hz, View.ld_unit_zero (S := S1x2048) hz]
  rw [iblk0_0, iblk0_1, iblk0_2, iblk0_3, iblk0_4]
  generalize k0_pay1 (F := Ideal) (V c main_v22) (V c main_arg1) (V c main_v23) (V c main_v25) (V c main_v24) = P
  obtain ⟨-, -, -, -, -, -, -, -, -, -, e0, e1⟩ := idx_facts0 t
  funext j
  show P j = P (((cfg0.win 5).blk t).view.emb j)
  congr 1
  funext a; apply Fin.ext
  match a with
  | ⟨0, _⟩ => show (j 0).val = win0_5.index t (0 : Fin 2) * 700 + 1 * (j 0).val; omega
  | ⟨1, _⟩ => show (j 1).val = win0_5.index t (1 : Fin 2) * 2048 + 1 * (j 1).val; omega

theorem mem_blk0 (t : Fin cfg0.N) (i : S700x2048.Idx) :
    i ∈ ((cfg0.win 5).blk t).view.set ↔ ∀ a : Fin 2, win0_5.index t a * S700x2048.size a ≤ (i a).val ∧ (i a).val < win0_5.index t a * S700x2048.size a + S700x2048.size a := by
  show i ∈ ((View.whole main_v26).slice (win0_5.rect t)).set ↔ _
  rw [View.set_slice_whole, Rect.mem_set_unit]
  exact Iff.rfl

theorem cover0 (i : S700x2048.Idx) : ∃ t : Fin cfg0.N, (cfg0.win 5).flush t = true ∧ i ∈ ((cfg0.win 5).blk t).view.set := by
  refine ⟨⟨0, by decide⟩, flush0_5 _, ?_⟩
  rw [mem_blk0]
  obtain ⟨-, -, -, -, -, -, -, -, -, -, e0, e1⟩ := idx_facts0 ⟨0, by decide⟩
  intro a
  match a with
  | ⟨0, _⟩ => show win0_5.index _ (0 : Fin 2) * 700 ≤ (i 0).val ∧ (i 0).val < win0_5.index _ (0 : Fin 2) * 700 + 700; have := (i 0).isLt; have h : (i 0).val < 700 := this; omega
  | ⟨1, _⟩ => show win0_5.index _ (1 : Fin 2) * 2048 ≤ (i 1).val ∧ (i 1).val < win0_5.index _ (1 : Fin 2) * 2048 + 2048; have := (i 1).isLt; have h : (i 1).val < 2048 := this; omega

/-- REGION 0: the output array after the one grid point is the payload of the region-entry arrays. -/
theorem arr0 (c : Dev nD) : (dat0 (F := Ideal) V c).arrAt 5 cfg0.N = k0_pay1 (F := Ideal) (V c main_v22) (V c main_arg1) (V c main_v23) (V c main_v25) (V c main_v24) :=
  (dat0 (F := Ideal) V c).arrAt_eq_of_cover 5 _ (fun t _ => flushed0_eq V c t) cover0

/-! # Region 1 -/

/-- Every window of region 1 has block index zero on both axes at the one grid point. -/
theorem idx_facts1 : ∀ t : Fin cfg1.N,
    win1_0.index t (0 : Fin 2) = 0 ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0 :=
  (by decide +kernel : ∀ t : Fin grid1.N, _)

/-- Window 0's block at the one point is its whole array. -/
theorem iblk1_0 (c : Dev nD) (t : Fin cfg1.N) : iblk1 (F := Ideal) V c 0 t = V c main_v45 := by
  obtain ⟨e0, e1, -⟩ := idx_facts1 t
  funext y
  show V c main_v45 (((cfg1.win 0).blk t).view.emb y) = V c main_v45 y
  congr 1
  funext a; apply Fin.ext
  match a with
  | ⟨0, _⟩ => show win1_0.index t (0 : Fin 2) * 700 + 1 * (y 0).val = (y 0).val; omega
  | ⟨1, _⟩ => show win1_0.index t (1 : Fin 2) * 2048 + 1 * (y 1).val = (y 1).val; omega

/-- Window 1's block at the one point is its whole array. -/
theorem iblk1_1 (c : Dev nD) (t : Fin cfg1.N) : iblk1 (F := Ideal) V c 1 t = V c main_v26 := by
  obtain ⟨-, -, e0, e1, -⟩ := idx_facts1 t
  funext y
  show V c main_v26 (((cfg1.win 1).blk t).view.emb y) = V c main_v26 y
  congr 1
  funext a; apply Fin.ext
  match a with
  | ⟨0, _⟩ => show win1_1.index t (0 : Fin 2) * 700 + 1 * (y 0).val = (y 0).val; omega
  | ⟨1, _⟩ => show win1_1.index t (1 : Fin 2) * 2048 + 1 * (y 1).val = (y 1).val; omega

/-- Window 2's block at the one point is its whole array. -/
theorem iblk1_2 (c : Dev nD) (t : Fin cfg1.N) : iblk1 (F := Ideal) V c 2 t = V c main_v46 := by
  obtain ⟨-, -, -, -, e0, e1, -⟩ := idx_facts1 t
  funext y
  show V c main_v46 (((cfg1.win 2).blk t).view.emb y) = V c main_v46 y
  congr 1
  funext a; apply Fin.ext
  match a with
  | ⟨0, _⟩ => show win1_2.index t (0 : Fin 2) * 2048 + 1 * (y 0).val = (y 0).val; omega
  | ⟨1, _⟩ => show win1_2.index t (1 : Fin 2) * 512 + 1 * (y 1).val = (y 1).val; omega

/-- Window 3's block at the one point is its whole array. -/
theorem iblk1_3 (c : Dev nD) (t : Fin cfg1.N) : iblk1 (F := Ideal) V c 3 t = V c main_v48 := by
  obtain ⟨-, -, -, -, -, -, e0, e1, -⟩ := idx_facts1 t
  funext y
  show V c main_v48 (((cfg1.win 3).blk t).view.emb y) = V c main_v48 y
  congr 1
  funext a; apply Fin.ext
  match a with
  | ⟨0, _⟩ => show win1_3.index t (0 : Fin 2) * 1 + 1 * (y 0).val = (y 0).val; omega
  | ⟨1, _⟩ => show win1_3.index t (1 : Fin 2) * 512 + 1 * (y 1).val = (y 1).val; omega

/-- Window 4's block at the one point is its whole array. -/
theorem iblk1_4 (c : Dev nD) (t : Fin cfg1.N) : iblk1 (F := Ideal) V c 4 t = V c main_v47 := by
  obtain ⟨-, -, -, -, -, -, -, -, e0, e1, -⟩ := idx_facts1 t
  funext y
  show V c main_v47 (((cfg1.win 4).blk t).view.emb y) = V c main_v47 y
  congr 1
  funext a; apply Fin.ext
  match a with
  | ⟨0, _⟩ => show win1_4.index t (0 : Fin 2) * 2048 + 1 * (y 0).val = (y 0).val; omega
  | ⟨1, _⟩ => show win1_4.index t (1 : Fin 2) * 512 + 1 * (y 1).val = (y 1).val; omega

/-- What the one point writes back is the whole-array payload read through the output's block. -/
theorem flushed1_eq (c : Dev nD) (t : Fin cfg1.N) :
    (dat1 (F := Ideal) V c).flushed 5 t = ((cfg1.win 5).blk t).view.read (Elt Ideal)
      (k1_pay1 (F := Ideal) (V c main_v45) (V c main_v26) (V c main_v46) (V c main_v48) (V c main_v47)) := by
  show (cfg1.win 5).cut (grid1.coords t) ((dat1 (F := Ideal) V c).after 5 t) = _
  rw [after1_5]
  unfold out1_5
  rw [View.canon_unit_zero hz]
  simp only [View.ld_unit_zero (S := S700x2048) hz, View.ld_unit_zero (S := S2048x512) hz, View.ld_unit_zero (S := S1x512) hz]
  rw [iblk1_0, iblk1_1, iblk1_2, iblk1_3, iblk1_4]
  generalize k1_pay1 (F := Ideal) (V c main_v45) (V c main_v26) (V c main_v46) (V c main_v48) (V c main_v47) = P
  obtain ⟨-, -, -, -, -, -, -, -, -, -, e0, e1⟩ := idx_facts1 t
  funext j
  show P j = P (((cfg1.win 5).blk t).view.emb j)
  congr 1
  funext a; apply Fin.ext
  match a with
  | ⟨0, _⟩ => show (j 0).val = win1_5.index t (0 : Fin 2) * 700 + 1 * (j 0).val; omega
  | ⟨1, _⟩ => show (j 1).val = win1_5.index t (1 : Fin 2) * 512 + 1 * (j 1).val; omega

/-- An index is in the one point's output block iff each coordinate is in the block's range. -/
theorem mem_blk1 (t : Fin cfg1.N) (i : S700x512.Idx) :
    i ∈ ((cfg1.win 5).blk t).view.set ↔ ∀ a : Fin 2, win1_5.index t a * S700x512.size a ≤ (i a).val ∧ (i a).val < win1_5.index t a * S700x512.size a + S700x512.size a := by
  show i ∈ ((View.whole main_v49).slice (win1_5.rect t)).set ↔ _
  rw [View.set_slice_whole, Rect.mem_set_unit]
  exact Iff.rfl

/-- The one block is the whole output array. -/
theorem cover1 (i : S700x512.Idx) : ∃ t : Fin cfg1.N, (cfg1.win 5).flush t = true ∧ i ∈ ((cfg1.win 5).blk t).view.set := by
  refine ⟨⟨0, by decide⟩, flush1_5 _, ?_⟩
  rw [mem_blk1]
  obtain ⟨-, -, -, -, -, -, -, -, -, -, e0, e1⟩ := idx_facts1 ⟨0, by decide⟩
  intro a
  match a with
  | ⟨0, _⟩ => show win1_5.index _ (0 : Fin 2) * 700 ≤ (i 0).val ∧ (i 0).val < win1_5.index _ (0 : Fin 2) * 700 + 700; have h : (i 0).val < 700 := (i 0).isLt; omega
  | ⟨1, _⟩ => show win1_5.index _ (1 : Fin 2) * 512 ≤ (i 1).val ∧ (i 1).val < win1_5.index _ (1 : Fin 2) * 512 + 512; have h : (i 1).val < 512 := (i 1).isLt; omega

/-- REGION 1: the output array after the one grid point is the payload of the region-entry arrays. -/
theorem arr1 (c : Dev nD) : (dat1 (F := Ideal) V c).arrAt 5 cfg1.N = k1_pay1 (F := Ideal) (V c main_v45) (V c main_v26) (V c main_v46) (V c main_v48) (V c main_v47) :=
  (dat1 (F := Ideal) V c).arrAt_eq_of_cover 5 _ (fun t _ => flushed1_eq V c t) cover1

/-! # Region 2 -/

/-- Every window of region 2 has block index zero on both axes at the one grid point. -/
theorem idx_facts2 : ∀ t : Fin cfg2.N,
    win2_0.index t (0 : Fin 2) = 0 ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = 0 ∧ win2_5.index t (1 : Fin 2) = 0
    ∧ win2_6.index t (0 : Fin 2) = 0 ∧ win2_6.index t (1 : Fin 2) = 0
    ∧ win2_7.index t (0 : Fin 2) = 0 ∧ win2_7.index t (1 : Fin 2) = 0
    ∧ win2_8.index t (0 : Fin 2) = 0 ∧ win2_8.index t (1 : Fin 2) = 0
    ∧ win2_9.index t (0 : Fin 2) = 0 ∧ win2_9.index t (1 : Fin 2) = 0
    ∧ win2_10.index t (0 : Fin 2) = 0 ∧ win2_10.index t (1 : Fin 2) = 0
    ∧ win2_11.index t (0 : Fin 2) = 0 ∧ win2_11.index t (1 : Fin 2) = 0
    ∧ win2_12.index t (0 : Fin 2) = 0 ∧ win2_12.index t (1 : Fin 2) = 0
    ∧ win2_13.index t (0 : Fin 2) = 0 ∧ win2_13.index t (1 : Fin 2) = 0 :=
  (by decide +kernel : ∀ t : Fin grid2.N, _)

/-- Window 0's block at the one point is its whole array. -/
theorem iblk2_0 (c : Dev nD) (t : Fin cfg2.N) : iblk2 (F := Ideal) V c 0 t = V c main_arg0 := by
  obtain ⟨e0, e1, -⟩ := idx_facts2 t
  funext y
  show V c main_arg0 (((cfg2.win 0).blk t).view.emb y) = V c main_arg0 y
  congr 1
  funext a; apply Fin.ext
  match a with
  | ⟨0, _⟩ => show win2_0.index t (0 : Fin 2) * 256 + 1 * (y 0).val = (y 0).val; omega
  | ⟨1, _⟩ => show win2_0.index t (1 : Fin 2) * 512 + 1 * (y 1).val = (y 1).val; omega

/-- Window 1's block at the one point is its whole array. -/
theorem iblk2_1 (c : Dev nD) (t : Fin cfg2.N) : iblk2 (F := Ideal) V c 1 t = V c main_v50 := by
  obtain ⟨-, -, e0, e1, -⟩ := idx_facts2 t
  funext y
  show V c main_v50 (((cfg2.win 1).blk t).view.emb y) = V c main_v50 y
  congr 1
  funext a; apply Fin.ext
  match a with
  | ⟨0, _⟩ => show win2_1.index t (0 : Fin 2) * 512 + 1 * (y 0).val = (y 0).val; omega
  | ⟨1, _⟩ => show win2_1.index t (1 : Fin 2) * 800 + 1 * (y 1).val = (y 1).val; omega

/-- Window 2's block at the one point is its whole array. -/
theorem iblk2_2 (c : Dev nD) (t : Fin cfg2.N) : iblk2 (F := Ideal) V c 2 t = V c main_v53 := by
  obtain ⟨-, -, -, -, e0, e1, -⟩ := idx_facts2 t
  funext y
  show V c main_v53 (((cfg2.win 2).blk t).view.emb y) = V c main_v53 y
  congr 1
  funext a; apply Fin.ext
  match a with
  | ⟨0, _⟩ => show win2_2.index t (0 : Fin 2) * 1 + 1 * (y 0).val = (y 0).val; omega
  | ⟨1, _⟩ => show win2_2.index t (1 : Fin 2) * 800 + 1 * (y 1).val = (y 1).val; omega

/-- Window 3's block at the one point is its whole array. -/
theorem iblk2_3 (c : Dev nD) (t : Fin cfg2.N) : iblk2 (F := Ideal) V c 3 t = V c main_v54 := by
  obtain ⟨-, -, -, -, -, -, e0, e1, -⟩ := idx_facts2 t
  funext y
  show V c main_v54 (((cfg2.win 3).blk t).view.emb y) = V c main_v54 y
  congr 1
  funext a; apply Fin.ext
  match a with
  | ⟨0, _⟩ => show win2_3.index t (0 : Fin 2) * 1 + 1 * (y 0).val = (y 0).val; omega
  | ⟨1, _⟩ => show win2_3.index t (1 : Fin 2) * 800 + 1 * (y 1).val = (y 1).val; omega

/-- Window 4's block at the one point is its whole array. -/
theorem iblk2_4 (c : Dev nD) (t : Fin cfg2.N) : iblk2 (F := Ideal) V c 4 t = V c main_v55 := by
  obtain ⟨-, -, -, -, -, -, -, -, e0, e1, -⟩ := idx_facts2 t
  funext y
  show V c main_v55 (((cfg2.win 4).blk t).view.emb y) = V c main_v55 y
  congr 1
  funext a; apply Fin.ext
  match a with
  | ⟨0, _⟩ => show win2_4.index t (0 : Fin 2) * 1 + 1 * (y 0).val = (y 0).val; omega
  | ⟨1, _⟩ => show win2_4.index t (1 : Fin 2) * 800 + 1 * (y 1).val = (y 1).val; omega

/-- Window 5's block at the one point is its whole array. -/
theorem iblk2_5 (c : Dev nD) (t : Fin cfg2.N) : iblk2 (F := Ideal) V c 5 t = V c main_v51 := by
  obtain ⟨-, -, -, -, -, -, -, -, -, -, e0, e1, -⟩ := idx_facts2 t
  funext y
  show V c main_v51 (((cfg2.win 5).blk t).view.emb y) = V c main_v51 y
  congr 1
  funext a; apply Fin.ext
  match a with
  | ⟨0, _⟩ => show win2_5.index t (0 : Fin 2) * 800 + 1 * (y 0).val = (y 0).val; omega
  | ⟨1, _⟩ => show win2_5.index t (1 : Fin 2) * 1000 + 1 * (y 1).val = (y 1).val; omega

/-- Window 6's block at the one point is its whole array. -/
theorem iblk2_6 (c : Dev nD) (t : Fin cfg2.N) : iblk2 (F := Ideal) V c 6 t = V c main_v56 := by
  obtain ⟨-, -, -, -, -, -, -, -, -, -, -, -, e0, e1, -⟩ := idx_facts2 t
  funext y
  show V c main_v56 (((cfg2.win 6).blk t).view.emb y) = V c main_v56 y
  congr 1
  funext a; apply Fin.ext
  match a with
  | ⟨0, _⟩ => show win2_6.index t (0 : Fin 2) * 1 + 1 * (y 0).val = (y 0).val; omega
  | ⟨1, _⟩ => show win2_6.index t (1 : Fin 2) * 1000 + 1 * (y 1).val = (y 1).val; omega

/-- Window 7's block at the one point is its whole array. -/
theorem iblk2_7 (c : Dev nD) (t : Fin cfg2.N) : iblk2 (F := Ideal) V c 7 t = V c main_v57 := by
  obtain ⟨-, -, -, -, -, -, -, -, -, -, -, -, -, -, e0, e1, -⟩ := idx_facts2 t
  funext y
  show V c main_v57 (((cfg2.win 7).blk t).view.emb y) = V c main_v57 y
  congr 1
  funext a; apply Fin.ext
  match a with
  | ⟨0, _⟩ => show win2_7.index t (0 : Fin 2) * 1 + 1 * (y 0).val = (y 0).val; omega
  | ⟨1, _⟩ => show win2_7.index t (1 : Fin 2) * 1000 + 1 * (y 1).val = (y 1).val; omega

/-- Window 8's block at the one point is its whole array. -/
theorem iblk2_8 (c : Dev nD) (t : Fin cfg2.N) : iblk2 (F := Ideal) V c 8 t = V c main_v58 := by
  obtain ⟨-, -, -, -, -, -, -, -, -, -, -, -, -, -, -, -, e0, e1, -⟩ := idx_facts2 t
  funext y
  show V c main_v58 (((cfg2.win 8).blk t).view.emb y) = V c main_v58 y
  congr 1
  funext a; apply Fin.ext
  match a with
  | ⟨0, _⟩ => show win2_8.index t (0 : Fin 2) * 1 + 1 * (y 0).val = (y 0).val; omega
  | ⟨1, _⟩ => show win2_8.index t (1 : Fin 2) * 1000 + 1 * (y 1).val = (y 1).val; omega

/-- Window 9's block at the one point is its whole array. -/
theorem iblk2_9 (c : Dev nD) (t : Fin cfg2.N) : iblk2 (F := Ideal) V c 9 t = V c main_v52 := by
  obtain ⟨-, -, -, -, -, -, -, -, -, -, -, -, -, -, -, -, -, -, e0, e1, -⟩ := idx_facts2 t
  funext y
  show V c main_v52 (((cfg2.win 9).blk t).view.emb y) = V c main_v52 y
  congr 1
  funext a; apply Fin.ext
  match a with
  | ⟨0, _⟩ => show win2_9.index t (0 : Fin 2) * 1000 + 1 * (y 0).val = (y 0).val; omega
  | ⟨1, _⟩ => show win2_9.index t (1 : Fin 2) * 800 + 1 * (y 1).val = (y 1).val; omega

/-- Window 10's block at the one point is its whole array. -/
theorem iblk2_10 (c : Dev nD) (t : Fin cfg2.N) : iblk2 (F := Ideal) V c 10 t = V c main_v59 := by
  obtain ⟨-, -, -, -, -, -, -, -, -, -, -, -, -, -, -, -, -, -, -, -, e0, e1, -⟩ := idx_facts2 t
  funext y
  show V c main_v59 (((cfg2.win 10).blk t).view.emb y) = V c main_v59 y
  congr 1
  funext a; apply Fin.ext
  match a with
  | ⟨0, _⟩ => show win2_10.index t (0 : Fin 2) * 1 + 1 * (y 0).val = (y 0).val; omega
  | ⟨1, _⟩ => show win2_10.index t (1 : Fin 2) * 800 + 1 * (y 1).val = (y 1).val; omega

/-- Window 11's block at the one point is its whole array. -/
theorem iblk2_11 (c : Dev nD) (t : Fin cfg2.N) : iblk2 (F := Ideal) V c 11 t = V c main_v60 := by
  obtain ⟨-, -, -, -, -, -, -, -, -, -, -, -, -, -, -, -, -, -, -, -, -, -, e0, e1, -⟩ := idx_facts2 t
  funext y
  show V c main_v60 (((cfg2.win 11).blk t).view.emb y) = V c main_v60 y
  congr 1
  funext a; apply Fin.ext
  match a with
  | ⟨0, _⟩ => show win2_11.index t (0 : Fin 2) * 1 + 1 * (y 0).val = (y 0).val; omega
  | ⟨1, _⟩ => show win2_11.index t (1 : Fin 2) * 800 + 1 * (y 1).val = (y 1).val; omega

/-- Window 12's block at the one point is its whole array. -/
theorem iblk2_12 (c : Dev nD) (t : Fin cfg2.N) : iblk2 (F := Ideal) V c 12 t = V c main_v61 := by
  obtain ⟨-, -, -, -, -, -, -, -, -, -, -, -, -, -, -, -, -, -, -, -, -, -, -, -, e0, e1, -⟩ := idx_facts2 t
  funext y
  show V c main_v61 (((cfg2.win 12).blk t).view.emb y) = V c main_v61 y
  congr 1
  funext a; apply Fin.ext
  match a with
  | ⟨0, _⟩ => show win2_12.index t (0 : Fin 2) * 1 + 1 * (y 0).val = (y 0).val; omega
  | ⟨1, _⟩ => show win2_12.index t (1 : Fin 2) * 800 + 1 * (y 1).val = (y 1).val; omega

/-- What the one point writes back is the whole-array payload read through the output's block. -/
theorem flushed2_eq (c : Dev nD) (t : Fin cfg2.N) :
    (dat2 (F := Ideal) V c).flushed 13 t = ((cfg2.win 13).blk t).view.read (Elt Ideal)
      (k2_pay1 (F := Ideal) (k2_pay4 (k2_pay2 (V c main_arg0) (V c main_v50) (V c main_v53) (V c main_v54) (V c main_v55)) (k2_pay3 (V c main_v51)) (V c main_v56) (V c main_v57) (V c main_v58) (V c main_v52) (V c main_v59)) (V c main_v60) (V c main_v61)) := by
  show (cfg2.win 13).cut (grid2.coords t) ((dat2 (F := Ideal) V c).after 13 t) = _
  rw [after2_13]
  simp only [iblk2_0 V c t, iblk2_1 V c t, iblk2_2 V c t, iblk2_3 V c t, iblk2_4 V c t, iblk2_5 V c t, iblk2_6 V c t, iblk2_7 V c t, iblk2_8 V c t, iblk2_9 V c t, iblk2_10 V c t, iblk2_11 V c t, iblk2_12 V c t]
  unfold out2_13
  rw [View.canon_unit_zero hz]
  simp only [View.ld_unit_zero (S := S256x512) hz, View.ld_unit_zero (S := S512x800) hz, View.ld_unit_zero (S := S1x800) hz, View.ld_unit_zero (S := S800x1000) hz, View.ld_unit_zero (S := S1x1000) hz, View.ld_unit_zero (S := S1000x800) hz]
  generalize k2_pay1 (F := Ideal) (k2_pay4 (k2_pay2 (V c main_arg0) (V c main_v50) (V c main_v53) (V c main_v54) (V c main_v55)) (k2_pay3 (V c main_v51)) (V c main_v56) (V c main_v57) (V c main_v58) (V c main_v52) (V c main_v59)) (V c main_v60) (V c main_v61) = P
  obtain ⟨-, -, -, -, -, -, -, -, -, -, -, -, -, -, -, -, -, -, -, -, -, -, -, -, -, -, e0, e1⟩ := idx_facts2 t
  funext j
  show P j = P (((cfg2.win 13).blk t).view.emb j)
  congr 1
  funext a; apply Fin.ext
  match a with
  | ⟨0, _⟩ => show (j 0).val = win2_13.index t (0 : Fin 2) * 256 + 1 * (j 0).val; omega
  | ⟨1, _⟩ => show (j 1).val = win2_13.index t (1 : Fin 2) * 800 + 1 * (j 1).val; omega

/-- An index is in the one point's output block iff each coordinate is in the block's range. -/
theorem mem_blk2 (t : Fin cfg2.N) (i : S256x800.Idx) :
    i ∈ ((cfg2.win 13).blk t).view.set ↔ ∀ a : Fin 2, win2_13.index t a * S256x800.size a ≤ (i a).val ∧ (i a).val < win2_13.index t a * S256x800.size a + S256x800.size a := by
  show i ∈ ((View.whole main_v62).slice (win2_13.rect t)).set ↔ _
  rw [View.set_slice_whole, Rect.mem_set_unit]
  exact Iff.rfl

/-- The one block is the whole output array. -/
theorem cover2 (i : S256x800.Idx) : ∃ t : Fin cfg2.N, (cfg2.win 13).flush t = true ∧ i ∈ ((cfg2.win 13).blk t).view.set := by
  refine ⟨⟨0, by decide⟩, flush2_13 _, ?_⟩
  rw [mem_blk2]
  obtain ⟨-, -, -, -, -, -, -, -, -, -, -, -, -, -, -, -, -, -, -, -, -, -, -, -, -, -, e0, e1⟩ := idx_facts2 ⟨0, by decide⟩
  intro a
  match a with
  | ⟨0, _⟩ => show win2_13.index _ (0 : Fin 2) * 256 ≤ (i 0).val ∧ (i 0).val < win2_13.index _ (0 : Fin 2) * 256 + 256; have h : (i 0).val < 256 := (i 0).isLt; omega
  | ⟨1, _⟩ => show win2_13.index _ (1 : Fin 2) * 800 ≤ (i 1).val ∧ (i 1).val < win2_13.index _ (1 : Fin 2) * 800 + 800; have h : (i 1).val < 800 := (i 1).isLt; omega

/-- REGION 2: the output array after the one grid point is the payload of the region-entry arrays. -/
theorem arr2 (c : Dev nD) : (dat2 (F := Ideal) V c).arrAt 13 cfg2.N = k2_pay1 (F := Ideal) (k2_pay4 (k2_pay2 (V c main_arg0) (V c main_v50) (V c main_v53) (V c main_v54) (V c main_v55)) (k2_pay3 (V c main_v51)) (V c main_v56) (V c main_v57) (V c main_v58) (V c main_v52) (V c main_v59)) (V c main_v60) (V c main_v61) :=
  (dat2 (F := Ideal) V c).arrAt_eq_of_cover 13 _ (fun t _ => flushed2_eq V c t) cover2

end Cert.KernelIdeal.BlocksOne

end
-- ==== Proof.BlocksPair.lean ====
/-
  What the pair-scoring region leaves in its output array, index by index.

  The region runs over 25 grid points; point `t` takes attribute rows `8t … 8t+7` and every other operand whole,
  and fills an output block of shape [8, 512, 256].  Its body is a counted loop of four trips: trip `k` reads object
  rows `128k … 128k+127` and stores one [8, 128, 256] chunk at row offset `128k` of the block.  So the block is,
  at `(a, o, b)`, the payload of object chunk `o / 128` at `(a, o % 128, b)`; the four chunks tile the block, and
  the 25 blocks tile the array.  The array therefore holds at `(A, o, b)` the payload of attribute rows
  `8·(A/8) …` and object rows `128·(o/128) …` at `(A % 8, o % 128, b)`: `arr3_apply`.
-/
import proofs.«135290_j1108101562624_1_alg».proof.Proof.Gen.KernelIdeal.Frame
import Idealize.ShloMosaic.Lib.Pipeline.Value
import Idealize.ShloMosaic.PureOps.Ideal
import Idealize.ShloMosaic.Lib.ValueIdx

set_option maxRecDepth 16384

noncomputable section

namespace Cert.KernelIdeal.BlocksPair

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

/-! ## One trip of the loop: its one store -/

theorem trips_eq : k3_t1_loop.trips = 4 := by decide +kernel

/-- The offsets of the trip's load and of its store, as numbers. -/
theorem off1_facts : ∀ k : Fin k3_t1_loop.trips, k3_off1 k 0 = 128 * k.val ∧ k3_off1 k 1 = 0 := by decide +kernel
theorem off2_facts : ∀ k : Fin k3_t1_loop.trips, k3_off2 k 0 = 0 ∧ k3_off2 k 1 = 128 * k.val ∧ k3_off2 k 2 = 0 := by decide +kernel

/-- What trip `k` stores: the payload of the blocks loaded before the loop and of the 128 object rows the trip
    loads from the object window's buffer `x1`. -/
def tripPay (v0 : Vec F S8x512 .bf16) (v2 : Vec F S1024x1000 .bf16) (v7 : Vec F S256x800 .bf16) (v9 : Vec F S1000x800 .bf16) (v11 : Vec F S1x1000 .f32) (v13 : Vec F S1x1000 .f32) (v15 : Vec F S1x1000 .f32) (v17 : Vec F S1x800 .f32) (v19 : Vec F S1x800 .f32) (v21 : Vec F S1x800 .f32) (x1 : Vec F S512x512 .bf16) (k : Fin k3_t1_loop.trips) : FVec F S8x128x256 .f32 :=
  k3_pay9 v7 v19 v21 (k3_pay10 (k3_pay2 v2) (k3_pay3 v0 v2) (k3_pay4 v9) (k3_pay5 v11) (k3_pay6 v13) (k3_pay7 v15) (k3_pay8 v17)
    (View.ld x1 (Rect.unit (k3_off1 k) S128x512.size (k3_off1_inb k))))

/-- The trip's one piece: a store at the trip's offset of the payload of the rows loaded at the trip's offset. -/
def tripPiece (v0 : Vec F S8x512 .bf16) (v2 : Vec F S1024x1000 .bf16) (v7 : Vec F S256x800 .bf16) (v9 : Vec F S1000x800 .bf16) (v11 : Vec F S1x1000 .f32) (v13 : Vec F S1x1000 .f32) (v15 : Vec F S1x1000 .f32) (v17 : Vec F S1x800 .f32) (v19 : Vec F S1x800 .f32) (v21 : Vec F S1x800 .f32) (x1 : Vec F S512x512 .bf16) (k : Fin k3_t1_loop.trips) : View.Piece (Elt F) S8x512x256 .f32 :=
  ⟨Rect.unit (k3_off2 k) S8x128x256.size (k3_off2_inb k), tripPay v0 v2 v7 v9 v11 v13 v15 v17 v19 v21 x1 k⟩

/-- The pieces trip `k` writes, read off the trip's run: one store. -/
theorem trip_pieces (𝒱 : Variants) (c : Dev nD) (bd : Option 𝒱.V) (i : grid3.Coords) (arg1 : Memref sig .tc .vmem S8x512 .bf16) (harg1 : arg1.IsWhole) (arg2 : Memref sig .tc .vmem S512x512 .bf16) (harg2 : arg2.IsWhole) (arg3 : Memref sig .tc .vmem S1024x1000 .bf16) (harg3 : arg3.IsWhole) (arg4 : Memref sig .tc .vmem S1x1000 .f32) (harg4 : arg4.IsWhole) (arg5 : Memref sig .tc .vmem S1x1000 .f32) (harg5 : arg5.IsWhole) (arg6 : Memref sig .tc .vmem S1x1000 .f32) (harg6 : arg6.IsWhole) (arg7 : Memref sig .tc .vmem S1000x800 .bf16) (harg7 : arg7.IsWhole) (arg8 : Memref sig .tc .vmem S1x800 .f32) (harg8 : arg8.IsWhole) (arg9 : Memref sig .tc .vmem S1x800 .f32) (harg9 : arg9.IsWhole) (arg10 : Memref sig .tc .vmem S1x800 .f32) (harg10 : arg10.IsWhole) (arg11 : Memref sig .tc .vmem S256x800 .bf16) (harg11 : arg11.IsWhole) (arg12 : Memref sig .tc .vmem S8x512x256 .f32) (harg12 : arg12.IsWhole) (v0 : Vec F S8x512 .bf16) (v2 : Vec F S1024x1000 .bf16) (v7 : Vec F S256x800 .bf16) (v9 : Vec F S1000x800 .bf16) (v11 : Vec F S1x1000 .f32) (v13 : Vec F S1x1000 .f32) (v15 : Vec F S1x1000 .f32) (v17 : Vec F S1x800 .f32) (v19 : Vec F S1x800 .f32) (v21 : Vec F S1x800 .f32) (x1 : Vec F S512x512 .bf16) (k : Fin k3_t1_loop.trips) :
    tripL_k3_t1 (F := F) 𝒱 c bd i arg1 harg1 arg2 harg2 arg3 harg3 arg4 harg4 arg5 harg5 arg6 harg6 arg7 harg7 arg8 harg8 arg9 harg9 arg10 harg10 arg11 harg11 arg12 harg12 v0 v2 v7 v9 v11 v13 v15 v17 v19 v21 (harg2.unread x1) k
      = [tripPiece v0 v2 v7 v9 v11 v13 v15 v17 v19 v21 x1 k] := by
  unfold tripL_k3_t1 trip_k3_t1
  dsimp only
  sl_unfold_run_names
  rw [View.readAt_eq_ld, harg2.read_unread]
  rfl

/-! ## The whole body: the four trips' stores -/

theorem hz2 : (![0, 0] : Fin 2 → Nat) = fun _ => 0 := funext fun a => by fin_cases a <;> rfl

/-- The body's piece list is that of the four trips, at the blocks the loads before the loop read. -/
theorem run_pieces (c : Dev nD) (i : grid3.Coords) (arg1 : Memref sig .tc .vmem S8x512 .bf16) (harg1 : arg1.IsWhole) (arg2 : Memref sig .tc .vmem S512x512 .bf16) (harg2 : arg2.IsWhole) (arg3 : Memref sig .tc .vmem S1024x1000 .bf16) (harg3 : arg3.IsWhole) (arg4 : Memref sig .tc .vmem S1x1000 .f32) (harg4 : arg4.IsWhole) (arg5 : Memref sig .tc .vmem S1x1000 .f32) (harg5 : arg5.IsWhole) (arg6 : Memref sig .tc .vmem S1x1000 .f32) (harg6 : arg6.IsWhole) (arg7 : Memref sig .tc .vmem S1000x800 .bf16) (harg7 : arg7.IsWhole) (arg8 : Memref sig .tc .vmem S1x800 .f32) (harg8 : arg8.IsWhole) (arg9 : Memref sig .tc .vmem S1x800 .f32) (harg9 : arg9.IsWhole) (arg10 : Memref sig .tc .vmem S1x800 .f32) (harg10 : arg10.IsWhole) (arg11 : Memref sig .tc .vmem S256x800 .bf16) (harg11 : arg11.IsWhole) (arg12 : Memref sig .tc .vmem S8x512x256 .f32) (harg12 : arg12.IsWhole) (x0 : Vec F S8x512 .bf16) (x1 : Vec F S512x512 .bf16) (x2 : Vec F S1024x1000 .bf16) (x3 : Vec F S1x1000 .f32) (x4 : Vec F S1x1000 .f32) (x5 : Vec F S1x1000 .f32) (x6 : Vec F S1000x800 .bf16) (x7 : Vec F S1x800 .f32) (x8 : Vec F S1x800 .f32) (x9 : Vec F S1x800 .f32) (x10 : Vec F S256x800 .bf16) :
    (kernelRun3_A (F := F) c i arg1 harg1 arg2 harg2 arg3 harg3 arg4 harg4 arg5 harg5 arg6 harg6 arg7 harg7 arg8 harg8 arg9 harg9 arg10 harg10 arg11 harg11 arg12 harg12 x0 x1 x2 x3 x4 x5 x6 x7 x8 x9 x10).1
      = pb_k3_t1 (F := F) Variants.none c none i arg1 harg1 arg2 harg2 arg3 harg3 arg4 harg4 arg5 harg5 arg6 harg6 arg7 harg7 arg8 harg8 arg9 harg9 arg10 harg10 arg11 harg11 arg12 harg12 x0 x2 x10 x6 x3 x4 x5 x7 x8 x9 (harg2.unread x1) 4 := by
  unfold kernelRun3_A
  dsimp only
  simp only [View.readAt_eq_ld, Memref.IsWhole.read_unread]
  rw [View.ld_unit_zero (S := S8x512) hz2, View.ld_unit_zero (S := S1024x1000) hz2, View.ld_unit_zero (S := S256x800) hz2,
    View.ld_unit_zero (S := S1000x800) hz2, View.ld_unit_zero (S := S1x1000) hz2, View.ld_unit_zero (S := S1x1000) hz2,
    View.ld_unit_zero (S := S1x1000) hz2, View.ld_unit_zero (S := S1x800) hz2, View.ld_unit_zero (S := S1x800) hz2,
    View.ld_unit_zero (S := S1x800) hz2]
  rfl

/-- Every piece of the trips before `n` is some trip's one store. -/
theorem pb_mem (𝒱 : Variants) (c : Dev nD) (bd : Option 𝒱.V) (i : grid3.Coords) (arg1 : Memref sig .tc .vmem S8x512 .bf16) (harg1 : arg1.IsWhole) (arg2 : Memref sig .tc .vmem S512x512 .bf16) (harg2 : arg2.IsWhole) (arg3 : Memref sig .tc .vmem S1024x1000 .bf16) (harg3 : arg3.IsWhole) (arg4 : Memref sig .tc .vmem S1x1000 .f32) (harg4 : arg4.IsWhole) (arg5 : Memref sig .tc .vmem S1x1000 .f32) (harg5 : arg5.IsWhole) (arg6 : Memref sig .tc .vmem S1x1000 .f32) (harg6 : arg6.IsWhole) (arg7 : Memref sig .tc .vmem S1000x800 .bf16) (harg7 : arg7.IsWhole) (arg8 : Memref sig .tc .vmem S1x800 .f32) (harg8 : arg8.IsWhole) (arg9 : Memref sig .tc .vmem S1x800 .f32) (harg9 : arg9.IsWhole) (arg10 : Memref sig .tc .vmem S1x800 .f32) (harg10 : arg10.IsWhole) (arg11 : Memref sig .tc .vmem S256x800 .bf16) (harg11 : arg11.IsWhole) (arg12 : Memref sig .tc .vmem S8x512x256 .f32) (harg12 : arg12.IsWhole) (v0 : Vec F S8x512 .bf16) (v2 : Vec F S1024x1000 .bf16) (v7 : Vec F S256x800 .bf16) (v9 : Vec F S1000x800 .bf16) (v11 : Vec F S1x1000 .f32) (v13 : Vec F S1x1000 .f32) (v15 : Vec F S1x1000 .f32) (v17 : Vec F S1x800 .f32) (v19 : Vec F S1x800 .f32) (v21 : Vec F S1x800 .f32) (x1 : Vec F S512x512 .bf16) :
    ∀ (n : ℕ) (p : View.Piece (Elt F) S8x512x256 .f32),
      p ∈ pb_k3_t1 (F := F) 𝒱 c bd i arg1 harg1 arg2 harg2 arg3 harg3 arg4 harg4 arg5 harg5 arg6 harg6 arg7 harg7 arg8 harg8 arg9 harg9 arg10 harg10 arg11 harg11 arg12 harg12 v0 v2 v7 v9 v11 v13 v15 v17 v19 v21 (harg2.unread x1) n →
      ∃ k : Fin k3_t1_loop.trips, p = tripPiece v0 v2 v7 v9 v11 v13 v15 v17 v19 v21 x1 k
  | 0, p, hp => by rw [pb_k3_t1.eq_1] at hp; exact absurd hp List.not_mem_nil
  | n + 1, p, hp => by
    rw [pb_k3_t1.eq_2] at hp
    unfold pb_k3_t1Step at hp
    by_cases h : n < k3_t1_loop.trips
    · rw [dif_pos h, trip_pieces] at hp
      rcases List.mem_append.mp hp with hp | hp
      · exact ⟨⟨n, h⟩, List.mem_singleton.mp hp⟩
      · exact pb_mem 𝒱 c bd i arg1 harg1 arg2 harg2 arg3 harg3 arg4 harg4 arg5 harg5 arg6 harg6 arg7 harg7 arg8 harg8 arg9 harg9 arg10 harg10 arg11 harg11 arg12 harg12 v0 v2 v7 v9 v11 v13 v15 v17 v19 v21 x1 n p hp
    · rw [dif_neg h] at hp
      exact pb_mem 𝒱 c bd i arg1 harg1 arg2 harg2 arg3 harg3 arg4 harg4 arg5 harg5 arg6 harg6 arg7 harg7 arg8 harg8 arg9 harg9 arg10 harg10 arg11 harg11 arg12 harg12 v0 v2 v7 v9 v11 v13 v15 v17 v19 v21 x1 n p hp

/-! ## The output block as one function of its index -/

/-- The chunk of 128 object rows an object row belongs to. -/
def chunkOf (o : Fin 512) : Fin k3_t1_loop.trips := ⟨o.val / 128, by rw [trips_eq]; have := o.isLt; omega⟩

/-- What the body leaves in the output block: at `(a, o, b)` the payload of object chunk `o / 128` at `(a, o % 128, b)`. -/
def blockFn (v0 : Vec F S8x512 .bf16) (v2 : Vec F S1024x1000 .bf16) (v7 : Vec F S256x800 .bf16) (v9 : Vec F S1000x800 .bf16) (v11 : Vec F S1x1000 .f32) (v13 : Vec F S1x1000 .f32) (v15 : Vec F S1x1000 .f32) (v17 : Vec F S1x800 .f32) (v19 : Vec F S1x800 .f32) (v21 : Vec F S1x800 .f32) (x1 : Vec F S512x512 .bf16) (a : Fin 8) (o : Fin 512) (b : Fin 256) : Elt F .f32 :=
  tripPay v0 v2 v7 v9 v11 v13 v15 v17 v19 v21 x1 (chunkOf o) (ValueIdx.ix3 a ⟨o.val % 128, Nat.mod_lt _ (by decide)⟩ b)

/-- A trip's payload is the block function at the place its store puts it. -/
theorem tripPay_eq_blockFn (v0 : Vec F S8x512 .bf16) (v2 : Vec F S1024x1000 .bf16) (v7 : Vec F S256x800 .bf16) (v9 : Vec F S1000x800 .bf16) (v11 : Vec F S1x1000 .f32) (v13 : Vec F S1x1000 .f32) (v15 : Vec F S1x1000 .f32) (v17 : Vec F S1x800 .f32) (v19 : Vec F S1x800 .f32) (v21 : Vec F S1x800 .f32) (x1 : Vec F S512x512 .bf16) (k : Fin k3_t1_loop.trips) (x : S8x128x256.Idx) :
    tripPay v0 v2 v7 v9 v11 v13 v15 v17 v19 v21 x1 k x
      = blockFn v0 v2 v7 v9 v11 v13 v15 v17 v19 v21 x1
          ((Rect.unit (s := S8x512x256) (k3_off2 k) S8x128x256.size (k3_off2_inb k)).emb x 0)
          ((Rect.unit (s := S8x512x256) (k3_off2 k) S8x128x256.size (k3_off2_inb k)).emb x 1)
          ((Rect.unit (s := S8x512x256) (k3_off2 k) S8x128x256.size (k3_off2_inb k)).emb x 2) := by
  obtain ⟨e0, e1, e2⟩ := off2_facts k
  have h0 : (x 0).val < 8 := (x 0).isLt
  have h1 : (x 1).val < 128 := (x 1).isLt
  have h2 : (x 2).val < 256 := (x 2).isLt
  have hk : chunkOf ((Rect.unit (s := S8x512x256) (k3_off2 k) S8x128x256.size (k3_off2_inb k)).emb x 1) = k :=
    Fin.ext (by show (k3_off2 k 1 + 1 * (x 1).val) / 128 = k.val; omega)
  have hx : ValueIdx.ix3 ((Rect.unit (s := S8x512x256) (k3_off2 k) S8x128x256.size (k3_off2_inb k)).emb x 0)
      (⟨((Rect.unit (s := S8x512x256) (k3_off2 k) S8x128x256.size (k3_off2_inb k)).emb x 1).val % 128, Nat.mod_lt _ (by decide)⟩ : Fin 128)
      ((Rect.unit (s := S8x512x256) (k3_off2 k) S8x128x256.size (k3_off2_inb k)).emb x 2) = x := by
    funext a; apply Fin.ext
    match a with
    | ⟨0, _⟩ => show k3_off2 k 0 + 1 * (x 0).val = (x 0).val; omega
    | ⟨1, _⟩ => show (k3_off2 k 1 + 1 * (x 1).val) % 128 = (x 1).val; omega
    | ⟨2, _⟩ => show k3_off2 k 2 + 1 * (x 2).val = (x 2).val; omega
  unfold blockFn
  rw [hk]
  exact congrArg (tripPay v0 v2 v7 v9 v11 v13 v15 v17 v19 v21 x1 k) hx.symm

/-- THE OUTPUT BLOCK after the body, index by index. -/
theorem out_apply (c : Dev nD) (i : grid3.Coords) (arg1 : Memref sig .tc .vmem S8x512 .bf16) (harg1 : arg1.IsWhole) (arg2 : Memref sig .tc .vmem S512x512 .bf16) (harg2 : arg2.IsWhole) (arg3 : Memref sig .tc .vmem S1024x1000 .bf16) (harg3 : arg3.IsWhole) (arg4 : Memref sig .tc .vmem S1x1000 .f32) (harg4 : arg4.IsWhole) (arg5 : Memref sig .tc .vmem S1x1000 .f32) (harg5 : arg5.IsWhole) (arg6 : Memref sig .tc .vmem S1x1000 .f32) (harg6 : arg6.IsWhole) (arg7 : Memref sig .tc .vmem S1000x800 .bf16) (harg7 : arg7.IsWhole) (arg8 : Memref sig .tc .vmem S1x800 .f32) (harg8 : arg8.IsWhole) (arg9 : Memref sig .tc .vmem S1x800 .f32) (harg9 : arg9.IsWhole) (arg10 : Memref sig .tc .vmem S1x800 .f32) (harg10 : arg10.IsWhole) (arg11 : Memref sig .tc .vmem S256x800 .bf16) (harg11 : arg11.IsWhole) (arg12 : Memref sig .tc .vmem S8x512x256 .f32) (harg12 : arg12.IsWhole) (x0 : Vec F S8x512 .bf16) (x1 : Vec F S512x512 .bf16) (x2 : Vec F S1024x1000 .bf16) (x3 : Vec F S1x1000 .f32) (x4 : Vec F S1x1000 .f32) (x5 : Vec F S1x1000 .f32) (x6 : Vec F S1000x800 .bf16) (x7 : Vec F S1x800 .f32) (x8 : Vec F S1x800 .f32) (x9 : Vec F S1x800 .f32) (x10 : Vec F S256x800 .bf16) (a : Fin 8) (o : Fin 512) (b : Fin 256) :
    out3_A_11 (F := F) c i arg1 harg1 arg2 harg2 arg3 harg3 arg4 harg4 arg5 harg5 arg6 harg6 arg7 harg7 arg8 harg8 arg9 harg9 arg10 harg10 arg11 harg11 arg12 harg12 x0 x1 x2 x3 x4 x5 x6 x7 x8 x9 x10 (ValueIdx.ix3 a o b)
      = blockFn x0 x2 x10 x6 x3 x4 x5 x7 x8 x9 x1 a o b := by
  unfold out3_A_11
  rw [View.read_writes_eq_canon _ _ _ (cover3_A_11 c i arg1 harg1 arg2 harg2 arg3 harg3 arg4 harg4 arg5 harg5 arg6 harg6 arg7 harg7 arg8 harg8 arg9 harg9 arg10 harg10 arg11 harg11 arg12 harg12 x0 x1 x2 x3 x4 x5 x6 x7 x8 x9 x10)]
  refine View.canon_apply_of_pieces (fun y : S8x512x256.Idx => blockFn x0 x2 x10 x6 x3 x4 x5 x7 x8 x9 x1 (y 0) (y 1) (y 2)) _ ?_
    (ValueIdx.ix3 a o b) (cover3_A_11 c i arg1 harg1 arg2 harg2 arg3 harg3 arg4 harg4 arg5 harg5 arg6 harg6 arg7 harg7 arg8 harg8 arg9 harg9 arg10 harg10 arg11 harg11 arg12 harg12 x0 x1 x2 x3 x4 x5 x6 x7 x8 x9 x10 (ValueIdx.ix3 a o b))
  intro p hp x
  rw [run_pieces] at hp
  obtain ⟨k, rfl⟩ := pb_mem Variants.none c none i arg1 harg1 arg2 harg2 arg3 harg3 arg4 harg4 arg5 harg5 arg6 harg6 arg7 harg7 arg8 harg8 arg9 harg9 arg10 harg10 arg11 harg11 arg12 harg12 x0 x2 x10 x6 x3 x4 x5 x7 x8 x9 x1 4 p hp
  exact tripPay_eq_blockFn x0 x2 x10 x6 x3 x4 x5 x7 x8 x9 x1 k x

/-! ## From the blocks to the array -/

variable (V : (c : Dev nD) → (b : Ref sig .tc) → Buf (Elt Ideal) ((c : Thread nD τ).loc b))

/-- rows 8·(A/8) … of the attribute array as the [8,512] block the point loads, rows 128·(o/128) … of the padded object array as the chunk the trip loads -/
def attrBlk (c : Dev nD) (A : Fin 200) : Vec Ideal S8x512 .bf16 := fun y => V c main_v65 (ValueIdx.ix2 ⟨8 * (A.val / 8) + (y 0).val, by have hA : A.val < 200 := A.isLt; have hy : (y 0).val < 8 := (y 0).isLt; show _ < 200; omega⟩ ⟨(y 1).val, (y 1).isLt⟩)
def objChunk (c : Dev nD) (o : Fin 512) : Vec Ideal S128x512 .bf16 := fun y => V c main_v67 (ValueIdx.ix2 ⟨128 * (o.val / 128) + (y 0).val, by have ho : o.val < 512 := o.isLt; have hy : (y 0).val < 128 := (y 0).isLt; show _ < 512; omega⟩ ⟨(y 1).val, (y 1).isLt⟩)

/-- The printed index maps, decided over the grid: the attribute window and the output window move one block
    of 8 rows per point; every other window stays on its one block. -/
theorem idx3_0 : ∀ t : Fin cfg3.N, win3_0.index t (0 : Fin 2) = t.val ∧ win3_0.index t (1 : Fin 2) = 0 :=
  (by decide +kernel : ∀ t : Fin grid3.N, _)
theorem idx3_11 : ∀ t : Fin cfg3.N, win3_11.index t (0 : Fin 3) = t.val ∧ win3_11.index t (1 : Fin 3) = 0 ∧ win3_11.index t (2 : Fin 3) = 0 :=
  (by decide +kernel : ∀ t : Fin grid3.N, _)
theorem idx3_1 : ∀ t : Fin cfg3.N, win3_1.index t (0 : Fin 2) = 0 ∧ win3_1.index t (1 : Fin 2) = 0 :=
  (by decide +kernel : ∀ t : Fin grid3.N, _)
theorem idx3_2 : ∀ t : Fin cfg3.N, win3_2.index t (0 : Fin 2) = 0 ∧ win3_2.index t (1 : Fin 2) = 0 :=
  (by decide +kernel : ∀ t : Fin grid3.N, _)
theorem idx3_3 : ∀ t : Fin cfg3.N, win3_3.index t (0 : Fin 2) = 0 ∧ win3_3.index t (1 : Fin 2) = 0 :=
  (by decide +kernel : ∀ t : Fin grid3.N, _)
theorem idx3_4 : ∀ t : Fin cfg3.N, win3_4.index t (0 : Fin 2) = 0 ∧ win3_4.index t (1 : Fin 2) = 0 :=
  (by decide +kernel : ∀ t : Fin grid3.N, _)
theorem idx3_5 : ∀ t : Fin cfg3.N, win3_5.index t (0 : Fin 2) = 0 ∧ win3_5.index t (1 : Fin 2) = 0 :=
  (by decide +kernel : ∀ t : Fin grid3.N, _)
theorem idx3_6 : ∀ t : Fin cfg3.N, win3_6.index t (0 : Fin 2) = 0 ∧ win3_6.index t (1 : Fin 2) = 0 :=
  (by decide +kernel : ∀ t : Fin grid3.N, _)
theorem idx3_7 : ∀ t : Fin cfg3.N, win3_7.index t (0 : Fin 2) = 0 ∧ win3_7.index t (1 : Fin 2) = 0 :=
  (by decide +kernel : ∀ t : Fin grid3.N, _)
theorem idx3_8 : ∀ t : Fin cfg3.N, win3_8.index t (0 : Fin 2) = 0 ∧ win3_8.index t (1 : Fin 2) = 0 :=
  (by decide +kernel : ∀ t : Fin grid3.N, _)
theorem idx3_9 : ∀ t : Fin cfg3.N, win3_9.index t (0 : Fin 2) = 0 ∧ win3_9.index t (1 : Fin 2) = 0 :=
  (by decide +kernel : ∀ t : Fin grid3.N, _)
theorem idx3_10 : ∀ t : Fin cfg3.N, win3_10.index t (0 : Fin 2) = 0 ∧ win3_10.index t (1 : Fin 2) = 0 :=
  (by decide +kernel : ∀ t : Fin grid3.N, _)

/-- The attribute block of a point is rows `8t … 8t+7` of the attribute array. -/
theorem iblk_0 (c : Dev nD) (t : Fin cfg3.N) (A : Fin 200) (hA : A.val / 8 = t.val) : iblk3 (F := Ideal) V c 0 t = attrBlk V c A := by
  obtain ⟨e0, e1⟩ := idx3_0 t
  funext y
  show V c main_v65 (((cfg3.win 0).blk t).view.emb y) = V c main_v65 _
  refine congrArg (V c main_v65) (funext fun a => Fin.ext ?_)
  match a with
  | ⟨0, _⟩ => show win3_0.index t (0 : Fin 2) * 8 + 1 * (y 0).val = 8 * (A.val / 8) + (y 0).val; omega
  | ⟨1, _⟩ => show win3_0.index t (1 : Fin 2) * 512 + 1 * (y 1).val = (y 1).val; omega

theorem iblk_1 (c : Dev nD) (t : Fin cfg3.N) : iblk3 (F := Ideal) V c 1 t = V c main_v67 := by
  obtain ⟨e0, e1⟩ := idx3_1 t
  funext y
  show V c main_v67 (((cfg3.win 1).blk t).view.emb y) = V c main_v67 y
  refine congrArg (V c main_v67) (funext fun a => Fin.ext ?_)
  match a with
  | ⟨0, _⟩ => show win3_1.index t (0 : Fin 2) * 512 + 1 * (y 0).val = (y 0).val; omega
  | ⟨1, _⟩ => show win3_1.index t (1 : Fin 2) * 512 + 1 * (y 1).val = (y 1).val; omega

theorem iblk_2 (c : Dev nD) (t : Fin cfg3.N) : iblk3 (F := Ideal) V c 2 t = V c main_v68 := by
  obtain ⟨e0, e1⟩ := idx3_2 t
  funext y
  show V c main_v68 (((cfg3.win 2).blk t).view.emb y) = V c main_v68 y
  refine congrArg (V c main_v68) (funext fun a => Fin.ext ?_)
  match a with
  | ⟨0, _⟩ => show win3_2.index t (0 : Fin 2) * 1024 + 1 * (y 0).val = (y 0).val; omega
  | ⟨1, _⟩ => show win3_2.index t (1 : Fin 2) * 1000 + 1 * (y 1).val = (y 1).val; omega

theorem iblk_3 (c : Dev nD) (t : Fin cfg3.N) : iblk3 (F := Ideal) V c 3 t = V c main_v71 := by
  obtain ⟨e0, e1⟩ := idx3_3 t
  funext y
  show V c main_v71 (((cfg3.win 3).blk t).view.emb y) = V c main_v71 y
  refine congrArg (V c main_v71) (funext fun a => Fin.ext ?_)
  match a with
  | ⟨0, _⟩ => show win3_3.index t (0 : Fin 2) * 1 + 1 * (y 0).val = (y 0).val; omega
  | ⟨1, _⟩ => show win3_3.index t (1 : Fin 2) * 1000 + 1 * (y 1).val = (y 1).val; omega

theorem iblk_4 (c : Dev nD) (t : Fin cfg3.N) : iblk3 (F := Ideal) V c 4 t = V c main_v72 := by
  obtain ⟨e0, e1⟩ := idx3_4 t
  funext y
  show V c main_v72 (((cfg3.win 4).blk t).view.emb y) = V c main_v72 y
  refine congrArg (V c main_v72) (funext fun a => Fin.ext ?_)
  match a with
  | ⟨0, _⟩ => show win3_4.index t (0 : Fin 2) * 1 + 1 * (y 0).val = (y 0).val; omega
  | ⟨1, _⟩ => show win3_4.index t (1 : Fin 2) * 1000 + 1 * (y 1).val = (y 1).val; omega

theorem iblk_5 (c : Dev nD) (t : Fin cfg3.N) : iblk3 (F := Ideal) V c 5 t = V c main_v73 := by
  obtain ⟨e0, e1⟩ := idx3_5 t
  funext y
  show V c main_v73 (((cfg3.win 5).blk t).view.emb y) = V c main_v73 y
  refine congrArg (V c main_v73) (funext fun a => Fin.ext ?_)
  match a with
  | ⟨0, _⟩ => show win3_5.index t (0 : Fin 2) * 1 + 1 * (y 0).val = (y 0).val; omega
  | ⟨1, _⟩ => show win3_5.index t (1 : Fin 2) * 1000 + 1 * (y 1).val = (y 1).val; omega

theorem iblk_6 (c : Dev nD) (t : Fin cfg3.N) : iblk3 (F := Ideal) V c 6 t = V c main_v69 := by
  obtain ⟨e0, e1⟩ := idx3_6 t
  funext y
  show V c main_v69 (((cfg3.win 6).blk t).view.emb y) = V c main_v69 y
  refine congrArg (V c main_v69) (funext fun a => Fin.ext ?_)
  match a with
  | ⟨0, _⟩ => show win3_6.index t (0 : Fin 2) * 1000 + 1 * (y 0).val = (y 0).val; omega
  | ⟨1, _⟩ => show win3_6.index t (1 : Fin 2) * 800 + 1 * (y 1).val = (y 1).val; omega

theorem iblk_7 (c : Dev nD) (t : Fin cfg3.N) : iblk3 (F := Ideal) V c 7 t = V c main_v74 := by
  obtain ⟨e0, e1⟩ := idx3_7 t
  funext y
  show V c main_v74 (((cfg3.win 7).blk t).view.emb y) = V c main_v74 y
  refine congrArg (V c main_v74) (funext fun a => Fin.ext ?_)
  match a with
  | ⟨0, _⟩ => show win3_7.index t (0 : Fin 2) * 1 + 1 * (y 0).val = (y 0).val; omega
  | ⟨1, _⟩ => show win3_7.index t (1 : Fin 2) * 800 + 1 * (y 1).val = (y 1).val; omega

theorem iblk_8 (c : Dev nD) (t : Fin cfg3.N) : iblk3 (F := Ideal) V c 8 t = V c main_v75 := by
  obtain ⟨e0, e1⟩ := idx3_8 t
  funext y
  show V c main_v75 (((cfg3.win 8).blk t).view.emb y) = V c main_v75 y
  refine congrArg (V c main_v75) (funext fun a => Fin.ext ?_)
  match a with
  | ⟨0, _⟩ => show win3_8.index t (0 : Fin 2) * 1 + 1 * (y 0).val = (y 0).val; omega
  | ⟨1, _⟩ => show win3_8.index t (1 : Fin 2) * 800 + 1 * (y 1).val = (y 1).val; omega

theorem iblk_9 (c : Dev nD) (t : Fin cfg3.N) : iblk3 (F := Ideal) V c 9 t = V c main_v76 := by
  obtain ⟨e0, e1⟩ := idx3_9 t
  funext y
  show V c main_v76 (((cfg3.win 9).blk t).view.emb y) = V c main_v76 y
  refine congrArg (V c main_v76) (funext fun a => Fin.ext ?_)
  match a with
  | ⟨0, _⟩ => show win3_9.index t (0 : Fin 2) * 1 + 1 * (y 0).val = (y 0).val; omega
  | ⟨1, _⟩ => show win3_9.index t (1 : Fin 2) * 800 + 1 * (y 1).val = (y 1).val; omega

theorem iblk_10 (c : Dev nD) (t : Fin cfg3.N) : iblk3 (F := Ideal) V c 10 t = V c main_v70 := by
  obtain ⟨e0, e1⟩ := idx3_10 t
  funext y
  show V c main_v70 (((cfg3.win 10).blk t).view.emb y) = V c main_v70 y
  refine congrArg (V c main_v70) (funext fun a => Fin.ext ?_)
  match a with
  | ⟨0, _⟩ => show win3_10.index t (0 : Fin 2) * 256 + 1 * (y 0).val = (y 0).val; omega
  | ⟨1, _⟩ => show win3_10.index t (1 : Fin 2) * 800 + 1 * (y 1).val = (y 1).val; omega

/-- What point `t` leaves in the output's staging buffer, index by index, over the arrays as the region finds them. -/
theorem outs_apply (c : Dev nD) (t : Fin cfg3.N) (A : Fin 200) (hA : A.val / 8 = t.val) (y : S8x512x256.Idx) :
    outsAt3 (F := Ideal) V c t y = blockFn (attrBlk V c A) (V c main_v68) (V c main_v70) (V c main_v69) (V c main_v71) (V c main_v72) (V c main_v73) (V c main_v74) (V c main_v75) (V c main_v76) (V c main_v67) (y 0) (y 1) (y 2) := by
  rw [ValueIdx.eq_ix3 y]
  unfold outsAt3
  refine (out_apply (F := Ideal) c (grid3.coords t) (ms3_0 t) (hs3_0 t) (ms3_1 t) (hs3_1 t) (ms3_2 t) (hs3_2 t) (ms3_3 t) (hs3_3 t) (ms3_4 t) (hs3_4 t) (ms3_5 t) (hs3_5 t) (ms3_6 t) (hs3_6 t) (ms3_7 t) (hs3_7 t) (ms3_8 t) (hs3_8 t) (ms3_9 t) (hs3_9 t) (ms3_10 t) (hs3_10 t) (ms3_11 t) (hs3_11 t) (iblk3 V c 0 t) (iblk3 V c 1 t) (iblk3 V c 2 t) (iblk3 V c 3 t) (iblk3 V c 4 t) (iblk3 V c 5 t) (iblk3 V c 6 t) (iblk3 V c 7 t) (iblk3 V c 8 t) (iblk3 V c 9 t) (iblk3 V c 10 t) (y 0) (y 1) (y 2)).trans ?_
  rw [iblk_0 V c t A hA, iblk_1 V c t, iblk_2 V c t, iblk_3 V c t, iblk_4 V c t, iblk_5 V c t, iblk_6 V c t, iblk_7 V c t, iblk_8 V c t, iblk_9 V c t, iblk_10 V c t]

/-- The attribute block depends on the row only through its block of 8. -/
theorem attrBlk_congr (c : Dev nD) (A A' : Fin 200) (h : A.val / 8 = A'.val / 8) : attrBlk V c A = attrBlk V c A' := by
  funext y
  unfold attrBlk
  refine congrArg (V c main_v65) (funext fun a => Fin.ext ?_)
  match a with
  | ⟨0, _⟩ => show 8 * (A.val / 8) + (y 0).val = 8 * (A'.val / 8) + (y 0).val; omega
  | ⟨1, _⟩ => rfl

/-- The whole output array as one function of its index. -/
def arrFn (c : Dev nD) : S200x512x256.Idx → Elt Ideal .f32 := fun Y =>
  blockFn (attrBlk V c (Y 0)) (V c main_v68) (V c main_v70) (V c main_v69) (V c main_v71) (V c main_v72) (V c main_v73) (V c main_v74) (V c main_v75) (V c main_v76) (V c main_v67) ⟨(Y 0).val % 8, Nat.mod_lt _ (by decide)⟩ (Y 1) (Y 2)

/-- WHAT POINT `t` WRITES BACK is block `t` of that function. -/
theorem flushed_eq (c : Dev nD) (t : Fin cfg3.N) :
    (dat3 (F := Ideal) V c).flushed 11 t = ((cfg3.win 11).blk t).view.read (Elt Ideal) (arrFn V c) := by
  have hN : cfg3.N = 25 := N_3
  have ht : t.val < 25 := hN ▸ t.isLt
  obtain ⟨e0, e1, e2⟩ := idx3_11 t
  show (cfg3.win 11).cut (grid3.coords t) ((dat3 (F := Ideal) V c).after 11 t) = _
  rw [after3_11]
  funext j
  have j0 : (j 0).val < 8 := (j 0).isLt
  have j1 : (j 1).val < 512 := (j 1).isLt
  have j2 : (j 2).val < 256 := (j 2).isLt
  show outsAt3 (F := Ideal) V c t ((cfg3.win 11).xinj (grid3.coords t) j) = arrFn V c (((cfg3.win 11).blk t).view.emb j)
  have hA : (((cfg3.win 11).blk t).view.emb j 0).val / 8 = t.val := by
    show (win3_11.index t (0 : Fin 3) * 8 + 1 * (j 0).val) / 8 = t.val; omega
  rw [outs_apply V c t (((cfg3.win 11).blk t).view.emb j 0) hA]
  unfold arrFn
  have h0 : ((cfg3.win 11).xinj (grid3.coords t) j 0 : Fin 8) = ⟨(((cfg3.win 11).blk t).view.emb j 0).val % 8, Nat.mod_lt _ (by decide)⟩ :=
    Fin.ext (by show (j 0).val = (win3_11.index t (0 : Fin 3) * 8 + 1 * (j 0).val) % 8; omega)
  have h1 : ((cfg3.win 11).xinj (grid3.coords t) j 1 : Fin 512) = ((cfg3.win 11).blk t).view.emb j 1 :=
    Fin.ext (by show (j 1).val = win3_11.index t (1 : Fin 3) * 512 + 1 * (j 1).val; omega)
  have h2 : ((cfg3.win 11).xinj (grid3.coords t) j 2 : Fin 256) = ((cfg3.win 11).blk t).view.emb j 2 :=
    Fin.ext (by show (j 2).val = win3_11.index t (2 : Fin 3) * 256 + 1 * (j 2).val; omega)
  rw [h0, h1, h2]
  rfl

/-- An index of the array is in point `t`'s block iff each coordinate is in the block's range on its axis. -/
theorem mem_blk (t : Fin cfg3.N) (Y : S200x512x256.Idx) :
    Y ∈ ((cfg3.win 11).blk t).view.set ↔ ∀ a : Fin 3, win3_11.index t a * S8x512x256.size a ≤ (Y a).val ∧ (Y a).val < win3_11.index t a * S8x512x256.size a + S8x512x256.size a := by
  show Y ∈ ((View.whole main_v77).slice (win3_11.rect t)).set ↔ _
  rw [View.set_slice_whole, Rect.mem_set_unit]
  exact Iff.rfl

/-- The chunk of the object window's buffer a trip loads is rows `128·(o/128) …` of the padded object array. -/
theorem objChunk_eq (c : Dev nD) (o : Fin 512) :
    View.ld (V c main_v67) (Rect.unit (s := S512x512) (k3_off1 (chunkOf o)) S128x512.size (k3_off1_inb (chunkOf o))) = objChunk V c o := by
  obtain ⟨e0, e1⟩ := off1_facts (chunkOf o)
  funext y
  unfold objChunk
  refine congrArg (V c main_v67) (funext fun a => Fin.ext ?_)
  match a with
  | ⟨0, _⟩ => show k3_off1 (chunkOf o) 0 + 1 * (y 0).val = 128 * (o.val / 128) + (y 0).val; rw [e0]; show 128 * (o.val / 128) + 1 * (y 0).val = _; omega
  | ⟨1, _⟩ => show k3_off1 (chunkOf o) 1 + 1 * (y 1).val = (y 1).val; omega

/-- THE OUTPUT ARRAY after the 25 points, index by index: at `(A, o, b)` the payload of attribute rows
    `8·(A/8) …` and object rows `128·(o/128) …` at `(A % 8, o % 128, b)`. -/
theorem arr3_apply (c : Dev nD) (A : Fin 200) (o : Fin 512) (b : Fin 256) :
    (dat3 (F := Ideal) V c).arrAt 11 cfg3.N (ValueIdx.ix3 A o b)
      = k3_pay9 (F := Ideal) (V c main_v70) (V c main_v75) (V c main_v76)
          (k3_pay10 (k3_pay2 (V c main_v68)) (k3_pay3 (attrBlk V c A) (V c main_v68)) (k3_pay4 (V c main_v69)) (k3_pay5 (V c main_v71)) (k3_pay6 (V c main_v72)) (k3_pay7 (V c main_v73)) (k3_pay8 (V c main_v74)) (objChunk V c o))
          (ValueIdx.ix3 ⟨A.val % 8, Nat.mod_lt _ (by decide)⟩ ⟨o.val % 128, Nat.mod_lt _ (by decide)⟩ b) := by
  have hN : cfg3.N = 25 := N_3
  have hA : A.val < 200 := A.isLt
  have ho : o.val < 512 := o.isLt
  have hb : b.val < 256 := b.isLt
  have htl : A.val / 8 < cfg3.N := by rw [hN]; omega
  obtain ⟨e0, e1, e2⟩ := idx3_11 ⟨A.val / 8, htl⟩
  have hmem : ValueIdx.ix3 A o b ∈ ((cfg3.win 11).blk ⟨A.val / 8, htl⟩).view.set := by
    rw [mem_blk]
    intro a
    match a with
    | ⟨0, _⟩ => show win3_11.index ⟨A.val / 8, htl⟩ (0 : Fin 3) * 8 ≤ A.val ∧ A.val < win3_11.index ⟨A.val / 8, htl⟩ (0 : Fin 3) * 8 + 8; rw [e0]; show A.val / 8 * 8 ≤ A.val ∧ A.val < A.val / 8 * 8 + 8; omega
    | ⟨1, _⟩ => show win3_11.index ⟨A.val / 8, htl⟩ (1 : Fin 3) * 512 ≤ o.val ∧ o.val < win3_11.index ⟨A.val / 8, htl⟩ (1 : Fin 3) * 512 + 512; omega
    | ⟨2, _⟩ => show win3_11.index ⟨A.val / 8, htl⟩ (2 : Fin 3) * 256 ≤ b.val ∧ b.val < win3_11.index ⟨A.val / 8, htl⟩ (2 : Fin 3) * 256 + 256; omega
  rw [(dat3 (F := Ideal) V c).arrAt_apply_of_mem 11 (arrFn V c) (fun t _ => flushed_eq V c t) cfg3.N ⟨A.val / 8, htl⟩
    (ValueIdx.ix3 A o b) (Nat.lt_of_lt_of_le htl (Nat.le_refl _)) (flush3_11 _) hmem]
  show blockFn (attrBlk V c A) (V c main_v68) (V c main_v70) (V c main_v69) (V c main_v71) (V c main_v72) (V c main_v73) (V c main_v74) (V c main_v75) (V c main_v76) (V c main_v67) ⟨A.val % 8, Nat.mod_lt _ (by decide)⟩ o b = _
  unfold blockFn tripPay
  rw [objChunk_eq]

end Cert.KernelIdeal.BlocksPair

end
-- ==== Proof.LibPlainMatmul.lean ====
/-
  A plain matrix product read at an entry.  For the dimension numbers of an `M × K` by `K × N` product
  (`DotDims.plain`: the left operand contracted on its columns, the right on its rows, no batch axis), a
  `tpu.matmul` into the zero splat is, at the extended reals and at row `r`, column `c`, the sum over
  `k : Fin K` of the left operand at `(r, k)` times the right at `(k, c)`.  Nothing here names a program.
-/
import Idealize.ShloMosaic.PureOps.Ideal.Laws
import Idealize.ShloMosaic.Lib.ValueIdx

namespace Cert.PlainMatmul

open Idealize.ShloMosaic Idealize.ShloMosaic.ValueIdx

/-- The left operand's index of a plain product at output `(r, c)` and contraction coordinate `k` is `(r, k)`. -/
theorem lhsIdx_plain {M K N : ℕ} (r : Fin M) (c : Fin N) (k : Fin K) :
    (DotDims.plain M K N).lhsIdx (ix2 r c) ((contrEquiv1 (DotDims.plain M K N) K rfl rfl).symm k) = ix2 r k := by
  have hk := contrEquiv1_symm_val (DotDims.plain M K N) K rfl rfl k
  funext a
  apply Fin.ext
  match a with
  | ⟨0, _⟩ => rfl
  | ⟨1, _⟩ => exact ((DotDims.plain M K N).lhsIdx_val_of_single rfl (ix2 r c) _).trans hk

/-- The right operand's index there is `(k, c)`. -/
theorem rhsIdx_plain {M K N : ℕ} (r : Fin M) (c : Fin N) (k : Fin K) :
    (DotDims.plain M K N).rhsIdx (ix2 r c) ((contrEquiv1 (DotDims.plain M K N) K rfl rfl).symm k) = ix2 k c := by
  have hk := contrEquiv1_symm_val (DotDims.plain M K N) K rfl rfl k
  funext a
  apply Fin.ext
  match a with
  | ⟨0, _⟩ => exact ((DotDims.plain M K N).rhsIdx_val_of_single rfl (ix2 r c) _).trans hk
  | ⟨1, _⟩ => rfl

/-- A plain `tpu.matmul` into zeros, at entry `(r, c)`, is `∑ k, a (r, k) * b (k, c)` on the extended reals. -/
theorem matmul_plain_zero_apply {M K N : ℕ} {φ₁ φ₂ : FTy}
    (a : FVec Ideal ⟨2, ![M, K]⟩ φ₁) (b : FVec Ideal ⟨2, ![K, N]⟩ φ₂) (prec : Option ContractPrecision) (r : Fin M) (c : Fin N) :
    matmul (DotDims.plain M K N) prec a b (constant ⟨2, ![M, N]⟩ .f32 0x00000000#32) (ix2 r c)
      = ∑ k : Fin K, a (ix2 r k) * b (ix2 k c) := by
  show FloatOps.matmul (DotDims.plain M K N) prec a b (constant ⟨2, ![M, N]⟩ .f32 0x00000000#32) (ix2 r c) = _
  rw [Ideal.matmul_constant_zero_apply, ← Equiv.sum_comp (contrEquiv1 (DotDims.plain M K N) K rfl rfl).symm]
  refine Finset.sum_congr rfl fun k _ => ?_
  rw [lhsIdx_plain, rhsIdx_plain]

end Cert.PlainMatmul
-- ==== Proof.PayGraph.lean ====
/-
  The two graph layers read at a row and a column.  Each layer multiplies the neighbours' mean by one
  matrix, adds the bias row, and adds the node's own row multiplied by a second matrix; the first layer then
  takes the positive part.  Over the extended reals the narrowing of the operands is the identity, a product
  into zeros at (i, j) is the sum over k of the left operand at (i, k) times the right at (k, j), and the
  bias row repeated down the rows reads the bias at column j.
-/
import proofs.«135290_j1108101562624_1_alg».proof.Proof.Gen.KernelIdeal.Skeleton
import proofs.«135290_j1108101562624_1_alg».proof.Proof.Spec
import proofs.«135290_j1108101562624_1_alg».proof.Proof.LibPlainMatmul
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.PayGraph

open Cert.KernelIdeal Cert.KernelIdeal.Gen Cert.GaeSpec Idealize.ShloMosaic Idealize.ShloMosaic.ValueIdx

/-- The first layer at row `i`, column `j`: the positive part of the mean's product, plus the bias, plus the
    node's own product. -/
theorem pay0_apply (v0 v3 : Vec Ideal S700x512 .f32) (v5 v12 : Vec Ideal S512x2048 .bf16) (v8 : Vec Ideal S1x2048 .f32) (i : Fin 700) (j : Fin 2048) :
    k0_pay1 (F := Ideal) v0 v3 v5 v8 v12 (ix2 i j) = hidden (m2 v0) (m2 v3) (m2 v5) (m2 v12) (r1 v8) i j := by
  unfold k0_pay1
  rw [maximumf_apply, addf_apply, addf_apply, broadcast_apply]
  simp only [shapeCast_self]
  rw [broadcastTo_1b_ab_apply]
  rw [show dot_S700x512_S512x2048_S700x2048_1_0_0_1_n_n = DotDims.plain 700 512 2048 from rfl]
  rw [Cert.PlainMatmul.matmul_plain_zero_apply, Cert.PlainMatmul.matmul_plain_zero_apply]
  rw [show (FloatOps.ofBits FTy.f32 0#32 : Idealize.ShloMosaic.Ideal .f32) = 0 from Ideal.ofBits_zero_f32]
  simp only [truncf_apply]
  unfold Cert.GaeSpec.hidden Cert.GaeSpec.sage Cert.GaeSpec.lin Cert.GaeSpec.dot Cert.GaeSpec.relu
  rfl

/-- The second layer at row `i`, column `j`: the mean's product, plus the bias, plus the node's own product. -/
theorem pay1_apply (v0 v3 : Vec Ideal S700x2048 .f32) (v6 v13 : Vec Ideal S2048x512 .bf16) (v9 : Vec Ideal S1x512 .f32) (i : Fin 700) (j : Fin 512) :
    k1_pay1 (F := Ideal) v0 v3 v6 v9 v13 (ix2 i j) = sage (m2 v0) (m2 v3) (m2 v6) (m2 v13) (r1 v9) i j := by
  unfold k1_pay1
  rw [addf_apply, addf_apply]
  simp only [shapeCast_self]
  rw [broadcastTo_1b_ab_apply]
  rw [show dot_S700x2048_S2048x512_S700x512_1_0_0_1_n_n = DotDims.plain 700 2048 512 from rfl]
  rw [Cert.PlainMatmul.matmul_plain_zero_apply, Cert.PlainMatmul.matmul_plain_zero_apply]
  simp only [truncf_apply]
  unfold Cert.GaeSpec.sage Cert.GaeSpec.lin Cert.GaeSpec.dot
  rfl

end Cert.KernelIdeal.PayGraph

end
-- ==== Proof.PayImage.lean ====
/-
  The image tower read at an entry.  A layer norm of the rows of an `[n, J]` block, written with block operations —
  the row sum, the column it is cast to, the division by the row length, the column spread back along the rows, the
  difference, its square, the second row sum and division, the small constant, the inverse square root, the gain row
  and the shift row — is, at entry `(i, j)`, the layer norm of row `i` at position `j` over the extended reals.
  Around three matrix products with their bias rows and two positive parts this gives the tower: two normalised
  layers with positive parts, then a normalised layer.
-/
import proofs.«135290_j1108101562624_1_alg».proof.Proof.Gen.KernelIdeal.Skeleton
import proofs.«135290_j1108101562624_1_alg».proof.Proof.Spec
import proofs.«135290_j1108101562624_1_alg».proof.Proof.LibPlainMatmul
import Idealize.ShloMosaic.Lib.ValueIdx
import Idealize.ShloMosaic.Lib.ValueLayout
import Idealize.ShloMosaic.Lib.Pipeline.Value
import Idealize.ShloMosaic.PureOps.Ideal.Laws

set_option synthInstance.maxSize 4096

noncomputable section

namespace Cert.KernelIdeal.PayImage

open Cert.KernelIdeal Cert.KernelIdeal.Gen Cert.GaeSpec Idealize.ShloMosaic Idealize.ShloMosaic.ValueIdx Idealize.SL.Sem

/-! ## Column layouts read at an index -/

/-- A column cast `[a] → [a, 1]` at `(i, u)` reads the vector at `i`. -/
theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_one, Shape.rowMajor_val_two]
    show i.val = i.val * 1 + u.val
    rw [hu, Nat.mul_one, Nat.add_zero])

/-- A column broadcast `[a, 1] → [a, b]` at `(p, c)` reads the column at `(p, 0)`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The sum along the rows' axis of an `[n, J]` block, at row `i`, is the sum over the row's positions. -/
theorem rowSum_apply {n J : ℕ} (src : FVec Ideal ⟨2, ![n, J]⟩ .f32)
    (h : (⟨2, ![n, J]⟩ : Shape).Reduces [1] ⟨1, ![n]⟩) (hφ : FKind.Formats .f32)
    (hacc : (0x00000000#32 : BitVec 32) = FKind.add.neutral .f32 hφ) (i : Fin n) :
    multiReduction .add [1] ⟨1, ![n]⟩ src 0x00000000#32 h hφ hacc (ix1 i) = ∑ k : Fin J, src (ix2 i k) := by
  refine (Ideal.multiReduction_add_single src 0x00000000#32 h hφ hacc (ix1 i)).trans ?_
  refine Finset.sum_congr rfl fun k _ => congrArg src ?_
  funext c
  apply Fin.ext
  match c with
  | ⟨0, _⟩ => rfl
  | ⟨1, _⟩ => rfl

/-! ## One layer norm written with the block operations -/

/-- An inverse square root at an index is the extended reals' one of the element. -/
theorem rsqrt_apply {s : Shape} {φ : FTy} (a : FVec Ideal s φ) (i : s.Idx) : rsqrt a i = Ideal.rsqrt (a i) := rfl

/-- The block operations of one layer norm of an `[n, J]` block `t` with gain row `g` and shift row `b`:
    row sum, column cast, division by the splat of the word `cw`, column broadcast, difference, square, row sum,
    column cast, division, plus the small constant, inverse square root, column broadcast, product, gain, shift. -/
def lnK {n J : ℕ} (cw : BitVec 32)
    (hred : (⟨2, ![n, J]⟩ : Shape).Reduces [1] ⟨1, ![n]⟩)
    (hsc : (⟨1, ![n]⟩ : Shape).ShapeCasts ⟨2, ![n, 1]⟩)
    (hbc : (⟨2, ![n, 1]⟩ : Shape).Broadcasts ⟨2, ![n, J]⟩)
    (hrc : (⟨2, ![1, J]⟩ : Shape).ShapeCasts ⟨2, ![1, J]⟩)
    (hrb : (⟨2, ![1, J]⟩ : Shape).Broadcasts ⟨2, ![n, J]⟩)
    (hφ : FKind.Formats .f32) (hacc : (0x00000000#32 : BitVec 32) = FKind.add.neutral .f32 hφ)
    (t : FVec Ideal ⟨2, ![n, J]⟩ .f32) (g b : Vec Ideal ⟨2, ![1, J]⟩ .f32) : FVec Ideal ⟨2, ![n, J]⟩ .f32 :=
  have v81 : FVec Ideal ⟨1, ![n]⟩ .f32 := multiReduction .add [1] ⟨1, ![n]⟩ t 0x00000000#32 hred hφ hacc
  have v82 : FVec Ideal ⟨2, ![n, 1]⟩ .f32 := shapeCast ⟨2, ![n, 1]⟩ v81 hsc
  have cst_36 : Ideal .f32 := Scalar.ofBits .f32 cw
  have v83 : FVec Ideal ⟨2, ![n, 1]⟩ .f32 := broadcast ⟨2, ![n, 1]⟩ cst_36
  have v84 : FVec Ideal ⟨2, ![n, 1]⟩ .f32 := divf v82 v83
  have v85 : FVec Ideal ⟨2, ![n, J]⟩ .f32 := broadcastTo ⟨2, ![n, J]⟩ v84 hbc
  have v86 : FVec Ideal ⟨2, ![n, J]⟩ .f32 := subf t v85
  have v87 : FVec Ideal ⟨2, ![n, J]⟩ .f32 := mulf v86 v86
  have v88 : FVec Ideal ⟨1, ![n]⟩ .f32 := multiReduction .add [1] ⟨1, ![n]⟩ v87 0x00000000#32 hred hφ hacc
  have v89 : FVec Ideal ⟨2, ![n, 1]⟩ .f32 := shapeCast ⟨2, ![n, 1]⟩ v88 hsc
  have cst_38 : Ideal .f32 := Scalar.ofBits .f32 cw
  have v90 : FVec Ideal ⟨2, ![n, 1]⟩ .f32 := broadcast ⟨2, ![n, 1]⟩ cst_38
  have v91 : FVec Ideal ⟨2, ![n, 1]⟩ .f32 := divf v89 v90
  have v92 : FVec Ideal ⟨2, ![n, J]⟩ .f32 := broadcastTo ⟨2, ![n, J]⟩ v84 hbc
  have v93 : FVec Ideal ⟨2, ![n, J]⟩ .f32 := subf t v92
  have cst_39 : Ideal .f32 := Scalar.ofBits .f32 0x3727C5AC#32
  have v94 : FVec Ideal ⟨2, ![n, 1]⟩ .f32 := broadcast ⟨2, ![n, 1]⟩ cst_39
  have v95 : FVec Ideal ⟨2, ![n, 1]⟩ .f32 := addf v91 v94
  have v96 : FVec Ideal ⟨2, ![n, 1]⟩ .f32 := rsqrt v95
  have v97 : FVec Ideal ⟨2, ![n, J]⟩ .f32 := broadcastTo ⟨2, ![n, J]⟩ v96 hbc
  have v98 : FVec Ideal ⟨2, ![n, J]⟩ .f32 := mulf v93 v97
  have v100 : FVec Ideal ⟨2, ![1, J]⟩ .f32 := shapeCast ⟨2, ![1, J]⟩ g hrc
  have v101 : FVec Ideal ⟨2, ![n, J]⟩ .f32 := broadcastTo ⟨2, ![n, J]⟩ v100 hrb
  have v102 : FVec Ideal ⟨2, ![n, J]⟩ .f32 := mulf v98 v101
  have v104 : FVec Ideal ⟨2, ![1, J]⟩ .f32 := shapeCast ⟨2, ![1, J]⟩ b hrc
  have v105 : FVec Ideal ⟨2, ![n, J]⟩ .f32 := broadcastTo ⟨2, ![n, J]⟩ v104 hrb
  have v106 : FVec Ideal ⟨2, ![n, J]⟩ .f32 := addf v102 v105
  v106

/-- The mean the block operations take of row `i` of `t`, read at `(i, u)` of its column. -/
theorem colMean_apply {n J : ℕ} (cw : BitVec 32)
    (hred : (⟨2, ![n, J]⟩ : Shape).Reduces [1] ⟨1, ![n]⟩)
    (hsc : (⟨1, ![n]⟩ : Shape).ShapeCasts ⟨2, ![n, 1]⟩)
    (hφ : FKind.Formats .f32) (hacc : (0x00000000#32 : BitVec 32) = FKind.add.neutral .f32 hφ)
    (t : FVec Ideal ⟨2, ![n, J]⟩ .f32) (i : Fin n) (u : Fin 1) :
    divf (shapeCast ⟨2, ![n, 1]⟩ (multiReduction (F := Ideal) .add [1] ⟨1, ![n]⟩ t 0x00000000#32 hred hφ hacc) hsc)
        (broadcast ⟨2, ![n, 1]⟩ (Scalar.ofBits (F := Ideal) .f32 cw)) (ix2 i u)
      = mean (Ideal.ofBits .f32 cw) (m2 t i) := by
  rw [divf_apply, broadcast_apply, shapeCast_a_a1_apply]
  exact congrArg (fun x => Ideal.div x (Ideal.ofBits .f32 cw)) (rowSum_apply t hred hφ hacc i)

/-- Row `i` of the squared differences from a column `M` broadcast along the rows. -/
theorem sq_row {n J : ℕ} (hbc : (⟨2, ![n, 1]⟩ : Shape).Broadcasts ⟨2, ![n, J]⟩)
    (t : FVec Ideal ⟨2, ![n, J]⟩ .f32) (M : FVec Ideal ⟨2, ![n, 1]⟩ .f32) (i : Fin n) :
    m2 (mulf (subf t (broadcastTo ⟨2, ![n, J]⟩ M hbc)) (subf t (broadcastTo ⟨2, ![n, J]⟩ M hbc))) i
      = fun k => (t (ix2 i k) - M (ix2 i 0)) * (t (ix2 i k) - M (ix2 i 0)) := by
  funext k
  show mulf _ _ (ix2 i k) = _
  rw [mulf_apply, subf_apply, broadcastTo_a1_ab_apply]

/-- THE LAYER NORM AT AN INDEX: the block operations' result at `(i, j)` is the layer norm of row `i` at `j`. -/
theorem lnK_apply {n J : ℕ} (cw : BitVec 32)
    (hred : (⟨2, ![n, J]⟩ : Shape).Reduces [1] ⟨1, ![n]⟩)
    (hsc : (⟨1, ![n]⟩ : Shape).ShapeCasts ⟨2, ![n, 1]⟩)
    (hbc : (⟨2, ![n, 1]⟩ : Shape).Broadcasts ⟨2, ![n, J]⟩)
    (hrc : (⟨2, ![1, J]⟩ : Shape).ShapeCasts ⟨2, ![1, J]⟩)
    (hrb : (⟨2, ![1, J]⟩ : Shape).Broadcasts ⟨2, ![n, J]⟩)
    (hφ : FKind.Formats .f32) (hacc : (0x00000000#32 : BitVec 32) = FKind.add.neutral .f32 hφ)
    (t : FVec Ideal ⟨2, ![n, J]⟩ .f32) (g b : Vec Ideal ⟨2, ![1, J]⟩ .f32) (i : Fin n) (j : Fin J) :
    lnK cw hred hsc hbc hrc hrb hφ hacc t g b (ix2 i j)
      = lnorm (Ideal.ofBits .f32 cw) (r1 g) (r1 b) (m2 t i) j := by
  unfold lnK
  simp only [addf_apply, mulf_apply, subf_apply, rsqrt_apply]
  rw [shapeCast_self, shapeCast_self, broadcastTo_1b_ab_apply, broadcastTo_1b_ab_apply]
  simp only [broadcastTo_a1_ab_apply, rsqrt_apply, addf_apply, broadcast_apply]
  rw [colMean_apply, colMean_apply, sq_row, colMean_apply]
  rfl

/-! ## The three products of the tower at an entry -/

/-- The first layer's product into zeros, at `(r, c)`. -/
theorem matmul1_apply (a : FVec Ideal S256x512 .bf16) (b : FVec Ideal S512x800 .bf16) (r : Fin 256) (c : Fin 800) :
    matmul dot_S256x512_S512x800_S256x800_1_0_0_1_n_n none a b (constant (F := Ideal) S256x800 .f32 0x00000000#32) (ix2 r c)
      = ∑ k : Fin 512, a (ix2 r k) * b (ix2 k c) :=
  Cert.PlainMatmul.matmul_plain_zero_apply a b none r c

/-- The second layer's product into zeros, at `(r, c)`. -/
theorem matmul2_apply (a : FVec Ideal S256x800 .bf16) (b : FVec Ideal S800x1000 .bf16) (r : Fin 256) (c : Fin 1000) :
    matmul dot_S256x800_S800x1000_S256x1000_1_0_0_1_n_n none a b (constant (F := Ideal) S256x1000 .f32 0x00000000#32) (ix2 r c)
      = ∑ k : Fin 800, a (ix2 r k) * b (ix2 k c) :=
  Cert.PlainMatmul.matmul_plain_zero_apply a b none r c

/-- The third layer's product into zeros, at `(r, c)`. -/
theorem matmul3_apply (a : FVec Ideal S256x1000 .bf16) (b : FVec Ideal S1000x800 .bf16) (r : Fin 256) (c : Fin 800) :
    matmul dot_S256x1000_S1000x800_S256x800_1_0_0_1_n_n none a b (constant (F := Ideal) S256x800 .f32 0x00000000#32) (ix2 r c)
      = ∑ k : Fin 1000, a (ix2 r k) * b (ix2 k c) :=
  Cert.PlainMatmul.matmul_plain_zero_apply a b none r c

/-! ## The payloads at an index -/

/-- The last payload is the layer norm of its block's rows. -/
theorem pay1_at (v80 : FVec Ideal S256x800 .f32) (v99 v103 : Vec Ideal S1x800 .f32) (i : Fin 256) (j : Fin 800) :
    k2_pay1 (F := Ideal) v80 v99 v103 (ix2 i j) = lnorm c800 (r1 v99) (r1 v103) (m2 v80 i) j :=
  lnK_apply 0x44480000#32 Gen.reduces_S256x800_S256 Gen.shapeCasts_S256_S256x1 Gen.broadcasts_S256x1_S256x800
    Gen.shapeCasts_S1x800_S1x800 Gen.broadcasts_S1x800_S256x800 (.inl rfl) rfl v80 v99 v103 i j

/-- A layer norm block's positive part, narrowed, at an index. -/
theorem reluLn_apply {n J : ℕ} (cw : BitVec 32)
    (hred : (⟨2, ![n, J]⟩ : Shape).Reduces [1] ⟨1, ![n]⟩)
    (hsc : (⟨1, ![n]⟩ : Shape).ShapeCasts ⟨2, ![n, 1]⟩)
    (hbc : (⟨2, ![n, 1]⟩ : Shape).Broadcasts ⟨2, ![n, J]⟩)
    (hrc : (⟨2, ![1, J]⟩ : Shape).ShapeCasts ⟨2, ![1, J]⟩)
    (hrb : (⟨2, ![1, J]⟩ : Shape).Broadcasts ⟨2, ![n, J]⟩)
    (hφ : FKind.Formats .f32) (hacc : (0x00000000#32 : BitVec 32) = FKind.add.neutral .f32 hφ)
    (hlt : FTy.bits .bf16 < FTy.bits .f32)
    (t : FVec Ideal ⟨2, ![n, J]⟩ .f32) (g b : FVec Ideal ⟨2, ![1, J]⟩ .f32) (i : Fin n) (j : Fin J) :
    (truncf .bf16 (maximumf (lnK cw hred hsc hbc hrc hrb hφ hacc t g b)
        (broadcast ⟨2, ![n, J]⟩ (Scalar.ofBits (F := Ideal) .f32 0x00000000#32))) hlt : FVec Ideal ⟨2, ![n, J]⟩ .bf16) (ix2 i j)
      = relu (lnorm (Ideal.ofBits .f32 cw) (r1 g) (r1 b) (m2 t i) j) := by
  rw [truncf_apply, maximumf_apply, lnK_apply, broadcast_apply]
  show max _ (Ideal.ofBits .f32 0x00000000#32) = max _ 0
  rw [Ideal.ofBits_zero_f32]

/-- Row `i` of the first linear layer's block. -/
theorem lin1_row (x0 : FVec Ideal S256x512 .f32) (x1 : FVec Ideal S512x800 .bf16) (x2 : FVec Ideal S1x800 .f32) (i : Fin 256) :
    m2 (addf (matmul dot_S256x512_S512x800_S256x800_1_0_0_1_n_n none (truncf .bf16 x0 Gen.bitsLt_bf16_f32)
              (shapeCast S512x800 x1 Gen.shapeCasts_S512x800_S512x800) (constant (F := Ideal) S256x800 .f32 0x00000000#32))
            (broadcastTo S256x800 (shapeCast S1x800 x2 Gen.shapeCasts_S1x800_S1x800) Gen.broadcasts_S1x800_S256x800)) i
      = lin (m2 x0) (m2 x1) (r1 x2) i := by
  funext j
  show addf _ _ (ix2 i j) = _
  rw [addf_apply, matmul1_apply, shapeCast_self, shapeCast_self, broadcastTo_1b_ab_apply]
  rfl

/-- Row `i` of the second linear layer's block. -/
theorem lin2_row (v37 : FVec Ideal S256x800 .bf16) (v39 : FVec Ideal S800x1000 .bf16) (x6 : FVec Ideal S1x1000 .f32) (i : Fin 256) :
    m2 (addf (matmul dot_S256x800_S800x1000_S256x1000_1_0_0_1_n_n none v37 v39 (constant (F := Ideal) S256x1000 .f32 0x00000000#32))
            (broadcastTo S256x1000 (shapeCast S1x1000 x6 Gen.shapeCasts_S1x1000_S1x1000) Gen.broadcasts_S1x1000_S256x1000)) i
      = lin (m2 v37) (m2 v39) (r1 x6) i := by
  funext j
  show addf _ _ (ix2 i j) = _
  rw [addf_apply, matmul2_apply, shapeCast_self, broadcastTo_1b_ab_apply]
  rfl

/-- The first layer's payload: the positive part of the layer norm of the first linear layer. -/
theorem pay2_at (x0 : FVec Ideal S256x512 .f32) (x1 : FVec Ideal S512x800 .bf16) (x2 x3 x4 : FVec Ideal S1x800 .f32)
    (i : Fin 256) (j : Fin 800) :
    k2_pay2 (F := Ideal) x0 x1 x2 x3 x4 (ix2 i j)
      = relu (lnorm c800 (r1 x3) (r1 x4) (lin (m2 x0) (m2 x1) (r1 x2) i) j) := by
  refine (reluLn_apply 0x44480000#32 Gen.reduces_S256x800_S256 Gen.shapeCasts_S256_S256x1 Gen.broadcasts_S256x1_S256x800
    Gen.shapeCasts_S1x800_S1x800 Gen.broadcasts_S1x800_S256x800 (.inl rfl) rfl Gen.bitsLt_bf16_f32
    (addf (matmul dot_S256x512_S512x800_S256x800_1_0_0_1_n_n none (truncf .bf16 x0 Gen.bitsLt_bf16_f32)
              (shapeCast S512x800 x1 Gen.shapeCasts_S512x800_S512x800) (constant (F := Ideal) S256x800 .f32 0x00000000#32))
            (broadcastTo S256x800 (shapeCast S1x800 x2 Gen.shapeCasts_S1x800_S1x800) Gen.broadcasts_S1x800_S256x800))
    x3 x4 i j).trans ?_
  rw [lin1_row]

/-- The second payload: the third linear layer of the positive part of the layer norm of the second linear layer. -/
theorem pay4_at (v37 : FVec Ideal S256x800 .bf16) (v39 : FVec Ideal S800x1000 .bf16) (x6 x7 x8 : FVec Ideal S1x1000 .f32)
    (x9 : FVec Ideal S1000x800 .bf16) (x10 : FVec Ideal S1x800 .f32) (i : Fin 256) (j : Fin 800) :
    k2_pay4 (F := Ideal) v37 v39 x6 x7 x8 x9 x10 (ix2 i j)
      = lin (fun i j => relu (lnorm c1000 (r1 x7) (r1 x8) (lin (m2 v37) (m2 v39) (r1 x6) i) j)) (m2 x9) (r1 x10) i j := by
  show addf (matmul dot_S256x1000_S1000x800_S256x800_1_0_0_1_n_n none
      (truncf .bf16 (maximumf (lnK 0x447A0000#32 Gen.reduces_S256x1000_S256 Gen.shapeCasts_S256_S256x1 Gen.broadcasts_S256x1_S256x1000
          Gen.shapeCasts_S1x1000_S1x1000 Gen.broadcasts_S1x1000_S256x1000 (.inl rfl) rfl
          (addf (matmul dot_S256x800_S800x1000_S256x1000_1_0_0_1_n_n none v37 v39 (constant (F := Ideal) S256x1000 .f32 0x00000000#32))
            (broadcastTo S256x1000 (shapeCast S1x1000 x6 Gen.shapeCasts_S1x1000_S1x1000) Gen.broadcasts_S1x1000_S256x1000))
          x7 x8) (broadcast S256x1000 (Scalar.ofBits (F := Ideal) .f32 0x00000000#32))) Gen.bitsLt_bf16_f32)
      (shapeCast S1000x800 x9 Gen.shapeCasts_S1000x800_S1000x800) (constant (F := Ideal) S256x800 .f32 0x00000000#32))
    (broadcastTo S256x800 (shapeCast S1x800 x10 Gen.shapeCasts_S1x800_S1x800) Gen.broadcasts_S1x800_S256x800) (ix2 i j) = _
  rw [addf_apply, matmul3_apply, shapeCast_self x9, shapeCast_self x10, broadcastTo_1b_ab_apply]
  show _ + _ = (∑ k, _ * _) + _
  congr 1
  refine Finset.sum_congr rfl fun k _ => ?_
  congr 1
  refine (reluLn_apply 0x447A0000#32 Gen.reduces_S256x1000_S256 Gen.shapeCasts_S256_S256x1 Gen.broadcasts_S256x1_S256x1000
    Gen.shapeCasts_S1x1000_S1x1000 Gen.broadcasts_S1x1000_S256x1000 (.inl rfl) rfl Gen.bitsLt_bf16_f32
    (addf (matmul dot_S256x800_S800x1000_S256x1000_1_0_0_1_n_n none v37 v39 (constant (F := Ideal) S256x1000 .f32 0x00000000#32))
      (broadcastTo S256x1000 (shapeCast S1x1000 x6 Gen.shapeCasts_S1x1000_S1x1000) Gen.broadcasts_S1x1000_S256x1000))
    x7 x8 i k).trans ?_
  rw [lin2_row]

/-! ## The image tower -/

/-- THE IMAGE TOWER'S PAYLOADS AT AN INDEX. -/
theorem pay2_apply (x0 : Vec Ideal S256x512 .f32) (x1 : Vec Ideal S512x800 .bf16) (x2 x3 x4 : Vec Ideal S1x800 .f32) (x5 : Vec Ideal S800x1000 .bf16) (x6 x7 x8 : Vec Ideal S1x1000 .f32) (x9 : Vec Ideal S1000x800 .bf16) (x10 x11 x12 : Vec Ideal S1x800 .f32) (i : Fin 256) (j : Fin 800) :
      k2_pay1 (F := Ideal) (k2_pay4 (k2_pay2 x0 x1 x2 x3 x4) (k2_pay3 x5) x6 x7 x8 x9 x10) x11 x12 (ix2 i j)
        = imgTower (m2 x0) (m2 x1) (r1 x2) (r1 x3) (r1 x4) (m2 x5) (r1 x6) (r1 x7) (r1 x8) (m2 x9) (r1 x10) (r1 x11) (r1 x12) i j := by
  rw [pay1_at]
  have h3 : k2_pay3 (F := Ideal) x5 = x5 := shapeCast_self x5 _
  have h2 : m2 (k2_pay2 (F := Ideal) x0 x1 x2 x3 x4)
      = fun i j => relu (lnorm c800 (r1 x3) (r1 x4) (lin (m2 x0) (m2 x1) (r1 x2) i) j) := by
    funext a c; exact pay2_at x0 x1 x2 x3 x4 a c
  have h4 : m2 (k2_pay4 (F := Ideal) (k2_pay2 x0 x1 x2 x3 x4) (k2_pay3 x5) x6 x7 x8 x9 x10) i
      = lin (fun i j => relu (lnorm c1000 (r1 x7) (r1 x8)
          (lin (fun i j => relu (lnorm c800 (r1 x3) (r1 x4) (lin (m2 x0) (m2 x1) (r1 x2) i) j)) (m2 x5) (r1 x6) i) j))
          (m2 x9) (r1 x10) i := by
    funext c
    refine (pay4_at _ _ x6 x7 x8 x9 x10 i c).trans ?_
    rw [h3, h2]
  rw [h4]
  rfl

end Cert.KernelIdeal.PayImage

end
-- ==== Proof.PayPair.lean ====
/-
  The pair-scoring stage at an entry.  For one block of 128 object rows, the stored `[8, 128, 256]` block at pair
  `(a, r)` and image `b` is the inner product, over the 800 embedding positions, of the pair's embedding with the
  image's: the attribute row through the upper half of the first weight matrix plus the object row through the lower
  half plus the bias, a layer norm over the 1000 positions, the positive part, the second weight matrix and its bias,
  a layer norm over the 800 positions.  The arrays are read as functions of their coordinates; row `a * 128 + r` of
  the `[1024, …]` arrays is pair `(a, r)`.
-/
import proofs.«135290_j1108101562624_1_alg».proof.Proof.Gen.KernelIdeal.Skeleton
import proofs.«135290_j1108101562624_1_alg».proof.Proof.Spec
import proofs.«135290_j1108101562624_1_alg».proof.Proof.LibPlainMatmul
import Idealize.ShloMosaic.Lib.ValueLayout

set_option synthInstance.maxSize 4096

noncomputable section

namespace Cert.KernelIdeal.PayPair

open Cert.KernelIdeal Cert.KernelIdeal.Gen Cert.GaeSpec Idealize.ShloMosaic Idealize.ShloMosaic.ValueIdx Idealize.SL.Sem

/-! ## Layout operations at explicit coordinates -/

section Layout
variable {α : Type}

/-- An `[a, c]` array cast to `[a, 1, c]` reads, at `(i, u, k)`, the operand at `(i, k)`. -/
theorem shapeCast_ac_a1c_apply {a c : ℕ} (x : (⟨2, ![a, c]⟩ : Shape).Idx → α)
    (h : (⟨2, ![a, c]⟩ : Shape).ShapeCasts ⟨3, ![a, 1, c]⟩) (i : Fin a) (u : Fin 1) (k : Fin c) :
    shapeCast ⟨3, ![a, 1, c]⟩ x h (ix3 i u k) = x (ix2 i k) :=
  shapeCast_apply x h _ _ (by
    have hu : u.val = 0 := by omega
    rw [Shape.rowMajor_val_three, Shape.rowMajor_val_two]
    show i.val * c + k.val = (i.val * 1 + u.val) * c + k.val
    rw [hu, Nat.mul_one, Nat.add_zero])

/-- An `[a, b]` array cast to `[a, b, 1]` reads, at `(i, j, u)`, the operand at `(i, j)`. -/
theorem shapeCast_ab_ab1_apply {a b : ℕ} (x : (⟨2, ![a, b]⟩ : Shape).Idx → α)
    (h : (⟨2, ![a, b]⟩ : Shape).ShapeCasts ⟨3, ![a, b, 1]⟩) (i : Fin a) (j : Fin b) (u : Fin 1) :
    shapeCast ⟨3, ![a, b, 1]⟩ x h (ix3 i j u) = x (ix2 i j) :=
  shapeCast_apply x h _ _ (by
    have hu : u.val = 0 := by omega
    rw [Shape.rowMajor_val_three, Shape.rowMajor_val_two]
    show i.val * b + j.val = (i.val * b + j.val) * 1 + u.val
    rw [hu, Nat.mul_one, Nat.add_zero])

/-- An `[n]` array cast to `[n, 1]` reads, at `(p, u)`, the operand at `p`. -/
theorem shapeCast_n_n1_apply {n : ℕ} (x : (⟨1, ![n]⟩ : Shape).Idx → α)
    (h : (⟨1, ![n]⟩ : Shape).ShapeCasts ⟨2, ![n, 1]⟩) (p : Fin n) (u : Fin 1) :
    shapeCast ⟨2, ![n, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

/-- An `[a, b, c]` array cast to `[n, c]` reads, at row `p = i * b + j` and column `k`, the operand at `(i, j, k)`. -/
theorem shapeCast_abc_nc_apply {a b c n : ℕ} (x : (⟨3, ![a, b, c]⟩ : Shape).Idx → α)
    (h : (⟨3, ![a, b, c]⟩ : Shape).ShapeCasts ⟨2, ![n, c]⟩) (i : Fin a) (j : Fin b) (k : Fin c) (p : Fin n)
    (hp : p.val = i.val * b + j.val) :
    shapeCast ⟨2, ![n, c]⟩ x h (ix2 p k) = x (ix3 i j k) :=
  shapeCast_apply x h _ _ (by
    rw [Shape.rowMajor_val_three, Shape.rowMajor_val_two]
    show (i.val * b + j.val) * c + k.val = p.val * c + k.val
    rw [hp])

/-- An `[n, c]` array cast to `[a, b, c]` reads, at `(i, j, k)`, the operand at row `p = i * b + j` and column `k`. -/
theorem shapeCast_nc_abc_apply {a b c n : ℕ} (x : (⟨2, ![n, c]⟩ : Shape).Idx → α)
    (h : (⟨2, ![n, c]⟩ : Shape).ShapeCasts ⟨3, ![a, b, c]⟩) (i : Fin a) (j : Fin b) (k : Fin c) (p : Fin n)
    (hp : p.val = i.val * b + j.val) :
    shapeCast ⟨3, ![a, b, c]⟩ x h (ix3 i j k) = x (ix2 p k) :=
  shapeCast_apply x h _ _ (by
    rw [Shape.rowMajor_val_three, Shape.rowMajor_val_two]
    show p.val * c + k.val = (i.val * b + j.val) * c + k.val
    rw [hp])

/-- An `[8, 1, 1000]` array broadcast over the middle axis. -/
theorem broadcastTo_8x1x1000_apply (x : S8x1x1000.Idx → α) (h : S8x1x1000.Broadcasts S8x128x1000)
    (a : Fin 8) (r : Fin 128) (k : Fin 1000) :
    broadcastTo S8x128x1000 x h (ix3 a r k) = x (ix3 a (0 : Fin 1) k) :=
  broadcastTo_apply x h _ _ fun ax => match ax with | ⟨0, _⟩ => rfl | ⟨1, _⟩ => rfl | ⟨2, _⟩ => rfl

/-- A `[1, 128, 1000]` array broadcast over the leading axis. -/
theorem broadcastTo_1x128x1000_apply (x : S1x128x1000.Idx → α) (h : S1x128x1000.Broadcasts S8x128x1000)
    (a : Fin 8) (r : Fin 128) (k : Fin 1000) :
    broadcastTo S8x128x1000 x h (ix3 a r k) = x (ix3 (0 : Fin 1) r k) :=
  broadcastTo_apply x h _ _ fun ax => match ax with | ⟨0, _⟩ => rfl | ⟨1, _⟩ => rfl | ⟨2, _⟩ => rfl

/-- A `[1, 1, 1000]` array broadcast over the two leading axes. -/
theorem broadcastTo_1x1x1000_apply (x : S1x1x1000.Idx → α) (h : S1x1x1000.Broadcasts S8x128x1000)
    (a : Fin 8) (r : Fin 128) (k : Fin 1000) :
    broadcastTo S8x128x1000 x h (ix3 a r k) = x (ix3 (0 : Fin 1) (0 : Fin 1) k) :=
  broadcastTo_apply x h _ _ fun ax => match ax with | ⟨0, _⟩ => rfl | ⟨1, _⟩ => rfl | ⟨2, _⟩ => rfl

/-- An `[8, 128, 1]` array broadcast over the last axis. -/
theorem broadcastTo_8x128x1_apply (x : S8x128x1.Idx → α) (h : S8x128x1.Broadcasts S8x128x1000)
    (a : Fin 8) (r : Fin 128) (k : Fin 1000) :
    broadcastTo S8x128x1000 x h (ix3 a r k) = x (ix3 a r (0 : Fin 1)) :=
  broadcastTo_apply x h _ _ fun ax => match ax with | ⟨0, _⟩ => rfl | ⟨1, _⟩ => rfl | ⟨2, _⟩ => rfl

/-- A `[1024, 1]` array broadcast over the last axis. -/
theorem broadcastTo_1024x1_apply (x : S1024x1.Idx → α) (h : S1024x1.Broadcasts S1024x800)
    (p : Fin 1024) (e : Fin 800) :
    broadcastTo S1024x800 x h (ix2 p e) = x (ix2 p (0 : Fin 1)) :=
  broadcastTo_apply x h _ _ fun ax => match ax with | ⟨0, _⟩ => rfl | ⟨1, _⟩ => rfl

/-- The source index of a sum over the last axis of an `[8, 128, 1000]` array. -/
theorem lift_8x128x1000 (h : S8x128x1000.Reduces [2] S8x128) (a : Fin 8) (r : Fin 128) (k : Fin 1000) :
    h.lift (ix2 a r) k = ix3 a r k := by
  funext c
  apply Fin.ext
  match c with
  | ⟨0, _⟩ => rfl
  | ⟨1, _⟩ => rfl
  | ⟨2, _⟩ => rfl

/-- The source index of a sum over the last axis of a `[1024, 800]` array. -/
theorem lift_1024x800 (h : S1024x800.Reduces [1] S1024) (p : Fin 1024) (k : Fin 800) :
    h.lift (ix1 p) k = ix2 p k := by
  funext c
  apply Fin.ext
  match c with
  | ⟨0, _⟩ => rfl
  | ⟨1, _⟩ => rfl

end Layout
/-! ## The products and the sums read at an entry -/

section Products

/-- The attribute product at `(a, k)`. -/
theorem mm8_apply (x : FVec Ideal S8x512 .bf16) (w : FVec Ideal S512x1000 .bf16) (a : Fin 8) (k : Fin 1000) :
    matmul dot_S8x512_S512x1000_S8x1000_1_0_0_1_n_n none x w (constant S8x1000 .f32 0x00000000#32) (ix2 a k)
      = ∑ q : Fin 512, x (ix2 a q) * w (ix2 q k) :=
  Cert.PlainMatmul.matmul_plain_zero_apply x w none a k

/-- The object product at `(r, k)`. -/
theorem mm128_apply (x : FVec Ideal S128x512 .bf16) (w : FVec Ideal S512x1000 .bf16) (r : Fin 128) (k : Fin 1000) :
    matmul dot_S128x512_S512x1000_S128x1000_1_0_0_1_n_n none x w (constant S128x1000 .f32 0x00000000#32) (ix2 r k)
      = ∑ q : Fin 512, x (ix2 r q) * w (ix2 q k) :=
  Cert.PlainMatmul.matmul_plain_zero_apply x w none r k

/-- The second layer's product at `(p, e)`. -/
theorem mm1024_apply (x : FVec Ideal S1024x1000 .bf16) (w : FVec Ideal S1000x800 .bf16) (p : Fin 1024) (e : Fin 800) :
    matmul dot_S1024x1000_S1000x800_S1024x800_1_0_0_1_n_n none x w (constant S1024x800 .f32 0x00000000#32) (ix2 p e)
      = ∑ j : Fin 1000, x (ix2 p j) * w (ix2 j e) :=
  Cert.PlainMatmul.matmul_plain_zero_apply x w none p e

/-- The dimension numbers of the last product: both operands contracted on their second axis. -/
abbrev Dsc := dot_S1024x800_S256x800_S1024x256_1_1_0_0_n_n

theorem Dsc_lhsContracting : Dsc.lhsContracting = [(1 : Fin 2)] := rfl
theorem Dsc_rhsContracting : Dsc.rhsContracting = [(1 : Fin 2)] := rfl
theorem Dsc_contr_rank : Dsc.contr.rank = 1 := rfl
theorem Dsc_contr_size : Dsc.contr.size ⟨0, by rw [Dsc_contr_rank]; exact Nat.one_pos⟩ = 800 := rfl

/-- The left operand's index of the last product at output `(p, b)` and contraction coordinate `e` is `(p, e)`. -/
theorem lhsIdx_Dsc (p : Fin 1024) (b : Fin 256) (e : Fin 800) :
    Dsc.lhsIdx (ix2 p b) ((contrEquiv1 Dsc 800 Dsc_contr_rank Dsc_contr_size).symm e) = ix2 p e := by
  have he := contrEquiv1_symm_val Dsc 800 Dsc_contr_rank Dsc_contr_size e
  funext c
  apply Fin.ext
  match c with
  | ⟨0, _⟩ => rfl
  | ⟨1, _⟩ => exact (Dsc.lhsIdx_val_of_single Dsc_lhsContracting (ix2 p b) _).trans he

/-- The right operand's index there is `(b, e)`. -/
theorem rhsIdx_Dsc (p : Fin 1024) (b : Fin 256) (e : Fin 800) :
    Dsc.rhsIdx (ix2 p b) ((contrEquiv1 Dsc 800 Dsc_contr_rank Dsc_contr_size).symm e) = ix2 b e := by
  have he := contrEquiv1_symm_val Dsc 800 Dsc_contr_rank Dsc_contr_size e
  funext c
  apply Fin.ext
  match c with
  | ⟨0, _⟩ => rfl
  | ⟨1, _⟩ => exact (Dsc.rhsIdx_val_of_single Dsc_rhsContracting (ix2 p b) _).trans he

/-- The last product at `(p, b)`: row `p` of the left operand against row `b` of the right. -/
theorem mmsc_apply (x : FVec Ideal S1024x800 .bf16) (w : FVec Ideal S256x800 .bf16) (p : Fin 1024) (b : Fin 256) :
    matmul dot_S1024x800_S256x800_S1024x256_1_1_0_0_n_n none x w (constant S1024x256 .f32 0x00000000#32) (ix2 p b)
      = ∑ e : Fin 800, x (ix2 p e) * w (ix2 b e) := by
  show FloatOps.matmul Dsc none x w (constant S1024x256 .f32 0x00000000#32) (ix2 p b) = _
  rw [Ideal.matmul_constant_zero_apply, ← Equiv.sum_comp (contrEquiv1 Dsc 800 Dsc_contr_rank Dsc_contr_size).symm]
  refine Finset.sum_congr rfl fun e _ => ?_
  rw [lhsIdx_Dsc, rhsIdx_Dsc]

/-- A sum over the last axis of an `[8, 128, 1000]` array at `(a, r)`. -/
theorem rowsum3_apply (src : FVec Ideal S8x128x1000 .f32) (h : S8x128x1000.Reduces [2] S8x128) (hφ : FKind.Formats .f32)
    (hacc : (0x00000000#32 : BitVec FTy.f32.bits) = FKind.add.neutral .f32 hφ) (a : Fin 8) (r : Fin 128) :
    multiReduction .add [2] S8x128 src 0x00000000#32 h hφ hacc (ix2 a r) = ∑ k : Fin 1000, src (ix3 a r k) := by
  rw [Ideal.multiReduction_add_single]
  show ∑ k : Fin 1000, src (h.lift (ix2 a r) k) = _
  exact Finset.sum_congr rfl fun k _ => by rw [lift_8x128x1000]

/-- A sum over the last axis of a `[1024, 800]` array at `p`. -/
theorem rowsum2_apply (src : FVec Ideal S1024x800 .f32) (h : S1024x800.Reduces [1] S1024) (hφ : FKind.Formats .f32)
    (hacc : (0x00000000#32 : BitVec FTy.f32.bits) = FKind.add.neutral .f32 hφ) (p : Fin 1024) :
    multiReduction .add [1] S1024 src 0x00000000#32 h hφ hacc (ix1 p) = ∑ k : Fin 800, src (ix2 p k) := by
  rw [Ideal.multiReduction_add_single]
  show ∑ k : Fin 800, src (h.lift (ix1 p) k) = _
  exact Finset.sum_congr rfl fun k _ => by rw [lift_1024x800]

end Products
/-! ## The payloads cut into stages -/

/-- The row index `a * 128 + r` of pair `(a, r)` in the `[1024, …]` arrays. -/
def row (a : Fin 8) (r : Fin 128) : Fin 1024 := ⟨a.val * 128 + r.val, by omega⟩

/-- Stage one: the attribute rows' product and the object rows' product, broadcast against each other and summed, plus the bias. -/
def pre (v5 : FVec Ideal S512x1000 .bf16) (v6 : FVec Ideal S8x1000 .f32) (v12 : FVec Ideal S1x1000 .f32)
    (v29 : Vec Ideal S128x512 .bf16) : FVec Ideal S8x128x1000 .f32 :=
  have v30 : FVec Ideal S128x512 .bf16 := shapeCast S128x512 v29 shapeCasts_S128x512_S128x512
  have cst_23 : FVec Ideal S128x1000 .f32 := constant S128x1000 .f32 0x00000000#32
  have v31 : FVec Ideal S128x1000 .f32 := matmul dot_S128x512_S512x1000_S128x1000_1_0_0_1_n_n none v30 v5 cst_23
  have v32 : FVec Ideal S8x1x1000 .f32 := shapeCast S8x1x1000 v6 shapeCasts_S8x1000_S8x1x1000
  have v33 : FVec Ideal S1x128x1000 .f32 := shapeCast S1x128x1000 v31 shapeCasts_S128x1000_S1x128x1000
  have v34 : FVec Ideal S8x128x1000 .f32 := broadcastTo S8x128x1000 v32 broadcasts_S8x1x1000_S8x128x1000
  have v35 : FVec Ideal S8x128x1000 .f32 := broadcastTo S8x128x1000 v33 broadcasts_S1x128x1000_S8x128x1000
  have v36 : FVec Ideal S8x128x1000 .f32 := addf v34 v35
  have v37 : FVec Ideal S1x1x1000 .f32 := shapeCast S1x1x1000 v12 shapeCasts_S1x1000_S1x1x1000
  have v38 : FVec Ideal S8x128x1000 .f32 := broadcastTo S8x128x1000 v37 broadcasts_S1x1x1000_S8x128x1000
  have v39 : FVec Ideal S8x128x1000 .f32 := addf v36 v38
  v39

/-- Stage two: the layer norm of each row along the last axis, gain `v14`, shift `v16`, then the positive part.
    (`hφ`, `hacc`: the two side facts of a sum, that the format is a float's and that the sum starts from zero.) -/
def ln3 (hφ : FKind.Formats .f32) (hacc : (0x00000000#32 : BitVec FTy.f32.bits) = FKind.add.neutral .f32 hφ)
    (v39 : FVec Ideal S8x128x1000 .f32) (v14 v16 : FVec Ideal S1x1000 .f32) : FVec Ideal S8x128x1000 .f32 :=
  have v40 : FVec Ideal S8x128 .f32 := multiReduction .add [2] S8x128 v39 0x00000000#32 reduces_S8x128x1000_S8x128 hφ hacc
  have v41 : FVec Ideal S8x128x1 .f32 := shapeCast S8x128x1 v40 shapeCasts_S8x128_S8x128x1
  have cst_25 : Ideal .f32 := Scalar.ofBits .f32 0x447A0000#32
  have v42 : FVec Ideal S8x128x1 .f32 := broadcast S8x128x1 cst_25
  have v43 : FVec Ideal S8x128x1 .f32 := divf v41 v42
  have v44 : FVec Ideal S8x128x1000 .f32 := broadcastTo S8x128x1000 v43 broadcasts_S8x128x1_S8x128x1000
  have v45 : FVec Ideal S8x128x1000 .f32 := subf v39 v44
  have v46 : FVec Ideal S8x128x1000 .f32 := mulf v45 v45
  have v47 : FVec Ideal S8x128 .f32 := multiReduction .add [2] S8x128 v46 0x00000000#32 reduces_S8x128x1000_S8x128 hφ hacc
  have v48 : FVec Ideal S8x128x1 .f32 := shapeCast S8x128x1 v47 shapeCasts_S8x128_S8x128x1
  have cst_27 : Ideal .f32 := Scalar.ofBits .f32 0x447A0000#32
  have v49 : FVec Ideal S8x128x1 .f32 := broadcast S8x128x1 cst_27
  have v50 : FVec Ideal S8x128x1 .f32 := divf v48 v49
  have v51 : FVec Ideal S8x128x1000 .f32 := broadcastTo S8x128x1000 v43 broadcasts_S8x128x1_S8x128x1000
  have v52 : FVec Ideal S8x128x1000 .f32 := subf v39 v51
  have cst_28 : Ideal .f32 := Scalar.ofBits .f32 0x3727C5AC#32
  have v53 : FVec Ideal S8x128x1 .f32 := broadcast S8x128x1 cst_28
  have v54 : FVec Ideal S8x128x1 .f32 := addf v50 v53
  have v55 : FVec Ideal S8x128x1 .f32 := rsqrt v54
  have v56 : FVec Ideal S8x128x1000 .f32 := broadcastTo S8x128x1000 v55 broadcasts_S8x128x1_S8x128x1000
  have v57 : FVec Ideal S8x128x1000 .f32 := mulf v52 v56
  have v58 : FVec Ideal S1x1x1000 .f32 := shapeCast S1x1x1000 v14 shapeCasts_S1x1000_S1x1x1000
  have v59 : FVec Ideal S8x128x1000 .f32 := broadcastTo S8x128x1000 v58 broadcasts_S1x1x1000_S8x128x1000
  have v60 : FVec Ideal S8x128x1000 .f32 := mulf v57 v59
  have v61 : FVec Ideal S1x1x1000 .f32 := shapeCast S1x1x1000 v16 shapeCasts_S1x1000_S1x1x1000
  have v62 : FVec Ideal S8x128x1000 .f32 := broadcastTo S8x128x1000 v61 broadcasts_S1x1x1000_S8x128x1000
  have v63 : FVec Ideal S8x128x1000 .f32 := addf v60 v62
  have cst_29 : Ideal .f32 := Scalar.ofBits .f32 0x00000000#32
  have v64 : FVec Ideal S8x128x1000 .f32 := broadcast S8x128x1000 cst_29
  have v65 : FVec Ideal S8x128x1000 .f32 := maximumf v63 v64
  v65

/-- Stage three: the pairs laid out as `1024` rows, through the second weight matrix, plus its bias. -/
def tail (v65 : FVec Ideal S8x128x1000 .f32) (v10 : FVec Ideal S1000x800 .bf16) (v18 : FVec Ideal S1x800 .f32) :
    FVec Ideal S1024x800 .f32 :=
  have v66 : FVec Ideal S1024x1000 .f32 := shapeCast S1024x1000 v65 shapeCasts_S8x128x1000_S1024x1000
  have v67 : FVec Ideal S1024x1000 .bf16 := truncf .bf16 v66 bitsLt_bf16_f32
  have cst_30 : FVec Ideal S1024x800 .f32 := constant S1024x800 .f32 0x00000000#32
  have v68 : FVec Ideal S1024x800 .f32 := matmul dot_S1024x1000_S1000x800_S1024x800_1_0_0_1_n_n none v67 v10 cst_30
  have v69 : FVec Ideal S1024x800 .f32 := broadcastTo S1024x800 v18 broadcasts_S1x800_S1024x800
  have v70 : FVec Ideal S1024x800 .f32 := addf v68 v69
  v70

/-- Stage four: the layer norm of each of the `1024` rows, gain `v20`, shift `v22`. -/
def ln2 (hφ : FKind.Formats .f32) (hacc : (0x00000000#32 : BitVec FTy.f32.bits) = FKind.add.neutral .f32 hφ)
    (v70 : FVec Ideal S1024x800 .f32) (v20 v22 : FVec Ideal S1x800 .f32) : FVec Ideal S1024x800 .f32 :=
  have v71 : FVec Ideal S1024 .f32 := multiReduction .add [1] S1024 v70 0x00000000#32 reduces_S1024x800_S1024 hφ hacc
  have v72 : FVec Ideal S1024x1 .f32 := shapeCast S1024x1 v71 shapeCasts_S1024_S1024x1
  have cst_32 : Ideal .f32 := Scalar.ofBits .f32 0x44480000#32
  have v73 : FVec Ideal S1024x1 .f32 := broadcast S1024x1 cst_32
  have v74 : FVec Ideal S1024x1 .f32 := divf v72 v73
  have v75 : FVec Ideal S1024x800 .f32 := broadcastTo S1024x800 v74 broadcasts_S1024x1_S1024x800
  have v76 : FVec Ideal S1024x800 .f32 := subf v70 v75
  have v77 : FVec Ideal S1024x800 .f32 := mulf v76 v76
  have v78 : FVec Ideal S1024 .f32 := multiReduction .add [1] S1024 v77 0x00000000#32 reduces_S1024x800_S1024 hφ hacc
  have v79 : FVec Ideal S1024x1 .f32 := shapeCast S1024x1 v78 shapeCasts_S1024_S1024x1
  have cst_34 : Ideal .f32 := Scalar.ofBits .f32 0x44480000#32
  have v80 : FVec Ideal S1024x1 .f32 := broadcast S1024x1 cst_34
  have v81 : FVec Ideal S1024x1 .f32 := divf v79 v80
  have v82 : FVec Ideal S1024x800 .f32 := broadcastTo S1024x800 v74 broadcasts_S1024x1_S1024x800
  have v83 : FVec Ideal S1024x800 .f32 := subf v70 v82
  have cst_35 : Ideal .f32 := Scalar.ofBits .f32 0x3727C5AC#32
  have v84 : FVec Ideal S1024x1 .f32 := broadcast S1024x1 cst_35
  have v85 : FVec Ideal S1024x1 .f32 := addf v81 v84
  have v86 : FVec Ideal S1024x1 .f32 := rsqrt v85
  have v87 : FVec Ideal S1024x800 .f32 := broadcastTo S1024x800 v86 broadcasts_S1024x1_S1024x800
  have v88 : FVec Ideal S1024x800 .f32 := mulf v83 v87
  have v89 : FVec Ideal S1024x800 .f32 := broadcastTo S1024x800 v20 broadcasts_S1x800_S1024x800
  have v90 : FVec Ideal S1024x800 .f32 := mulf v88 v89
  have v91 : FVec Ideal S1024x800 .f32 := broadcastTo S1024x800 v22 broadcasts_S1x800_S1024x800
  have v92 : FVec Ideal S1024x800 .f32 := addf v90 v91
  v92

/-- The trip's carried value is the three stages composed. -/
theorem k3_pay10_eq (v5 : FVec Ideal S512x1000 .bf16) (v6 : FVec Ideal S8x1000 .f32) (v10 : FVec Ideal S1000x800 .bf16)
    (v12 v14 v16 : FVec Ideal S1x1000 .f32) (v18 : FVec Ideal S1x800 .f32) (v29 : Vec Ideal S128x512 .bf16) :
    k3_pay10 (F := Ideal) v5 v6 v10 v12 v14 v16 v18 v29 = tail (ln3 (.inl rfl) rfl (pre v5 v6 v12 v29) v14 v16) v10 v18 := rfl

/-- The stored block is the fourth stage against the image rows, laid out by pair. -/
theorem k3_pay9_eq (v7 : Vec Ideal S256x800 .bf16) (v19 v21 : Vec Ideal S1x800 .f32) (v70 : FVec Ideal S1024x800 .f32) :
    k3_pay9 (F := Ideal) v7 v19 v21 v70
      = shapeCast S8x128x256
          (matmul dot_S1024x800_S256x800_S1024x256_1_1_0_0_n_n none
            (truncf .bf16 (ln2 (.inl rfl) rfl v70 (shapeCast S1x800 v19 shapeCasts_S1x800_S1x800) (shapeCast S1x800 v21 shapeCasts_S1x800_S1x800)) bitsLt_bf16_f32)
            (shapeCast S256x800 v7 shapeCasts_S256x800_S256x800 : FVec Ideal S256x800 .bf16) (constant S1024x256 .f32 0x00000000#32))
          shapeCasts_S1024x256_S8x128x256 := rfl
/-! ## The stages at an index -/

section Stages

/-- A reciprocal square root at an index is the reciprocal square root of the element. -/
theorem rsqrt_apply {s : Shape} {φ : FTy} (x : FVec Ideal s φ) (i : s.Idx) : rsqrt x i = Ideal.rsqrt (x i) := rfl

/-- Stage one at `(a, r, k)`. -/
theorem pre_apply (v5 : FVec Ideal S512x1000 .bf16) (v6 : FVec Ideal S8x1000 .f32) (v12 : FVec Ideal S1x1000 .f32)
    (v29 : Vec Ideal S128x512 .bf16) (a : Fin 8) (r : Fin 128) (k : Fin 1000) :
    pre v5 v6 v12 v29 (ix3 a r k)
      = (v6 (ix2 a k) + ∑ q : Fin 512, v29 (ix2 r q) * v5 (ix2 q k)) + v12 (ix2 (0 : Fin 1) k) := by
  unfold pre
  simp only [addf_apply, broadcastTo_8x1x1000_apply, broadcastTo_1x128x1000_apply, broadcastTo_1x1x1000_apply,
    shapeCast_ac_a1c_apply, shapeCast_ab_1ab_apply, mm128_apply, shapeCast_self]

/-- The column of row sums of an `[8, 128, 1000]` array divided by a constant, at `(a, r, u)`. -/
theorem col3_apply (x : FVec Ideal S8x128x1000 .f32) (h : S8x128x1000.Reduces [2] S8x128) (hφ : FKind.Formats .f32)
    (hacc : (0x00000000#32 : BitVec FTy.f32.bits) = FKind.add.neutral .f32 hφ) (hsc : S8x128.ShapeCasts S8x128x1)
    (c : Ideal .f32) (a : Fin 8) (r : Fin 128) (u : Fin 1) :
    divf (shapeCast S8x128x1 (multiReduction .add [2] S8x128 x 0x00000000#32 h hφ hacc) hsc) (broadcast S8x128x1 c) (ix3 a r u)
      = Ideal.div (∑ k : Fin 1000, x (ix3 a r k)) c := by
  rw [divf_apply, broadcast_apply, shapeCast_ab_ab1_apply, rowsum3_apply]

/-- The same column for the squared differences from a column `M` broadcast along the rows. -/
theorem colsq3_apply (x : FVec Ideal S8x128x1000 .f32) (M : FVec Ideal S8x128x1 .f32) (h : S8x128x1000.Reduces [2] S8x128)
    (hφ : FKind.Formats .f32) (hacc : (0x00000000#32 : BitVec FTy.f32.bits) = FKind.add.neutral .f32 hφ)
    (hsc : S8x128.ShapeCasts S8x128x1) (hb : S8x128x1.Broadcasts S8x128x1000) (c : Ideal .f32) (a : Fin 8) (r : Fin 128) (u : Fin 1) :
    divf (shapeCast S8x128x1 (multiReduction .add [2] S8x128
        (mulf (subf x (broadcastTo S8x128x1000 M hb)) (subf x (broadcastTo S8x128x1000 M hb))) 0x00000000#32 h hφ hacc) hsc)
        (broadcast S8x128x1 c) (ix3 a r u)
      = Ideal.div (∑ k : Fin 1000, (x (ix3 a r k) - M (ix3 a r (0 : Fin 1))) * (x (ix3 a r k) - M (ix3 a r (0 : Fin 1)))) c := by
  rw [col3_apply]
  simp only [mulf_apply, subf_apply, broadcastTo_8x128x1_apply]

/-- Stage two at `(a, r, j)`: the positive part of the layer norm of row `(a, r)`. -/
theorem ln3_apply (hφ : FKind.Formats .f32) (hacc : (0x00000000#32 : BitVec FTy.f32.bits) = FKind.add.neutral .f32 hφ)
    (x : FVec Ideal S8x128x1000 .f32) (g b : FVec Ideal S1x1000 .f32) (a : Fin 8) (r : Fin 128) (j : Fin 1000) :
    ln3 hφ hacc x g b (ix3 a r j) = relu (lnorm c1000 (r1 g) (r1 b) (fun k => x (ix3 a r k)) j) := by
  unfold ln3
  simp only [maximumf_apply, addf_apply, mulf_apply, subf_apply, rsqrt_apply, broadcast_apply,
    broadcastTo_8x128x1_apply, broadcastTo_1x1x1000_apply, shapeCast_ab_1ab_apply]
  rw [colsq3_apply, col3_apply, show (FloatOps.ofBits .f32 0x00000000#32 : Ideal .f32) = 0 from Ideal.ofBits_zero_f32]
  rfl

/-- Stage three at row `a * 128 + r` and column `e`. -/
theorem tail_apply (x : FVec Ideal S8x128x1000 .f32) (v10 : FVec Ideal S1000x800 .bf16) (v18 : FVec Ideal S1x800 .f32)
    (a : Fin 8) (r : Fin 128) (e : Fin 800) :
    tail x v10 v18 (ix2 (row a r) e) = (∑ j : Fin 1000, x (ix3 a r j) * v10 (ix2 j e)) + v18 (ix2 (0 : Fin 1) e) := by
  unfold tail
  simp only [addf_apply, mm1024_apply, truncf_apply, broadcastTo_1b_ab_apply,
    shapeCast_abc_nc_apply x _ a r _ (row a r) rfl]

/-- The column of row sums of a `[1024, 800]` array divided by a constant, at `(p, u)`. -/
theorem col2_apply (x : FVec Ideal S1024x800 .f32) (h : S1024x800.Reduces [1] S1024) (hφ : FKind.Formats .f32)
    (hacc : (0x00000000#32 : BitVec FTy.f32.bits) = FKind.add.neutral .f32 hφ) (hsc : S1024.ShapeCasts S1024x1)
    (c : Ideal .f32) (p : Fin 1024) (u : Fin 1) :
    divf (shapeCast S1024x1 (multiReduction .add [1] S1024 x 0x00000000#32 h hφ hacc) hsc) (broadcast S1024x1 c) (ix2 p u)
      = Ideal.div (∑ k : Fin 800, x (ix2 p k)) c := by
  rw [divf_apply, broadcast_apply, shapeCast_n_n1_apply, rowsum2_apply]

/-- The same column for the squared differences from a column `M` broadcast along the rows. -/
theorem colsq2_apply (x : FVec Ideal S1024x800 .f32) (M : FVec Ideal S1024x1 .f32) (h : S1024x800.Reduces [1] S1024)
    (hφ : FKind.Formats .f32) (hacc : (0x00000000#32 : BitVec FTy.f32.bits) = FKind.add.neutral .f32 hφ)
    (hsc : S1024.ShapeCasts S1024x1) (hb : S1024x1.Broadcasts S1024x800) (c : Ideal .f32) (p : Fin 1024) (u : Fin 1) :
    divf (shapeCast S1024x1 (multiReduction .add [1] S1024
        (mulf (subf x (broadcastTo S1024x800 M hb)) (subf x (broadcastTo S1024x800 M hb))) 0x00000000#32 h hφ hacc) hsc)
        (broadcast S1024x1 c) (ix2 p u)
      = Ideal.div (∑ k : Fin 800, (x (ix2 p k) - M (ix2 p (0 : Fin 1))) * (x (ix2 p k) - M (ix2 p (0 : Fin 1)))) c := by
  rw [col2_apply]
  simp only [mulf_apply, subf_apply, broadcastTo_1024x1_apply]

/-- Stage four at `(p, e)`: the layer norm of row `p`. -/
theorem ln2_apply (hφ : FKind.Formats .f32) (hacc : (0x00000000#32 : BitVec FTy.f32.bits) = FKind.add.neutral .f32 hφ)
    (x : FVec Ideal S1024x800 .f32) (g b : FVec Ideal S1x800 .f32) (p : Fin 1024) (e : Fin 800) :
    ln2 hφ hacc x g b (ix2 p e) = lnorm c800 (r1 g) (r1 b) (fun k => x (ix2 p k)) e := by
  unfold ln2
  simp only [addf_apply, mulf_apply, subf_apply, rsqrt_apply, broadcast_apply, broadcastTo_1024x1_apply,
    broadcastTo_1b_ab_apply]
  rw [colsq2_apply, col2_apply]
  rfl

end Stages
/-! ## The weight's two halves, and the assembled statement -/

section Assembly

/-- The lower half of the first weight matrix at `(q, k)` is the whole at row `512 + q`. -/
theorem pay2_apply (v2 : Vec Ideal S1024x1000 .bf16) (q : Fin 512) (k : Fin 1000) :
    k3_pay2 (F := Ideal) v2 (ix2 q k) = v2 (ix2 (Fin.natAdd 512 q) k) := by
  unfold k3_pay2 k3_pay1
  simp only [shapeCast_self]
  exact slice2_axis0_apply 512 v2 _ q k (Fin.natAdd 512 q) rfl

/-- The attribute rows through the upper half of the first weight matrix, at `(a, k)`. -/
theorem pay3_at (v0 : Vec Ideal S8x512 .bf16) (v2 : Vec Ideal S1024x1000 .bf16) (a : Fin 8) (k : Fin 1000) :
    k3_pay3 (F := Ideal) v0 v2 (ix2 a k) = ∑ q : Fin 512, v0 (ix2 a q) * v2 (ix2 (Fin.castAdd 512 q) k) := by
  unfold k3_pay3 k3_pay1
  simp only [shapeCast_self, mm8_apply]
  refine Finset.sum_congr rfl fun q _ => ?_
  congr 1
  exact slice2_axis0_apply 0 v2 _ q k (Fin.castAdd 512 q) (Nat.zero_add _).symm

/-- The pair stage before its first norm, as the program computes it. -/
theorem pre_eq_pairPre (v0 : Vec Ideal S8x512 .bf16) (v2 : Vec Ideal S1024x1000 .bf16) (v11 : Vec Ideal S1x1000 .f32)
    (v29 : Vec Ideal S128x512 .bf16) (a : Fin 8) (r : Fin 128) (k : Fin 1000) :
    pre (k3_pay2 v2) (k3_pay3 v0 v2) (k3_pay5 v11) v29 (ix3 a r k)
      = pairPre (m2 v0) (m2 v29) (m2 v2) (r1 v11) a r k := by
  rw [pre_apply, pay3_at]
  unfold pairPre k3_pay5
  simp only [shapeCast_self, pay2_apply]

/-- THE PAIR-SCORING PAYLOAD AT AN INDEX: the block the trip stores, at pair `(a, r)` and image `b`, is the score of the
    pair's embedding against the image's. -/
theorem pay3_apply (v0 : Vec Ideal S8x512 .bf16) (v2 : Vec Ideal S1024x1000 .bf16) (v7 : Vec Ideal S256x800 .bf16) (v9 : Vec Ideal S1000x800 .bf16)
    (v11 v13 v15 : Vec Ideal S1x1000 .f32) (v17 v19 v21 : Vec Ideal S1x800 .f32) (v29 : Vec Ideal S128x512 .bf16) (a : Fin 8) (r : Fin 128) (b : Fin 256) :
    k3_pay9 (F := Ideal) v7 v19 v21 (k3_pay10 (k3_pay2 v2) (k3_pay3 v0 v2) (k3_pay4 v9) (k3_pay5 v11) (k3_pay6 v13) (k3_pay7 v15) (k3_pay8 v17) v29) (ix3 a r b)
      = score (pairEmb (m2 v0) (m2 v29) (m2 v2) (r1 v11) (r1 v13) (r1 v15) (m2 v9) (r1 v17) (r1 v19) (r1 v21)) (m2 v7) a r b := by
  rw [k3_pay9_eq, k3_pay10_eq, shapeCast_nc_abc_apply _ _ a r b (row a r) rfl, mmsc_apply]
  unfold score pairEmb
  refine Finset.sum_congr rfl fun e _ => ?_
  rw [truncf_apply]
  refine congrArg₂ (· * ·) ?_ ?_
  · refine (ln2_apply _ _ _ _ _ (row a r) e).trans ?_
    simp only [shapeCast_self]
    refine congrArg (fun t => lnorm c800 (r1 v19) (r1 v21) t e) (funext fun k => ?_)
    rw [tail_apply]
    unfold k3_pay4 k3_pay8
    simp only [shapeCast_self]
    refine congrArg (· + v17 (ix2 (0 : Fin 1) k)) (Finset.sum_congr rfl fun j _ => ?_)
    refine congrArg (· * v9 (ix2 j k)) ?_
    refine (ln3_apply _ _ _ _ _ a r j).trans ?_
    unfold k3_pay6 k3_pay7
    simp only [shapeCast_self]
    exact congrArg (fun t => relu (lnorm c1000 (r1 v13) (r1 v15) t j)) (funext fun k' => pre_eq_pairPre v0 v2 v11 v29 a r k')
  · simp only [shapeCast_self]

end Assembly

end Cert.KernelIdeal.PayPair

end
-- ==== Proof.SpecRows.lean ====
/-
  How the pair stage reads the node array and numbers its pairs: attributes are the first 200 node rows,
  objects the next 500, and pair (a, o) sits at position a · 500 + o of the 100000 pairs.
-/
import proofs.«135290_j1108101562624_1_alg».proof.Proof.Spec

noncomputable section

namespace Cert.GaeSpec

/-- The attribute rows of the node array. -/
abbrev topRows (N : Fin 700 → Fin 512 → EReal) : Fin 200 → Fin 512 → EReal :=
  fun a k => N ⟨a.val, by have := a.isLt; omega⟩ k

/-- The object rows of the node array. -/
abbrev botRows (N : Fin 700 → Fin 512 → EReal) : Fin 500 → Fin 512 → EReal :=
  fun o k => N ⟨200 + o.val, by have := o.isLt; omega⟩ k

/-- The position of pair (a, o) among all pairs. -/
abbrev pairIdx (a : Fin 200) (o : Fin 500) : Fin 100000 :=
  ⟨a.val * 500 + o.val, by have := a.isLt; have := o.isLt; omega⟩

/-- The pair's embedding reads only row `a` of the attributes and row `o` of the objects. -/
theorem pairEmb_congr {na no na' no' : ℕ} (attr : Fin na → Fin 512 → EReal) (obj : Fin no → Fin 512 → EReal)
    (attr' : Fin na' → Fin 512 → EReal) (obj' : Fin no' → Fin 512 → EReal)
    (W1 : Fin 1024 → Fin 1000 → EReal) (b1 g1 be1 : Fin 1000 → EReal)
    (W2 : Fin 1000 → Fin 800 → EReal) (b2 gn bn : Fin 800 → EReal) (a : Fin na) (o : Fin no) (a' : Fin na') (o' : Fin no')
    (ha : attr a = attr' a') (ho : obj o = obj' o') :
    pairEmb attr obj W1 b1 g1 be1 W2 b2 gn bn a o = pairEmb attr' obj' W1 b1 g1 be1 W2 b2 gn bn a' o' := by
  unfold pairEmb pairPre
  rw [ha, ho]

end Cert.GaeSpec

end
-- ==== Proof.LayoutK.lean ====
/-
  The host-side rearrangements read at an index.  The tail of the score array: rows of 500 objects cut from
  rows of 512, the image axis moved to the front, and the (attribute, object) axes flattened, so that image b
  and pair a · 500 + o read the source at (a, o, b).  The attribute rows are the first 200 node rows and the
  object rows the next 500; padding the object rows below with twelve rows leaves the first 500 as they were;
  and a vector viewed as a one-row matrix reads the vector at its column.
-/
import proofs.«135290_j1108101562624_1_alg».proof.KernelIdeal
import proofs.«135290_j1108101562624_1_alg».proof.Proof.Spec
import proofs.«135290_j1108101562624_1_alg».proof.Proof.SpecRows
import Idealize.ShloMosaic.Lib.Pipeline.Value
import Idealize.ShloMosaic.Lib.ValueIdx
import Idealize.ShloMosaic.Lib.ValueLayout
import Idealize.ShloMosaic.Lib.KernelVsHost

noncomputable section

namespace Cert.KernelIdeal.LayoutK

open Cert.KernelIdeal Cert.GaeSpec Idealize.ShloMosaic Idealize.ShloMosaic.ValueIdx

variable [Cert.KernelIdeal.Facts]
open Cert.KernelIdeal.Facts₀ Cert.KernelIdeal.Facts

/-- Image `b` against pair `(a, o)` in the flattened, transposed, cut array is the source at `(a, o, b)`. -/
theorem tail_apply (X : FVec Ideal S200x512x256 .f32) (b : Fin 256) (a : Fin 200) (o : Fin 500) :
    shapeCast S256x100000 (transpose S256x200x500 [2, 0, 1] (extractStridedSlice S200x500x256 ![0, 0, 0] X slices_S200x512x256_S200x500x256_0_0_0) transposes_S200x500x256_S256x200x500_2_0_1) shapeCasts_S256x200x500_S256x100000 (ix2 b (pairIdx a o))
      = X (ix3 a ⟨o.val, by have := o.isLt; omega⟩ b) := by
  rw [shapeCast_apply _ _ (ix2 b (pairIdx a o)) (ix3 b a o) (by
    rw [Shape.rowMajor_val_three, Shape.rowMajor_val_two]
    show (b.val * 200 + a.val) * 500 + o.val = b.val * 100000 + (a.val * 500 + o.val)
    omega)]
  rw [transpose_apply _ _ _ (ix3 b a o) (ix3 a o b) (fun c => match c with | ⟨0, _⟩ => rfl | ⟨1, _⟩ => rfl | ⟨2, _⟩ => rfl)]
  exact slice3_axis1_apply 0 X _ a o b ⟨o.val, by have := o.isLt; omega⟩ (Nat.zero_add _).symm

/-- The attribute rows: row `a` of the cut is node row `a`. -/
theorem slice_top_apply (N : FVec Ideal S700x512 .f32) (a : Fin 200) (k : Fin 512) :
    extractStridedSlice S200x512 ![0, 0] N slices_S700x512_S200x512_0_0 (ix2 a k) = N (ix2 ⟨a.val, by have := a.isLt; omega⟩ k) :=
  slice2_axis0_apply 0 N _ a k ⟨a.val, by have := a.isLt; omega⟩ (Nat.zero_add _).symm

/-- The object rows: row `o` of the cut is node row `200 + o`. -/
theorem slice_bot_apply (N : FVec Ideal S700x512 .f32) (o : Fin 500) (k : Fin 512) :
    extractStridedSlice S500x512 ![200, 0] N slices_S700x512_S500x512_200_0 (ix2 o k) = N (ix2 ⟨200 + o.val, by have := o.isLt; omega⟩ k) :=
  slice2_axis0_apply 200 N _ o k ⟨200 + o.val, by have := o.isLt; omega⟩ rfl

/-- Twelve rows of padding below: the first 500 rows are the operand's. -/
theorem pad_low_apply (X : FVec Ideal S500x512 .f32) (v : FVec Ideal S_ .f32) (o : Fin 500) (k : Fin 512) :
    pad S512x512 ![0, 0] ![12, 0] ![0, 0] X v pads_S500x512_S512x512_0120_000 h_S_ (ix2 ⟨o.val, by have := o.isLt; omega⟩ k) = X (ix2 o k) :=
  pad_apply_of_inside _ _ _ X v _ _ _ (ix2 o k) (fun ax => by
    match ax with
    | ⟨0, _⟩ => show o.val = 0 + o.val * (0 + 1); omega
    | ⟨1, _⟩ => show k.val = 0 + k.val * (0 + 1); omega)

/-- A vector of 1000 entries as a one-row matrix. -/
theorem row_1000_apply (x : FVec Ideal S1000 .f32) (j : Fin 1000) : shapeCast S1x1000 x shapeCasts_S1000_S1x1000 (ix2 0 j) = x (ix1 j) :=
  shapeCast_a_1a_apply x _ 0 j

/-- A vector of 800 entries as a one-row matrix. -/
theorem row_800_apply (x : FVec Ideal S800 .f32) (j : Fin 800) : shapeCast S1x800 x shapeCasts_S800_S1x800 (ix2 0 j) = x (ix1 j) :=
  shapeCast_a_1a_apply x _ 0 j

/-- A vector of 2048 entries as a one-row matrix. -/
theorem row_2048_apply (x : FVec Ideal S2048 .f32) (j : Fin 2048) : shapeCast S1x2048 x shapeCasts_S2048_S1x2048 (ix2 0 j) = x (ix1 j) :=
  shapeCast_a_1a_apply x _ 0 j

/-- A vector of 512 entries as a one-row matrix. -/
theorem row_512_apply (x : FVec Ideal S512 .f32) (j : Fin 512) : shapeCast S1x512 x shapeCasts_S512_S1x512 (ix2 0 j) = x (ix1 j) :=
  shapeCast_a_1a_apply x _ 0 j

end Cert.KernelIdeal.LayoutK

end
-- ==== Proof.RefStages.lean ====
/-
  The reference program's two graph layers and its image tower, read at an index, over the extended reals.
  A graph layer at a node and a feature is the neighbours' mean through one matrix, a bias, and the node's own
  row through a second matrix; the first layer is followed by the positive part.  The image tower is three linear
  layers, each followed by a layer norm of its rows (subtract the row's mean, scale by the inverse square root of the
  row's variance plus a small constant, apply a gain and a shift), the first two also by the positive part.
  Each statement reads one stage of the program at a row and a column and says it is the corresponding expression
  of the shared specification; the neighbours' means are left as they are.
-/
import proofs.«135290_j1108101562624_1_alg».proof.Proof.ReadQ
import proofs.«135290_j1108101562624_1_alg».proof.Proof.Spec
import proofs.«135290_j1108101562624_1_alg».proof.Proof.SpecRows
import Idealize.ShloMosaic.Lib.ValueIdx
import Idealize.ShloMosaic.PureOps.Ideal.Laws

noncomputable section

namespace Cert.ReferenceIdeal.RefStages

open Cert.ReferenceIdeal Cert.ReferenceIdeal.Gen Cert.ReferenceIdeal.Read Cert.GaeSpec Idealize.ShloMosaic Idealize.ShloMosaic.TcCoe Idealize.SL.Sem Idealize.ShloMosaic.StableHlo Idealize.ShloMosaic.ValueIdx

/-! ## The two graph layers -/

/-- The first graph layer of the reference at a node and a hidden feature: the neighbours' mean through one matrix,
    the bias, the node's own row through the other matrix, then the positive part. -/
theorem ref_hidden (x1 : (⟨S700x512, .f32⟩ : BufTy).Contents (Elt Ideal)) (x2 : (⟨S2x50000, .i32⟩ : BufTy).Contents (Elt Ideal))
    (x3 : (⟨S512x2048, .f32⟩ : BufTy).Contents (Elt Ideal)) (x4 : (⟨S2048, .f32⟩ : BufTy).Contents (Elt Ideal))
    (x5 : (⟨S512x2048, .f32⟩ : BufTy).Contents (Elt Ideal)) (i : Fin 700) (j : Fin 2048) :
    val_main_v29 (F := Ideal) x1 x2 x3 x4 x5 (ix2 i j)
      = hidden (m2 (val_main_v22 (F := Ideal) x1 x2)) (m2 x1) (m2 x3) (m2 x5) (m1 x4) i j := by
  rw [val_main_v29_apply, val_main_v28_apply, val_main_v26_apply, val_main_v23_apply, val_main_v25_apply,
    val_main_v24_apply, val_main_v27_apply, val_main_call0_v0_apply, val_main_call0_cst_apply]
  have e1 : ∀ k : Fin 512, lidx_main_v23 (ix2 i j) k = ix2 i k := fun k => funext fun a => by
    match a with | ⟨0, _⟩ => rfl | ⟨1, _⟩ => rfl
  have e2 : ∀ k : Fin 512, ridx_main_v23 (ix2 i j) k = ix2 k j := fun k => funext fun a => by
    match a with | ⟨0, _⟩ => rfl | ⟨1, _⟩ => rfl
  have e3 : ∀ k : Fin 512, lidx_main_v27 (ix2 i j) k = ix2 i k := fun k => funext fun a => by
    match a with | ⟨0, _⟩ => rfl | ⟨1, _⟩ => rfl
  have e4 : ∀ k : Fin 512, ridx_main_v27 (ix2 i j) k = ix2 k j := fun k => funext fun a => by
    match a with | ⟨0, _⟩ => rfl | ⟨1, _⟩ => rfl
  have e5 : idx_main_v24 (idx_main_v25 (ix2 i j)) = ix1 j := funext fun a => by
    match a with | ⟨0, _⟩ => rfl
  simp only [e1, e2, e3, e4, e5]
  show max _ (Ideal.ofBits .f32 0x00000000#32) = _
  rw [Ideal.ofBits_zero_f32]
  rfl

/-- The second graph layer of the reference at a node and an output feature: the neighbours' mean of the hidden rows
    through one matrix, the bias, the node's own hidden row through the other matrix. -/
theorem ref_nodes (x1 : (⟨S700x512, .f32⟩ : BufTy).Contents (Elt Ideal)) (x2 : (⟨S2x50000, .i32⟩ : BufTy).Contents (Elt Ideal))
    (x3 : (⟨S512x2048, .f32⟩ : BufTy).Contents (Elt Ideal)) (x4 : (⟨S2048, .f32⟩ : BufTy).Contents (Elt Ideal)) (x5 : (⟨S512x2048, .f32⟩ : BufTy).Contents (Elt Ideal))
    (x6 : (⟨S2048x512, .f32⟩ : BufTy).Contents (Elt Ideal)) (x7 : (⟨S512, .f32⟩ : BufTy).Contents (Elt Ideal)) (x8 : (⟨S2048x512, .f32⟩ : BufTy).Contents (Elt Ideal)) (i : Fin 700) (j : Fin 512) :
    val_main_v54 (F := Ideal) x1 x2 x3 x4 x5 x6 x7 x8 (ix2 i j)
      = sage (m2 (val_main_v48 (F := Ideal) x1 x2 x3 x4 x5)) (m2 (val_main_v29 (F := Ideal) x1 x2 x3 x4 x5)) (m2 x6) (m2 x8) (m1 x7) i j := by
  rw [val_main_v54_apply, val_main_v52_apply, val_main_v49_apply, val_main_v51_apply, val_main_v50_apply,
    val_main_v53_apply]
  have e1 : ∀ k : Fin 2048, lidx_main_v49 (ix2 i j) k = ix2 i k := fun k => funext fun a => by
    match a with | ⟨0, _⟩ => rfl | ⟨1, _⟩ => rfl
  have e2 : ∀ k : Fin 2048, ridx_main_v49 (ix2 i j) k = ix2 k j := fun k => funext fun a => by
    match a with | ⟨0, _⟩ => rfl | ⟨1, _⟩ => rfl
  have e3 : ∀ k : Fin 2048, lidx_main_v53 (ix2 i j) k = ix2 i k := fun k => funext fun a => by
    match a with | ⟨0, _⟩ => rfl | ⟨1, _⟩ => rfl
  have e4 : ∀ k : Fin 2048, ridx_main_v53 (ix2 i j) k = ix2 k j := fun k => funext fun a => by
    match a with | ⟨0, _⟩ => rfl | ⟨1, _⟩ => rfl
  have e5 : idx_main_v50 (idx_main_v51 (ix2 i j)) = ix1 j := funext fun a => by
    match a with | ⟨0, _⟩ => rfl
  simp only [e1, e2, e3, e4, e5]
  rfl

/-! ## The image tower -/

/-- The linear layer 1 of the image tower at a row and a position. -/
theorem ref_lin1 (x0 : (⟨S256x512, .f32⟩ : BufTy).Contents (Elt Ideal)) (x9 : (⟨S512x800, .f32⟩ : BufTy).Contents (Elt Ideal)) (x10 : (⟨S800, .f32⟩ : BufTy).Contents (Elt Ideal)) (i : Fin 256) (j : Fin 800) :
    val_main_v58 (F := Ideal) x0 x9 x10 (ix2 i j) = lin (m2 x0) (m2 x9) (m1 x10) i j := by
  rw [val_main_v58_apply, val_main_v55_apply, val_main_v57_apply, val_main_v56_apply]
  have e1 : ∀ k : Fin 512, lidx_main_v55 (ix2 i j) k = ix2 i k := fun k => funext fun a => by
    match a with | ⟨0, _⟩ => rfl | ⟨1, _⟩ => rfl
  have e2 : ∀ k : Fin 512, ridx_main_v55 (ix2 i j) k = ix2 k j := fun k => funext fun a => by
    match a with | ⟨0, _⟩ => rfl | ⟨1, _⟩ => rfl
  have e3 : idx_main_v56 (idx_main_v57 (ix2 i j)) = ix1 j := funext fun a => by
    match a with | ⟨0, _⟩ => rfl
  simp only [e1, e2, e3]
  rfl

/-! ### Normalised layer 1: operations 58 to 82 -/

/-- The row mean of layer 1's input, read in its one-column form. -/
theorem ref_ln1_mean (x0 : (⟨S256x512, .f32⟩ : BufTy).Contents (Elt Ideal)) (x9 : (⟨S512x800, .f32⟩ : BufTy).Contents (Elt Ideal)) (x10 : (⟨S800, .f32⟩ : BufTy).Contents (Elt Ideal)) (i : Fin 256) :
    val_main_v62 (F := Ideal) x0 x9 x10 (ix2 i (0 : Fin 1)) = mean c800 (fun k => val_main_v58 (F := Ideal) x0 x9 x10 (ix2 i k)) := by
  rw [val_main_v62_apply, val_main_v60_apply, val_main_v59_apply, val_main_v61_apply, val_main_cst_11_apply, val_main_cst_10_apply]
  have e : ∀ k : Fin 800, idx_main_v59 (idx_main_v60 (ix2 i (0 : Fin 1))) k = ix2 i k := fun k => funext fun a => by
    match a with | ⟨0, _⟩ => rfl | ⟨1, _⟩ => rfl
  simp only [e]
  show Ideal.div (Ideal.ofBits .f32 0x00000000#32 + _) _ = _
  rw [Ideal.ofBits_zero_f32, zero_add]
  rfl

/-- The input of layer 1 minus its row mean (the copy the variance squares). -/
theorem ref_ln1_centered (x0 : (⟨S256x512, .f32⟩ : BufTy).Contents (Elt Ideal)) (x9 : (⟨S512x800, .f32⟩ : BufTy).Contents (Elt Ideal)) (x10 : (⟨S800, .f32⟩ : BufTy).Contents (Elt Ideal)) (i : Fin 256) (j : Fin 800) :
    val_main_v64 (F := Ideal) x0 x9 x10 (ix2 i j) = val_main_v58 (F := Ideal) x0 x9 x10 (ix2 i j) - mean c800 (fun k => val_main_v58 (F := Ideal) x0 x9 x10 (ix2 i k)) := by
  rw [val_main_v64_apply, val_main_v63_apply]
  have e : idx_main_v63 (ix2 i j) = ix2 i (0 : Fin 1) := funext fun a => by
    match a with | ⟨0, _⟩ => rfl | ⟨1, _⟩ => rfl
  rw [e, ref_ln1_mean]
  rfl

/-- The input of layer 1 minus its row mean (the copy the norm scales). -/
theorem ref_ln1_centered' (x0 : (⟨S256x512, .f32⟩ : BufTy).Contents (Elt Ideal)) (x9 : (⟨S512x800, .f32⟩ : BufTy).Contents (Elt Ideal)) (x10 : (⟨S800, .f32⟩ : BufTy).Contents (Elt Ideal)) (i : Fin 256) (j : Fin 800) :
    val_main_v71 (F := Ideal) x0 x9 x10 (ix2 i j) = val_main_v58 (F := Ideal) x0 x9 x10 (ix2 i j) - mean c800 (fun k => val_main_v58 (F := Ideal) x0 x9 x10 (ix2 i k)) := by
  rw [val_main_v71_apply, val_main_v70_apply]
  have e : idx_main_v70 (ix2 i j) = ix2 i (0 : Fin 1) := funext fun a => by
    match a with | ⟨0, _⟩ => rfl | ⟨1, _⟩ => rfl
  rw [e, ref_ln1_mean]
  rfl

/-- The row variance of layer 1's input, read in its one-column form. -/
theorem ref_ln1_var (x0 : (⟨S256x512, .f32⟩ : BufTy).Contents (Elt Ideal)) (x9 : (⟨S512x800, .f32⟩ : BufTy).Contents (Elt Ideal)) (x10 : (⟨S800, .f32⟩ : BufTy).Contents (Elt Ideal)) (i : Fin 256) :
    val_main_v69 (F := Ideal) x0 x9 x10 (ix2 i (0 : Fin 1))
      = mean c800 (fun k => (val_main_v58 (F := Ideal) x0 x9 x10 (ix2 i k) - mean c800 (fun k => val_main_v58 (F := Ideal) x0 x9 x10 (ix2 i k))) * (val_main_v58 (F := Ideal) x0 x9 x10 (ix2 i k) - mean c800 (fun k => val_main_v58 (F := Ideal) x0 x9 x10 (ix2 i k)))) := by
  rw [val_main_v69_apply, val_main_v67_apply, val_main_v66_apply, val_main_v68_apply, val_main_cst_13_apply, val_main_cst_12_apply]
  have e : ∀ k : Fin 800, idx_main_v66 (idx_main_v67 (ix2 i (0 : Fin 1))) k = ix2 i k := fun k => funext fun a => by
    match a with | ⟨0, _⟩ => rfl | ⟨1, _⟩ => rfl
  simp only [e, val_main_v65_apply, ref_ln1_centered]
  show Ideal.div (Ideal.ofBits .f32 0x00000000#32 + _) _ = _
  rw [Ideal.ofBits_zero_f32, zero_add]
  rfl

/-- Layer 1's norm at a row and a position is the layer norm of that row of its input. -/
theorem ref_ln1 (x0 : (⟨S256x512, .f32⟩ : BufTy).Contents (Elt Ideal)) (x9 : (⟨S512x800, .f32⟩ : BufTy).Contents (Elt Ideal)) (x10 : (⟨S800, .f32⟩ : BufTy).Contents (Elt Ideal)) (x11 x12 : (⟨S800, .f32⟩ : BufTy).Contents (Elt Ideal)) (i : Fin 256) (j : Fin 800) :
    val_main_v82 (F := Ideal) x0 x9 x10 x11 x12 (ix2 i j) = lnorm c800 (m1 x11) (m1 x12) (fun k => val_main_v58 (F := Ideal) x0 x9 x10 (ix2 i k)) j := by
  rw [val_main_v82_apply, val_main_v79_apply, val_main_v76_apply, ref_ln1_centered', val_main_v75_apply, val_main_v74_apply, val_main_v73_apply,
    val_main_v72_apply, val_main_cst_14_apply, val_main_v78_apply, val_main_v77_apply, val_main_v81_apply, val_main_v80_apply]
  have e1 : idx_main_v75 (ix2 i j) = ix2 i (0 : Fin 1) := funext fun a => by
    match a with | ⟨0, _⟩ => rfl | ⟨1, _⟩ => rfl
  have e2 : idx_main_v77 (idx_main_v78 (ix2 i j)) = ix1 j := funext fun a => by
    match a with | ⟨0, _⟩ => rfl
  have e3 : idx_main_v80 (idx_main_v81 (ix2 i j)) = ix1 j := funext fun a => by
    match a with | ⟨0, _⟩ => rfl
  rw [e1, e2, e3, ref_ln1_var]
  rfl

/-- The positive part after normalised layer 1, at a row and a position. -/
theorem ref_t1 (x0 : (⟨S256x512, .f32⟩ : BufTy).Contents (Elt Ideal)) (x9 : (⟨S512x800, .f32⟩ : BufTy).Contents (Elt Ideal)) (x10 : (⟨S800, .f32⟩ : BufTy).Contents (Elt Ideal)) (x11 x12 : (⟨S800, .f32⟩ : BufTy).Contents (Elt Ideal)) (i : Fin 256) (j : Fin 800) :
    val_main_v83 (F := Ideal) x0 x9 x10 x11 x12 (ix2 i j) = (fun i j => relu (lnorm c800 (m1 x11) (m1 x12) (lin (m2 x0) (m2 x9) (m1 x10) i) j)) i j := by
  rw [val_main_v83_apply, val_main_call1_v0_apply, val_main_call1_cst_apply, ref_ln1]
  simp only [ref_lin1]
  show max _ (Ideal.ofBits .f32 0x00000000#32) = _
  rw [Ideal.ofBits_zero_f32]
  rfl

/-- The linear layer 2 of the image tower at a row and a position. -/
theorem ref_lin2 (x0 : (⟨S256x512, .f32⟩ : BufTy).Contents (Elt Ideal)) (x9 : (⟨S512x800, .f32⟩ : BufTy).Contents (Elt Ideal)) (x10 : (⟨S800, .f32⟩ : BufTy).Contents (Elt Ideal)) (x11 x12 : (⟨S800, .f32⟩ : BufTy).Contents (Elt Ideal))
    (x13 : (⟨S800x1000, .f32⟩ : BufTy).Contents (Elt Ideal)) (x14 : (⟨S1000, .f32⟩ : BufTy).Contents (Elt Ideal)) (i : Fin 256) (j : Fin 1000) :
    val_main_v87 (F := Ideal) x0 x9 x10 x11 x12 x13 x14 (ix2 i j) = lin (fun i j => relu (lnorm c800 (m1 x11) (m1 x12) (lin (m2 x0) (m2 x9) (m1 x10) i) j)) (m2 x13) (m1 x14) i j := by
  rw [val_main_v87_apply, val_main_v84_apply, val_main_v86_apply, val_main_v85_apply]
  have e1 : ∀ k : Fin 800, lidx_main_v84 (ix2 i j) k = ix2 i k := fun k => funext fun a => by
    match a with | ⟨0, _⟩ => rfl | ⟨1, _⟩ => rfl
  have e2 : ∀ k : Fin 800, ridx_main_v84 (ix2 i j) k = ix2 k j := fun k => funext fun a => by
    match a with | ⟨0, _⟩ => rfl | ⟨1, _⟩ => rfl
  have e3 : idx_main_v85 (idx_main_v86 (ix2 i j)) = ix1 j := funext fun a => by
    match a with | ⟨0, _⟩ => rfl
  simp only [e1, e2, e3, ref_t1]
  rfl

/-! ### Normalised layer 2: operations 87 to 111 -/

/-- The row mean of layer 2's input, read in its one-column form. -/
theorem ref_ln2_mean (x0 : (⟨S256x512, .f32⟩ : BufTy).Contents (Elt Ideal)) (x9 : (⟨S512x800, .f32⟩ : BufTy).Contents (Elt Ideal)) (x10 : (⟨S800, .f32⟩ : BufTy).Contents (Elt Ideal)) (x11 x12 : (⟨S800, .f32⟩ : BufTy).Contents (Elt Ideal))
    (x13 : (⟨S800x1000, .f32⟩ : BufTy).Contents (Elt Ideal)) (x14 : (⟨S1000, .f32⟩ : BufTy).Contents (Elt Ideal)) (i : Fin 256) :
    val_main_v91 (F := Ideal) x0 x9 x10 x11 x12 x13 x14 (ix2 i (0 : Fin 1)) = mean c1000 (fun k => val_main_v87 (F := Ideal) x0 x9 x10 x11 x12 x13 x14 (ix2 i k)) := by
  rw [val_main_v91_apply, val_main_v89_apply, val_main_v88_apply, val_main_v90_apply, val_main_cst_16_apply, val_main_cst_15_apply]
  have e : ∀ k : Fin 1000, idx_main_v88 (idx_main_v89 (ix2 i (0 : Fin 1))) k = ix2 i k := fun k => funext fun a => by
    match a with | ⟨0, _⟩ => rfl | ⟨1, _⟩ => rfl
  simp only [e]
  show Ideal.div (Ideal.ofBits .f32 0x00000000#32 + _) _ = _
  rw [Ideal.ofBits_zero_f32, zero_add]
  rfl

/-- The input of layer 2 minus its row mean (the copy the variance squares). -/
theorem ref_ln2_centered (x0 : (⟨S256x512, .f32⟩ : BufTy).Contents (Elt Ideal)) (x9 : (⟨S512x800, .f32⟩ : BufTy).Contents (Elt Ideal)) (x10 : (⟨S800, .f32⟩ : BufTy).Contents (Elt Ideal)) (x11 x12 : (⟨S800, .f32⟩ : BufTy).Contents (Elt Ideal))
    (x13 : (⟨S800x1000, .f32⟩ : BufTy).Contents (Elt Ideal)) (x14 : (⟨S1000, .f32⟩ : BufTy).Contents (Elt Ideal)) (i : Fin 256) (j : Fin 1000) :
    val_main_v93 (F := Ideal) x0 x9 x10 x11 x12 x13 x14 (ix2 i j) = val_main_v87 (F := Ideal) x0 x9 x10 x11 x12 x13 x14 (ix2 i j) - mean c1000 (fun k => val_main_v87 (F := Ideal) x0 x9 x10 x11 x12 x13 x14 (ix2 i k)) := by
  rw [val_main_v93_apply, val_main_v92_apply]
  have e : idx_main_v92 (ix2 i j) = ix2 i (0 : Fin 1) := funext fun a => by
    match a with | ⟨0, _⟩ => rfl | ⟨1, _⟩ => rfl
  rw [e, ref_ln2_mean]
  rfl

/-- The input of layer 2 minus its row mean (the copy the norm scales). -/
theorem ref_ln2_centered' (x0 : (⟨S256x512, .f32⟩ : BufTy).Contents (Elt Ideal)) (x9 : (⟨S512x800, .f32⟩ : BufTy).Contents (Elt Ideal)) (x10 : (⟨S800, .f32⟩ : BufTy).Contents (Elt Ideal)) (x11 x12 : (⟨S800, .f32⟩ : BufTy).Contents (Elt Ideal))
    (x13 : (⟨S800x1000, .f32⟩ : BufTy).Contents (Elt Ideal)) (x14 : (⟨S1000, .f32⟩ : BufTy).Contents (Elt Ideal)) (i : Fin 256) (j : Fin 1000) :
    val_main_v100 (F := Ideal) x0 x9 x10 x11 x12 x13 x14 (ix2 i j) = val_main_v87 (F := Ideal) x0 x9 x10 x11 x12 x13 x14 (ix2 i j) - mean c1000 (fun k => val_main_v87 (F := Ideal) x0 x9 x10 x11 x12 x13 x14 (ix2 i k)) := by
  rw [val_main_v100_apply, val_main_v99_apply]
  have e : idx_main_v99 (ix2 i j) = ix2 i (0 : Fin 1) := funext fun a => by
    match a with | ⟨0, _⟩ => rfl | ⟨1, _⟩ => rfl
  rw [e, ref_ln2_mean]
  rfl

/-- The row variance of layer 2's input, read in its one-column form. -/
theorem ref_ln2_var (x0 : (⟨S256x512, .f32⟩ : BufTy).Contents (Elt Ideal)) (x9 : (⟨S512x800, .f32⟩ : BufTy).Contents (Elt Ideal)) (x10 : (⟨S800, .f32⟩ : BufTy).Contents (Elt Ideal)) (x11 x12 : (⟨S800, .f32⟩ : BufTy).Contents (Elt Ideal))
    (x13 : (⟨S800x1000, .f32⟩ : BufTy).Contents (Elt Ideal)) (x14 : (⟨S1000, .f32⟩ : BufTy).Contents (Elt Ideal)) (i : Fin 256) :
    val_main_v98 (F := Ideal) x0 x9 x10 x11 x12 x13 x14 (ix2 i (0 : Fin 1))
      = mean c1000 (fun k => (val_main_v87 (F := Ideal) x0 x9 x10 x11 x12 x13 x14 (ix2 i k) - mean c1000 (fun k => val_main_v87 (F := Ideal) x0 x9 x10 x11 x12 x13 x14 (ix2 i k))) * (val_main_v87 (F := Ideal) x0 x9 x10 x11 x12 x13 x14 (ix2 i k) - mean c1000 (fun k => val_main_v87 (F := Ideal) x0 x9 x10 x11 x12 x13 x14 (ix2 i k)))) := by
  rw [val_main_v98_apply, val_main_v96_apply, val_main_v95_apply, val_main_v97_apply, val_main_cst_18_apply, val_main_cst_17_apply]
  have e : ∀ k : Fin 1000, idx_main_v95 (idx_main_v96 (ix2 i (0 : Fin 1))) k = ix2 i k := fun k => funext fun a => by
    match a with | ⟨0, _⟩ => rfl | ⟨1, _⟩ => rfl
  simp only [e, val_main_v94_apply, ref_ln2_centered]
  show Ideal.div (Ideal.ofBits .f32 0x00000000#32 + _) _ = _
  rw [Ideal.ofBits_zero_f32, zero_add]
  rfl

/-- Layer 2's norm at a row and a position is the layer norm of that row of its input. -/
theorem ref_ln2 (x0 : (⟨S256x512, .f32⟩ : BufTy).Contents (Elt Ideal)) (x9 : (⟨S512x800, .f32⟩ : BufTy).Contents (Elt Ideal)) (x10 : (⟨S800, .f32⟩ : BufTy).Contents (Elt Ideal)) (x11 x12 : (⟨S800, .f32⟩ : BufTy).Contents (Elt Ideal))
    (x13 : (⟨S800x1000, .f32⟩ : BufTy).Contents (Elt Ideal)) (x14 : (⟨S1000, .f32⟩ : BufTy).Contents (Elt Ideal)) (x15 x16 : (⟨S1000, .f32⟩ : BufTy).Contents (Elt Ideal)) (i : Fin 256) (j : Fin 1000) :
    val_main_v111 (F := Ideal) x0 x9 x10 x11 x12 x13 x14 x15 x16 (ix2 i j) = lnorm c1000 (m1 x15) (m1 x16) (fun k => val_main_v87 (F := Ideal) x0 x9 x10 x11 x12 x13 x14 (ix2 i k)) j := by
  rw [val_main_v111_apply, val_main_v108_apply, val_main_v105_apply, ref_ln2_centered', val_main_v104_apply, val_main_v103_apply, val_main_v102_apply,
    val_main_v101_apply, val_main_cst_19_apply, val_main_v107_apply, val_main_v106_apply, val_main_v110_apply, val_main_v109_apply]
  have e1 : idx_main_v104 (ix2 i j) = ix2 i (0 : Fin 1) := funext fun a => by
    match a with | ⟨0, _⟩ => rfl | ⟨1, _⟩ => rfl
  have e2 : idx_main_v106 (idx_main_v107 (ix2 i j)) = ix1 j := funext fun a => by
    match a with | ⟨0, _⟩ => rfl
  have e3 : idx_main_v109 (idx_main_v110 (ix2 i j)) = ix1 j := funext fun a => by
    match a with | ⟨0, _⟩ => rfl
  rw [e1, e2, e3, ref_ln2_var]
  rfl

/-- The positive part after normalised layer 2, at a row and a position. -/
theorem ref_t2 (x0 : (⟨S256x512, .f32⟩ : BufTy).Contents (Elt Ideal)) (x9 : (⟨S512x800, .f32⟩ : BufTy).Contents (Elt Ideal)) (x10 : (⟨S800, .f32⟩ : BufTy).Contents (Elt Ideal)) (x11 x12 : (⟨S800, .f32⟩ : BufTy).Contents (Elt Ideal))
    (x13 : (⟨S800x1000, .f32⟩ : BufTy).Contents (Elt Ideal)) (x14 : (⟨S1000, .f32⟩ : BufTy).Contents (Elt Ideal)) (x15 x16 : (⟨S1000, .f32⟩ : BufTy).Contents (Elt Ideal)) (i : Fin 256) (j : Fin 1000) :
    val_main_v112 (F := Ideal) x0 x9 x10 x11 x12 x13 x14 x15 x16 (ix2 i j) = (fun i j => relu (lnorm c1000 (m1 x15) (m1 x16) (lin (fun i j => relu (lnorm c800 (m1 x11) (m1 x12) (lin (m2 x0) (m2 x9) (m1 x10) i) j)) (m2 x13) (m1 x14) i) j)) i j := by
  rw [val_main_v112_apply, val_main_call2_v0_apply, val_main_call2_cst_apply, ref_ln2]
  simp only [ref_lin2]
  show max _ (Ideal.ofBits .f32 0x00000000#32) = _
  rw [Ideal.ofBits_zero_f32]
  rfl

/-- The linear layer 3 of the image tower at a row and a position. -/
theorem ref_lin3 (x0 : (⟨S256x512, .f32⟩ : BufTy).Contents (Elt Ideal)) (x9 : (⟨S512x800, .f32⟩ : BufTy).Contents (Elt Ideal)) (x10 : (⟨S800, .f32⟩ : BufTy).Contents (Elt Ideal)) (x11 x12 : (⟨S800, .f32⟩ : BufTy).Contents (Elt Ideal))
    (x13 : (⟨S800x1000, .f32⟩ : BufTy).Contents (Elt Ideal)) (x14 : (⟨S1000, .f32⟩ : BufTy).Contents (Elt Ideal)) (x15 x16 : (⟨S1000, .f32⟩ : BufTy).Contents (Elt Ideal))
    (x17 : (⟨S1000x800, .f32⟩ : BufTy).Contents (Elt Ideal)) (x18 : (⟨S800, .f32⟩ : BufTy).Contents (Elt Ideal)) (i : Fin 256) (j : Fin 800) :
    val_main_v116 (F := Ideal) x0 x9 x10 x11 x12 x13 x14 x15 x16 x17 x18 (ix2 i j) = lin (fun i j => relu (lnorm c1000 (m1 x15) (m1 x16) (lin (fun i j => relu (lnorm c800 (m1 x11) (m1 x12) (lin (m2 x0) (m2 x9) (m1 x10) i) j)) (m2 x13) (m1 x14) i) j)) (m2 x17) (m1 x18) i j := by
  rw [val_main_v116_apply, val_main_v113_apply, val_main_v115_apply, val_main_v114_apply]
  have e1 : ∀ k : Fin 1000, lidx_main_v113 (ix2 i j) k = ix2 i k := fun k => funext fun a => by
    match a with | ⟨0, _⟩ => rfl | ⟨1, _⟩ => rfl
  have e2 : ∀ k : Fin 1000, ridx_main_v113 (ix2 i j) k = ix2 k j := fun k => funext fun a => by
    match a with | ⟨0, _⟩ => rfl | ⟨1, _⟩ => rfl
  have e3 : idx_main_v114 (idx_main_v115 (ix2 i j)) = ix1 j := funext fun a => by
    match a with | ⟨0, _⟩ => rfl
  simp only [e1, e2, e3, ref_t2]
  rfl

/-! ### Normalised layer 3: operations 116 to 140 -/

/-- The row mean of layer 3's input, read in its one-column form. -/
theorem ref_ln3_mean (x0 : (⟨S256x512, .f32⟩ : BufTy).Contents (Elt Ideal)) (x9 : (⟨S512x800, .f32⟩ : BufTy).Contents (Elt Ideal)) (x10 : (⟨S800, .f32⟩ : BufTy).Contents (Elt Ideal)) (x11 x12 : (⟨S800, .f32⟩ : BufTy).Contents (Elt Ideal))
    (x13 : (⟨S800x1000, .f32⟩ : BufTy).Contents (Elt Ideal)) (x14 : (⟨S1000, .f32⟩ : BufTy).Contents (Elt Ideal)) (x15 x16 : (⟨S1000, .f32⟩ : BufTy).Contents (Elt Ideal))
    (x17 : (⟨S1000x800, .f32⟩ : BufTy).Contents (Elt Ideal)) (x18 : (⟨S800, .f32⟩ : BufTy).Contents (Elt Ideal)) (i : Fin 256) :
    val_main_v120 (F := Ideal) x0 x9 x10 x11 x12 x13 x14 x15 x16 x17 x18 (ix2 i (0 : Fin 1)) = mean c800 (fun k => val_main_v116 (F := Ideal) x0 x9 x10 x11 x12 x13 x14 x15 x16 x17 x18 (ix2 i k)) := by
  rw [val_main_v120_apply, val_main_v118_apply, val_main_v117_apply, val_main_v119_apply, val_main_cst_21_apply, val_main_cst_20_apply]
  have e : ∀ k : Fin 800, idx_main_v117 (idx_main_v118 (ix2 i (0 : Fin 1))) k = ix2 i k := fun k => funext fun a => by
    match a with | ⟨0, _⟩ => rfl | ⟨1, _⟩ => rfl
  simp only [e]
  show Ideal.div (Ideal.ofBits .f32 0x00000000#32 + _) _ = _
  rw [Ideal.ofBits_zero_f32, zero_add]
  rfl

/-- The input of layer 3 minus its row mean (the copy the variance squares). -/
theorem ref_ln3_centered (x0 : (⟨S256x512, .f32⟩ : BufTy).Contents (Elt Ideal)) (x9 : (⟨S512x800, .f32⟩ : BufTy).Contents (Elt Ideal)) (x10 : (⟨S800, .f32⟩ : BufTy).Contents (Elt Ideal)) (x11 x12 : (⟨S800, .f32⟩ : BufTy).Contents (Elt Ideal))
    (x13 : (⟨S800x1000, .f32⟩ : BufTy).Contents (Elt Ideal)) (x14 : (⟨S1000, .f32⟩ : BufTy).Contents (Elt Ideal)) (x15 x16 : (⟨S1000, .f32⟩ : BufTy).Contents (Elt Ideal))
    (x17 : (⟨S1000x800, .f32⟩ : BufTy).Contents (Elt Ideal)) (x18 : (⟨S800, .f32⟩ : BufTy).Contents (Elt Ideal)) (i : Fin 256) (j : Fin 800) :
    val_main_v122 (F := Ideal) x0 x9 x10 x11 x12 x13 x14 x15 x16 x17 x18 (ix2 i j) = val_main_v116 (F := Ideal) x0 x9 x10 x11 x12 x13 x14 x15 x16 x17 x18 (ix2 i j) - mean c800 (fun k => val_main_v116 (F := Ideal) x0 x9 x10 x11 x12 x13 x14 x15 x16 x17 x18 (ix2 i k)) := by
  rw [val_main_v122_apply, val_main_v121_apply]
  have e : idx_main_v121 (ix2 i j) = ix2 i (0 : Fin 1) := funext fun a => by
    match a with | ⟨0, _⟩ => rfl | ⟨1, _⟩ => rfl
  rw [e, ref_ln3_mean]
  rfl

/-- The input of layer 3 minus its row mean (the copy the norm scales). -/
theorem ref_ln3_centered' (x0 : (⟨S256x512, .f32⟩ : BufTy).Contents (Elt Ideal)) (x9 : (⟨S512x800, .f32⟩ : BufTy).Contents (Elt Ideal)) (x10 : (⟨S800, .f32⟩ : BufTy).Contents (Elt Ideal)) (x11 x12 : (⟨S800, .f32⟩ : BufTy).Contents (Elt Ideal))
    (x13 : (⟨S800x1000, .f32⟩ : BufTy).Contents (Elt Ideal)) (x14 : (⟨S1000, .f32⟩ : BufTy).Contents (Elt Ideal)) (x15 x16 : (⟨S1000, .f32⟩ : BufTy).Contents (Elt Ideal))
    (x17 : (⟨S1000x800, .f32⟩ : BufTy).Contents (Elt Ideal)) (x18 : (⟨S800, .f32⟩ : BufTy).Contents (Elt Ideal)) (i : Fin 256) (j : Fin 800) :
    val_main_v129 (F := Ideal) x0 x9 x10 x11 x12 x13 x14 x15 x16 x17 x18 (ix2 i j) = val_main_v116 (F := Ideal) x0 x9 x10 x11 x12 x13 x14 x15 x16 x17 x18 (ix2 i j) - mean c800 (fun k => val_main_v116 (F := Ideal) x0 x9 x10 x11 x12 x13 x14 x15 x16 x17 x18 (ix2 i k)) := by
  rw [val_main_v129_apply, val_main_v128_apply]
  have e : idx_main_v128 (ix2 i j) = ix2 i (0 : Fin 1) := funext fun a => by
    match a with | ⟨0, _⟩ => rfl | ⟨1, _⟩ => rfl
  rw [e, ref_ln3_mean]
  rfl

/-- The row variance of layer 3's input, read in its one-column form. -/
theorem ref_ln3_var (x0 : (⟨S256x512, .f32⟩ : BufTy).Contents (Elt Ideal)) (x9 : (⟨S512x800, .f32⟩ : BufTy).Contents (Elt Ideal)) (x10 : (⟨S800, .f32⟩ : BufTy).Contents (Elt Ideal)) (x11 x12 : (⟨S800, .f32⟩ : BufTy).Contents (Elt Ideal))
    (x13 : (⟨S800x1000, .f32⟩ : BufTy).Contents (Elt Ideal)) (x14 : (⟨S1000, .f32⟩ : BufTy).Contents (Elt Ideal)) (x15 x16 : (⟨S1000, .f32⟩ : BufTy).Contents (Elt Ideal))
    (x17 : (⟨S1000x800, .f32⟩ : BufTy).Contents (Elt Ideal)) (x18 : (⟨S800, .f32⟩ : BufTy).Contents (Elt Ideal)) (i : Fin 256) :
    val_main_v127 (F := Ideal) x0 x9 x10 x11 x12 x13 x14 x15 x16 x17 x18 (ix2 i (0 : Fin 1))
      = mean c800 (fun k => (val_main_v116 (F := Ideal) x0 x9 x10 x11 x12 x13 x14 x15 x16 x17 x18 (ix2 i k) - mean c800 (fun k => val_main_v116 (F := Ideal) x0 x9 x10 x11 x12 x13 x14 x15 x16 x17 x18 (ix2 i k))) * (val_main_v116 (F := Ideal) x0 x9 x10 x11 x12 x13 x14 x15 x16 x17 x18 (ix2 i k) - mean c800 (fun k => val_main_v116 (F := Ideal) x0 x9 x10 x11 x12 x13 x14 x15 x16 x17 x18 (ix2 i k)))) := by
  rw [val_main_v127_apply, val_main_v125_apply, val_main_v124_apply, val_main_v126_apply, val_main_cst_23_apply, val_main_cst_22_apply]
  have e : ∀ k : Fin 800, idx_main_v124 (idx_main_v125 (ix2 i (0 : Fin 1))) k = ix2 i k := fun k => funext fun a => by
    match a with | ⟨0, _⟩ => rfl | ⟨1, _⟩ => rfl
  simp only [e, val_main_v123_apply, ref_ln3_centered]
  show Ideal.div (Ideal.ofBits .f32 0x00000000#32 + _) _ = _
  rw [Ideal.ofBits_zero_f32, zero_add]
  rfl

/-- Layer 3's norm at a row and a position is the layer norm of that row of its input. -/
theorem ref_ln3 (x0 : (⟨S256x512, .f32⟩ : BufTy).Contents (Elt Ideal)) (x9 : (⟨S512x800, .f32⟩ : BufTy).Contents (Elt Ideal)) (x10 : (⟨S800, .f32⟩ : BufTy).Contents (Elt Ideal)) (x11 x12 : (⟨S800, .f32⟩ : BufTy).Contents (Elt Ideal))
    (x13 : (⟨S800x1000, .f32⟩ : BufTy).Contents (Elt Ideal)) (x14 : (⟨S1000, .f32⟩ : BufTy).Contents (Elt Ideal)) (x15 x16 : (⟨S1000, .f32⟩ : BufTy).Contents (Elt Ideal))
    (x17 : (⟨S1000x800, .f32⟩ : BufTy).Contents (Elt Ideal)) (x18 : (⟨S800, .f32⟩ : BufTy).Contents (Elt Ideal)) (x19 x20 : (⟨S800, .f32⟩ : BufTy).Contents (Elt Ideal)) (i : Fin 256) (j : Fin 800) :
    val_main_v140 (F := Ideal) x0 x9 x10 x11 x12 x13 x14 x15 x16 x17 x18 x19 x20 (ix2 i j) = lnorm c800 (m1 x19) (m1 x20) (fun k => val_main_v116 (F := Ideal) x0 x9 x10 x11 x12 x13 x14 x15 x16 x17 x18 (ix2 i k)) j := by
  rw [val_main_v140_apply, val_main_v137_apply, val_main_v134_apply, ref_ln3_centered', val_main_v133_apply, val_main_v132_apply, val_main_v131_apply,
    val_main_v130_apply, val_main_cst_24_apply, val_main_v136_apply, val_main_v135_apply, val_main_v139_apply, val_main_v138_apply]
  have e1 : idx_main_v133 (ix2 i j) = ix2 i (0 : Fin 1) := funext fun a => by
    match a with | ⟨0, _⟩ => rfl | ⟨1, _⟩ => rfl
  have e2 : idx_main_v135 (idx_main_v136 (ix2 i j)) = ix1 j := funext fun a => by
    match a with | ⟨0, _⟩ => rfl
  have e3 : idx_main_v138 (idx_main_v139 (ix2 i j)) = ix1 j := funext fun a => by
    match a with | ⟨0, _⟩ => rfl
  rw [e1, e2, e3, ref_ln3_var]
  rfl

/-- The image tower of the reference at an image and an embedding position. -/
theorem ref_img (x0 : (⟨S256x512, .f32⟩ : BufTy).Contents (Elt Ideal)) (x9 : (⟨S512x800, .f32⟩ : BufTy).Contents (Elt Ideal)) (x10 x11 x12 : (⟨S800, .f32⟩ : BufTy).Contents (Elt Ideal))
    (x13 : (⟨S800x1000, .f32⟩ : BufTy).Contents (Elt Ideal)) (x14 x15 x16 : (⟨S1000, .f32⟩ : BufTy).Contents (Elt Ideal))
    (x17 : (⟨S1000x800, .f32⟩ : BufTy).Contents (Elt Ideal)) (x18 x19 x20 : (⟨S800, .f32⟩ : BufTy).Contents (Elt Ideal)) (i : Fin 256) (j : Fin 800) :
    val_main_v140 (F := Ideal) x0 x9 x10 x11 x12 x13 x14 x15 x16 x17 x18 x19 x20 (ix2 i j)
      = imgTower (m2 x0) (m2 x9) (m1 x10) (m1 x11) (m1 x12) (m2 x13) (m1 x14) (m1 x15) (m1 x16) (m2 x17) (m1 x18) (m1 x19) (m1 x20) i j := by
  rw [ref_ln3]
  simp only [ref_lin3]
  rfl

end Cert.ReferenceIdeal.RefStages

end
-- ==== Proof.RefPair.lean ====
/-
  The reference's pair stage and its scores, read at an index over the extended reals.  Pair (a, o) sits at
  row a · 500 + o: its first 512 coordinates are attribute row a of the node array, its last 512 are object row o,
  so the contraction over 1024 coordinates splits into the two halves of the weight matrix; the two norms are the
  layer norm of a row, operation by operation in the same order; the score is the inner product of the pair's
  embedding with the image's embedding, the factors in the other order.  The node array and the image tower stay
  unopened here.
-/
import proofs.«135290_j1108101562624_1_alg».proof.Proof.ReadQ
import proofs.«135290_j1108101562624_1_alg».proof.Proof.Spec
import proofs.«135290_j1108101562624_1_alg».proof.Proof.SpecRows
import Idealize.ShloMosaic.Lib.Pipeline.Value
import Idealize.ShloMosaic.Lib.ValueIdx
import Idealize.ShloMosaic.PureOps.Ideal.Laws
import Mathlib.Algebra.BigOperators.Fin

noncomputable section

namespace Cert.ReferenceIdeal.RefPair

open Cert.ReferenceIdeal Cert.ReferenceIdeal.Gen Cert.ReferenceIdeal.Read Cert.GaeSpec Idealize.ShloMosaic Idealize.ShloMosaic.ValueIdx Idealize.ShloMosaic.TcCoe Idealize.SL.Sem Idealize.ShloMosaic.StableHlo

variable (x0 : (⟨S256x512, .f32⟩ : BufTy).Contents (Elt Ideal)) (x1 : (⟨S700x512, .f32⟩ : BufTy).Contents (Elt Ideal)) (x2 : (⟨S2x50000, .i32⟩ : BufTy).Contents (Elt Ideal)) (x3 : (⟨S512x2048, .f32⟩ : BufTy).Contents (Elt Ideal)) (x4 : (⟨S2048, .f32⟩ : BufTy).Contents (Elt Ideal)) (x5 : (⟨S512x2048, .f32⟩ : BufTy).Contents (Elt Ideal)) (x6 : (⟨S2048x512, .f32⟩ : BufTy).Contents (Elt Ideal)) (x7 : (⟨S512, .f32⟩ : BufTy).Contents (Elt Ideal)) (x8 : (⟨S2048x512, .f32⟩ : BufTy).Contents (Elt Ideal)) (x9 : (⟨S512x800, .f32⟩ : BufTy).Contents (Elt Ideal)) (x10 x11 x12 : (⟨S800, .f32⟩ : BufTy).Contents (Elt Ideal)) (x13 : (⟨S800x1000, .f32⟩ : BufTy).Contents (Elt Ideal)) (x14 x15 x16 : (⟨S1000, .f32⟩ : BufTy).Contents (Elt Ideal)) (x17 : (⟨S1000x800, .f32⟩ : BufTy).Contents (Elt Ideal)) (x18 x19 x20 : (⟨S800, .f32⟩ : BufTy).Contents (Elt Ideal)) (x21 : (⟨S1024x1000, .f32⟩ : BufTy).Contents (Elt Ideal)) (x22 x23 x24 : (⟨S1000, .f32⟩ : BufTy).Contents (Elt Ideal)) (x25 : (⟨S1000x800, .f32⟩ : BufTy).Contents (Elt Ideal)) (x26 x27 x28 : (⟨S800, .f32⟩ : BufTy).Contents (Elt Ideal))

/-! ## Indices from their coordinates -/

/-- Two rank-2 indices with the same coordinates are the same index. -/
theorem ix2_ext {n0 n1 : ℕ} {i i' : (⟨2, ![n0, n1]⟩ : Shape).Idx} (h0 : i 0 = i' 0) (h1 : i 1 = i' 1) : i = i' :=
  funext fun d => match d with | ⟨0, _⟩ => h0 | ⟨1, _⟩ => h1

/-- Two rank-1 indices with the same coordinate are the same index. -/
theorem ix1_ext {n0 : ℕ} {i i' : (⟨1, ![n0]⟩ : Shape).Idx} (h0 : i 0 = i' 0) : i = i' :=
  funext fun d => match d with | ⟨0, _⟩ => h0

/-- The layer norm of a row depends only on the row's entries. -/
theorem lnorm_congr {J : ℕ} (cnt : EReal) (g b t t' : Fin J → EReal) (j : Fin J) (h : ∀ k, t k = t' k) :
    lnorm cnt g b t j = lnorm cnt g b t' j := by
  rw [show t = t' from funext h]

/-! ## The pair rows: attribute row a and object row o side by side -/

/-- Row a · 500 + o of the attributes repeated 500 times each is attribute row a. -/
theorem v144_pair (a : Fin 200) (o : Fin 500) (k : Fin 512) :
    val_main_v144 (F := Ideal) x1 x2 x3 x4 x5 x6 x7 x8 (ix2 (pairIdx a o) k)
      = topRows (m2 (val_main_v54 (F := Ideal) x1 x2 x3 x4 x5 x6 x7 x8)) a k := by
  rw [val_main_v144_apply, val_main_v143_apply, val_main_v141_apply]
  generalize val_main_v54 (F := Ideal) x1 x2 x3 x4 x5 x6 x7 x8 = Nn
  refine congrArg Nn (ix2_ext (Fin.ext ?_) (Fin.ext ?_))
  · have ha := a.isLt; have ho := o.isLt; have hk := k.isLt
    show ((a.val * 500 + o.val) * 512 + k.val) / 256000 = a.val
    omega
  · have hk := k.isLt
    show ((a.val * 500 + o.val) * 512 + k.val) % 512 = k.val
    omega

/-- Row a · 500 + o of the objects tiled 200 times is object row o. -/
theorem v147_pair (a : Fin 200) (o : Fin 500) (k : Fin 512) :
    val_main_v147 (F := Ideal) x1 x2 x3 x4 x5 x6 x7 x8 (ix2 (pairIdx a o) k)
      = botRows (m2 (val_main_v54 (F := Ideal) x1 x2 x3 x4 x5 x6 x7 x8)) o k := by
  rw [val_main_v147_apply, val_main_v146_apply, val_main_v145_apply, val_main_v142_apply]
  generalize val_main_v54 (F := Ideal) x1 x2 x3 x4 x5 x6 x7 x8 = Nn
  refine congrArg Nn (ix2_ext (Fin.ext ?_) (Fin.ext ?_))
  · have ha := a.isLt; have ho := o.isLt; have hk := k.isLt
    show 200 + ((((0 * 500 + ((a.val * 500 + o.val) * 512 + k.val) / 512 % 500) * 1 + 0) * 512
      + ((a.val * 500 + o.val) * 512 + k.val) % 512) / 512) = 200 + o.val
    omega
  · have ha := a.isLt; have ho := o.isLt; have hk := k.isLt
    show (((0 * 500 + ((a.val * 500 + o.val) * 512 + k.val) / 512 % 500) * 1 + 0) * 512
      + ((a.val * 500 + o.val) * 512 + k.val) % 512) % 512 = k.val
    omega

/-- The first 512 columns of the joined array are the repeated attributes. -/
theorem v148_left (p : Fin 100000) (k : Fin 512) :
    val_main_v148 (F := Ideal) x1 x2 x3 x4 x5 x6 x7 x8 (ix2 p (Fin.castAdd 512 k))
      = val_main_v144 (F := Ideal) x1 x2 x3 x4 x5 x6 x7 x8 (ix2 p k) := by
  unfold val_main_v148
  exact concatenate_pair_apply_left 1 _ _ concatenates_S100000x512_S100000x512_S100000x1024_d1
    (ix2 p (Fin.castAdd 512 k)) rfl (ix2 p k) (fun b => match b with | ⟨0, _⟩ => rfl | ⟨1, _⟩ => rfl)

/-- The last 512 columns of the joined array are the tiled objects. -/
theorem v148_right (p : Fin 100000) (k : Fin 512) :
    val_main_v148 (F := Ideal) x1 x2 x3 x4 x5 x6 x7 x8 (ix2 p (Fin.natAdd 512 k))
      = val_main_v147 (F := Ideal) x1 x2 x3 x4 x5 x6 x7 x8 (ix2 p k) := by
  unfold val_main_v148
  exact concatenate_pair_apply_right 1 _ _ concatenates_S100000x512_S100000x512_S100000x1024_d1
    (ix2 p (Fin.natAdd 512 k)) rfl rfl (ix2 p k)
    (fun b => match b with | ⟨0, _⟩ => fun _ => rfl | ⟨1, _⟩ => fun h => absurd rfl h)
    (by show k.val + 512 = 512 + k.val; omega)

/-- The pair stage before its first norm: the contraction over 1024 coordinates splits into the attribute half
    and the object half. -/
theorem v152_pair (a : Fin 200) (o : Fin 500) (j : Fin 1000) :
    val_main_v152 (F := Ideal) x1 x2 x3 x4 x5 x6 x7 x8 x21 x22 (ix2 (pairIdx a o) j)
      = pairPre (topRows (m2 (val_main_v54 (F := Ideal) x1 x2 x3 x4 x5 x6 x7 x8))) (botRows (m2 (val_main_v54 (F := Ideal) x1 x2 x3 x4 x5 x6 x7 x8)))
          (m2 x21) (m1 x22) a o j := by
  rw [val_main_v152_apply, val_main_v149_apply, val_main_v151_apply, val_main_v150_apply, Ideal.addf_def]
  unfold pairPre
  refine congrArg₂ (· + ·) ?_ (congrArg x22 (ix1_ext rfl))
  have hsplit := Fin.sum_univ_add (fun k : Fin (512 + 512) =>
    val_main_v148 (F := Ideal) x1 x2 x3 x4 x5 x6 x7 x8 (ix2 (pairIdx a o) k) * x21 (ix2 k j))
  refine (Finset.sum_congr rfl fun k _ => ?_).trans (hsplit.trans (congrArg₂ (· + ·)
    (Finset.sum_congr rfl fun k _ => ?_) (Finset.sum_congr rfl fun k _ => ?_)))
  · exact congrArg₂ (· * ·) (congrArg _ (ix2_ext rfl rfl)) (congrArg x21 (ix2_ext rfl rfl))
  · exact congrArg₂ (· * ·) ((v148_left x1 x2 x3 x4 x5 x6 x7 x8 (pairIdx a o) k).trans (v144_pair x1 x2 x3 x4 x5 x6 x7 x8 a o k)) rfl
  · exact congrArg₂ (· * ·) ((v148_right x1 x2 x3 x4 x5 x6 x7 x8 (pairIdx a o) k).trans (v147_pair x1 x2 x3 x4 x5 x6 x7 x8 a o k)) rfl

/-! ## The first norm of the pair stage, row by row -/

/-- The sum of a row of the pair stage's first layer. -/
theorem v153_ix (p : Fin 100000) :
    val_main_v153 (F := Ideal) x1 x2 x3 x4 x5 x6 x7 x8 x21 x22 (ix1 p) = ∑ k : Fin 1000, val_main_v152 (F := Ideal) x1 x2 x3 x4 x5 x6 x7 x8 x21 x22 (ix2 p k) := by
  rw [val_main_v153_apply, val_main_cst_25_apply]
  show Ideal.ofBits .f32 0x00000000#32 + _ = _
  rw [Ideal.ofBits_zero_f32, zero_add]
  exact Finset.sum_congr rfl fun k _ => congrArg _ (ix2_ext rfl rfl)

/-- The mean of that row. -/
theorem v156_ix (p : Fin 100000) (z : Fin 1) :
    val_main_v156 (F := Ideal) x1 x2 x3 x4 x5 x6 x7 x8 x21 x22 (ix2 p z) = mean c1000 (fun k' => val_main_v152 (F := Ideal) x1 x2 x3 x4 x5 x6 x7 x8 x21 x22 (ix2 p k')) := by
  rw [val_main_v156_apply, val_main_v154_apply, val_main_v155_apply, val_main_cst_26_apply,
    show idx_main_v154 (ix2 p z) = ix1 p from ix1_ext rfl, v153_ix]
  rfl

/-- An entry of the row less the row's mean, as the variance reads it. -/
theorem v158_ix (p : Fin 100000) (j : Fin 1000) :
    val_main_v158 (F := Ideal) x1 x2 x3 x4 x5 x6 x7 x8 x21 x22 (ix2 p j) = val_main_v152 (F := Ideal) x1 x2 x3 x4 x5 x6 x7 x8 x21 x22 (ix2 p j) - mean c1000 (fun k' => val_main_v152 (F := Ideal) x1 x2 x3 x4 x5 x6 x7 x8 x21 x22 (ix2 p k')) := by
  rw [val_main_v158_apply, val_main_v157_apply, show idx_main_v157 (ix2 p j) = ix2 p 0 from ix2_ext rfl rfl, v156_ix]
  rfl

/-- An entry of the row less the row's mean, as the norm reads it. -/
theorem v165_ix (p : Fin 100000) (j : Fin 1000) :
    val_main_v165 (F := Ideal) x1 x2 x3 x4 x5 x6 x7 x8 x21 x22 (ix2 p j) = val_main_v152 (F := Ideal) x1 x2 x3 x4 x5 x6 x7 x8 x21 x22 (ix2 p j) - mean c1000 (fun k' => val_main_v152 (F := Ideal) x1 x2 x3 x4 x5 x6 x7 x8 x21 x22 (ix2 p k')) := by
  rw [val_main_v165_apply, val_main_v164_apply, show idx_main_v164 (ix2 p j) = ix2 p 0 from ix2_ext rfl rfl, v156_ix]
  rfl

/-- The variance of the row. -/
theorem v163_ix (p : Fin 100000) (z : Fin 1) :
    val_main_v163 (F := Ideal) x1 x2 x3 x4 x5 x6 x7 x8 x21 x22 (ix2 p z) = mean c1000 (fun k => (val_main_v152 (F := Ideal) x1 x2 x3 x4 x5 x6 x7 x8 x21 x22 (ix2 p k) - mean c1000 (fun k' => val_main_v152 (F := Ideal) x1 x2 x3 x4 x5 x6 x7 x8 x21 x22 (ix2 p k'))) * (val_main_v152 (F := Ideal) x1 x2 x3 x4 x5 x6 x7 x8 x21 x22 (ix2 p k) - mean c1000 (fun k' => val_main_v152 (F := Ideal) x1 x2 x3 x4 x5 x6 x7 x8 x21 x22 (ix2 p k')))) := by
  rw [val_main_v163_apply, val_main_v161_apply, val_main_v162_apply, val_main_cst_28_apply, val_main_v160_apply,
    val_main_cst_27_apply]
  show Ideal.div (Ideal.ofBits .f32 0x00000000#32 + _) _ = Ideal.div _ _
  rw [Ideal.ofBits_zero_f32, zero_add]
  refine congrArg₂ Ideal.div (Finset.sum_congr rfl fun k _ => ?_) rfl
  rw [show idx_main_v160 (idx_main_v161 (ix2 p z)) k = ix2 p k from ix2_ext rfl rfl, val_main_v159_apply, v158_ix]
  rfl

/-- The inverse square root of the variance plus the small constant. -/
theorem v168_ix (p : Fin 100000) (z : Fin 1) :
    val_main_v168 (F := Ideal) x1 x2 x3 x4 x5 x6 x7 x8 x21 x22 (ix2 p z) = Ideal.rsqrt (mean c1000 (fun k => (val_main_v152 (F := Ideal) x1 x2 x3 x4 x5 x6 x7 x8 x21 x22 (ix2 p k) - mean c1000 (fun k' => val_main_v152 (F := Ideal) x1 x2 x3 x4 x5 x6 x7 x8 x21 x22 (ix2 p k'))) * (val_main_v152 (F := Ideal) x1 x2 x3 x4 x5 x6 x7 x8 x21 x22 (ix2 p k) - mean c1000 (fun k' => val_main_v152 (F := Ideal) x1 x2 x3 x4 x5 x6 x7 x8 x21 x22 (ix2 p k')))) + eps) := by
  rw [val_main_v168_apply, val_main_v167_apply, v163_ix, val_main_v166_apply, val_main_cst_29_apply]
  rfl

/-- The first norm at an index is the layer norm of the row. -/
theorem v176_ix (p : Fin 100000) (j : Fin 1000) :
    val_main_v176 (F := Ideal) x1 x2 x3 x4 x5 x6 x7 x8 x21 x22 x23 x24 (ix2 p j)
      = lnorm c1000 (m1 x23) (m1 x24) (fun k => val_main_v152 (F := Ideal) x1 x2 x3 x4 x5 x6 x7 x8 x21 x22 (ix2 p k)) j := by
  rw [val_main_v176_apply, val_main_v173_apply, val_main_v170_apply, v165_ix, val_main_v169_apply,
    show idx_main_v169 (ix2 p j) = ix2 p 0 from ix2_ext rfl rfl, v168_ix,
    val_main_v172_apply, val_main_v171_apply, val_main_v175_apply, val_main_v174_apply,
    show idx_main_v171 (idx_main_v172 (ix2 p j)) = ix1 j from ix1_ext rfl,
    show idx_main_v174 (idx_main_v175 (ix2 p j)) = ix1 j from ix1_ext rfl]
  rfl

/-- Its positive part. -/
theorem v177_ix (p : Fin 100000) (j : Fin 1000) :
    val_main_v177 (F := Ideal) x1 x2 x3 x4 x5 x6 x7 x8 x21 x22 x23 x24 (ix2 p j)
      = relu (lnorm c1000 (m1 x23) (m1 x24) (fun k => val_main_v152 (F := Ideal) x1 x2 x3 x4 x5 x6 x7 x8 x21 x22 (ix2 p k)) j) := by
  rw [val_main_v177_apply, v176_ix, val_main_call3_v0_apply, val_main_call3_cst_apply]
  show max _ (Ideal.ofBits .f32 0x00000000#32) = _
  rw [Ideal.ofBits_zero_f32]
  rfl

/-- The second linear layer of the pair stage at an index. -/
theorem v181_ix (p : Fin 100000) (e : Fin 800) :
    val_main_v181 (F := Ideal) x1 x2 x3 x4 x5 x6 x7 x8 x21 x22 x23 x24 x25 x26 (ix2 p e)
      = (∑ j : Fin 1000, relu (lnorm c1000 (m1 x23) (m1 x24) (fun k => val_main_v152 (F := Ideal) x1 x2 x3 x4 x5 x6 x7 x8 x21 x22 (ix2 p k)) j) * m2 x25 j e) + m1 x26 e := by
  rw [val_main_v181_apply, val_main_v178_apply, val_main_v180_apply, val_main_v179_apply,
    show idx_main_v179 (idx_main_v180 (ix2 p e)) = ix1 e from ix1_ext rfl, Ideal.addf_def]
  refine congrArg₂ (· + ·) (Finset.sum_congr rfl fun j _ => ?_) rfl
  rw [show lidx_main_v178 (ix2 p e) j = ix2 p j from ix2_ext rfl rfl,
    show ridx_main_v178 (ix2 p e) j = ix2 j e from ix2_ext rfl rfl, v177_ix]

/-! ## The second norm of the pair stage, row by row -/

/-- The sum of a row of the pair stage's second layer. -/
theorem v182_ix (p : Fin 100000) :
    val_main_v182 (F := Ideal) x1 x2 x3 x4 x5 x6 x7 x8 x21 x22 x23 x24 x25 x26 (ix1 p) = ∑ k : Fin 800, val_main_v181 (F := Ideal) x1 x2 x3 x4 x5 x6 x7 x8 x21 x22 x23 x24 x25 x26 (ix2 p k) := by
  rw [val_main_v182_apply, val_main_cst_30_apply]
  show Ideal.ofBits .f32 0x00000000#32 + _ = _
  rw [Ideal.ofBits_zero_f32, zero_add]
  exact Finset.sum_congr rfl fun k _ => congrArg _ (ix2_ext rfl rfl)

/-- The mean of that row. -/
theorem v185_ix (p : Fin 100000) (z : Fin 1) :
    val_main_v185 (F := Ideal) x1 x2 x3 x4 x5 x6 x7 x8 x21 x22 x23 x24 x25 x26 (ix2 p z) = mean c800 (fun k' => val_main_v181 (F := Ideal) x1 x2 x3 x4 x5 x6 x7 x8 x21 x22 x23 x24 x25 x26 (ix2 p k')) := by
  rw [val_main_v185_apply, val_main_v183_apply, val_main_v184_apply, val_main_cst_31_apply,
    show idx_main_v183 (ix2 p z) = ix1 p from ix1_ext rfl, v182_ix]
  rfl

/-- An entry of the row less the row's mean, as the variance reads it. -/
theorem v187_ix (p : Fin 100000) (e : Fin 800) :
    val_main_v187 (F := Ideal) x1 x2 x3 x4 x5 x6 x7 x8 x21 x22 x23 x24 x25 x26 (ix2 p e) = val_main_v181 (F := Ideal) x1 x2 x3 x4 x5 x6 x7 x8 x21 x22 x23 x24 x25 x26 (ix2 p e) - mean c800 (fun k' => val_main_v181 (F := Ideal) x1 x2 x3 x4 x5 x6 x7 x8 x21 x22 x23 x24 x25 x26 (ix2 p k')) := by
  rw [val_main_v187_apply, val_main_v186_apply, show idx_main_v186 (ix2 p e) = ix2 p 0 from ix2_ext rfl rfl, v185_ix]
  rfl

/-- An entry of the row less the row's mean, as the norm reads it. -/
theorem v194_ix (p : Fin 100000) (e : Fin 800) :
    val_main_v194 (F := Ideal) x1 x2 x3 x4 x5 x6 x7 x8 x21 x22 x23 x24 x25 x26 (ix2 p e) = val_main_v181 (F := Ideal) x1 x2 x3 x4 x5 x6 x7 x8 x21 x22 x23 x24 x25 x26 (ix2 p e) - mean c800 (fun k' => val_main_v181 (F := Ideal) x1 x2 x3 x4 x5 x6 x7 x8 x21 x22 x23 x24 x25 x26 (ix2 p k')) := by
  rw [val_main_v194_apply, val_main_v193_apply, show idx_main_v193 (ix2 p e) = ix2 p 0 from ix2_ext rfl rfl, v185_ix]
  rfl

/-- The variance of the row. -/
theorem v192_ix (p : Fin 100000) (z : Fin 1) :
    val_main_v192 (F := Ideal) x1 x2 x3 x4 x5 x6 x7 x8 x21 x22 x23 x24 x25 x26 (ix2 p z) = mean c800 (fun k => (val_main_v181 (F := Ideal) x1 x2 x3 x4 x5 x6 x7 x8 x21 x22 x23 x24 x25 x26 (ix2 p k) - mean c800 (fun k' => val_main_v181 (F := Ideal) x1 x2 x3 x4 x5 x6 x7 x8 x21 x22 x23 x24 x25 x26 (ix2 p k'))) * (val_main_v181 (F := Ideal) x1 x2 x3 x4 x5 x6 x7 x8 x21 x22 x23 x24 x25 x26 (ix2 p k) - mean c800 (fun k' => val_main_v181 (F := Ideal) x1 x2 x3 x4 x5 x6 x7 x8 x21 x22 x23 x24 x25 x26 (ix2 p k')))) := by
  rw [val_main_v192_apply, val_main_v190_apply, val_main_v191_apply, val_main_cst_33_apply, val_main_v189_apply,
    val_main_cst_32_apply]
  show Ideal.div (Ideal.ofBits .f32 0x00000000#32 + _) _ = Ideal.div _ _
  rw [Ideal.ofBits_zero_f32, zero_add]
  refine congrArg₂ Ideal.div (Finset.sum_congr rfl fun k _ => ?_) rfl
  rw [show idx_main_v189 (idx_main_v190 (ix2 p z)) k = ix2 p k from ix2_ext rfl rfl, val_main_v188_apply, v187_ix]
  rfl

/-- The inverse square root of the variance plus the small constant. -/
theorem v197_ix (p : Fin 100000) (z : Fin 1) :
    val_main_v197 (F := Ideal) x1 x2 x3 x4 x5 x6 x7 x8 x21 x22 x23 x24 x25 x26 (ix2 p z) = Ideal.rsqrt (mean c800 (fun k => (val_main_v181 (F := Ideal) x1 x2 x3 x4 x5 x6 x7 x8 x21 x22 x23 x24 x25 x26 (ix2 p k) - mean c800 (fun k' => val_main_v181 (F := Ideal) x1 x2 x3 x4 x5 x6 x7 x8 x21 x22 x23 x24 x25 x26 (ix2 p k'))) * (val_main_v181 (F := Ideal) x1 x2 x3 x4 x5 x6 x7 x8 x21 x22 x23 x24 x25 x26 (ix2 p k) - mean c800 (fun k' => val_main_v181 (F := Ideal) x1 x2 x3 x4 x5 x6 x7 x8 x21 x22 x23 x24 x25 x26 (ix2 p k')))) + eps) := by
  rw [val_main_v197_apply, val_main_v196_apply, v192_ix, val_main_v195_apply, val_main_cst_34_apply]
  rfl

/-- The second norm at an index is the layer norm of the row. -/
theorem v205_ix (p : Fin 100000) (e : Fin 800) :
    val_main_v205 (F := Ideal) x1 x2 x3 x4 x5 x6 x7 x8 x21 x22 x23 x24 x25 x26 x27 x28 (ix2 p e)
      = lnorm c800 (m1 x27) (m1 x28) (fun k => val_main_v181 (F := Ideal) x1 x2 x3 x4 x5 x6 x7 x8 x21 x22 x23 x24 x25 x26 (ix2 p k)) e := by
  rw [val_main_v205_apply, val_main_v202_apply, val_main_v199_apply, v194_ix, val_main_v198_apply,
    show idx_main_v198 (ix2 p e) = ix2 p 0 from ix2_ext rfl rfl, v197_ix,
    val_main_v201_apply, val_main_v200_apply, val_main_v204_apply, val_main_v203_apply,
    show idx_main_v200 (idx_main_v201 (ix2 p e)) = ix1 e from ix1_ext rfl,
    show idx_main_v203 (idx_main_v204 (ix2 p e)) = ix1 e from ix1_ext rfl]
  rfl

/-! ## The pair's embedding and the scores -/

/-- Row a · 500 + o of the pair stage's output is the embedding of the pair (a, o). -/
theorem v205_pair (a : Fin 200) (o : Fin 500) (e : Fin 800) :
    val_main_v205 (F := Ideal) x1 x2 x3 x4 x5 x6 x7 x8 x21 x22 x23 x24 x25 x26 x27 x28 (ix2 (pairIdx a o) e)
      = pairEmb (topRows (m2 (val_main_v54 (F := Ideal) x1 x2 x3 x4 x5 x6 x7 x8))) (botRows (m2 (val_main_v54 (F := Ideal) x1 x2 x3 x4 x5 x6 x7 x8)))
          (m2 x21) (m1 x22) (m1 x23) (m1 x24) (m2 x25) (m1 x26) (m1 x27) (m1 x28) a o e := by
  rw [v205_ix]
  unfold pairEmb
  refine lnorm_congr _ _ _ _ _ _ fun e' => ?_
  rw [v181_ix]
  refine congrArg₂ (· + ·) (Finset.sum_congr rfl fun j _ => ?_) rfl
  exact congrArg₂ (· * ·) (congrArg relu (lnorm_congr _ _ _ _ _ _ fun j' => v152_pair x1 x2 x3 x4 x5 x6 x7 x8 x21 x22 a o j')) rfl

/-- The reference's score of image b against the pair (a, o) is the inner product of the pair's embedding with the
    image's embedding. -/
theorem ref_score (b : Fin 256) (a : Fin 200) (o : Fin 500) :
    val_main_v207 (F := Ideal) x0 x1 x2 x3 x4 x5 x6 x7 x8 x9 x10 x11 x12 x13 x14 x15 x16 x17 x18 x19 x20 x21 x22 x23 x24 x25 x26 x27 x28 (ix2 b (pairIdx a o))
      = score (pairEmb (topRows (m2 (val_main_v54 (F := Ideal) x1 x2 x3 x4 x5 x6 x7 x8))) (botRows (m2 (val_main_v54 (F := Ideal) x1 x2 x3 x4 x5 x6 x7 x8)))
                (m2 x21) (m1 x22) (m1 x23) (m1 x24) (m2 x25) (m1 x26) (m1 x27) (m1 x28))
              (m2 (val_main_v140 (F := Ideal) x0 x9 x10 x11 x12 x13 x14 x15 x16 x17 x18 x19 x20)) a o b := by
  rw [val_main_v207_apply]
  unfold score
  generalize val_main_v140 (F := Ideal) x0 x9 x10 x11 x12 x13 x14 x15 x16 x17 x18 x19 x20 = Im
  refine Finset.sum_congr rfl fun e _ => ?_
  rw [show lidx_main_v207 (ix2 b (pairIdx a o)) e = ix2 b e from ix2_ext rfl rfl, val_main_v206_apply,
    show idx_main_v206 (ridx_main_v207 (ix2 b (pairIdx a o)) e) = ix2 (pairIdx a o) e from ix2_ext rfl rfl,
    v205_pair]
  exact mul_comm _ _

end Cert.ReferenceIdeal.RefPair

end
-- ==== Proof.Bridge.lean ====
/-
  The two programs meet.  The kernel program's arrays at each boundary are identified, one stage at a time,
  with the reference's stages: the first segment mean (the same host operations on the same inputs), the hidden
  layer, the second segment mean (the same operations applied to equal hidden layers), the node array, the image
  embeddings, and last the score array, where the kernel's [200, 512, 256] block array is sliced, transposed
  and flattened and the reference's product is read pair by pair.  The only algebra is the reference's side:
  a sum over the joined feature axis is the sum of its two halves, and a product commutes.
-/
import proofs.«135290_j1108101562624_1_alg».proof.Proof.GlueGraph
import proofs.«135290_j1108101562624_1_alg».proof.Proof.GlueImage
import proofs.«135290_j1108101562624_1_alg».proof.Proof.GluePair
import proofs.«135290_j1108101562624_1_alg».proof.Proof.BlocksOne
import proofs.«135290_j1108101562624_1_alg».proof.Proof.BlocksPair
import proofs.«135290_j1108101562624_1_alg».proof.Proof.PayGraph
import proofs.«135290_j1108101562624_1_alg».proof.Proof.PayImage
import proofs.«135290_j1108101562624_1_alg».proof.Proof.PayPair
import proofs.«135290_j1108101562624_1_alg».proof.Proof.LayoutK
import proofs.«135290_j1108101562624_1_alg».proof.Proof.RefStages
import proofs.«135290_j1108101562624_1_alg».proof.Proof.RefPair

set_option maxRecDepth 16384

noncomputable section

namespace Cert.Bridge

open Cert.KernelIdeal Cert.KernelIdeal.Gen Cert.KernelIdeal.Glue Cert.GaeSpec
open Idealize.ShloMosaic Idealize.ShloMosaic.TcCoe Idealize.ShloMosaic.Tactic Idealize.ShloMosaic.StableHlo Idealize.ShloMosaic.ValueIdx
open Idealize.SL Idealize.SL.Sem
open Cert.ReferenceIdeal.Read (val_main_v22 val_main_v29 val_main_v48 val_main_v54 val_main_v140 val_main_v207)

variable (m : (ℓ : Loc nD τ sig) → Buf (Elt Ideal) ℓ) (ρ : Dev nD → PrngReg)

/-- The first segment mean: the same gather, scatter-add and division on the same inputs. -/
theorem mean1_eq (c : Dev nD) : V1 m ρ c main_v22 = val_main_v22 (F := Ideal) (m ((c : Thread nD τ).loc main_arg1)) (m ((c : Thread nD τ).loc main_arg2)) := by
  show StableHlo.after hostOps0 (W0 m ρ c) (Proc.devRef .tc main_v22) = _
  after_results_simp
  rfl

/-- The hidden layer. -/
theorem hidden_eq (c : Dev nD) : W2 m ρ c (Proc.devRef .tc main_v26) = val_main_v29 (F := Ideal) (m ((c : Thread nD τ).loc main_arg1)) (m ((c : Thread nD τ).loc main_arg2)) (m ((c : Thread nD τ).loc main_arg3)) (m ((c : Thread nD τ).loc main_arg4)) (m ((c : Thread nD τ).loc main_arg5)) := by
  rw [W2_v26, Cert.KernelIdeal.BlocksOne.arr0]
  funext y
  obtain ⟨i, j, rfl⟩ : ∃ (i : Fin 700) (j : Fin 2048), y = ix2 i j := ⟨y 0, y 1, eq_ix2 y⟩
  rw [Cert.KernelIdeal.PayGraph.pay0_apply, Cert.ReferenceIdeal.RefStages.ref_hidden, mean1_eq, g0_arg1, g0_v23, g0_v24, g0_v25]

/-- The hidden layer as the second graph call finds it. -/
theorem hidden_at_call (c : Dev nD) : V3 m ρ c main_v26 = val_main_v29 (F := Ideal) (m ((c : Thread nD τ).loc main_arg1)) (m ((c : Thread nD τ).loc main_arg2)) (m ((c : Thread nD τ).loc main_arg3)) (m ((c : Thread nD τ).loc main_arg4)) (m ((c : Thread nD τ).loc main_arg5)) :=
  (g1_v26 m ρ c).trans (hidden_eq m ρ c)

/-- The second segment mean: the same operations, applied to equal hidden layers. -/
theorem mean2_eq (c : Dev nD) : V3 m ρ c main_v45 = val_main_v48 (F := Ideal) (m ((c : Thread nD τ).loc main_arg1)) (m ((c : Thread nD τ).loc main_arg2)) (m ((c : Thread nD τ).loc main_arg3)) (m ((c : Thread nD τ).loc main_arg4)) (m ((c : Thread nD τ).loc main_arg5)) := by
  show StableHlo.after hostOps1 (W2 m ρ c) (Proc.devRef .tc main_v45) = _
  after_results_simp
  rw [W2_v1, W2_v3, hidden_eq]
  show _ = val_main_v48 (F := Ideal) (m ((c : Thread nD τ).loc main_arg1)) (m ((c : Thread nD τ).loc main_arg2)) (m ((c : Thread nD τ).loc main_arg3)) (m ((c : Thread nD τ).loc main_arg4)) (m ((c : Thread nD τ).loc main_arg5))
  after_results_simp
  rfl

/-- The node array. -/
theorem nodes_eq (c : Dev nD) : W4 m ρ c (Proc.devRef .tc main_v49) = val_main_v54 (F := Ideal) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) := by
  rw [W4_v49, Cert.KernelIdeal.BlocksOne.arr1]
  funext y
  obtain ⟨i, j, rfl⟩ : ∃ (i : Fin 700) (j : Fin 512), y = ix2 i j := ⟨y 0, y 1, eq_ix2 y⟩
  rw [Cert.KernelIdeal.PayGraph.pay1_apply, Cert.ReferenceIdeal.RefStages.ref_nodes, mean2_eq, hidden_at_call, g1_v46, g1_v47, g1_v48]

/-- The image embeddings. -/
theorem img_eq (c : Dev nD) : W6 m ρ c (Proc.devRef .tc main_v62) = val_main_v140 (F := Ideal) (m ((c : Thread nD τ).loc main_arg0)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20)) := by
  rw [W6_v62, Cert.KernelIdeal.BlocksOne.arr2]
  funext y
  obtain ⟨i, j, rfl⟩ : ∃ (i : Fin 256) (j : Fin 800), y = ix2 i j := ⟨y 0, y 1, eq_ix2 y⟩
  rw [Cert.KernelIdeal.PayImage.pay2_apply, Cert.ReferenceIdeal.RefStages.ref_img, g2_arg0, g2_v50, g2_v51, g2_v52, g2_v53, g2_v54, g2_v55,
    g2_v56, g2_v57, g2_v58, g2_v59, g2_v60, g2_v61]

/-- The second result of the program is the node array. -/
theorem nodes_result (c : Dev nD) : W11 m ρ c (Proc.devRef .tc main_v49) = val_main_v54 (F := Ideal) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) :=
  (W11_v49 m ρ c).trans (nodes_eq m ρ c)

/-! ## The score array -/

/-- Row `a % 8` of the attribute block the pair call loads at point `a / 8` is node row `a`. -/
theorem attr_row (c : Dev nD) (a : Fin 200) :
    m2 (Cert.KernelIdeal.BlocksPair.attrBlk (V9 m ρ) c a) ⟨a.val % 8, Nat.mod_lt _ (by decide)⟩
      = topRows (m2 (val_main_v54 (F := Ideal) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)))) a := by
  funext k
  have hA : (⟨8 * (a.val / 8) + a.val % 8, by have := a.isLt; omega⟩ : Fin 200) = a := Fin.ext (Nat.div_add_mod a.val 8)
  show V9 m ρ c main_v65 (ix2 (⟨8 * (a.val / 8) + a.val % 8, _⟩ : Fin 200) (⟨k.val, k.isLt⟩ : Fin 512)) = _
  rw [hA, g3_v65, Cert.KernelIdeal.LayoutK.slice_top_apply, W6_v49, nodes_eq]

/-- Row `o % 128` of the object chunk the pair call's trip `o / 128` loads is node row `200 + o`. -/
theorem obj_row (c : Dev nD) (o : Fin 500) :
    m2 (Cert.KernelIdeal.BlocksPair.objChunk (V9 m ρ) c ⟨o.val, by have := o.isLt; omega⟩) ⟨o.val % 128, Nat.mod_lt _ (by decide)⟩
      = botRows (m2 (val_main_v54 (F := Ideal) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)))) o := by
  funext k
  have hO : (⟨128 * (o.val / 128) + o.val % 128, by have := o.isLt; omega⟩ : Fin 512) = ⟨o.val, by have := o.isLt; omega⟩ :=
    Fin.ext (Nat.div_add_mod o.val 128)
  show V9 m ρ c main_v67 (ix2 (⟨128 * (o.val / 128) + o.val % 128, _⟩ : Fin 512) (⟨k.val, k.isLt⟩ : Fin 512)) = _
  rw [hO, g3_v67, Cert.KernelIdeal.LayoutK.pad_low_apply, Cert.KernelIdeal.LayoutK.slice_bot_apply, W6_v49, nodes_eq]

/-- A score reads its pair's embedding and its image's embedding only. -/
theorem score_congr {na no na' no' : ℕ} (pn : Fin na → Fin no → Fin 800 → EReal) (pn' : Fin na' → Fin no' → Fin 800 → EReal)
    (imgf imgf' : Fin 256 → Fin 800 → EReal) (a : Fin na) (o : Fin no) (a' : Fin na') (o' : Fin no') (b : Fin 256)
    (h1 : pn a o = pn' a' o') (h2 : imgf b = imgf' b) : score pn imgf a o b = score pn' imgf' a' o' b := by
  unfold score
  rw [h1, h2]

/-- The score of image `b` against pair `(a, o)`, on both sides. -/
theorem score_at (c : Dev nD) (b : Fin 256) (a : Fin 200) (o : Fin 500) :
    W11 m ρ c (Proc.devRef .tc main_v80) (ix2 b (pairIdx a o))
      = val_main_v207 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20)) (m ((c : Thread nD τ).loc main_arg21)) (m ((c : Thread nD τ).loc main_arg22)) (m ((c : Thread nD τ).loc main_arg23)) (m ((c : Thread nD τ).loc main_arg24)) (m ((c : Thread nD τ).loc main_arg25)) (m ((c : Thread nD τ).loc main_arg26)) (m ((c : Thread nD τ).loc main_arg27)) (m ((c : Thread nD τ).loc main_arg28)) (ix2 b (pairIdx a o)) := by
  rw [W11_v80, Cert.KernelIdeal.LayoutK.tail_apply, W10_v77, Cert.KernelIdeal.BlocksPair.arr3_apply,
    Cert.KernelIdeal.PayPair.pay3_apply, Cert.ReferenceIdeal.RefPair.ref_score]
  refine score_congr _ _ _ _ _ _ _ _ _ ?_ (congrFun ((g3_v70 m ρ c).trans (congrArg m2 (img_eq m ρ c))) b)
  rw [g3_v68, g3_v69, g3_v71, g3_v72, g3_v73, g3_v74, g3_v75, g3_v76]
  exact pairEmb_congr _ _ _ _ _ _ _ _ _ _ _ _ _ _ _ _ (attr_row m ρ c a) (obj_row m ρ c o)

/-- The first result of the program is the reference's score array. -/
theorem score_result (c : Dev nD) : W11 m ρ c (Proc.devRef .tc main_v80) = val_main_v207 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20)) (m ((c : Thread nD τ).loc main_arg21)) (m ((c : Thread nD τ).loc main_arg22)) (m ((c : Thread nD τ).loc main_arg23)) (m ((c : Thread nD τ).loc main_arg24)) (m ((c : Thread nD τ).loc main_arg25)) (m ((c : Thread nD τ).loc main_arg26)) (m ((c : Thread nD τ).loc main_arg27)) (m ((c : Thread nD τ).loc main_arg28)) := by
  funext y
  obtain ⟨b, p, rfl⟩ : ∃ (b : Fin 256) (p : Fin 100000), y = ix2 b p := ⟨y 0, y 1, eq_ix2 y⟩
  have hlt : p.val / 500 < 200 := by have := p.isLt; omega
  have hp : pairIdx ⟨p.val / 500, hlt⟩ ⟨p.val % 500, Nat.mod_lt _ (by decide)⟩ = p := Fin.ext (Nat.div_add_mod' p.val 500)
  have h := score_at m ρ c b ⟨p.val / 500, hlt⟩ ⟨p.val % 500, Nat.mod_lt _ (by decide)⟩
  rwa [hp] at h

end Cert.Bridge

end
-- ==== Proof.lean ====
/-
  The certificate of the pair-scoring graph auto-encoder kernel against its jnp reference.

  The kernel program is four kernel calls among host operations: two graph layers (each the neighbours' mean
  through one weight matrix, a bias, and the node's own features through another; the first with a positive part),
  an image tower of three normalised linear layers, and a pair stage that scores every image against every
  (attribute, object) pair.  The pair stage never forms the [100000, 1024] matrix of concatenated pairs: a linear
  layer distributes over the concatenation, so it projects the 200 attribute rows and the 500 object rows
  separately through the two halves of the first weight matrix and adds the projections pair by pair.  On the
  extended reals that is the one algebraic law between the two programs — a sum over the 1024 joined coordinates
  is the sum over its two halves —, together with the commutativity of the final inner product; every other
  operation (segment means, layer norms, positive parts, biases) is the same operation applied in the same order.

  The kernel's two frames are the generated ones and the reference's is its run, read stretch by stretch, with the results dropped; the
  idealization rewrote nothing; the value claim takes the kernel's two result arrays as the common value and
  shows the reference's composed terms equal to them, stage by stage (Proof/Bridge.lean).
-/
import proofs.«135290_j1108101562624_1_alg».proof.Defs
import proofs.«135290_j1108101562624_1_alg».proof.Proof.Gen.Kernel
import proofs.«135290_j1108101562624_1_alg».proof.Proof.Gen.Kernel.Frame
import proofs.«135290_j1108101562624_1_alg».proof.Proof.Gen.KernelIdeal
import proofs.«135290_j1108101562624_1_alg».proof.Proof.Gen.KernelIdeal.Frame
import proofs.«135290_j1108101562624_1_alg».proof.Proof.Gen.ReferenceIdeal
import proofs.«135290_j1108101562624_1_alg».proof.Proof.RunStages
import proofs.«135290_j1108101562624_1_alg».proof.Proof.Gen.Pre_finite_inputs
import proofs.«135290_j1108101562624_1_alg».proof.Proof.KernelRun
import proofs.«135290_j1108101562624_1_alg».proof.Proof.Bridge
import Idealize.ShloMosaic.Adequacy
import Idealize.ShloMosaic.Init

set_option maxRecDepth 16384

noncomputable section

namespace Cert.Proof

open Idealize.ShloMosaic Idealize.ShloMosaic.TcCoe Idealize.SL.Sem

/-- The kernel program as printed runs and keeps its arguments: the generated frame. -/
theorem frame_k [Cert.Kernel.Facts] [Cert.Pre_finite_inputs.Facts] : Cert.frame_Kernel :=
  fun m ρ _ => Cert.Kernel.Gen.frame m ρ

/-- So does its idealization. -/
theorem frame_ki [Cert.KernelIdeal.Facts] [Cert.Pre_finite_inputs.Facts] : Cert.frame_KernelIdeal :=
  fun m ρ _ => Cert.KernelIdeal.Gen.frame m ρ

/-- The reference is host operations only: its run, stretch by stretch, the two results dropped. -/
theorem frame_ri [Cert.ReferenceIdeal.Facts] [Cert.Pre_finite_inputs.Facts] : Cert.frame_ReferenceIdeal :=
  fun m ρ _ => (θ_run Cert.ReferenceIdeal.defs _ _).mono (fun _ h c => (h c).2.2)
    (Cert.ReferenceIdeal.RunStages.run m ρ)

/-- From memories that agree on the arguments both programs end with the same score array and the same node
    array: the kernel's run names its results, the reference's run ends at its composed terms, and the two are
    equal stage by stage. -/
theorem algebraic [Cert.KernelIdeal.Facts] [Cert.ReferenceIdeal.Facts] [Cert.Pre_finite_inputs.Facts] :
    Cert.algebraic_KernelIdeal_ReferenceIdeal := by
  intro m ρ m' ρ' _ hagree
  refine ⟨fun c => Cert.KernelIdeal.Gen.W11 m ρ c (Proc.devRef .tc Cert.KernelIdeal.main_v80),
    fun c => Cert.KernelIdeal.Gen.W11 m ρ c (Proc.devRef .tc Cert.KernelIdeal.main_v49),
    Cert.KernelIdeal.GenRun.run_results m ρ, ?_⟩
  refine (θ_run Cert.ReferenceIdeal.defs _ _).mono (fun r h c => ⟨(h c).1.trans ?_, (h c).2.1.trans ?_, (h c).2.2⟩)
    (Cert.ReferenceIdeal.RunStages.run m' ρ')
  · obtain ⟨h0, h1, h2, h3, h4, h5, h6, h7, h8, h9, h10, h11, h12, h13, h14, h15, h16, h17, h18, h19, h20, h21, h22, h23, h24, h25, h26, h27, h28⟩ := hagree c
    rw [h0, h1, h2, h3, h4, h5, h6, h7, h8, h9, h10, h11, h12, h13, h14, h15, h16, h17, h18, h19, h20, h21, h22, h23, h24, h25, h26, h27, h28]
    exact (Cert.Bridge.score_result m ρ c).symm
  · obtain ⟨h0, h1, h2, h3, h4, h5, h6, h7, h8, h9, h10, h11, h12, h13, h14, h15, h16, h17, h18, h19, h20, h21, h22, h23, h24, h25, h26, h27, h28⟩ := hagree c
    rw [h1, h2, h3, h4, h5, h6, h7, h8]
    exact (Cert.Bridge.nodes_result m ρ c).symm

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
